-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v39_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S800000 : Shape := ⟨1, ![800000]⟩
abbrev S50000x300 : Shape := ⟨2, ![50000, 300]⟩
abbrev S50x64 : Shape := ⟨2, ![50, 64]⟩
abbrev S300x128 : Shape := ⟨2, ![300, 128]⟩
abbrev S128 : Shape := ⟨1, ![128]⟩
abbrev S192x128 : Shape := ⟨2, ![192, 128]⟩
abbrev S512x128 : Shape := ⟨2, ![512, 128]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S50x64 : S_.BroadcastsInDim S50x64 (![] : Fin 0 → Fin S50x64.rank)
  reducesTo_S50x64_S_d0_1 : S50x64.ReducesTo [0, 1] S_
  bcast_S_S300x128 : S_.BroadcastsInDim S300x128 (![] : Fin 0 → Fin S300x128.rank)
  reducesTo_S300x128_S_d0_1 : S300x128.ReducesTo [0, 1] S_
  bcast_S_S128 : S_.BroadcastsInDim S128 (![] : Fin 0 → Fin S128.rank)
  reducesTo_S128_S_d0 : S128.ReducesTo [0] S_
  bcast_S_S192x128 : S_.BroadcastsInDim S192x128 (![] : Fin 0 → Fin S192x128.rank)
  reducesTo_S192x128_S_d0_1 : S192x128.ReducesTo [0, 1] S_
  bcast_S_S512x128 : S_.BroadcastsInDim S512x128 (![] : Fin 0 → Fin S512x128.rank)
  reducesTo_S512x128_S_d0_1 : S512x128.ReducesTo [0, 1] S_
  bcast_S_S50000 : S_.BroadcastsInDim S50000 (![] : Fin 0 → Fin S50000.rank)
  reducesTo_S50000_S_d0 : S50000.ReducesTo [0] S_
  bcast_S_S800000 : S_.BroadcastsInDim S800000 (![] : Fin 0 → Fin S800000.rank)
  reducesTo_S800000_S_d0 : S800000.ReducesTo [0] S_

variable [Facts]

def fn_part6 {F : FTy → Type} [FloatOps F] (main_v96 : IVec S_ 1) (main_v99 : IVec S_ 1) : IVec S_ 1 :=
  let main_v100 : IVec S_ 1 := andi main_v96 main_v99
  main_v100

def fn_part5 {F : FTy → Type} [FloatOps F] (main_arg2 : IVec S800000 32) (main_arg3 : IVec S800000 32) (main_v80 : IVec S_ 1) (main_v83 : IVec S_ 1) : IVec S_ 1 :=
  let main_v84 : IVec S_ 1 := andi main_v80 main_v83
  let main_c_34 : IVec S_ 32 := constantI S_ 32 0#32
  let main_v85 : IVec S800000 32 := broadcastInDim S800000 ![] bcast_S_S800000 main_c_34
  let main_v86 : IVec S800000 1 := cmpi .sge main_arg2 main_v85
  let main_c_35 : IVec S_ 1 := constantI S_ 1 1#1
  let main_v87 : IVec S_ 1 := (fun x v => Host.reduce IntOp.andi x v reducesTo_S800000_S_d0 h_S_) main_v86 main_c_35
  let main_v88 : IVec S_ 1 := andi main_v84 main_v87
  let main_c_36 : IVec S_ 32 := constantI S_ 32 50000#32
  let main_v89 : IVec S800000 32 := broadcastInDim S800000 ![] bcast_S_S800000 main_c_36
  let main_v90 : IVec S800000 1 := cmpi .slt main_arg2 main_v89
  let main_c_37 : IVec S_ 1 := constantI S_ 1 1#1
  let main_v91 : IVec S_ 1 := (fun x v => Host.reduce IntOp.andi x v reducesTo_S800000_S_d0 h_S_) main_v90 main_c_37
  let main_v92 : IVec S_ 1 := andi main_v88 main_v91
  let main_c_38 : IVec S_ 32 := constantI S_ 32 0#32
  let main_v93 : IVec S800000 32 := broadcastInDim S800000 ![] bcast_S_S800000 main_c_38
  let main_v94 : IVec S800000 1 := cmpi .sge main_arg3 main_v93
  let main_c_39 : IVec S_ 1 := constantI S_ 1 1#1
  let main_v95 : IVec S_ 1 := (fun x v => Host.reduce IntOp.andi x v reducesTo_S800000_S_d0 h_S_) main_v94 main_c_39
  let main_v96 : IVec S_ 1 := andi main_v92 main_v95
  let main_c_40 : IVec S_ 32 := constantI S_ 32 50000#32
  let main_v97 : IVec S800000 32 := broadcastInDim S800000 ![] bcast_S_S800000 main_c_40
  let main_v98 : IVec S800000 1 := cmpi .slt main_arg3 main_v97
  let main_c_41 : IVec S_ 1 := constantI S_ 1 1#1
  let main_v99 : IVec S_ 1 := (fun x v => Host.reduce IntOp.andi x v reducesTo_S800000_S_d0 h_S_) main_v98 main_c_41
  fn_part6 (F := F) main_v96 main_v99

def fn_part4 {F : FTy → Type} [FloatOps F] (main_arg0 : IVec S50000 32) (main_arg1 : IVec S800000 32) (main_arg2 : IVec S800000 32) (main_arg3 : IVec S800000 32) (main_v63 : IVec S_ 1) (main_v67 : IVec S_ 1) : IVec S_ 1 :=
  let main_v68 : IVec S_ 1 := andi main_v63 main_v67
  let main_c_26 : IVec S_ 32 := constantI S_ 32 0#32
  let main_v69 : IVec S50000 32 := broadcastInDim S50000 ![] bcast_S_S50000 main_c_26
  let main_v70 : IVec S50000 1 := cmpi .sge main_arg0 main_v69
  let main_c_27 : IVec S_ 1 := constantI S_ 1 1#1
  let main_v71 : IVec S_ 1 := (fun x v => Host.reduce IntOp.andi x v reducesTo_S50000_S_d0 h_S_) main_v70 main_c_27
  let main_v72 : IVec S_ 1 := andi main_v68 main_v71
  let main_c_28 : IVec S_ 32 := constantI S_ 32 50000#32
  let main_v73 : IVec S50000 32 := broadcastInDim S50000 ![] bcast_S_S50000 main_c_28
  let main_v74 : IVec S50000 1 := cmpi .slt main_arg0 main_v73
  let main_c_29 : IVec S_ 1 := constantI S_ 1 1#1
  let main_v75 : IVec S_ 1 := (fun x v => Host.reduce IntOp.andi x v reducesTo_S50000_S_d0 h_S_) main_v74 main_c_29
  let main_v76 : IVec S_ 1 := andi main_v72 main_v75
  let main_c_30 : IVec S_ 32 := constantI S_ 32 0#32
  let main_v77 : IVec S800000 32 := broadcastInDim S800000 ![] bcast_S_S800000 main_c_30
  let main_v78 : IVec S800000 1 := cmpi .sge main_arg1 main_v77
  let main_c_31 : IVec S_ 1 := constantI S_ 1 1#1
  let main_v79 : IVec S_ 1 := (fun x v => Host.reduce IntOp.andi x v reducesTo_S800000_S_d0 h_S_) main_v78 main_c_31
  let main_v80 : IVec S_ 1 := andi main_v76 main_v79
  let main_c_32 : IVec S_ 32 := constantI S_ 32 50#32
  let main_v81 : IVec S800000 32 := broadcastInDim S800000 ![] bcast_S_S800000 main_c_32
  let main_v82 : IVec S800000 1 := cmpi .slt main_arg1 main_v81
  let main_c_33 : IVec S_ 1 := constantI S_ 1 1#1
  let main_v83 : IVec S_ 1 := (fun x v => Host.reduce IntOp.andi x v reducesTo_S800000_S_d0 h_S_) main_v82 main_c_33
  fn_part5 (F := F) main_arg2 main_arg3 main_v80 main_v83

def fn_part3 {F : FTy → Type} [FloatOps F] (main_arg0 : IVec S50000 32) (main_arg1 : IVec S800000 32) (main_arg2 : IVec S800000 32) (main_arg3 : IVec S800000 32) (main_arg15 : FVec F S128 .f32) (main_arg16 : FVec F S512x128 .f32) (main_arg17 : FVec F S128 .f32) (main_v48 : IVec S_ 1) (main_v49 : FVec F S512x128 .f32) (main_v50 : FVec F S512x128 .f32) : IVec S_ 1 :=
  let main_v51 : IVec S512x128 1 := cmpf .olt main_v49 main_v50
  let main_c_19 : IVec S_ 1 := constantI S_ 1 1#1
  let main_v52 : IVec S_ 1 := (fun x v => Host.reduce IntOp.andi x v reducesTo_S512x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S512x128 .f32 := Host.absf main_arg16
  let main_cst_22 : FVec F S_ .f32 := constant S_ .f32 0x7F800000#32
  let main_v60 : FVec F S512x128 .f32 := broadcastInDim S512x128 ![] bcast_S_S512x128 main_cst_22
  let main_v61 : IVec S512x128 1 := cmpf .olt main_v59 main_v60
  let main_c_23 : IVec S_ 1 := constantI S_ 1 1#1
  let main_v62 : IVec S_ 1 := (fun x v => Host.reduce IntOp.andi x v reducesTo_S512x128_S_d0_1 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg0 main_arg1 main_arg2 main_arg3 main_v63 main_v67

def fn_part2 {F : FTy → Type} [FloatOps F] (main_arg0 : IVec S50000 32) (main_arg1 : IVec S800000 32) (main_arg2 : IVec S800000 32) (main_arg3 : IVec S800000 32) (main_arg11 : FVec F S128 .f32) (main_arg12 : FVec F S512x128 .f32) (main_arg13 : FVec F S128 .f32) (main_arg14 : FVec F S512x128 .f32) (main_arg15 : FVec F S128 .f32) (main_arg16 : FVec F S512x128 .f32) (main_arg17 : FVec F S128 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S512x128 .f32 := Host.absf main_arg12
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S512x128 .f32 := Host.absf main_arg14
  let main_cst_18 : FVec F S_ .f32 := constant S_ .f32 0x7F800000#32
  let main_v50 : FVec F S512x128 .f32 := broadcastInDim S512x128 ![] bcast_S_S512x128 main_cst_18
  fn_part3 (F := F) main_arg0 main_arg1 main_arg2 main_arg3 main_arg15 main_arg16 main_arg17 main_v48 main_v49 main_v50

def fn_part1 {F : FTy → Type} [FloatOps F] (main_arg0 : IVec S50000 32) (main_arg1 : IVec S800000 32) (main_arg2 : IVec S800000 32) (main_arg3 : IVec S800000 32) (main_arg8 : FVec F S192x128 .f32) (main_arg9 : FVec F S128 .f32) (main_arg10 : FVec F S512x128 .f32) (main_arg11 : FVec F S128 .f32) (main_arg12 : FVec F S512x128 .f32) (main_arg13 : FVec F S128 .f32) (main_arg14 : FVec F S512x128 .f32) (main_arg15 : FVec F S128 .f32) (main_arg16 : FVec F S512x128 .f32) (main_arg17 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S192x128 .f32 := Host.absf main_arg8
  let main_cst_6 : FVec F S_ .f32 := constant S_ .f32 0x7F800000#32
  let main_v20 : FVec F S192x128 .f32 := broadcastInDim S192x128 ![] bcast_S_S192x128 main_cst_6
  let main_v21 : IVec S192x128 1 := cmpf .olt main_v19 main_v20
  let main_c_7 : IVec S_ 1 := constantI S_ 1 1#1
  let main_v22 : IVec S_ 1 := (fun x v => Host.reduce IntOp.andi x v reducesTo_S192x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S512x128 .f32 := Host.absf main_arg10
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg0 main_arg1 main_arg2 main_arg3 main_arg11 main_arg12 main_arg13 main_arg14 main_arg15 main_arg16 main_arg17 main_v33

def fn {F : FTy → Type} [FloatOps F] (main_arg0 : IVec S50000 32) (main_arg1 : IVec S800000 32) (main_arg2 : IVec S800000 32) (main_arg3 : IVec S800000 32) (main_arg4 : FVec F S50000x300 .f32) (main_arg5 : FVec F S50x64 .f32) (main_arg6 : FVec F S300x128 .f32) (main_arg7 : FVec F S128 .f32) (main_arg8 : FVec F S192x128 .f32) (main_arg9 : FVec F S128 .f32) (main_arg10 : FVec F S512x128 .f32) (main_arg11 : FVec F S128 .f32) (main_arg12 : FVec F S512x128 .f32) (main_arg13 : FVec F S128 .f32) (main_arg14 : FVec F S512x128 .f32) (main_arg15 : FVec F S128 .f32) (main_arg16 : FVec F S512x128 .f32) (main_arg17 : FVec F S128 .f32) : IVec S_ 1 :=
  let main_v0 : FVec F S50000x300 .f32 := Host.absf main_arg4
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S50x64 .f32 := Host.absf main_arg5
  let main_cst_0 : FVec F S_ .f32 := constant S_ .f32 0x7F800000#32
  let main_v5 : FVec F S50x64 .f32 := broadcastInDim S50x64 ![] bcast_S_S50x64 main_cst_0
  let main_v6 : IVec S50x64 1 := cmpf .olt main_v4 main_v5
  let main_c_1 : IVec S_ 1 := constantI S_ 1 1#1
  let main_v7 : IVec S_ 1 := (fun x v => Host.reduce IntOp.andi x v reducesTo_S50x64_S_d0_1 h_S_) main_v6 main_c_1
  let main_v8 : IVec S_ 1 := andi main_v3 main_v7
  let main_v9 : FVec F S300x128 .f32 := Host.absf main_arg6
  let main_cst_2 : FVec F S_ .f32 := constant S_ .f32 0x7F800000#32
  let main_v10 : FVec F S300x128 .f32 := broadcastInDim S300x128 ![] bcast_S_S300x128 main_cst_2
  let main_v11 : IVec S300x128 1 := cmpf .olt main_v9 main_v10
  let main_c_3 : IVec S_ 1 := constantI S_ 1 1#1
  let main_v12 : IVec S_ 1 := (fun x v => Host.reduce IntOp.andi x v reducesTo_S300x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg1 main_arg2 main_arg3 main_arg8 main_arg9 main_arg10 main_arg11 main_arg12 main_arg13 main_arg14 main_arg15 main_arg16 main_arg17 main_v13 main_v16
-- ==== Kernel.lean ====
abbrev S50000 : Shape := ⟨1, ![50000]⟩
abbrev S800000 : Shape := ⟨1, ![800000]⟩
abbrev S50000x300 : Shape := ⟨2, ![50000, 300]⟩
abbrev S50x64 : Shape := ⟨2, ![50, 64]⟩
abbrev S300x128 : Shape := ⟨2, ![300, 128]⟩
abbrev S128 : Shape := ⟨1, ![128]⟩
abbrev S192x128 : Shape := ⟨2, ![192, 128]⟩
abbrev S512x128 : Shape := ⟨2, ![512, 128]⟩
abbrev S_ : Shape := ⟨0, ![]⟩
abbrev S50000x1 : Shape := ⟨2, ![50000, 1]⟩
abbrev S1 : Shape := ⟨1, ![1]⟩
abbrev S1x1 : Shape := ⟨2, ![1, 1]⟩
abbrev S1x128 : Shape := ⟨2, ![1, 128]⟩
abbrev S50000x128 : Shape := ⟨2, ![50000, 128]⟩
abbrev S5000x300 : Shape := ⟨2, ![5000, 300]⟩
abbrev S5000x128 : Shape := ⟨2, ![5000, 128]⟩
abbrev S800000x1 : Shape := ⟨2, ![800000, 1]⟩
abbrev S800000x64 : Shape := ⟨2, ![800000, 64]⟩
abbrev S800000x128 : Shape := ⟨2, ![800000, 128]⟩
abbrev S800000x192 : Shape := ⟨2, ![800000, 192]⟩
abbrev S8000x192 : Shape := ⟨2, ![8000, 192]⟩
abbrev S8000x128 : Shape := ⟨2, ![8000, 128]⟩
abbrev S512x512 : Shape := ⟨2, ![512, 512]⟩
abbrev S512 : Shape := ⟨1, ![512]⟩
abbrev S50000x512 : Shape := ⟨2, ![50000, 512]⟩
abbrev S1x512 : Shape := ⟨2, ![1, 512]⟩
abbrev S5000x512 : Shape := ⟨2, ![5000, 512]⟩

abbrev nBuf : Space → Nat
  | .hbm => 222
  | .vmem => 32
  | .smem => 0
  | _ => 0

abbrev hbmTy0_0 (i : Nat) : BufTy := match i % 128 with
  | 0 => ⟨S50000, .i32⟩
  | 1 => ⟨S800000, .i32⟩
  | 2 => ⟨S800000, .i32⟩
  | 3 => ⟨S800000, .i32⟩
  | 4 => ⟨S50000x300, .f32⟩
  | 5 => ⟨S50x64, .f32⟩
  | 6 => ⟨S300x128, .f32⟩
  | 7 => ⟨S128, .f32⟩
  | 8 => ⟨S192x128, .f32⟩
  | 9 => ⟨S128, .f32⟩
  | 10 => ⟨S512x128, .f32⟩
  | 11 => ⟨S128, .f32⟩
  | 12 => ⟨S512x128, .f32⟩
  | 13 => ⟨S128, .f32⟩
  | 14 => ⟨S512x128, .f32⟩
  | 15 => ⟨S128, .f32⟩
  | 16 => ⟨S512x128, .f32⟩
  | 17 => ⟨S128, .f32⟩
  | 18 => ⟨S_, .i32⟩
  | 19 => ⟨S50000, .i32⟩
  | 20 => ⟨S50000, .i1⟩
  | 21 => ⟨S_, .i32⟩
  | 22 => ⟨S50000, .i32⟩
  | 23 => ⟨S50000, .i32⟩
  | 24 => ⟨S50000, .i32⟩
  | 25 => ⟨S50000x1, .i32⟩
  | 26 => ⟨S1, .i32⟩
  | 27 => ⟨S_, .i32⟩
  | 28 => ⟨S50000x1, .i32⟩
  | 29 => ⟨S50000x1, .i1⟩
  | 30 => ⟨S1x1, .i32⟩
  | 31 => ⟨S50000x1, .i32⟩
  | 32 => ⟨S50000x1, .i1⟩
  | 33 => ⟨S50000x1, .i1⟩
  | 34 => ⟨S_, .i1⟩
  | 35 => ⟨S50000, .i1⟩
  | 36 => ⟨S50000x300, .f32⟩
  | 37 => ⟨S50000x300, .i1⟩
  | 38 => ⟨S_, .f32⟩
  | 39 => ⟨S50000x300, .f32⟩
  | 40 => ⟨S50000x300, .f32⟩
  | 41 => ⟨S1x128, .f32⟩
  | 42 => ⟨S50000x128, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S1, .i32⟩
  | 52 => ⟨S_, .i32⟩
  | 53 => ⟨S800000x1, .i32⟩
  | 54 => ⟨S800000x1, .i1⟩
  | 55 => ⟨S1x1, .i32⟩
  | 56 => ⟨S800000x1, .i32⟩
  | 57 => ⟨S800000x1, .i1⟩
  | 58 => ⟨S800000x1, .i1⟩
  | 59 => ⟨S_, .i1⟩
  | 60 => ⟨S800000, .i1⟩
  | 61 => ⟨S800000x64, .f32⟩
  | 62 => ⟨S800000x64, .i1⟩
  | 63 => ⟨S_, .f32⟩
  | 64 => ⟨S800000x64, .f32⟩
  | 65 => ⟨S800000x64, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S1, .i32⟩
  | 75 => ⟨S_, .i32⟩
  | 76 => ⟨S800000x1, .i32⟩
  | 77 => ⟨S800000x1, .i1⟩
  | 78 => ⟨S1x1, .i32⟩
  | 79 => ⟨S800000x1, .i32⟩
  | 80 => ⟨S800000x1, .i1⟩
  | 81 => ⟨S800000x1, .i1⟩
  | 82 => ⟨S_, .i1⟩
  | 83 => ⟨S800000, .i1⟩
  | 84 => ⟨S800000x128, .f32⟩
  | 85 => ⟨S800000x128, .i1⟩
  | 86 => ⟨S_, .f32⟩
  | 87 => ⟨S800000x128, .f32⟩
  | 88 => ⟨S800000x128, .f32⟩
  | 89 => ⟨S800000x192, .f32⟩
  | 90 => ⟨S1x128, .f32⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S_, .f32⟩
  | 97 => ⟨S50000x128, .f32⟩
  | 98 => ⟨S800000x1, .i32⟩
  | 99 => ⟨S50000x128, .f32⟩
  | 100 => ⟨S512x512, .f32⟩
  | 101 => ⟨S512, .f32⟩
  | 102 => ⟨S_, .f32⟩
  | 103 => ⟨S50000x128, .f32⟩
  | 104 => ⟨S_, .f32⟩
  | 105 => ⟨S50000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S1, .i32⟩
  | 115 => ⟨S_, .i32⟩
  | 116 => ⟨S800000x1, .i32⟩
  | 117 => ⟨S800000x1, .i1⟩
  | 118 => ⟨S1x1, .i32⟩
  | 119 => ⟨S800000x1, .i32⟩
  | 120 => ⟨S800000x1, .i1⟩
  | 121 => ⟨S800000x1, .i1⟩
  | 122 => ⟨S_, .i1⟩
  | 123 => ⟨S800000, .i1⟩
  | 124 => ⟨S800000x128, .f32⟩
  | 125 => ⟨S800000x128, .i1⟩
  | 126 => ⟨S_, .f32⟩
  | 127 => ⟨S800000x128, .f32⟩
  | _ => ⟨S50000, .i32⟩

abbrev hbmTy0_1 (i : Nat) : BufTy := match i % 128 with
  | 0 => ⟨S800000x128, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S1, .i32⟩
  | 10 => ⟨S_, .i32⟩
  | 11 => ⟨S800000x1, .i32⟩
  | 12 => ⟨S800000x1, .i1⟩
  | 13 => ⟨S1x1, .i32⟩
  | 14 => ⟨S800000x1, .i32⟩
  | 15 => ⟨S800000x1, .i1⟩
  | 16 => ⟨S800000x1, .i1⟩
  | 17 => ⟨S_, .i1⟩
  | 18 => ⟨S800000, .i1⟩
  | 19 => ⟨S800000x128, .f32⟩
  | 20 => ⟨S800000x128, .i1⟩
  | 21 => ⟨S_, .f32⟩
  | 22 => ⟨S800000x128, .f32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S_, .f32⟩
  | 29 => ⟨S50000x128, .f32⟩
  | 30 => ⟨S800000x1, .i32⟩
  | 31 => ⟨S50000x128, .f32⟩
  | 32 => ⟨S50000x512, .f32⟩
  | 33 => ⟨S1x512, .f32⟩
  | 34 => ⟨S50000x128, .f32⟩
  | 35 => ⟨S50000x128, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S1, .i32⟩
  | 45 => ⟨S_, .i32⟩
  | 46 => ⟨S800000x1, .i32⟩
  | 47 => ⟨S800000x1, .i1⟩
  | 48 => ⟨S1x1, .i32⟩
  | 49 => ⟨S800000x1, .i32⟩
  | 50 => ⟨S800000x1, .i1⟩
  | 51 => ⟨S800000x1, .i1⟩
  | 52 => ⟨S_, .i1⟩
  | 53 => ⟨S800000, .i1⟩
  | 54 => ⟨S800000x128, .f32⟩
  | 55 => ⟨S800000x128, .i1⟩
  | 56 => ⟨S_, .f32⟩
  | 57 => ⟨S800000x128, .f32⟩
  | 58 => ⟨S800000x128, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S1, .i32⟩
  | 68 => ⟨S_, .i32⟩
  | 69 => ⟨S800000x1, .i32⟩
  | 70 => ⟨S800000x1, .i1⟩
  | 71 => ⟨S1x1, .i32⟩
  | 72 => ⟨S800000x1, .i32⟩
  | 73 => ⟨S800000x1, .i1⟩
  | 74 => ⟨S800000x1, .i1⟩
  | 75 => ⟨S_, .i1⟩
  | 76 => ⟨S800000, .i1⟩
  | 77 => ⟨S800000x128, .f32⟩
  | 78 => ⟨S800000x128, .i1⟩
  | 79 => ⟨S_, .f32⟩
  | 80 => ⟨S800000x128, .f32⟩
  | 81 => ⟨S800000x128, .f32⟩
  | 82 => ⟨S_, .f32⟩
  | 83 => ⟨S50000x128, .f32⟩
  | 84 => ⟨S800000x1, .i32⟩
  | 85 => ⟨S50000x128, .f32⟩
  | 86 => ⟨S_, .f32⟩
  | 87 => ⟨S50000x128, .f32⟩
  | 88 => ⟨S800000x1, .i32⟩
  | 89 => ⟨S50000x128, .f32⟩
  | 90 => ⟨S50000x512, .f32⟩
  | 91 => ⟨S1x512, .f32⟩
  | 92 => ⟨S50000x128, .f32⟩
  | 93 => ⟨S50000x128, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S5000x300, .f32⟩
  | .local _ .vmem, ⟨1, _⟩ => ⟨S5000x300, .f32⟩
  | .local _ .vmem, ⟨2, _⟩ => ⟨S300x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S8000x192, .f32⟩
  | .local _ .vmem, ⟨7, _⟩ => ⟨S8000x192, .f32⟩
  | .local _ .vmem, ⟨8, _⟩ => ⟨S192x128, .f32⟩
  | .local _ .vmem, ⟨9, _⟩ => ⟨S1x128, .f32⟩
  | .local _ .vmem, ⟨10, _⟩ => ⟨S8000x128, .f32⟩
  | .local _ .vmem, ⟨11, _⟩ => ⟨S8000x128, .f32⟩
  | .local _ .vmem, ⟨12, _⟩ => ⟨S5000x512, .f32⟩
  | .local _ .vmem, ⟨13, _⟩ => ⟨S5000x512, .f32⟩
  | .local _ .vmem, ⟨14, _⟩ => ⟨S5000x128, .f32⟩
  | .local _ .vmem, ⟨15, _⟩ => ⟨S5000x128, .f32⟩
  | .local _ .vmem, ⟨16, _⟩ => ⟨S512x512, .f32⟩
  | .local _ .vmem, ⟨17, _⟩ => ⟨S1x512, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x512, .f32⟩
  | .local _ .vmem, ⟨23, _⟩ => ⟨S5000x512, .f32⟩
  | .local _ .vmem, ⟨24, _⟩ => ⟨S5000x128, .f32⟩
  | .local _ .vmem, ⟨25, _⟩ => ⟨S5000x128, .f32⟩
  | .local _ .vmem, ⟨26, _⟩ => ⟨S512x512, .f32⟩
  | .local _ .vmem, ⟨27, _⟩ => ⟨S1x512, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v3 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v4 : Ref sig .tc := ⟨.hbm, 88, rfl⟩
abbrev main_v5 : Ref sig .tc := ⟨.hbm, 89, rfl⟩
abbrev main_v6 : Ref sig .tc := ⟨.hbm, 90, rfl⟩
abbrev main_v7 : Ref sig .tc := ⟨.hbm, 91, rfl⟩
abbrev main_cst : Ref sig .tc := ⟨.hbm, 92, rfl⟩
abbrev main_v8 : Ref sig .tc := ⟨.hbm, 93, rfl⟩
abbrev main_v9 : Ref sig .tc := ⟨.hbm, 94, rfl⟩
abbrev main_v10 : Ref sig .tc := ⟨.hbm, 95, rfl⟩
abbrev main_cst_0 : Ref sig .tc := ⟨.hbm, 96, rfl⟩
abbrev main_v11 : Ref sig .tc := ⟨.hbm, 97, rfl⟩
abbrev main_v12 : Ref sig .tc := ⟨.hbm, 98, rfl⟩
abbrev main_v13 : Ref sig .tc := ⟨.hbm, 99, rfl⟩
abbrev main_v14 : Ref sig .tc := ⟨.hbm, 100, rfl⟩
abbrev main_v15 : Ref sig .tc := ⟨.hbm, 101, rfl⟩
abbrev main_cst_1 : Ref sig .tc := ⟨.hbm, 102, rfl⟩
abbrev main_v16 : Ref sig .tc := ⟨.hbm, 103, rfl⟩
abbrev main_cst_2 : Ref sig .tc := ⟨.hbm, 104, rfl⟩
abbrev main_v17 : Ref sig .tc := ⟨.hbm, 105, rfl⟩
abbrev main_call3_c : Ref sig .tc := ⟨.hbm, 106, rfl⟩
abbrev main_call3_v0 : Ref sig .tc := ⟨.hbm, 107, rfl⟩
abbrev main_call3_v1 : Ref sig .tc := ⟨.hbm, 108, rfl⟩
abbrev main_call3_c_0 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_v5 : Ref sig .tc := ⟨.hbm, 113, rfl⟩
abbrev main_call3_c_1 : Ref sig .tc := ⟨.hbm, 114, rfl⟩
abbrev main_call3_c_2 : Ref sig .tc := ⟨.hbm, 115, rfl⟩
abbrev main_call3_v6 : Ref sig .tc := ⟨.hbm, 116, rfl⟩
abbrev main_call3_v7 : Ref sig .tc := ⟨.hbm, 117, rfl⟩
abbrev main_call3_v8 : Ref sig .tc := ⟨.hbm, 118, rfl⟩
abbrev main_call3_v9 : Ref sig .tc := ⟨.hbm, 119, rfl⟩
abbrev main_call3_v10 : Ref sig .tc := ⟨.hbm, 120, rfl⟩
abbrev main_call3_v11 : Ref sig .tc := ⟨.hbm, 121, rfl⟩
abbrev main_call3_c_3 : Ref sig .tc := ⟨.hbm, 122, rfl⟩
abbrev main_call3_v12 : Ref sig .tc := ⟨.hbm, 123, rfl⟩
abbrev main_call3_v13 : Ref sig .tc := ⟨.hbm, 124, rfl⟩
abbrev main_call3_v14 : Ref sig .tc := ⟨.hbm, 125, rfl⟩
abbrev main_call3_cst : Ref sig .tc := ⟨.hbm, 126, rfl⟩
abbrev main_call3_v15 : Ref sig .tc := ⟨.hbm, 127, rfl⟩
abbrev main_v18 : Ref sig .tc := ⟨.hbm, 128, rfl⟩
abbrev main_call4_c : Ref sig .tc := ⟨.hbm, 129, rfl⟩
abbrev main_call4_v0 : Ref sig .tc := ⟨.hbm, 130, rfl⟩
abbrev main_call4_v1 : Ref sig .tc := ⟨.hbm, 131, rfl⟩
abbrev main_call4_c_0 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_call4_v5 : Ref sig .tc := ⟨.hbm, 136, rfl⟩
abbrev main_call4_c_1 : Ref sig .tc := ⟨.hbm, 137, rfl⟩
abbrev main_call4_c_2 : Ref sig .tc := ⟨.hbm, 138, rfl⟩
abbrev main_call4_v6 : Ref sig .tc := ⟨.hbm, 139, rfl⟩
abbrev main_call4_v7 : Ref sig .tc := ⟨.hbm, 140, rfl⟩
abbrev main_call4_v8 : Ref sig .tc := ⟨.hbm, 141, rfl⟩
abbrev main_call4_v9 : Ref sig .tc := ⟨.hbm, 142, rfl⟩
abbrev main_call4_v10 : Ref sig .tc := ⟨.hbm, 143, rfl⟩
abbrev main_call4_v11 : Ref sig .tc := ⟨.hbm, 144, rfl⟩
abbrev main_call4_c_3 : Ref sig .tc := ⟨.hbm, 145, rfl⟩
abbrev main_call4_v12 : Ref sig .tc := ⟨.hbm, 146, rfl⟩
abbrev main_call4_v13 : Ref sig .tc := ⟨.hbm, 147, rfl⟩
abbrev main_call4_v14 : Ref sig .tc := ⟨.hbm, 148, rfl⟩
abbrev main_call4_cst : Ref sig .tc := ⟨.hbm, 149, rfl⟩
abbrev main_call4_v15 : Ref sig .tc := ⟨.hbm, 150, rfl⟩
abbrev main_v19 : Ref sig .tc := ⟨.hbm, 151, rfl⟩
abbrev main_cst_3 : Ref sig .tc := ⟨.hbm, 152, rfl⟩
abbrev main_v20 : Ref sig .tc := ⟨.hbm, 153, rfl⟩
abbrev main_v21 : Ref sig .tc := ⟨.hbm, 154, rfl⟩
abbrev main_v22 : Ref sig .tc := ⟨.hbm, 155, rfl⟩
abbrev main_cst_4 : Ref sig .tc := ⟨.hbm, 156, rfl⟩
abbrev main_v23 : Ref sig .tc := ⟨.hbm, 157, rfl⟩
abbrev main_v24 : Ref sig .tc := ⟨.hbm, 158, rfl⟩
abbrev main_v25 : Ref sig .tc := ⟨.hbm, 159, rfl⟩
abbrev main_v26 : Ref sig .tc := ⟨.hbm, 160, rfl⟩
abbrev main_v27 : Ref sig .tc := ⟨.hbm, 161, rfl⟩
abbrev main_v28_0 : Ref sig .tc := ⟨.hbm, 162, rfl⟩
abbrev main_v28_1 : Ref sig .tc := ⟨.hbm, 163, rfl⟩
abbrev main_call5_c : Ref sig .tc := ⟨.hbm, 164, rfl⟩
abbrev main_call5_v0 : Ref sig .tc := ⟨.hbm, 165, rfl⟩
abbrev main_call5_v1 : Ref sig .tc := ⟨.hbm, 166, rfl⟩
abbrev main_call5_c_0 : Ref sig .tc := ⟨.hbm, 167, rfl⟩
abbrev main_call5_v2 : Ref sig .tc := ⟨.hbm, 168, rfl⟩
abbrev main_call5_v3 : Ref sig .tc := ⟨.hbm, 169, rfl⟩
abbrev main_call5_v4 : Ref sig .tc := ⟨.hbm, 170, rfl⟩
abbrev main_call5_v5 : Ref sig .tc := ⟨.hbm, 171, rfl⟩
abbrev main_call5_c_1 : Ref sig .tc := ⟨.hbm, 172, rfl⟩
abbrev main_call5_c_2 : Ref sig .tc := ⟨.hbm, 173, rfl⟩
abbrev main_call5_v6 : Ref sig .tc := ⟨.hbm, 174, rfl⟩
abbrev main_call5_v7 : Ref sig .tc := ⟨.hbm, 175, rfl⟩
abbrev main_call5_v8 : Ref sig .tc := ⟨.hbm, 176, rfl⟩
abbrev main_call5_v9 : Ref sig .tc := ⟨.hbm, 177, rfl⟩
abbrev main_call5_v10 : Ref sig .tc := ⟨.hbm, 178, rfl⟩
abbrev main_call5_v11 : Ref sig .tc := ⟨.hbm, 179, rfl⟩
abbrev main_call5_c_3 : Ref sig .tc := ⟨.hbm, 180, rfl⟩
abbrev main_call5_v12 : Ref sig .tc := ⟨.hbm, 181, rfl⟩
abbrev main_call5_v13 : Ref sig .tc := ⟨.hbm, 182, rfl⟩
abbrev main_call5_v14 : Ref sig .tc := ⟨.hbm, 183, rfl⟩
abbrev main_call5_cst : Ref sig .tc := ⟨.hbm, 184, rfl⟩
abbrev main_call5_v15 : Ref sig .tc := ⟨.hbm, 185, rfl⟩
abbrev main_v29 : Ref sig .tc := ⟨.hbm, 186, rfl⟩
abbrev main_call6_c : Ref sig .tc := ⟨.hbm, 187, rfl⟩
abbrev main_call6_v0 : Ref sig .tc := ⟨.hbm, 188, rfl⟩
abbrev main_call6_v1 : Ref sig .tc := ⟨.hbm, 189, rfl⟩
abbrev main_call6_c_0 : Ref sig .tc := ⟨.hbm, 190, rfl⟩
abbrev main_call6_v2 : Ref sig .tc := ⟨.hbm, 191, rfl⟩
abbrev main_call6_v3 : Ref sig .tc := ⟨.hbm, 192, rfl⟩
abbrev main_call6_v4 : Ref sig .tc := ⟨.hbm, 193, rfl⟩
abbrev main_call6_v5 : Ref sig .tc := ⟨.hbm, 194, rfl⟩
abbrev main_call6_c_1 : Ref sig .tc := ⟨.hbm, 195, rfl⟩
abbrev main_call6_c_2 : Ref sig .tc := ⟨.hbm, 196, rfl⟩
abbrev main_call6_v6 : Ref sig .tc := ⟨.hbm, 197, rfl⟩
abbrev main_call6_v7 : Ref sig .tc := ⟨.hbm, 198, rfl⟩
abbrev main_call6_v8 : Ref sig .tc := ⟨.hbm, 199, rfl⟩
abbrev main_call6_v9 : Ref sig .tc := ⟨.hbm, 200, rfl⟩
abbrev main_call6_v10 : Ref sig .tc := ⟨.hbm, 201, rfl⟩
abbrev main_call6_v11 : Ref sig .tc := ⟨.hbm, 202, rfl⟩
abbrev main_call6_c_3 : Ref sig .tc := ⟨.hbm, 203, rfl⟩
abbrev main_call6_v12 : Ref sig .tc := ⟨.hbm, 204, rfl⟩
abbrev main_call6_v13 : Ref sig .tc := ⟨.hbm, 205, rfl⟩
abbrev main_call6_v14 : Ref sig .tc := ⟨.hbm, 206, rfl⟩
abbrev main_call6_cst : Ref sig .tc := ⟨.hbm, 207, rfl⟩
abbrev main_call6_v15 : Ref sig .tc := ⟨.hbm, 208, rfl⟩
abbrev main_v30 : Ref sig .tc := ⟨.hbm, 209, rfl⟩
abbrev main_cst_5 : Ref sig .tc := ⟨.hbm, 210, rfl⟩
abbrev main_v31 : Ref sig .tc := ⟨.hbm, 211, rfl⟩
abbrev main_v32 : Ref sig .tc := ⟨.hbm, 212, rfl⟩
abbrev main_v33 : Ref sig .tc := ⟨.hbm, 213, rfl⟩
abbrev main_cst_6 : Ref sig .tc := ⟨.hbm, 214, rfl⟩
abbrev main_v34 : Ref sig .tc := ⟨.hbm, 215, rfl⟩
abbrev main_v35 : Ref sig .tc := ⟨.hbm, 216, rfl⟩
abbrev main_v36 : Ref sig .tc := ⟨.hbm, 217, rfl⟩
abbrev main_v37 : Ref sig .tc := ⟨.hbm, 218, rfl⟩
abbrev main_v38 : Ref sig .tc := ⟨.hbm, 219, rfl⟩
abbrev main_v39_0 : Ref sig .tc := ⟨.hbm, 220, rfl⟩
abbrev main_v39_1 : Ref sig .tc := ⟨.hbm, 221, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem4_1 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x300_0 : S50000.BroadcastsInDim S50000x300 (![0] : Fin 1 → Fin S50000x300.rank)
  bcast_S_S50000x300 : S_.BroadcastsInDim S50000x300 (![] : Fin 0 → Fin S50000x300.rank)
  shapeCasts_S128_S1x128 : S128.ShapeCasts S1x128
  inb_S5000x300_S5000x300_0_0 : ∀ a, (![0, 0] : Fin 2 → Nat) a + S5000x300.size a ≤ S5000x300.size a
  h_S5000x300 : 0 < S5000x300.numel
  shapeCasts_S5000x300_S5000x300 : S5000x300.ShapeCasts S5000x300
  inb_S300x128_S300x128_0_0 : ∀ a, (![0, 0] : Fin 2 → Nat) a + S300x128.size a ≤ S300x128.size a
  h_S300x128 : 0 < S300x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1x1_S800000x1_0_1 : S1x1.BroadcastsInDim S800000x1 (![0, 1] : Fin 2 → Fin S800000x1.rank)
  reducesTo_S800000x1_S800000_d1 : S800000x1.ReducesTo [1] S800000
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S800000_S800000x128_0 : S800000.BroadcastsInDim S800000x128 (![0] : Fin 1 → Fin S800000x128.rank)
  bcast_S_S800000x128 : S_.BroadcastsInDim S800000x128 (![] : Fin 0 → Fin S800000x128.rank)
  concatenates_S800000x64_S800000x128_S800000x192_d1 : Shape.Concatenates [S800000x64, S800000x128] S800000x192 1
  inb_S8000x192_S8000x192_0_0 : ∀ a, (![0, 0] : Fin 2 → Nat) a + S8000x192.size a ≤ S8000x192.size a
  h_S8000x192 : 0 < S8000x192.numel
  shapeCasts_S8000x192_S8000x192 : S8000x192.ShapeCasts S8000x192
  inb_S192x128_S192x128_0_0 : ∀ a, (![0, 0] : Fin 2 → Nat) a + S192x128.size a ≤ S192x128.size a
  h_S192x128 : 0 < S192x128.numel
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  bcast_S_S50000x128 : S_.BroadcastsInDim S50000x128 (![] : Fin 0 → Fin S50000x128.rank)
  concatenates_S512x128_S512x128_S512x128_S512x128_S512x512_d1 : Shape.Concatenates [S512x128, S512x128, S512x128, S512x128] S512x512 1
  concatenates_S128_S128_S128_S128_S512_d0 : Shape.Concatenates [S128, S128, S128, S128] S512 0
  concatenates_S50000x128_S50000x128_S50000x128_S50000x128_S50000x512_d1 : Shape.Concatenates [S50000x128, S50000x128, S50000x128, S50000x128] S50000x512 1
  shapeCasts_S512_S1x512 : S512.ShapeCasts S1x512
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S5000x512 : S1x512.Broadcasts S5000x512
  slices_S5000x512_o0_0_S5000x128 : S5000x512.Slices ![0, 0] S5000x128
  slices_S5000x512_o0_128_S5000x128 : S5000x512.Slices ![0, 128] S5000x128
  slices_S5000x512_o0_256_S5000x128 : S5000x512.Slices ![0, 256] S5000x128
  slices_S5000x512_o0_384_S5000x128 : S5000x512.Slices ![0, 384] S5000x128
  shapeCasts_S5000x128_S5000x128 : S5000x128.ShapeCasts S5000x128
  gather_S50000x300_S50000x1_S50000x300_1_0_n_n_0_1_1300_wf : GatherDims.WF S50000x300 S50000x1 S50000x300 [1] [0] [] [0] [] 1 ![1, 300]
  dot_S5000x300_S300x128_S5000x128_1_0_0_1_n_n_wf : DotDims.WF S5000x300 S300x128 S5000x128 [1] [0] [0] [1] [] []
  gather_S50x64_S800000x1_S800000x64_1_0_n_n_0_1_164_wf : GatherDims.WF S50x64 S800000x1 S800000x64 [1] [0] [] [0] [] 1 ![1, 64]
  gather_S50000x128_S800000x1_S800000x128_1_0_n_n_0_1_1128_wf : GatherDims.WF S50000x128 S800000x1 S800000x128 [1] [0] [] [0] [] 1 ![1, 128]
  dot_S8000x192_S192x128_S8000x128_1_0_0_1_n_n_wf : DotDims.WF S8000x192 S192x128 S8000x128 [1] [0] [0] [1] [] []
  scatter_S50000x128_S800000x1_S800000x128_1_0_0_1_wf : ScatterDims.WF S50000x128 S800000x1 S800000x128 [1] [0] [0] 1
  dot_S5000x512_S512x512_S5000x512_1_0_0_1_n_n_wf : DotDims.WF S5000x512 S512x512 S5000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x300.size a ≤ S50000x300.size a
  hwx0_0 : ∀ i : grid0.Coords, EltTy.bits .f32 = 32 ∨ (Rect.block (s := S50000x300) S5000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x128.size a ≤ S300x128.size a
  hwx0_1 : ∀ i : grid0.Coords, EltTy.bits .f32 = 32 ∨ (Rect.block (s := S300x128) S300x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x192.size a ≤ S800000x192.size a
  hwx1_0 : ∀ i : grid1.Coords, EltTy.bits .f32 = 32 ∨ (Rect.block (s := S800000x192) S8000x192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S192x128.size a ≤ S192x128.size a
  hwx1_1 : ∀ i : grid1.Coords, EltTy.bits .f32 = 32 ∨ (Rect.block (s := S192x128) S192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S800000x128.size a
  hwx1_3 : ∀ i : grid1.Coords, EltTy.bits .f32 = 32 ∨ (Rect.block (s := S800000x128) S8000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x512.size a ≤ S50000x512.size a
  hwx2_0 : ∀ i : grid2.Coords, EltTy.bits .f32 = 32 ∨ (Rect.block (s := S50000x512) S5000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x512.size a ≤ S50000x512.size a
  hwx3_0 : ∀ i : grid3.Coords, EltTy.bits .f32 = 32 ∨ (Rect.block (s := S50000x512) S5000x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S512x512.size a
  hwx3_2 : ∀ i : grid3.Coords, EltTy.bits .f32 = 32 ∨ (Rect.block (s := S512x512) S512x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def gather_S50000x300_S50000x1_S50000x300_1_0_n_n_0_1_1300 : GatherDims S50000x300 S50000x1 S50000x300 where
  offsetDims := [1]
  collapsedSliceDims := [0]
  operandBatchingDims := []
  startIndicesBatchingDims := []
  startIndexMap := [0]
  indexVectorDim := 1
  sliceSizes := ![1, 300]
  wf := gather_S50000x300_S50000x1_S50000x300_1_0_n_n_0_1_1300_wf
def dot_S5000x300_S300x128_S5000x128_1_0_0_1_n_n : DotDims S5000x300 S300x128 S5000x128 where
  lhsContracting := [1]
  rhsContracting := [0]
  lhsNonContracting := [0]
  rhsNonContracting := [1]
  lhsBatch := []
  rhsBatch := []
  wf := dot_S5000x300_S300x128_S5000x128_1_0_0_1_n_n_wf
def gather_S50x64_S800000x1_S800000x64_1_0_n_n_0_1_164 : GatherDims S50x64 S800000x1 S800000x64 where
  offsetDims := [1]
  collapsedSliceDims := [0]
  operandBatchingDims := []
  startIndicesBatchingDims := []
  startIndexMap := [0]
  indexVectorDim := 1
  sliceSizes := ![1, 64]
  wf := gather_S50x64_S800000x1_S800000x64_1_0_n_n_0_1_164_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x192_S192x128_S8000x128_1_0_0_1_n_n : DotDims S8000x192 S192x128 S8000x128 where
  lhsContracting := [1]
  rhsContracting := [0]
  lhsNonContracting := [0]
  rhsNonContracting := [1]
  lhsBatch := []
  rhsBatch := []
  wf := dot_S8000x192_S192x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x512_S512x512_S5000x512_1_0_0_1_n_n : DotDims S5000x512 S512x512 S5000x512 where
  lhsContracting := [1]
  rhsContracting := [0]
  lhsNonContracting := [0]
  rhsNonContracting := [1]
  lhsBatch := []
  rhsBatch := []
  wf := dot_S5000x512_S512x512_S5000x512_1_0_0_1_n_n_wf

abbrev win0_0 : Pipeline.Window sig grid0 :=
  Pipeline.Window.ofSpec (Memref.whole main_v0) S5000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S300x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S8000x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S5000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v28_1) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v37) S5000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28_1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S512x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39_0) S5000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v39_1) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000 : Shape := ⟨1, ![50000]⟩
abbrev S800000 : Shape := ⟨1, ![800000]⟩
abbrev S50000x300 : Shape := ⟨2, ![50000, 300]⟩
abbrev S50x64 : Shape := ⟨2, ![50, 64]⟩
abbrev S300x128 : Shape := ⟨2, ![300, 128]⟩
abbrev S128 : Shape := ⟨1, ![128]⟩
abbrev S192x128 : Shape := ⟨2, ![192, 128]⟩
abbrev S512x128 : Shape := ⟨2, ![512, 128]⟩
abbrev S_ : Shape := ⟨0, ![]⟩
abbrev S50000x1 : Shape := ⟨2, ![50000, 1]⟩
abbrev S50000x128 : Shape := ⟨2, ![50000, 128]⟩
abbrev S1x128 : Shape := ⟨2, ![1, 128]⟩
abbrev S800000x1 : Shape := ⟨2, ![800000, 1]⟩
abbrev S800000x64 : Shape := ⟨2, ![800000, 64]⟩
abbrev S800000x128 : Shape := ⟨2, ![800000, 128]⟩
abbrev S800000x192 : Shape := ⟨2, ![800000, 192]⟩
abbrev S50000x512 : Shape := ⟨2, ![50000, 512]⟩

abbrev nBuf : Space → Nat
  | .hbm => 214
  | .vmem => 0
  | .smem => 0
  | _ => 0

abbrev hbmTy0_0 (i : Nat) : BufTy := match i % 128 with
  | 0 => ⟨S50000, .i32⟩
  | 1 => ⟨S800000, .i32⟩
  | 2 => ⟨S800000, .i32⟩
  | 3 => ⟨S800000, .i32⟩
  | 4 => ⟨S50000x300, .f32⟩
  | 5 => ⟨S50x64, .f32⟩
  | 6 => ⟨S300x128, .f32⟩
  | 7 => ⟨S128, .f32⟩
  | 8 => ⟨S192x128, .f32⟩
  | 9 => ⟨S128, .f32⟩
  | 10 => ⟨S512x128, .f32⟩
  | 11 => ⟨S128, .f32⟩
  | 12 => ⟨S512x128, .f32⟩
  | 13 => ⟨S128, .f32⟩
  | 14 => ⟨S512x128, .f32⟩
  | 15 => ⟨S128, .f32⟩
  | 16 => ⟨S512x128, .f32⟩
  | 17 => ⟨S128, .f32⟩
  | 18 => ⟨S_, .i32⟩
  | 19 => ⟨S50000, .i32⟩
  | 20 => ⟨S50000, .i1⟩
  | 21 => ⟨S_, .i32⟩
  | 22 => ⟨S50000, .i32⟩
  | 23 => ⟨S50000, .i32⟩
  | 24 => ⟨S50000, .i32⟩
  | 25 => ⟨S50000x1, .i32⟩
  | 26 => ⟨S50000x300, .f32⟩
  | 27 => ⟨S50000x128, .f32⟩
  | 28 => ⟨S1x128, .f32⟩
  | 29 => ⟨S50000x128, .f32⟩
  | 30 => ⟨S50000x128, .f32⟩
  | 31 => ⟨S50000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S800000x192, .f32⟩
  | 51 => ⟨S800000x128, .f32⟩
  | 52 => ⟨S1x128, .f32⟩
  | 53 => ⟨S800000x128, .f32⟩
  | 54 => ⟨S800000x128, .f32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S_, .f32⟩
  | 61 => ⟨S50000x128, .f32⟩
  | 62 => ⟨S800000x1, .i32⟩
  | 63 => ⟨S50000x128, .f32⟩
  | 64 => ⟨S_, .f32⟩
  | 65 => ⟨S50000x128, .f32⟩
  | 66 => ⟨S_, .f32⟩
  | 67 => ⟨S50000x128, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x128, .f32⟩
  | 90 => ⟨S_, .f32⟩
  | 91 => ⟨S50000x128, .f32⟩
  | 92 => ⟨S800000x1, .i32⟩
  | 93 => ⟨S50000x128, .f32⟩
  | 94 => ⟨S50000x512, .f32⟩
  | 95 => ⟨S50000x128, .f32⟩
  | 96 => ⟨S1x128, .f32⟩
  | 97 => ⟨S50000x128, .f32⟩
  | 98 => ⟨S50000x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000, .i32⟩

abbrev hbmTy0_1 (i : Nat) : BufTy := match i % 128 with
  | 0 => ⟨S_, .f32⟩
  | 1 => ⟨S50000x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S50000x128, .f32⟩
  | 8 => ⟨S50000x128, .f32⟩
  | 9 => ⟨S50000x128, .f32⟩
  | 10 => ⟨S50000x128, .f32⟩
  | 11 => ⟨S50000x128, .f32⟩
  | 12 => ⟨S50000x128, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S50000x512, .f32⟩
  | 40 => ⟨S50000x128, .f32⟩
  | 41 => ⟨S1x128, .f32⟩
  | 42 => ⟨S50000x128, .f32⟩
  | 43 => ⟨S50000x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S50000x128, .f32⟩
  | 81 => ⟨S50000x128, .f32⟩
  | 82 => ⟨S50000x128, .f32⟩
  | 83 => ⟨S50000x128, .f32⟩
  | 84 => ⟨S50000x128, .f32⟩
  | 85 => ⟨S50000x128, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_1 : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_c_8 : Ref sig .tc := ⟨.hbm, 68, rfl⟩
abbrev main_v40 : Ref sig .tc := ⟨.hbm, 69, rfl⟩
abbrev main_v41 : Ref sig .tc := ⟨.hbm, 70, rfl⟩
abbrev main_c_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_10 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_11 : Ref sig .tc := ⟨.hbm, 81, rfl⟩
abbrev main_v50 : Ref sig .tc := ⟨.hbm, 82, rfl⟩
abbrev main_v51 : Ref sig .tc := ⟨.hbm, 83, rfl⟩
abbrev main_c_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_cst_15 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_16 : Ref sig .tc := ⟨.hbm, 113, rfl⟩
abbrev main_v77 : Ref sig .tc := ⟨.hbm, 114, rfl⟩
abbrev main_v78 : Ref sig .tc := ⟨.hbm, 115, rfl⟩
abbrev main_cst_17 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_18 : Ref sig .tc := ⟨.hbm, 125, rfl⟩
abbrev main_v87 : Ref sig .tc := ⟨.hbm, 126, rfl⟩
abbrev main_v88 : Ref sig .tc := ⟨.hbm, 127, rfl⟩
abbrev main_cst_19 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_c_20 : Ref sig .tc := ⟨.hbm, 141, rfl⟩
abbrev main_v101 : Ref sig .tc := ⟨.hbm, 142, rfl⟩
abbrev main_v102 : Ref sig .tc := ⟨.hbm, 143, rfl⟩
abbrev main_c_21 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_22 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_c_23 : Ref sig .tc := ⟨.hbm, 154, rfl⟩
abbrev main_v111 : Ref sig .tc := ⟨.hbm, 155, rfl⟩
abbrev main_v112 : Ref sig .tc := ⟨.hbm, 156, rfl⟩
abbrev main_c_24 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_cst_25 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_cst_26 : Ref sig .tc := ⟨.hbm, 174, rfl⟩
abbrev main_v128 : Ref sig .tc := ⟨.hbm, 175, rfl⟩
abbrev main_v129 : Ref sig .tc := ⟨.hbm, 176, rfl⟩
abbrev main_cst_27 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_cst_28 : Ref sig .tc := ⟨.hbm, 186, rfl⟩
abbrev main_v138 : Ref sig .tc := ⟨.hbm, 187, rfl⟩
abbrev main_v139 : Ref sig .tc := ⟨.hbm, 188, rfl⟩
abbrev main_cst_29 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_cst_30 : Ref sig .tc := ⟨.hbm, 198, rfl⟩
abbrev main_v148 : Ref sig .tc := ⟨.hbm, 199, rfl⟩
abbrev main_v149 : Ref sig .tc := ⟨.hbm, 200, rfl⟩
abbrev main_cst_31 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x128_S800000x192_d1 : Shape.Concatenates [S800000x64, S800000x128] S800000x192 1
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  concatenates_S50000x128_S50000x128_S50000x128_S50000x128_S50000x512_d1 : Shape.Concatenates [S50000x128, S50000x128, S50000x128, S50000x128] S50000x512 1
  gather_S50000x300_S50000x1_S50000x300_1_0_n_n_0_1_1300_wf : GatherDims.WF S50000x300 S50000x1 S50000x300 [1] [0] [] [0] [] 1 ![1, 300]
  dot_S50000x300_S300x128_S50000x128_1_0_0_1_n_n_wf : DotDims.WF S50000x300 S300x128 S50000x128 [1] [0] [0] [1] [] []
  gather_S50x64_S800000x1_S800000x64_1_0_n_n_0_1_164_wf : GatherDims.WF S50x64 S800000x1 S800000x64 [1] [0] [] [0] [] 1 ![1, 64]
  gather_S50000x128_S800000x1_S800000x128_1_0_n_n_0_1_1128_wf : GatherDims.WF S50000x128 S800000x1 S800000x128 [1] [0] [] [0] [] 1 ![1, 128]
  dot_S800000x192_S192x128_S800000x128_1_0_0_1_n_n_wf : DotDims.WF S800000x192 S192x128 S800000x128 [1] [0] [0] [1] [] []
  scatter_S50000x128_S800000x1_S800000x128_1_0_0_1_wf : ScatterDims.WF S50000x128 S800000x1 S800000x128 [1] [0] [0] 1
  dot_S50000x512_S512x128_S50000x128_1_0_0_1_n_n_wf : DotDims.WF S50000x512 S512x128 S50000x128 [1] [0] [0] [1] [] []

variable [Facts₀]

def gather_S50000x300_S50000x1_S50000x300_1_0_n_n_0_1_1300 : GatherDims S50000x300 S50000x1 S50000x300 where
  offsetDims := [1]
  collapsedSliceDims := [0]
  operandBatchingDims := []
  startIndicesBatchingDims := []
  startIndexMap := [0]
  indexVectorDim := 1
  sliceSizes := ![1, 300]
  wf := gather_S50000x300_S50000x1_S50000x300_1_0_n_n_0_1_1300_wf
def dot_S50000x300_S300x128_S50000x128_1_0_0_1_n_n : DotDims S50000x300 S300x128 S50000x128 where
  lhsContracting := [1]
  rhsContracting := [0]
  lhsNonContracting := [0]
  rhsNonContracting := [1]
  lhsBatch := []
  rhsBatch := []
  wf := dot_S50000x300_S300x128_S50000x128_1_0_0_1_n_n_wf
def gather_S50x64_S800000x1_S800000x64_1_0_n_n_0_1_164 : GatherDims S50x64 S800000x1 S800000x64 where
  offsetDims := [1]
  collapsedSliceDims := [0]
  operandBatchingDims := []
  startIndicesBatchingDims := []
  startIndexMap := [0]
  indexVectorDim := 1
  sliceSizes := ![1, 64]
  wf := gather_S50x64_S800000x1_S800000x64_1_0_n_n_0_1_164_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.KB.Reg0.lean ====
/-
  Region 0 of the program: one dense layer, tanh (x · W + b), computed block of rows by block of rows.
  Window 0 is the block of rows of x the grid point owns, windows 1 and 2 are the whole weight matrix and
  the bias row (the same block at every point), window 3 is the block of rows of the result.
  Here: what the body leaves in the result block as a function of the three blocks it reads, the body's run
  on whole staging buffers, and the pipeline's proof data at any contents `V` of the arrays at region entry.
-/
import proofs.«409581_j84387517432579_1_alg».proof.Proof.Gen.Kernel.Launch
import proofs.«409581_j84387517432579_1_alg».proof.Proof.Gen.Kernel.Skeleton
import proofs.«409581_j84387517432579_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not
    fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S5000x300 := Rect.unit (s := S5000x300) ![0, 0] S5000x300.size inb_S5000x300_S5000x300_0_0
abbrev r0_1 : Rect S300x128 := Rect.unit (s := S300x128) ![0, 0] S300x128.size inb_S300x128_S300x128_0_0
abbrev r0_2 : Rect S1x128 := Rect.unit (s := S1x128) ![0, 0] S1x128.size inb_S1x128_S1x128_0_0
abbrev r0_3 : Rect S5000x128 := Rect.unit (s := S5000x128) ![0, 0] S5000x128.size inb_S5000x128_S5000x128_0_0

/-- The result block after the body: its one whole-block store of tanh (x · W + b) of the three blocks read. -/
def out0_3 (x0 : Vec F S5000x300 .f32) (x1 : Vec F S300x128 .f32) (x2 : Vec F S1x128 .f32) : Vec F S5000x128 .f32 :=
  View.canon [⟨r0_3, k0_pay1 (View.ld x0 r0_0) (View.ld x1 r0_1) (View.ld x2 r0_2)⟩]

/-- The one store covers the block. -/
theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

set_option maxHeartbeats 1000000 in
/-- The body on whole staging buffers: the three inputs keep their contents and the result buffer, whatever it
    held, ends at `out0_3` of them. -/
theorem sound_kernel0 (c : Dev nD) (E : Set ℕ) (i : grid0.Coords)
    (arg1 : Memref sig .tc .vmem S5000x300 .f32) (harg1 : arg1.IsWhole) (arg2 : Memref sig .tc .vmem S300x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x300 .f32) (x1 : Vec F S300x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_tanh_kernel i arg1 harg1 arg2 harg2 arg3 harg3 arg4 harg4) K := by
  simp only [cc0__dense_tanh_kernel_eq_skeleton]; unfold cc0__dense_tanh_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each
    input's buffer at its block and the result's at `out0_3` of the three; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Frames

end
-- ==== Proof.KB.Reg1.lean ====
/-
  Region 1 of the program: one dense layer, tanh (x · W + b), computed block of rows by block of rows.
  Window 0 is the block of rows of x the grid point owns, windows 1 and 2 are the whole weight matrix and
  the bias row (the same block at every point), window 3 is the block of rows of the result.
  Here: what the body leaves in the result block as a function of the three blocks it reads, the body's run
  on whole staging buffers, and the pipeline's proof data at any contents `V` of the arrays at region entry.
-/
import proofs.«409581_j84387517432579_1_alg».proof.Proof.Gen.Kernel.Launch
import proofs.«409581_j84387517432579_1_alg».proof.Proof.Gen.Kernel.Skeleton
import proofs.«409581_j84387517432579_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where it is not
    fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S8000x192 := Rect.unit (s := S8000x192) ![0, 0] S8000x192.size inb_S8000x192_S8000x192_0_0
abbrev r1_1 : Rect S192x128 := Rect.unit (s := S192x128) ![0, 0] S192x128.size inb_S192x128_S192x128_0_0
abbrev r1_2 : Rect S1x128 := Rect.unit (s := S1x128) ![0, 0] S1x128.size inb_S1x128_S1x128_0_0
abbrev r1_3 : Rect S8000x128 := Rect.unit (s := S8000x128) ![0, 0] S8000x128.size inb_S8000x128_S8000x128_0_0

/-- The result block after the body: its one whole-block store of tanh (x · W + b) of the three blocks read. -/
def out1_3 (x0 : Vec F S8000x192 .f32) (x1 : Vec F S192x128 .f32) (x2 : Vec F S1x128 .f32) : Vec F S8000x128 .f32 :=
  View.canon [⟨r1_3, k1_pay1 (View.ld x0 r1_0) (View.ld x1 r1_1) (View.ld x2 r1_2)⟩]

/-- The one store covers the block. -/
theorem cover1_3 (p0 : Vec F S8000x128 .f32) (y : S8000x128.Idx) :
    ∃ pc ∈ ([⟨r1_3, p0⟩] : List (View.Piece (Elt F) S8000x128 .f32)), y ∈ pc.1.set :=
  View.cover_of_tiled [⟨r1_3, p0⟩] S8000x128.size (by rfl) y

set_option maxHeartbeats 1000000 in
/-- The body on whole staging buffers: the three inputs keep their contents and the result buffer, whatever it
    held, ends at `out1_3` of them. -/
theorem sound_kernel1 (c : Dev nD) (E : Set ℕ) (i : grid1.Coords)
    (arg1 : Memref sig .tc .vmem S8000x192 .f32) (harg1 : arg1.IsWhole) (arg2 : Memref sig .tc .vmem S192x128 .f32) (harg2 : arg2.IsWhole)
    (arg3 : Memref sig .tc .vmem S1x128 .f32) (harg3 : arg3.IsWhole) (arg4 : Memref sig .tc .vmem S8000x128 .f32) (harg4 : arg4.IsWhole)
    (x0 : Vec F S8000x192 .f32) (x1 : Vec F S192x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__dense_tanh_kernel i arg1 harg1 arg2 harg2 arg3 harg3 arg4 harg4) K := by
  simp only [cc1__dense_tanh_kernel_eq_skeleton]; unfold cc1__dense_tanh_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each
    input's buffer at its block and the result's at `out1_3` of the three; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Frames

end
-- ==== Proof.KB.Reg2.lean ====
/-
  Region 2 of the program: one graph-LSTM gate update on a block of 5000 nodes. Window 0 is the block of
  rows of the gate input (x_in, x_out, h_in, h_out side by side), window 1 the block of rows of the old cell
  state, windows 2 and 3 the whole concatenated weight matrix and bias row (the same block at every point),
  windows 4 and 5 the blocks of rows of the new hidden and cell states.
  Here: what the body leaves in the two result blocks as functions of the four blocks it reads, the body's run
  on whole staging buffers, and the pipeline's proof data at any contents `V` of the arrays at region entry.
-/
import proofs.«409581_j84387517432579_1_alg».proof.Proof.Gen.Kernel.Launch
import proofs.«409581_j84387517432579_1_alg».proof.Proof.Gen.Kernel.Skeleton
import proofs.«409581_j84387517432579_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: where it is not
    fetched the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S5000x512 := Rect.unit (s := S5000x512) ![0, 0] S5000x512.size inb_S5000x512_S5000x512_0_0
abbrev r2_1 : Rect S5000x128 := Rect.unit (s := S5000x128) ![0, 0] S5000x128.size inb_S5000x128_S5000x128_0_0
abbrev r2_2 : Rect S512x512 := Rect.unit (s := S512x512) ![0, 0] S512x512.size inb_S512x512_S512x512_0_0
abbrev r2_3 : Rect S1x512 := Rect.unit (s := S1x512) ![0, 0] S1x512.size inb_S1x512_S1x512_0_0

/-- The new hidden-state block after the body: its one whole-block store, of the four blocks read. -/
def out2_4 (x0 : Vec F S5000x512 .f32) (x1 : Vec F S5000x128 .f32) (x2 : Vec F S512x512 .f32) (x3 : Vec F S1x512 .f32) : Vec F S5000x128 .f32 :=
  View.canon [⟨r2_1, k2_pay3 (View.ld x0 r2_0) (View.ld x2 r2_2) (View.ld x3 r2_3) (View.ld x1 r2_1)⟩]
/-- The new cell-state block after the body. -/
def out2_5 (x0 : Vec F S5000x512 .f32) (x1 : Vec F S5000x128 .f32) (x2 : Vec F S512x512 .f32) (x3 : Vec F S1x512 .f32) : Vec F S5000x128 .f32 :=
  View.canon [⟨r2_1, k2_pay2 (View.ld x0 r2_0) (View.ld x2 r2_2) (View.ld x3 r2_3) (View.ld x1 r2_1)⟩]

/-- One whole-block store covers the block. -/
theorem cover2_o (p0 : Vec F S5000x128 .f32) (y : S5000x128.Idx) :
    ∃ pc ∈ ([⟨r2_1, p0⟩] : List (View.Piece (Elt F) S5000x128 .f32)), y ∈ pc.1.set :=
  View.cover_of_tiled [⟨r2_1, p0⟩] S5000x128.size (by rfl) y

set_option maxHeartbeats 1000000 in
/-- The body on whole staging buffers: the four inputs keep their contents and the two result buffers, whatever
    they held, end at `out2_4` and `out2_5` of them. -/
theorem sound_kernel2 (c : Dev nD) (E : Set ℕ) (i : grid2.Coords)
    (arg1 : Memref sig .tc .vmem S5000x512 .f32) (harg1 : arg1.IsWhole) (arg2 : Memref sig .tc .vmem S5000x128 .f32) (harg2 : arg2.IsWhole)
    (arg3 : Memref sig .tc .vmem S512x512 .f32) (harg3 : arg3.IsWhole) (arg4 : Memref sig .tc .vmem S1x512 .f32) (harg4 : arg4.IsWhole)
    (arg5 : Memref sig .tc .vmem S5000x128 .f32) (harg5 : arg5.IsWhole) (arg6 : Memref sig .tc .vmem S5000x128 .f32) (harg6 : arg6.IsWhole)
    (x0 : Vec F S5000x512 .f32) (x1 : Vec F S5000x128 .f32) (x2 : Vec F S512x512 .f32) (x3 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out2_4 x0 x1 x2 x3) ∗ owns (c : Thread nD τ) arg6 fullShare (out2_5 x0 x1 x2 x3)) -∗ K ⟨⟩))
      ⊢ wp frame (wpE (defs₀ (F := F)) Variants.none c none) E (cc2__lstm_gate_kernel i arg1 harg1 arg2 harg2 arg3 harg3 arg4 harg4 arg5 harg5 arg6 harg6) K := by
  simp only [cc2__lstm_gate_kernel_eq_skeleton]; unfold cc2__lstm_gate_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_o _)
  iexists _; isplitr
  swap; · iexact H5
  ipureintro
  exact View.read_writes_eq_canon _ _ _ (cover2_o _)

/-- The pipeline's proof data on core `c`: the arrays as the region finds them; after the body at point `t` each
    input's buffer at its block and the two results' at `out2_4`, `out2_5` of the four; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]
theorem after2_5 (c : Dev nD) (t : Fin cfg2.N) :
    (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation2 (c : Dev nD) : BodyObligation (dat2 (F := F) V c) (defs₀ (F := F)) Variants.none () Set.univ := fun t => by
  rw [bigSep_W2, bigSep_W2]
  exact sound_body2 V c t

end Cert.Kernel.Frames

end
-- ==== Proof.KB.Reg3.lean ====
/-
  Region 3 of the program: one graph-LSTM gate update on a block of 5000 nodes. Window 0 is the block of
  rows of the gate input (x_in, x_out, h_in, h_out side by side), window 1 the block of rows of the old cell
  state, windows 2 and 3 the whole concatenated weight matrix and bias row (the same block at every point),
  windows 4 and 5 the blocks of rows of the new hidden and cell states.
  Here: what the body leaves in the two result blocks as functions of the four blocks it reads, the body's run
  on whole staging buffers, and the pipeline's proof data at any contents `V` of the arrays at region entry.
-/
import proofs.«409581_j84387517432579_1_alg».proof.Proof.Gen.Kernel.Launch
import proofs.«409581_j84387517432579_1_alg».proof.Proof.Gen.Kernel.Skeleton
import proofs.«409581_j84387517432579_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not: where it is not
    fetched the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_0 : Rect S5000x512 := Rect.unit (s := S5000x512) ![0, 0] S5000x512.size inb_S5000x512_S5000x512_0_0
abbrev r3_1 : Rect S5000x128 := Rect.unit (s := S5000x128) ![0, 0] S5000x128.size inb_S5000x128_S5000x128_0_0
abbrev r3_2 : Rect S512x512 := Rect.unit (s := S512x512) ![0, 0] S512x512.size inb_S512x512_S512x512_0_0
abbrev r3_3 : Rect S1x512 := Rect.unit (s := S1x512) ![0, 0] S1x512.size inb_S1x512_S1x512_0_0

/-- The new hidden-state block after the body: its one whole-block store, of the four blocks read. -/
def out3_4 (x0 : Vec F S5000x512 .f32) (x1 : Vec F S5000x128 .f32) (x2 : Vec F S512x512 .f32) (x3 : Vec F S1x512 .f32) : Vec F S5000x128 .f32 :=
  View.canon [⟨r3_1, k3_pay3 (View.ld x0 r3_0) (View.ld x2 r3_2) (View.ld x3 r3_3) (View.ld x1 r3_1)⟩]
/-- The new cell-state block after the body. -/
def out3_5 (x0 : Vec F S5000x512 .f32) (x1 : Vec F S5000x128 .f32) (x2 : Vec F S512x512 .f32) (x3 : Vec F S1x512 .f32) : Vec F S5000x128 .f32 :=
  View.canon [⟨r3_1, k3_pay2 (View.ld x0 r3_0) (View.ld x2 r3_2) (View.ld x3 r3_3) (View.ld x1 r3_1)⟩]

/-- One whole-block store covers the block. -/
theorem cover3_o (p0 : Vec F S5000x128 .f32) (y : S5000x128.Idx) :
    ∃ pc ∈ ([⟨r3_1, p0⟩] : List (View.Piece (Elt F) S5000x128 .f32)), y ∈ pc.1.set :=
  View.cover_of_tiled [⟨r3_1, p0⟩] S5000x128.size (by rfl) y

set_option maxHeartbeats 1000000 in
/-- The body on whole staging buffers: the four inputs keep their contents and the two result buffers, whatever
    they held, end at `out3_4` and `out3_5` of them. -/
theorem sound_kernel3 (c : Dev nD) (E : Set ℕ) (i : grid3.Coords)
    (arg1 : Memref sig .tc .vmem S5000x512 .f32) (harg1 : arg1.IsWhole) (arg2 : Memref sig .tc .vmem S5000x128 .f32) (harg2 : arg2.IsWhole)
    (arg3 : Memref sig .tc .vmem S512x512 .f32) (harg3 : arg3.IsWhole) (arg4 : Memref sig .tc .vmem S1x512 .f32) (harg4 : arg4.IsWhole)
    (arg5 : Memref sig .tc .vmem S5000x128 .f32) (harg5 : arg5.IsWhole) (arg6 : Memref sig .tc .vmem S5000x128 .f32) (harg6 : arg6.IsWhole)
    (x0 : Vec F S5000x512 .f32) (x1 : Vec F S5000x128 .f32) (x2 : Vec F S512x512 .f32) (x3 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out3_4 x0 x1 x2 x3) ∗ owns (c : Thread nD τ) arg6 fullShare (out3_5 x0 x1 x2 x3)) -∗ K ⟨⟩))
      ⊢ wp frame (wpE (defs₀ (F := F)) Variants.none c none) E (cc3__lstm_gate_kernel i arg1 harg1 arg2 harg2 arg3 harg3 arg4 harg4 arg5 harg5 arg6 harg6) K := by
  simp only [cc3__lstm_gate_kernel_eq_skeleton]; unfold cc3__lstm_gate_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_o _)
  iexists _; isplitr
  swap; · iexact H5
  ipureintro
  exact View.read_writes_eq_canon _ _ _ (cover3_o _)

/-- The pipeline's proof data on core `c`: the arrays as the region finds them; after the body at point `t` each
    input's buffer at its block and the two results' at `out3_4`, `out3_5` of the four; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
    | ⟨5, _⟩ => out3_5 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]
theorem after3_5 (c : Dev nD) (t : Fin cfg3.N) :
    (dat3 V c).after 5 t = out3_5 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's run applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation3 (c : Dev nD) : BodyObligation (dat3 (F := F) V c) (defs₀ (F := F)) Variants.none () Set.univ := fun t => by
  rw [bigSep_W3, bigSep_W3]
  exact sound_body3 V c t

end Cert.Kernel.Frames

end
-- ==== Proof.KB.Run.lean ====
/-
  The program's run. @main is sixteen items: twelve stretches of host operations and four pipelined kernel
  regions. The contents of every buffer at each item boundary are named (`W0` … `W16`): a host stretch applies
  its operations to the contents before it; a region leaves its input arrays as entered and each output array
  with every block of rows written back. Every weakly fair execution terminates, nothing faulting, with every
  buffer at `W16`; the frame (the arguments end as launched) and the result's contents are read off it.
-/
import proofs.«409581_j84387517432579_1_alg».proof.Proof.Gen.Kernel.Launch
import proofs.«409581_j84387517432579_1_alg».proof.Proof.Gen.Kernel.Skeleton
import proofs.«409581_j84387517432579_1_alg».proof.Proof.Gen.Kernel.Points
import proofs.«409581_j84387517432579_1_alg».proof.Proof.KB.Reg0
import proofs.«409581_j84387517432579_1_alg».proof.Proof.KB.Reg1
import proofs.«409581_j84387517432579_1_alg».proof.Proof.KB.Reg2
import proofs.«409581_j84387517432579_1_alg».proof.Proof.KB.Reg3
import proofs.«409581_j84387517432579_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s unscoped buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- After the host stretch `hostOps0_1`. -/
abbrev W2 : Dev nD → Valuation τ sig (Elt F) := fun c => StableHlo.after hostOps0_1 (W1 m c)
/-- The same read at the TensorCore's references: what region 0 is entered from. -/
abbrev V2 : (c : Dev nD) → (b : Ref sig .tc) → Buf (Elt F) ((c : Thread nD τ).loc b) := fun c b => W2 m c b
/-- At region 0's exit: its arrays at what the pipeline leaves (an input's array as entered, an output's with every
    block written back), every other buffer as entered. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 : (c : Dev nD) → (b : Ref sig .tc) → Buf (Elt F) ((c : Thread nD τ).loc b) := fun c b => W3 m c b
theorem hF0 (c : Dev nD) (w : Fin cfg0.W) : (dat0 (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)
/-- After the host stretch `hostOps1`. -/
abbrev W4 : Dev nD → Valuation τ sig (Elt F) := fun c => StableHlo.after hostOps1 (W3 m c)
/-- After the host stretch `hostOps1_1`. -/
abbrev W5 : Dev nD → Valuation τ sig (Elt F) := fun c => StableHlo.after hostOps1_1 (W4 m c)
/-- After the host stretch `hostOps1_2`. -/
abbrev W6 : Dev nD → Valuation τ sig (Elt F) := fun c => StableHlo.after hostOps1_2 (W5 m c)
/-- The same read at the TensorCore's references: what region 1 is entered from. -/
abbrev V6 : (c : Dev nD) → (b : Ref sig .tc) → Buf (Elt F) ((c : Thread nD τ).loc b) := fun c b => W6 m c b
/-- At region 1's exit: its arrays at what the pipeline leaves (an input's array as entered, an output's with every
    block written back), every other buffer as entered. -/
def W7 (c : Dev nD) : Valuation τ sig (Elt F) :=
  Pipeline.withArrays spec1 c (W6 m c) fun w => (dat1 (V6 m) c).arrAt w cfg1.N
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev V7 : (c : Dev nD) → (b : Ref sig .tc) → Buf (Elt F) ((c : Thread nD τ).loc b) := fun c b => W7 m c b
theorem hF1 (c : Dev nD) (w : Fin cfg1.W) : (dat1 (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)
/-- After the host stretch `hostOps2`. -/
abbrev W8 : Dev nD → Valuation τ sig (Elt F) := fun c => StableHlo.after hostOps2 (W7 m c)
/-- After the host stretch `hostOps2_1`. -/
abbrev W9 : Dev nD → Valuation τ sig (Elt F) := fun c => StableHlo.after hostOps2_1 (W8 m c)
/-- After the host stretch `hostOps2_2`. -/
abbrev W10 : Dev nD → Valuation τ sig (Elt F) := fun c => StableHlo.after hostOps2_2 (W9 m c)
/-- After the host stretch `hostOps2_3`. -/
abbrev W11 : Dev nD → Valuation τ sig (Elt F) := fun c => StableHlo.after hostOps2_3 (W10 m c)
/-- The same read at the TensorCore's references: what region 2 is entered from. -/
abbrev V11 : (c : Dev nD) → (b : Ref sig .tc) → Buf (Elt F) ((c : Thread nD τ).loc b) := fun c b => W11 m c b
/-- At region 2's exit: its arrays at what the pipeline leaves (an input's array as entered, an output's with every
    block written back), every other buffer as entered. -/
def W12 (c : Dev nD) : Valuation τ sig (Elt F) :=
  Pipeline.withArrays spec2 c (W11 m c) fun w => (dat2 (V11 m) c).arrAt w cfg2.N
theorem W12_arr (c : Dev nD) (w : Fin cfg2.W) :
    W12 m c (Proc.devRef .tc (Pipeline.arrRef spec2 w)) = (dat2 (V11 m) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m c (Proc.devRef .tc b) = W11 m c (Proc.devRef .tc b) := by
  unfold W12; exact Pipeline.withArrays_of_ne spec2 c _ _ b hb
abbrev V12 : (c : Dev nD) → (b : Ref sig .tc) → Buf (Elt F) ((c : Thread nD τ).loc b) := fun c b => W12 m c b
theorem hF2 (c : Dev nD) (w : Fin cfg2.W) : (dat2 (V11 m) c).arrAt w cfg2.N = V12 m c (Pipeline.arrRef spec2 w) :=
  (W12_arr m c w).symm
theorem hrest2 (c : Dev nD) : ∀ b, b ∉ Finset.univ.image (Pipeline.arrRef spec2) → V12 m c b = V11 m c b :=
  fun b hb => W12_of_ne m c b fun w e => hb (Finset.mem_image.mpr ⟨w, Finset.mem_univ _, e⟩)
/-- After the host stretch `hostOps3`. -/
abbrev W13 : Dev nD → Valuation τ sig (Elt F) := fun c => StableHlo.after hostOps3 (W12 m c)
/-- After the host stretch `hostOps3_1`. -/
abbrev W14 : Dev nD → Valuation τ sig (Elt F) := fun c => StableHlo.after hostOps3_1 (W13 m c)
/-- After the host stretch `hostOps3_2`. -/
abbrev W15 : Dev nD → Valuation τ sig (Elt F) := fun c => StableHlo.after hostOps3_2 (W14 m c)
/-- The same read at the TensorCore's references: what region 3 is entered from. -/
abbrev V15 : (c : Dev nD) → (b : Ref sig .tc) → Buf (Elt F) ((c : Thread nD τ).loc b) := fun c b => W15 m c b
/-- At region 3's exit: its arrays at what the pipeline leaves (an input's array as entered, an output's with every
    block written back), every other buffer as entered. -/
def W16 (c : Dev nD) : Valuation τ sig (Elt F) :=
  Pipeline.withArrays spec3 c (W15 m c) fun w => (dat3 (V15 m) c).arrAt w cfg3.N
theorem W16_arr (c : Dev nD) (w : Fin cfg3.W) :
    W16 m c (Proc.devRef .tc (Pipeline.arrRef spec3 w)) = (dat3 (V15 m) c).arrAt w cfg3.N := by
  unfold W16; exact Pipeline.withArrays_arr spec3 launch3.win.arr_inj c _ _ w
theorem W16_of_ne (c : Dev nD) (b : Ref sig .tc) (hb : ∀ w, Pipeline.arrRef spec3 w ≠ b) :
    W16 m c (Proc.devRef .tc b) = W15 m c (Proc.devRef .tc b) := by
  unfold W16; exact Pipeline.withArrays_of_ne spec3 c _ _ b hb
abbrev V16 : (c : Dev nD) → (b : Ref sig .tc) → Buf (Elt F) ((c : Thread nD τ).loc b) := fun c b => W16 m c b
theorem hF3 (c : Dev nD) (w : Fin cfg3.W) : (dat3 (V15 m) c).arrAt w cfg3.N = V16 m c (Pipeline.arrRef spec3 w) :=
  (W16_arr m c w).symm
theorem hrest3 (c : Dev nD) : ∀ b, b ∉ Finset.univ.image (Pipeline.arrRef spec3) → V16 m c b = V15 m c b :=
  fun b hb => W16_of_ne m c b fun w e => hb (Finset.mem_image.mpr ⟨w, Finset.mem_univ _, e⟩)

/-! ## What each item leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
/-- Region 0 leaves an input window's array as entered. -/
theorem W3_in (c : Dev nD) (w : Fin cfg0.W) (hin : (cfg0.win w).isOut = false) :
    W3 m c (Proc.devRef .tc (Pipeline.arrRef spec0 w)) = W2 m c (Proc.devRef .tc (Pipeline.arrRef spec0 w)) :=
  (W3_arr m c w).trans (((dat0 (V2 m) c).arrAt_in w hin _).trans (A_eq0 (V2 m) c w))
/-- Region 0 changes only its output arrays. -/
theorem W3_of (c : Dev nD) (r : Ref sig .tc) (h : r ∉ ([main_v2] : List (Ref sig .tc))) : W3 m c r = W2 m c r := by
  by_cases hr : ∀ w, Pipeline.arrRef spec0 w ≠ r
  · exact W3_of_ne m c r hr
  · obtain ⟨w, hw⟩ := not_forall.mp hr
    obtain rfl := not_not.mp hw
    exact W3_in m c w ((by decide : ∀ w : Fin cfg0.W, Pipeline.arrRef spec0 w ∉ ([main_v2] : List (Ref sig .tc)) → (cfg0.win w).isOut = false) w h)
theorem W4_of (c : Dev nD) (r : Ref sig .tc) (h : r ∉ hostOps1_W) : W4 m c r = W3 m c r :=
  StableHlo.after_of_writes_sub hostOps1 _ hostOps1_writes h
theorem W5_of (c : Dev nD) (r : Ref sig .tc) (h : r ∉ hostOps1_1_W) : W5 m c r = W4 m c r :=
  StableHlo.after_of_writes_sub hostOps1_1 _ hostOps1_1_writes h
theorem W6_of (c : Dev nD) (r : Ref sig .tc) (h : r ∉ hostOps1_2_W) : W6 m c r = W5 m c r :=
  StableHlo.after_of_writes_sub hostOps1_2 _ hostOps1_2_writes h
/-- Region 1 leaves an input window's array as entered. -/
theorem W7_in (c : Dev nD) (w : Fin cfg1.W) (hin : (cfg1.win w).isOut = false) :
    W7 m c (Proc.devRef .tc (Pipeline.arrRef spec1 w)) = W6 m c (Proc.devRef .tc (Pipeline.arrRef spec1 w)) :=
  (W7_arr m c w).trans (((dat1 (V6 m) c).arrAt_in w hin _).trans (A_eq1 (V6 m) c w))
/-- Region 1 changes only its output arrays. -/
theorem W7_of (c : Dev nD) (r : Ref sig .tc) (h : r ∉ ([main_v7] : List (Ref sig .tc))) : W7 m c r = W6 m c r := by
  by_cases hr : ∀ w, Pipeline.arrRef spec1 w ≠ r
  · exact W7_of_ne m c r hr
  · obtain ⟨w, hw⟩ := not_forall.mp hr
    obtain rfl := not_not.mp hw
    exact W7_in m c w ((by decide : ∀ w : Fin cfg1.W, Pipeline.arrRef spec1 w ∉ ([main_v7] : List (Ref sig .tc)) → (cfg1.win w).isOut = false) w h)
theorem W8_of (c : Dev nD) (r : Ref sig .tc) (h : r ∉ hostOps2_W) : W8 m c r = W7 m c r :=
  StableHlo.after_of_writes_sub hostOps2 _ hostOps2_writes h
theorem W9_of (c : Dev nD) (r : Ref sig .tc) (h : r ∉ hostOps2_1_W) : W9 m c r = W8 m c r :=
  StableHlo.after_of_writes_sub hostOps2_1 _ hostOps2_1_writes h
theorem W10_of (c : Dev nD) (r : Ref sig .tc) (h : r ∉ hostOps2_2_W) : W10 m c r = W9 m c r :=
  StableHlo.after_of_writes_sub hostOps2_2 _ hostOps2_2_writes h
theorem W11_of (c : Dev nD) (r : Ref sig .tc) (h : r ∉ hostOps2_3_W) : W11 m c r = W10 m c r :=
  StableHlo.after_of_writes_sub hostOps2_3 _ hostOps2_3_writes h
/-- Region 2 leaves an input window's array as entered. -/
theorem W12_in (c : Dev nD) (w : Fin cfg2.W) (hin : (cfg2.win w).isOut = false) :
    W12 m c (Proc.devRef .tc (Pipeline.arrRef spec2 w)) = W11 m c (Proc.devRef .tc (Pipeline.arrRef spec2 w)) :=
  (W12_arr m c w).trans (((dat2 (V11 m) c).arrAt_in w hin _).trans (A_eq2 (V11 m) c w))
/-- Region 2 changes only its output arrays. -/
theorem W12_of (c : Dev nD) (r : Ref sig .tc) (h : r ∉ ([main_v28_0, main_v28_1] : List (Ref sig .tc))) : W12 m c r = W11 m c r := by
  by_cases hr : ∀ w, Pipeline.arrRef spec2 w ≠ r
  · exact W12_of_ne m c r hr
  · obtain ⟨w, hw⟩ := not_forall.mp hr
    obtain rfl := not_not.mp hw
    exact W12_in m c w ((by decide : ∀ w : Fin cfg2.W, Pipeline.arrRef spec2 w ∉ ([main_v28_0, main_v28_1] : List (Ref sig .tc)) → (cfg2.win w).isOut = false) w h)
theorem W13_of (c : Dev nD) (r : Ref sig .tc) (h : r ∉ hostOps3_W) : W13 m c r = W12 m c r :=
  StableHlo.after_of_writes_sub hostOps3 _ hostOps3_writes h
theorem W14_of (c : Dev nD) (r : Ref sig .tc) (h : r ∉ hostOps3_1_W) : W14 m c r = W13 m c r :=
  StableHlo.after_of_writes_sub hostOps3_1 _ hostOps3_1_writes h
theorem W15_of (c : Dev nD) (r : Ref sig .tc) (h : r ∉ hostOps3_2_W) : W15 m c r = W14 m c r :=
  StableHlo.after_of_writes_sub hostOps3_2 _ hostOps3_2_writes h
/-- Region 3 leaves an input window's array as entered. -/
theorem W16_in (c : Dev nD) (w : Fin cfg3.W) (hin : (cfg3.win w).isOut = false) :
    W16 m c (Proc.devRef .tc (Pipeline.arrRef spec3 w)) = W15 m c (Proc.devRef .tc (Pipeline.arrRef spec3 w)) :=
  (W16_arr m c w).trans (((dat3 (V15 m) c).arrAt_in w hin _).trans (A_eq3 (V15 m) c w))
/-- Region 3 changes only its output arrays. -/
theorem W16_of (c : Dev nD) (r : Ref sig .tc) (h : r ∉ ([main_v39_0, main_v39_1] : List (Ref sig .tc))) : W16 m c r = W15 m c r := by
  by_cases hr : ∀ w, Pipeline.arrRef spec3 w ≠ r
  · exact W16_of_ne m c r hr
  · obtain ⟨w, hw⟩ := not_forall.mp hr
    obtain rfl := not_not.mp hw
    exact W16_in m c w ((by decide : ∀ w : Fin cfg3.W, Pipeline.arrRef spec3 w ∉ ([main_v39_0, main_v39_1] : List (Ref sig .tc)) → (cfg3.win w).isOut = false) w h)

/-! ## No item writes an argument -/

theorem W16_main_arg0 (c : Dev nD) : W16 m c main_arg0 = m ((c : Thread nD τ).loc main_arg0) :=
  (W16_of m c main_arg0 (by decide)).trans <| (W15_of m c main_arg0 (by decide)).trans <| (W14_of m c main_arg0 (by decide)).trans <| (W13_of m c main_arg0 (by decide)).trans <| (W12_of m c main_arg0 (by decide)).trans <| (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans <| rfl
theorem W16_main_arg1 (c : Dev nD) : W16 m c main_arg1 = m ((c : Thread nD τ).loc main_arg1) :=
  (W16_of m c main_arg1 (by decide)).trans <| (W15_of m c main_arg1 (by decide)).trans <| (W14_of m c main_arg1 (by decide)).trans <| (W13_of m c main_arg1 (by decide)).trans <| (W12_of m c main_arg1 (by decide)).trans <| (W11_of m c main_arg1 (by decide)).trans <| (W10_of m c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans <| rfl
theorem W16_main_arg2 (c : Dev nD) : W16 m c main_arg2 = m ((c : Thread nD τ).loc main_arg2) :=
  (W16_of m c main_arg2 (by decide)).trans <| (W15_of m c main_arg2 (by decide)).trans <| (W14_of m c main_arg2 (by decide)).trans <| (W13_of m c main_arg2 (by decide)).trans <| (W12_of m c main_arg2 (by decide)).trans <| (W11_of m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans <| rfl
theorem W16_main_arg3 (c : Dev nD) : W16 m c main_arg3 = m ((c : Thread nD τ).loc main_arg3) :=
  (W16_of m c main_arg3 (by decide)).trans <| (W15_of m c main_arg3 (by decide)).trans <| (W14_of m c main_arg3 (by decide)).trans <| (W13_of m c main_arg3 (by decide)).trans <| (W12_of m c main_arg3 (by decide)).trans <| (W11_of m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans <| rfl
theorem W16_main_arg4 (c : Dev nD) : W16 m c main_arg4 = m ((c : Thread nD τ).loc main_arg4) :=
  (W16_of m c main_arg4 (by decide)).trans <| (W15_of m c main_arg4 (by decide)).trans <| (W14_of m c main_arg4 (by decide)).trans <| (W13_of m c main_arg4 (by decide)).trans <| (W12_of m c main_arg4 (by decide)).trans <| (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans <| rfl
theorem W16_main_arg5 (c : Dev nD) : W16 m c main_arg5 = m ((c : Thread nD τ).loc main_arg5) :=
  (W16_of m c main_arg5 (by decide)).trans <| (W15_of m c main_arg5 (by decide)).trans <| (W14_of m c main_arg5 (by decide)).trans <| (W13_of m c main_arg5 (by decide)).trans <| (W12_of m c main_arg5 (by decide)).trans <| (W11_of m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl
theorem W16_main_arg6 (c : Dev nD) : W16 m c main_arg6 = m ((c : Thread nD τ).loc main_arg6) :=
  (W16_of m c main_arg6 (by decide)).trans <| (W15_of m c main_arg6 (by decide)).trans <| (W14_of m c main_arg6 (by decide)).trans <| (W13_of m c main_arg6 (by decide)).trans <| (W12_of m c main_arg6 (by decide)).trans <| (W11_of m c main_arg6 (by decide)).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide)).trans <| rfl
theorem W16_main_arg7 (c : Dev nD) : W16 m c main_arg7 = m ((c : Thread nD τ).loc main_arg7) :=
  (W16_of m c main_arg7 (by decide)).trans <| (W15_of m c main_arg7 (by decide)).trans <| (W14_of m c main_arg7 (by decide)).trans <| (W13_of m c main_arg7 (by decide)).trans <| (W12_of m c main_arg7 (by decide)).trans <| (W11_of m c main_arg7 (by decide)).trans <| (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide)).trans <| rfl
theorem W16_main_arg8 (c : Dev nD) : W16 m c main_arg8 = m ((c : Thread nD τ).loc main_arg8) :=
  (W16_of m c main_arg8 (by decide)).trans <| (W15_of m c main_arg8 (by decide)).trans <| (W14_of m c main_arg8 (by decide)).trans <| (W13_of m c main_arg8 (by decide)).trans <| (W12_of m c main_arg8 (by decide)).trans <| (W11_of m c main_arg8 (by decide)).trans <| (W10_of m c main_arg8 (by decide)).trans <| (W9_of m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide)).trans <| (W2_of m c main_arg8 (by decide)).trans <| (W1_of m c main_arg8 (by decide)).trans <| rfl
theorem W16_main_arg9 (c : Dev nD) : W16 m c main_arg9 = m ((c : Thread nD τ).loc main_arg9) :=
  (W16_of m c main_arg9 (by decide)).trans <| (W15_of m c main_arg9 (by decide)).trans <| (W14_of m c main_arg9 (by decide)).trans <| (W13_of m c main_arg9 (by decide)).trans <| (W12_of m c main_arg9 (by decide)).trans <| (W11_of m c main_arg9 (by decide)).trans <| (W10_of m c main_arg9 (by decide)).trans <| (W9_of m c main_arg9 (by decide)).trans <| (W8_of m c main_arg9 (by decide)).trans <| (W7_of m c main_arg9 (by decide)).trans <| (W6_of m c main_arg9 (by decide)).trans <| (W5_of m c main_arg9 (by decide)).trans <| (W4_of m c main_arg9 (by decide)).trans <| (W3_of m c main_arg9 (by decide)).trans <| (W2_of m c main_arg9 (by decide)).trans <| (W1_of m c main_arg9 (by decide)).trans <| rfl
theorem W16_main_arg10 (c : Dev nD) : W16 m c main_arg10 = m ((c : Thread nD τ).loc main_arg10) :=
  (W16_of m c main_arg10 (by decide)).trans <| (W15_of m c main_arg10 (by decide)).trans <| (W14_of m c main_arg10 (by decide)).trans <| (W13_of m c main_arg10 (by decide)).trans <| (W12_of m c main_arg10 (by decide)).trans <| (W11_of m c main_arg10 (by decide)).trans <| (W10_of m c main_arg10 (by decide)).trans <| (W9_of m c main_arg10 (by decide)).trans <| (W8_of m c main_arg10 (by decide)).trans <| (W7_of m c main_arg10 (by decide)).trans <| (W6_of m c main_arg10 (by decide)).trans <| (W5_of m c main_arg10 (by decide)).trans <| (W4_of m c main_arg10 (by decide)).trans <| (W3_of m c main_arg10 (by decide)).trans <| (W2_of m c main_arg10 (by decide)).trans <| (W1_of m c main_arg10 (by decide)).trans <| rfl
theorem W16_main_arg11 (c : Dev nD) : W16 m c main_arg11 = m ((c : Thread nD τ).loc main_arg11) :=
  (W16_of m c main_arg11 (by decide)).trans <| (W15_of m c main_arg11 (by decide)).trans <| (W14_of m c main_arg11 (by decide)).trans <| (W13_of m c main_arg11 (by decide)).trans <| (W12_of m c main_arg11 (by decide)).trans <| (W11_of m c main_arg11 (by decide)).trans <| (W10_of m c main_arg11 (by decide)).trans <| (W9_of m c main_arg11 (by decide)).trans <| (W8_of m c main_arg11 (by decide)).trans <| (W7_of m c main_arg11 (by decide)).trans <| (W6_of m c main_arg11 (by decide)).trans <| (W5_of m c main_arg11 (by decide)).trans <| (W4_of m c main_arg11 (by decide)).trans <| (W3_of m c main_arg11 (by decide)).trans <| (W2_of m c main_arg11 (by decide)).trans <| (W1_of m c main_arg11 (by decide)).trans <| rfl
theorem W16_main_arg12 (c : Dev nD) : W16 m c main_arg12 = m ((c : Thread nD τ).loc main_arg12) :=
  (W16_of m c main_arg12 (by decide)).trans <| (W15_of m c main_arg12 (by decide)).trans <| (W14_of m c main_arg12 (by decide)).trans <| (W13_of m c main_arg12 (by decide)).trans <| (W12_of m c main_arg12 (by decide)).trans <| (W11_of m c main_arg12 (by decide)).trans <| (W10_of m c main_arg12 (by decide)).trans <| (W9_of m c main_arg12 (by decide)).trans <| (W8_of m c main_arg12 (by decide)).trans <| (W7_of m c main_arg12 (by decide)).trans <| (W6_of m c main_arg12 (by decide)).trans <| (W5_of m c main_arg12 (by decide)).trans <| (W4_of m c main_arg12 (by decide)).trans <| (W3_of m c main_arg12 (by decide)).trans <| (W2_of m c main_arg12 (by decide)).trans <| (W1_of m c main_arg12 (by decide)).trans <| rfl
theorem W16_main_arg13 (c : Dev nD) : W16 m c main_arg13 = m ((c : Thread nD τ).loc main_arg13) :=
  (W16_of m c main_arg13 (by decide)).trans <| (W15_of m c main_arg13 (by decide)).trans <| (W14_of m c main_arg13 (by decide)).trans <| (W13_of m c main_arg13 (by decide)).trans <| (W12_of m c main_arg13 (by decide)).trans <| (W11_of m c main_arg13 (by decide)).trans <| (W10_of m c main_arg13 (by decide)).trans <| (W9_of m c main_arg13 (by decide)).trans <| (W8_of m c main_arg13 (by decide)).trans <| (W7_of m c main_arg13 (by decide)).trans <| (W6_of m c main_arg13 (by decide)).trans <| (W5_of m c main_arg13 (by decide)).trans <| (W4_of m c main_arg13 (by decide)).trans <| (W3_of m c main_arg13 (by decide)).trans <| (W2_of m c main_arg13 (by decide)).trans <| (W1_of m c main_arg13 (by decide)).trans <| rfl
theorem W16_main_arg14 (c : Dev nD) : W16 m c main_arg14 = m ((c : Thread nD τ).loc main_arg14) :=
  (W16_of m c main_arg14 (by decide)).trans <| (W15_of m c main_arg14 (by decide)).trans <| (W14_of m c main_arg14 (by decide)).trans <| (W13_of m c main_arg14 (by decide)).trans <| (W12_of m c main_arg14 (by decide)).trans <| (W11_of m c main_arg14 (by decide)).trans <| (W10_of m c main_arg14 (by decide)).trans <| (W9_of m c main_arg14 (by decide)).trans <| (W8_of m c main_arg14 (by decide)).trans <| (W7_of m c main_arg14 (by decide)).trans <| (W6_of m c main_arg14 (by decide)).trans <| (W5_of m c main_arg14 (by decide)).trans <| (W4_of m c main_arg14 (by decide)).trans <| (W3_of m c main_arg14 (by decide)).trans <| (W2_of m c main_arg14 (by decide)).trans <| (W1_of m c main_arg14 (by decide)).trans <| rfl
theorem W16_main_arg15 (c : Dev nD) : W16 m c main_arg15 = m ((c : Thread nD τ).loc main_arg15) :=
  (W16_of m c main_arg15 (by decide)).trans <| (W15_of m c main_arg15 (by decide)).trans <| (W14_of m c main_arg15 (by decide)).trans <| (W13_of m c main_arg15 (by decide)).trans <| (W12_of m c main_arg15 (by decide)).trans <| (W11_of m c main_arg15 (by decide)).trans <| (W10_of m c main_arg15 (by decide)).trans <| (W9_of m c main_arg15 (by decide)).trans <| (W8_of m c main_arg15 (by decide)).trans <| (W7_of m c main_arg15 (by decide)).trans <| (W6_of m c main_arg15 (by decide)).trans <| (W5_of m c main_arg15 (by decide)).trans <| (W4_of m c main_arg15 (by decide)).trans <| (W3_of m c main_arg15 (by decide)).trans <| (W2_of m c main_arg15 (by decide)).trans <| (W1_of m c main_arg15 (by decide)).trans <| rfl
theorem W16_main_arg16 (c : Dev nD) : W16 m c main_arg16 = m ((c : Thread nD τ).loc main_arg16) :=
  (W16_of m c main_arg16 (by decide)).trans <| (W15_of m c main_arg16 (by decide)).trans <| (W14_of m c main_arg16 (by decide)).trans <| (W13_of m c main_arg16 (by decide)).trans <| (W12_of m c main_arg16 (by decide)).trans <| (W11_of m c main_arg16 (by decide)).trans <| (W10_of m c main_arg16 (by decide)).trans <| (W9_of m c main_arg16 (by decide)).trans <| (W8_of m c main_arg16 (by decide)).trans <| (W7_of m c main_arg16 (by decide)).trans <| (W6_of m c main_arg16 (by decide)).trans <| (W5_of m c main_arg16 (by decide)).trans <| (W4_of m c main_arg16 (by decide)).trans <| (W3_of m c main_arg16 (by decide)).trans <| (W2_of m c main_arg16 (by decide)).trans <| (W1_of m c main_arg16 (by decide)).trans <| rfl
theorem W16_main_arg17 (c : Dev nD) : W16 m c main_arg17 = m ((c : Thread nD τ).loc main_arg17) :=
  (W16_of m c main_arg17 (by decide)).trans <| (W15_of m c main_arg17 (by decide)).trans <| (W14_of m c main_arg17 (by decide)).trans <| (W13_of m c main_arg17 (by decide)).trans <| (W12_of m c main_arg17 (by decide)).trans <| (W11_of m c main_arg17 (by decide)).trans <| (W10_of m c main_arg17 (by decide)).trans <| (W9_of m c main_arg17 (by decide)).trans <| (W8_of m c main_arg17 (by decide)).trans <| (W7_of m c main_arg17 (by decide)).trans <| (W6_of m c main_arg17 (by decide)).trans <| (W5_of m c main_arg17 (by decide)).trans <| (W4_of m c main_arg17 (by decide)).trans <| (W3_of m c main_arg17 (by decide)).trans <| (W2_of m c main_arg17 (by decide)).trans <| (W1_of m c main_arg17 (by decide)).trans <| rfl

/-- The result buffer after the run: the new hidden state the last gate region leaves, every block written back. -/
theorem W16_result (c : Dev nD) : W16 m c main_v39_0 = (dat3 (V15 m) c).arrAt 4 cfg3.N := W16_arr m c 4

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V6 m) c
  | ⟨2, _⟩ => fun c => dat2 (V11 m) c
  | ⟨3, _⟩ => fun c => dat3 (V15 m) c
abbrev 𝒱₀ : Variants := Variants.none
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as an item: from the contents `W` to those after its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W16 m c) ∗ ∃ r, prngReg c r)

/-! ## The regions as items -/

set_option backward.isDefEq.respectTransparency.types false in
/-- Region 0 over the thread state: entered from every unscoped buffer at `W2`, left at `W3`. Its arrays are
    split out of the unscoped buffers and put back at the exit contents; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W6`, left at `W7`. Its arrays are
    split out of the unscoped buffers and put back at the exit contents; the generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W11`, left at `W12`. Its arrays are
    split out of the unscoped buffers and put back at the exit contents; the generator register goes into the
    pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m) c).loose
  hwaits := Pipeline.hwaits_of_owed_zero _ _ _ _ L lv 2 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec2 c (V11 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V11 m c) (V12 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W15`, left at `W16`. Its arrays are
    split out of the unscoped buffers and put back at the exit contents; the generator register goes into the
    pipeline's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V15 m) c).loose
  hwaits := Pipeline.hwaits_of_owed_zero _ _ _ _ L lv 3 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec3 c (V15 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V15 m c) (V16 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

abbrev segs : List (Pipeline.Seg (pcfgs (F := F)) adm (pdats m) () defs₀ 𝒱₀ L lv) :=
  [
    .host (hseg hostOps0 hostOps0_sub hostOps0_fresh (W0 m)),
    .host (hseg hostOps0_1 hostOps0_1_sub hostOps0_1_fresh (W1 m)),
    .region (reg0 m),
    .host (hseg hostOps1 hostOps1_sub hostOps1_fresh (W3 m)),
    .host (hseg hostOps1_1 hostOps1_1_sub hostOps1_1_fresh (W4 m)),
    .host (hseg hostOps1_2 hostOps1_2_sub hostOps1_2_fresh (W5 m)),
    .region (reg1 m),
    .host (hseg hostOps2 hostOps2_sub hostOps2_fresh (W7 m)),
    .host (hseg hostOps2_1 hostOps2_1_sub hostOps2_1_fresh (W8 m)),
    .host (hseg hostOps2_2 hostOps2_2_sub hostOps2_2_fresh (W9 m)),
    .host (hseg hostOps2_3 hostOps2_3_sub hostOps2_3_fresh (W10 m)),
    .region (reg2 m),
    .host (hseg hostOps3 hostOps3_sub hostOps3_fresh (W12 m)),
    .host (hseg hostOps3_1 hostOps3_1_sub hostOps3_1_fresh (W13 m)),
    .host (hseg hostOps3_2 hostOps3_2_sub hostOps3_2_fresh (W14 m)),
    .region (reg3 m) ]

theorem main_run (c : Dev nD) : main (F := F) c = Pipeline.Seg.run (segs m) := (main_chain c).trans (by chain_rfl)

variable (ρ : Dev nD → PrngReg)

set_option backward.isDefEq.respectTransparency.types false in
/-- From any memory with zero counters every weakly fair execution of @main terminates, nothing faulting, and every
    final state holds every unscoped buffer at its contents `W16`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      change iprop(StableHlo.held (c : Thread nD τ) (Pipeline.ucRefs τ sig) (W16 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m c b)
    (hfin := fun c s' => by
      iintro ⟨⟨Hh, -⟩, HSI⟩
      unfold StableHlo.held
      imodintro
      iapply (pointsTo_read_all (Pipeline.ucRefs τ sig) (fun b => (((c : Thread nD τ)).1, b)) (W16 m c) s')
      isplitl [Hh] <;> iassumption)
    (hQ := fun s h => h)

/-- The frame: every argument ends as launched; and the result buffer ends at the last region's new hidden state. -/
theorem run_result : θ_run defs (onTc (τ := τ) (main (F := F))) ⟨m, fun _ => 0, ρ⟩ (fun r => ∀ c : Dev nD,
      r.2.mem ((c.tc : Thread nD τ).loc main_v39_0) = (dat3 (V15 m) c).arrAt 4 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_uc main_v39_0 (by decide))).trans (W16_result m c),
      (h c _ (mem_uc main_arg0 (by decide))).trans (W16_main_arg0 m c),
      (h c _ (mem_uc main_arg1 (by decide))).trans (W16_main_arg1 m c),
      (h c _ (mem_uc main_arg2 (by decide))).trans (W16_main_arg2 m c),
      (h c _ (mem_uc main_arg3 (by decide))).trans (W16_main_arg3 m c),
      (h c _ (mem_uc main_arg4 (by decide))).trans (W16_main_arg4 m c),
      (h c _ (mem_uc main_arg5 (by decide))).trans (W16_main_arg5 m c),
      (h c _ (mem_uc main_arg6 (by decide))).trans (W16_main_arg6 m c),
      (h c _ (mem_uc main_arg7 (by decide))).trans (W16_main_arg7 m c),
      (h c _ (mem_uc main_arg8 (by decide))).trans (W16_main_arg8 m c),
      (h c _ (mem_uc main_arg9 (by decide))).trans (W16_main_arg9 m c),
      (h c _ (mem_uc main_arg10 (by decide))).trans (W16_main_arg10 m c),
      (h c _ (mem_uc main_arg11 (by decide))).trans (W16_main_arg11 m c),
      (h c _ (mem_uc main_arg12 (by decide))).trans (W16_main_arg12 m c),
      (h c _ (mem_uc main_arg13 (by decide))).trans (W16_main_arg13 m c),
      (h c _ (mem_uc main_arg14 (by decide))).trans (W16_main_arg14 m c),
      (h c _ (mem_uc main_arg15 (by decide))).trans (W16_main_arg15 m c),
      (h c _ (mem_uc main_arg16 (by decide))).trans (W16_main_arg16 m c),
      (h c _ (mem_uc main_arg17 (by decide))).trans (W16_main_arg17 m c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => (h c).2) (run_result m ρ)

end Cert.Kernel.Frames

end
-- ==== Proof.KI.Reg0.lean ====
/-
  Region 0 of the program: one dense layer, tanh (x · W + b), computed block of rows by block of rows.
  Window 0 is the block of rows of x the grid point owns, windows 1 and 2 are the whole weight matrix and
  the bias row (the same block at every point), window 3 is the block of rows of the result.
  Here: what the body leaves in the result block as a function of the three blocks it reads, the body's run
  on whole staging buffers, and the pipeline's proof data at any contents `V` of the arrays at region entry.
-/
import proofs.«409581_j84387517432579_1_alg».proof.Proof.Gen.KernelIdeal.Launch
import proofs.«409581_j84387517432579_1_alg».proof.Proof.Gen.KernelIdeal.Skeleton
import proofs.«409581_j84387517432579_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not
    fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S5000x300 := Rect.unit (s := S5000x300) ![0, 0] S5000x300.size inb_S5000x300_S5000x300_0_0
abbrev r0_1 : Rect S300x128 := Rect.unit (s := S300x128) ![0, 0] S300x128.size inb_S300x128_S300x128_0_0
abbrev r0_2 : Rect S1x128 := Rect.unit (s := S1x128) ![0, 0] S1x128.size inb_S1x128_S1x128_0_0
abbrev r0_3 : Rect S5000x128 := Rect.unit (s := S5000x128) ![0, 0] S5000x128.size inb_S5000x128_S5000x128_0_0

/-- The result block after the body: its one whole-block store of tanh (x · W + b) of the three blocks read. -/
def out0_3 (x0 : Vec F S5000x300 .f32) (x1 : Vec F S300x128 .f32) (x2 : Vec F S1x128 .f32) : Vec F S5000x128 .f32 :=
  View.canon [⟨r0_3, k0_pay1 (View.ld x0 r0_0) (View.ld x1 r0_1) (View.ld x2 r0_2)⟩]

/-- The one store covers the block. -/
theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

set_option maxHeartbeats 1000000 in
/-- The body on whole staging buffers: the three inputs keep their contents and the result buffer, whatever it
    held, ends at `out0_3` of them. -/
theorem sound_kernel0 (c : Dev nD) (E : Set ℕ) (i : grid0.Coords)
    (arg1 : Memref sig .tc .vmem S5000x300 .f32) (harg1 : arg1.IsWhole) (arg2 : Memref sig .tc .vmem S300x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x300 .f32) (x1 : Vec F S300x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_tanh_kernel i arg1 harg1 arg2 harg2 arg3 harg3 arg4 harg4) K := by
  simp only [cc0__dense_tanh_kernel_eq_skeleton]; unfold cc0__dense_tanh_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each
    input's buffer at its block and the result's at `out0_3` of the three; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frames

end
-- ==== Proof.KI.Reg1.lean ====
/-
  Region 1 of the program: one dense layer, tanh (x · W + b), computed block of rows by block of rows.
  Window 0 is the block of rows of x the grid point owns, windows 1 and 2 are the whole weight matrix and
  the bias row (the same block at every point), window 3 is the block of rows of the result.
  Here: what the body leaves in the result block as a function of the three blocks it reads, the body's run
  on whole staging buffers, and the pipeline's proof data at any contents `V` of the arrays at region entry.
-/
import proofs.«409581_j84387517432579_1_alg».proof.Proof.Gen.KernelIdeal.Launch
import proofs.«409581_j84387517432579_1_alg».proof.Proof.Gen.KernelIdeal.Skeleton
import proofs.«409581_j84387517432579_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where it is not
    fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S8000x192 := Rect.unit (s := S8000x192) ![0, 0] S8000x192.size inb_S8000x192_S8000x192_0_0
abbrev r1_1 : Rect S192x128 := Rect.unit (s := S192x128) ![0, 0] S192x128.size inb_S192x128_S192x128_0_0
abbrev r1_2 : Rect S1x128 := Rect.unit (s := S1x128) ![0, 0] S1x128.size inb_S1x128_S1x128_0_0
abbrev r1_3 : Rect S8000x128 := Rect.unit (s := S8000x128) ![0, 0] S8000x128.size inb_S8000x128_S8000x128_0_0

/-- The result block after the body: its one whole-block store of tanh (x · W + b) of the three blocks read. -/
def out1_3 (x0 : Vec F S8000x192 .f32) (x1 : Vec F S192x128 .f32) (x2 : Vec F S1x128 .f32) : Vec F S8000x128 .f32 :=
  View.canon [⟨r1_3, k1_pay1 (View.ld x0 r1_0) (View.ld x1 r1_1) (View.ld x2 r1_2)⟩]

/-- The one store covers the block. -/
theorem cover1_3 (p0 : Vec F S8000x128 .f32) (y : S8000x128.Idx) :
    ∃ pc ∈ ([⟨r1_3, p0⟩] : List (View.Piece (Elt F) S8000x128 .f32)), y ∈ pc.1.set :=
  View.cover_of_tiled [⟨r1_3, p0⟩] S8000x128.size (by rfl) y

set_option maxHeartbeats 1000000 in
/-- The body on whole staging buffers: the three inputs keep their contents and the result buffer, whatever it
    held, ends at `out1_3` of them. -/
theorem sound_kernel1 (c : Dev nD) (E : Set ℕ) (i : grid1.Coords)
    (arg1 : Memref sig .tc .vmem S8000x192 .f32) (harg1 : arg1.IsWhole) (arg2 : Memref sig .tc .vmem S192x128 .f32) (harg2 : arg2.IsWhole)
    (arg3 : Memref sig .tc .vmem S1x128 .f32) (harg3 : arg3.IsWhole) (arg4 : Memref sig .tc .vmem S8000x128 .f32) (harg4 : arg4.IsWhole)
    (x0 : Vec F S8000x192 .f32) (x1 : Vec F S192x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__dense_tanh_kernel i arg1 harg1 arg2 harg2 arg3 harg3 arg4 harg4) K := by
  simp only [cc1__dense_tanh_kernel_eq_skeleton]; unfold cc1__dense_tanh_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each
    input's buffer at its block and the result's at `out1_3` of the three; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frames

end
-- ==== Proof.KI.Reg2.lean ====
/-
  Region 2 of the program: one graph-LSTM gate update on a block of 5000 nodes. Window 0 is the block of
  rows of the gate input (x_in, x_out, h_in, h_out side by side), window 1 the block of rows of the old cell
  state, windows 2 and 3 the whole concatenated weight matrix and bias row (the same block at every point),
  windows 4 and 5 the blocks of rows of the new hidden and cell states.
  Here: what the body leaves in the two result blocks as functions of the four blocks it reads, the body's run
  on whole staging buffers, and the pipeline's proof data at any contents `V` of the arrays at region entry.
-/
import proofs.«409581_j84387517432579_1_alg».proof.Proof.Gen.KernelIdeal.Launch
import proofs.«409581_j84387517432579_1_alg».proof.Proof.Gen.KernelIdeal.Skeleton
import proofs.«409581_j84387517432579_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: where it is not
    fetched the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S5000x512 := Rect.unit (s := S5000x512) ![0, 0] S5000x512.size inb_S5000x512_S5000x512_0_0
abbrev r2_1 : Rect S5000x128 := Rect.unit (s := S5000x128) ![0, 0] S5000x128.size inb_S5000x128_S5000x128_0_0
abbrev r2_2 : Rect S512x512 := Rect.unit (s := S512x512) ![0, 0] S512x512.size inb_S512x512_S512x512_0_0
abbrev r2_3 : Rect S1x512 := Rect.unit (s := S1x512) ![0, 0] S1x512.size inb_S1x512_S1x512_0_0

/-- The new hidden-state block after the body: its one whole-block store, of the four blocks read. -/
def out2_4 (x0 : Vec F S5000x512 .f32) (x1 : Vec F S5000x128 .f32) (x2 : Vec F S512x512 .f32) (x3 : Vec F S1x512 .f32) : Vec F S5000x128 .f32 :=
  View.canon [⟨r2_1, k2_pay3 (View.ld x0 r2_0) (View.ld x2 r2_2) (View.ld x3 r2_3) (View.ld x1 r2_1)⟩]
/-- The new cell-state block after the body. -/
def out2_5 (x0 : Vec F S5000x512 .f32) (x1 : Vec F S5000x128 .f32) (x2 : Vec F S512x512 .f32) (x3 : Vec F S1x512 .f32) : Vec F S5000x128 .f32 :=
  View.canon [⟨r2_1, k2_pay2 (View.ld x0 r2_0) (View.ld x2 r2_2) (View.ld x3 r2_3) (View.ld x1 r2_1)⟩]

/-- One whole-block store covers the block. -/
theorem cover2_o (p0 : Vec F S5000x128 .f32) (y : S5000x128.Idx) :
    ∃ pc ∈ ([⟨r2_1, p0⟩] : List (View.Piece (Elt F) S5000x128 .f32)), y ∈ pc.1.set :=
  View.cover_of_tiled [⟨r2_1, p0⟩] S5000x128.size (by rfl) y

set_option maxHeartbeats 1000000 in
/-- The body on whole staging buffers: the four inputs keep their contents and the two result buffers, whatever
    they held, end at `out2_4` and `out2_5` of them. -/
theorem sound_kernel2 (c : Dev nD) (E : Set ℕ) (i : grid2.Coords)
    (arg1 : Memref sig .tc .vmem S5000x512 .f32) (harg1 : arg1.IsWhole) (arg2 : Memref sig .tc .vmem S5000x128 .f32) (harg2 : arg2.IsWhole)
    (arg3 : Memref sig .tc .vmem S512x512 .f32) (harg3 : arg3.IsWhole) (arg4 : Memref sig .tc .vmem S1x512 .f32) (harg4 : arg4.IsWhole)
    (arg5 : Memref sig .tc .vmem S5000x128 .f32) (harg5 : arg5.IsWhole) (arg6 : Memref sig .tc .vmem S5000x128 .f32) (harg6 : arg6.IsWhole)
    (x0 : Vec F S5000x512 .f32) (x1 : Vec F S5000x128 .f32) (x2 : Vec F S512x512 .f32) (x3 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out2_4 x0 x1 x2 x3) ∗ owns (c : Thread nD τ) arg6 fullShare (out2_5 x0 x1 x2 x3)) -∗ K ⟨⟩))
      ⊢ wp frame (wpE (defs₀ (F := F)) Variants.none c none) E (cc2__lstm_gate_kernel i arg1 harg1 arg2 harg2 arg3 harg3 arg4 harg4 arg5 harg5 arg6 harg6) K := by
  simp only [cc2__lstm_gate_kernel_eq_skeleton]; unfold cc2__lstm_gate_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_o _)
  iexists _; isplitr
  swap; · iexact H5
  ipureintro
  exact View.read_writes_eq_canon _ _ _ (cover2_o _)

/-- The pipeline's proof data on core `c`: the arrays as the region finds them; after the body at point `t` each
    input's buffer at its block and the two results' at `out2_4`, `out2_5` of the four; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]
theorem after2_5 (c : Dev nD) (t : Fin cfg2.N) :
    (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frames

end
-- ==== Proof.KI.Reg3.lean ====
/-
  Region 3 of the program: one graph-LSTM gate update on a block of 5000 nodes. Window 0 is the block of
  rows of the gate input (x_in, x_out, h_in, h_out side by side), window 1 the block of rows of the old cell
  state, windows 2 and 3 the whole concatenated weight matrix and bias row (the same block at every point),
  windows 4 and 5 the blocks of rows of the new hidden and cell states.
  Here: what the body leaves in the two result blocks as functions of the four blocks it reads, the body's run
  on whole staging buffers, and the pipeline's proof data at any contents `V` of the arrays at region entry.
-/
import proofs.«409581_j84387517432579_1_alg».proof.Proof.Gen.KernelIdeal.Launch
import proofs.«409581_j84387517432579_1_alg».proof.Proof.Gen.KernelIdeal.Skeleton
import proofs.«409581_j84387517432579_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not: where it is not
    fetched the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_0 : Rect S5000x512 := Rect.unit (s := S5000x512) ![0, 0] S5000x512.size inb_S5000x512_S5000x512_0_0
abbrev r3_1 : Rect S5000x128 := Rect.unit (s := S5000x128) ![0, 0] S5000x128.size inb_S5000x128_S5000x128_0_0
abbrev r3_2 : Rect S512x512 := Rect.unit (s := S512x512) ![0, 0] S512x512.size inb_S512x512_S512x512_0_0
abbrev r3_3 : Rect S1x512 := Rect.unit (s := S1x512) ![0, 0] S1x512.size inb_S1x512_S1x512_0_0

/-- The new hidden-state block after the body: its one whole-block store, of the four blocks read. -/
def out3_4 (x0 : Vec F S5000x512 .f32) (x1 : Vec F S5000x128 .f32) (x2 : Vec F S512x512 .f32) (x3 : Vec F S1x512 .f32) : Vec F S5000x128 .f32 :=
  View.canon [⟨r3_1, k3_pay3 (View.ld x0 r3_0) (View.ld x2 r3_2) (View.ld x3 r3_3) (View.ld x1 r3_1)⟩]
/-- The new cell-state block after the body. -/
def out3_5 (x0 : Vec F S5000x512 .f32) (x1 : Vec F S5000x128 .f32) (x2 : Vec F S512x512 .f32) (x3 : Vec F S1x512 .f32) : Vec F S5000x128 .f32 :=
  View.canon [⟨r3_1, k3_pay2 (View.ld x0 r3_0) (View.ld x2 r3_2) (View.ld x3 r3_3) (View.ld x1 r3_1)⟩]

/-- One whole-block store covers the block. -/
theorem cover3_o (p0 : Vec F S5000x128 .f32) (y : S5000x128.Idx) :
    ∃ pc ∈ ([⟨r3_1, p0⟩] : List (View.Piece (Elt F) S5000x128 .f32)), y ∈ pc.1.set :=
  View.cover_of_tiled [⟨r3_1, p0⟩] S5000x128.size (by rfl) y

set_option maxHeartbeats 1000000 in
/-- The body on whole staging buffers: the four inputs keep their contents and the two result buffers, whatever
    they held, end at `out3_4` and `out3_5` of them. -/
theorem sound_kernel3 (c : Dev nD) (E : Set ℕ) (i : grid3.Coords)
    (arg1 : Memref sig .tc .vmem S5000x512 .f32) (harg1 : arg1.IsWhole) (arg2 : Memref sig .tc .vmem S5000x128 .f32) (harg2 : arg2.IsWhole)
    (arg3 : Memref sig .tc .vmem S512x512 .f32) (harg3 : arg3.IsWhole) (arg4 : Memref sig .tc .vmem S1x512 .f32) (harg4 : arg4.IsWhole)
    (arg5 : Memref sig .tc .vmem S5000x128 .f32) (harg5 : arg5.IsWhole) (arg6 : Memref sig .tc .vmem S5000x128 .f32) (harg6 : arg6.IsWhole)
    (x0 : Vec F S5000x512 .f32) (x1 : Vec F S5000x128 .f32) (x2 : Vec F S512x512 .f32) (x3 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out3_4 x0 x1 x2 x3) ∗ owns (c : Thread nD τ) arg6 fullShare (out3_5 x0 x1 x2 x3)) -∗ K ⟨⟩))
      ⊢ wp frame (wpE (defs₀ (F := F)) Variants.none c none) E (cc3__lstm_gate_kernel i arg1 harg1 arg2 harg2 arg3 harg3 arg4 harg4 arg5 harg5 arg6 harg6) K := by
  simp only [cc3__lstm_gate_kernel_eq_skeleton]; unfold cc3__lstm_gate_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_o _)
  iexists _; isplitr
  swap; · iexact H5
  ipureintro
  exact View.read_writes_eq_canon _ _ _ (cover3_o _)

/-- The pipeline's proof data on core `c`: the arrays as the region finds them; after the body at point `t` each
    input's buffer at its block and the two results' at `out3_4`, `out3_5` of the four; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
    | ⟨5, _⟩ => out3_5 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]
theorem after3_5 (c : Dev nD) (t : Fin cfg3.N) :
    (dat3 V c).after 5 t = out3_5 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's run applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frames

end
-- ==== Proof.KI.Run.lean ====
/-
  The program's run. @main is sixteen items: twelve stretches of host operations and four pipelined kernel
  regions. The contents of every buffer at each item boundary are named (`W0` … `W16`): a host stretch applies
  its operations to the contents before it; a region leaves its input arrays as entered and each output array
  with every block of rows written back. Every weakly fair execution terminates, nothing faulting, with every
  buffer at `W16`; the frame (the arguments end as launched) and the result's contents are read off it.
-/
import proofs.«409581_j84387517432579_1_alg».proof.Proof.Gen.KernelIdeal.Launch
import proofs.«409581_j84387517432579_1_alg».proof.Proof.Gen.KernelIdeal.Skeleton
import proofs.«409581_j84387517432579_1_alg».proof.Proof.Gen.KernelIdeal.Points
import proofs.«409581_j84387517432579_1_alg».proof.Proof.KI.Reg0
import proofs.«409581_j84387517432579_1_alg».proof.Proof.KI.Reg1
import proofs.«409581_j84387517432579_1_alg».proof.Proof.KI.Reg2
import proofs.«409581_j84387517432579_1_alg».proof.Proof.KI.Reg3
import proofs.«409581_j84387517432579_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s unscoped buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- After the host stretch `hostOps0_1`. -/
abbrev W2 : Dev nD → Valuation τ sig (Elt F) := fun c => StableHlo.after hostOps0_1 (W1 m c)
/-- The same read at the TensorCore's references: what region 0 is entered from. -/
abbrev V2 : (c : Dev nD) → (b : Ref sig .tc) → Buf (Elt F) ((c : Thread nD τ).loc b) := fun c b => W2 m c b
/-- At region 0's exit: its arrays at what the pipeline leaves (an input's array as entered, an output's with every
    block written back), every other buffer as entered. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 : (c : Dev nD) → (b : Ref sig .tc) → Buf (Elt F) ((c : Thread nD τ).loc b) := fun c b => W3 m c b
theorem hF0 (c : Dev nD) (w : Fin cfg0.W) : (dat0 (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)
/-- After the host stretch `hostOps1`. -/
abbrev W4 : Dev nD → Valuation τ sig (Elt F) := fun c => StableHlo.after hostOps1 (W3 m c)
/-- After the host stretch `hostOps1_1`. -/
abbrev W5 : Dev nD → Valuation τ sig (Elt F) := fun c => StableHlo.after hostOps1_1 (W4 m c)
/-- After the host stretch `hostOps1_2`. -/
abbrev W6 : Dev nD → Valuation τ sig (Elt F) := fun c => StableHlo.after hostOps1_2 (W5 m c)
/-- The same read at the TensorCore's references: what region 1 is entered from. -/
abbrev V6 : (c : Dev nD) → (b : Ref sig .tc) → Buf (Elt F) ((c : Thread nD τ).loc b) := fun c b => W6 m c b
/-- At region 1's exit: its arrays at what the pipeline leaves (an input's array as entered, an output's with every
    block written back), every other buffer as entered. -/
def W7 (c : Dev nD) : Valuation τ sig (Elt F) :=
  Pipeline.withArrays spec1 c (W6 m c) fun w => (dat1 (V6 m) c).arrAt w cfg1.N
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev V7 : (c : Dev nD) → (b : Ref sig .tc) → Buf (Elt F) ((c : Thread nD τ).loc b) := fun c b => W7 m c b
theorem hF1 (c : Dev nD) (w : Fin cfg1.W) : (dat1 (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)
/-- After the host stretch `hostOps2`. -/
abbrev W8 : Dev nD → Valuation τ sig (Elt F) := fun c => StableHlo.after hostOps2 (W7 m c)
/-- After the host stretch `hostOps2_1`. -/
abbrev W9 : Dev nD → Valuation τ sig (Elt F) := fun c => StableHlo.after hostOps2_1 (W8 m c)
/-- After the host stretch `hostOps2_2`. -/
abbrev W10 : Dev nD → Valuation τ sig (Elt F) := fun c => StableHlo.after hostOps2_2 (W9 m c)
/-- After the host stretch `hostOps2_3`. -/
abbrev W11 : Dev nD → Valuation τ sig (Elt F) := fun c => StableHlo.after hostOps2_3 (W10 m c)
/-- The same read at the TensorCore's references: what region 2 is entered from. -/
abbrev V11 : (c : Dev nD) → (b : Ref sig .tc) → Buf (Elt F) ((c : Thread nD τ).loc b) := fun c b => W11 m c b
/-- At region 2's exit: its arrays at what the pipeline leaves (an input's array as entered, an output's with every
    block written back), every other buffer as entered. -/
def W12 (c : Dev nD) : Valuation τ sig (Elt F) :=
  Pipeline.withArrays spec2 c (W11 m c) fun w => (dat2 (V11 m) c).arrAt w cfg2.N
theorem W12_arr (c : Dev nD) (w : Fin cfg2.W) :
    W12 m c (Proc.devRef .tc (Pipeline.arrRef spec2 w)) = (dat2 (V11 m) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m c (Proc.devRef .tc b) = W11 m c (Proc.devRef .tc b) := by
  unfold W12; exact Pipeline.withArrays_of_ne spec2 c _ _ b hb
abbrev V12 : (c : Dev nD) → (b : Ref sig .tc) → Buf (Elt F) ((c : Thread nD τ).loc b) := fun c b => W12 m c b
theorem hF2 (c : Dev nD) (w : Fin cfg2.W) : (dat2 (V11 m) c).arrAt w cfg2.N = V12 m c (Pipeline.arrRef spec2 w) :=
  (W12_arr m c w).symm
theorem hrest2 (c : Dev nD) : ∀ b, b ∉ Finset.univ.image (Pipeline.arrRef spec2) → V12 m c b = V11 m c b :=
  fun b hb => W12_of_ne m c b fun w e => hb (Finset.mem_image.mpr ⟨w, Finset.mem_univ _, e⟩)
/-- After the host stretch `hostOps3`. -/
abbrev W13 : Dev nD → Valuation τ sig (Elt F) := fun c => StableHlo.after hostOps3 (W12 m c)
/-- After the host stretch `hostOps3_1`. -/
abbrev W14 : Dev nD → Valuation τ sig (Elt F) := fun c => StableHlo.after hostOps3_1 (W13 m c)
/-- After the host stretch `hostOps3_2`. -/
abbrev W15 : Dev nD → Valuation τ sig (Elt F) := fun c => StableHlo.after hostOps3_2 (W14 m c)
/-- The same read at the TensorCore's references: what region 3 is entered from. -/
abbrev V15 : (c : Dev nD) → (b : Ref sig .tc) → Buf (Elt F) ((c : Thread nD τ).loc b) := fun c b => W15 m c b
/-- At region 3's exit: its arrays at what the pipeline leaves (an input's array as entered, an output's with every
    block written back), every other buffer as entered. -/
def W16 (c : Dev nD) : Valuation τ sig (Elt F) :=
  Pipeline.withArrays spec3 c (W15 m c) fun w => (dat3 (V15 m) c).arrAt w cfg3.N
theorem W16_arr (c : Dev nD) (w : Fin cfg3.W) :
    W16 m c (Proc.devRef .tc (Pipeline.arrRef spec3 w)) = (dat3 (V15 m) c).arrAt w cfg3.N := by
  unfold W16; exact Pipeline.withArrays_arr spec3 launch3.win.arr_inj c _ _ w
theorem W16_of_ne (c : Dev nD) (b : Ref sig .tc) (hb : ∀ w, Pipeline.arrRef spec3 w ≠ b) :
    W16 m c (Proc.devRef .tc b) = W15 m c (Proc.devRef .tc b) := by
  unfold W16; exact Pipeline.withArrays_of_ne spec3 c _ _ b hb
abbrev V16 : (c : Dev nD) → (b : Ref sig .tc) → Buf (Elt F) ((c : Thread nD τ).loc b) := fun c b => W16 m c b
theorem hF3 (c : Dev nD) (w : Fin cfg3.W) : (dat3 (V15 m) c).arrAt w cfg3.N = V16 m c (Pipeline.arrRef spec3 w) :=
  (W16_arr m c w).symm
theorem hrest3 (c : Dev nD) : ∀ b, b ∉ Finset.univ.image (Pipeline.arrRef spec3) → V16 m c b = V15 m c b :=
  fun b hb => W16_of_ne m c b fun w e => hb (Finset.mem_image.mpr ⟨w, Finset.mem_univ _, e⟩)

/-! ## What each item leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
/-- Region 0 leaves an input window's array as entered. -/
theorem W3_in (c : Dev nD) (w : Fin cfg0.W) (hin : (cfg0.win w).isOut = false) :
    W3 m c (Proc.devRef .tc (Pipeline.arrRef spec0 w)) = W2 m c (Proc.devRef .tc (Pipeline.arrRef spec0 w)) :=
  (W3_arr m c w).trans (((dat0 (V2 m) c).arrAt_in w hin _).trans (A_eq0 (V2 m) c w))
/-- Region 0 changes only its output arrays. -/
theorem W3_of (c : Dev nD) (r : Ref sig .tc) (h : r ∉ ([main_v2] : List (Ref sig .tc))) : W3 m c r = W2 m c r := by
  by_cases hr : ∀ w, Pipeline.arrRef spec0 w ≠ r
  · exact W3_of_ne m c r hr
  · obtain ⟨w, hw⟩ := not_forall.mp hr
    obtain rfl := not_not.mp hw
    exact W3_in m c w ((by decide : ∀ w : Fin cfg0.W, Pipeline.arrRef spec0 w ∉ ([main_v2] : List (Ref sig .tc)) → (cfg0.win w).isOut = false) w h)
theorem W4_of (c : Dev nD) (r : Ref sig .tc) (h : r ∉ hostOps1_W) : W4 m c r = W3 m c r :=
  StableHlo.after_of_writes_sub hostOps1 _ hostOps1_writes h
theorem W5_of (c : Dev nD) (r : Ref sig .tc) (h : r ∉ hostOps1_1_W) : W5 m c r = W4 m c r :=
  StableHlo.after_of_writes_sub hostOps1_1 _ hostOps1_1_writes h
theorem W6_of (c : Dev nD) (r : Ref sig .tc) (h : r ∉ hostOps1_2_W) : W6 m c r = W5 m c r :=
  StableHlo.after_of_writes_sub hostOps1_2 _ hostOps1_2_writes h
/-- Region 1 leaves an input window's array as entered. -/
theorem W7_in (c : Dev nD) (w : Fin cfg1.W) (hin : (cfg1.win w).isOut = false) :
    W7 m c (Proc.devRef .tc (Pipeline.arrRef spec1 w)) = W6 m c (Proc.devRef .tc (Pipeline.arrRef spec1 w)) :=
  (W7_arr m c w).trans (((dat1 (V6 m) c).arrAt_in w hin _).trans (A_eq1 (V6 m) c w))
/-- Region 1 changes only its output arrays. -/
theorem W7_of (c : Dev nD) (r : Ref sig .tc) (h : r ∉ ([main_v7] : List (Ref sig .tc))) : W7 m c r = W6 m c r := by
  by_cases hr : ∀ w, Pipeline.arrRef spec1 w ≠ r
  · exact W7_of_ne m c r hr
  · obtain ⟨w, hw⟩ := not_forall.mp hr
    obtain rfl := not_not.mp hw
    exact W7_in m c w ((by decide : ∀ w : Fin cfg1.W, Pipeline.arrRef spec1 w ∉ ([main_v7] : List (Ref sig .tc)) → (cfg1.win w).isOut = false) w h)
theorem W8_of (c : Dev nD) (r : Ref sig .tc) (h : r ∉ hostOps2_W) : W8 m c r = W7 m c r :=
  StableHlo.after_of_writes_sub hostOps2 _ hostOps2_writes h
theorem W9_of (c : Dev nD) (r : Ref sig .tc) (h : r ∉ hostOps2_1_W) : W9 m c r = W8 m c r :=
  StableHlo.after_of_writes_sub hostOps2_1 _ hostOps2_1_writes h
theorem W10_of (c : Dev nD) (r : Ref sig .tc) (h : r ∉ hostOps2_2_W) : W10 m c r = W9 m c r :=
  StableHlo.after_of_writes_sub hostOps2_2 _ hostOps2_2_writes h
theorem W11_of (c : Dev nD) (r : Ref sig .tc) (h : r ∉ hostOps2_3_W) : W11 m c r = W10 m c r :=
  StableHlo.after_of_writes_sub hostOps2_3 _ hostOps2_3_writes h
/-- Region 2 leaves an input window's array as entered. -/
theorem W12_in (c : Dev nD) (w : Fin cfg2.W) (hin : (cfg2.win w).isOut = false) :
    W12 m c (Proc.devRef .tc (Pipeline.arrRef spec2 w)) = W11 m c (Proc.devRef .tc (Pipeline.arrRef spec2 w)) :=
  (W12_arr m c w).trans (((dat2 (V11 m) c).arrAt_in w hin _).trans (A_eq2 (V11 m) c w))
/-- Region 2 changes only its output arrays. -/
theorem W12_of (c : Dev nD) (r : Ref sig .tc) (h : r ∉ ([main_v28_0, main_v28_1] : List (Ref sig .tc))) : W12 m c r = W11 m c r := by
  by_cases hr : ∀ w, Pipeline.arrRef spec2 w ≠ r
  · exact W12_of_ne m c r hr
  · obtain ⟨w, hw⟩ := not_forall.mp hr
    obtain rfl := not_not.mp hw
    exact W12_in m c w ((by decide : ∀ w : Fin cfg2.W, Pipeline.arrRef spec2 w ∉ ([main_v28_0, main_v28_1] : List (Ref sig .tc)) → (cfg2.win w).isOut = false) w h)
theorem W13_of (c : Dev nD) (r : Ref sig .tc) (h : r ∉ hostOps3_W) : W13 m c r = W12 m c r :=
  StableHlo.after_of_writes_sub hostOps3 _ hostOps3_writes h
theorem W14_of (c : Dev nD) (r : Ref sig .tc) (h : r ∉ hostOps3_1_W) : W14 m c r = W13 m c r :=
  StableHlo.after_of_writes_sub hostOps3_1 _ hostOps3_1_writes h
theorem W15_of (c : Dev nD) (r : Ref sig .tc) (h : r ∉ hostOps3_2_W) : W15 m c r = W14 m c r :=
  StableHlo.after_of_writes_sub hostOps3_2 _ hostOps3_2_writes h
/-- Region 3 leaves an input window's array as entered. -/
theorem W16_in (c : Dev nD) (w : Fin cfg3.W) (hin : (cfg3.win w).isOut = false) :
    W16 m c (Proc.devRef .tc (Pipeline.arrRef spec3 w)) = W15 m c (Proc.devRef .tc (Pipeline.arrRef spec3 w)) :=
  (W16_arr m c w).trans (((dat3 (V15 m) c).arrAt_in w hin _).trans (A_eq3 (V15 m) c w))
/-- Region 3 changes only its output arrays. -/
theorem W16_of (c : Dev nD) (r : Ref sig .tc) (h : r ∉ ([main_v39_0, main_v39_1] : List (Ref sig .tc))) : W16 m c r = W15 m c r := by
  by_cases hr : ∀ w, Pipeline.arrRef spec3 w ≠ r
  · exact W16_of_ne m c r hr
  · obtain ⟨w, hw⟩ := not_forall.mp hr
    obtain rfl := not_not.mp hw
    exact W16_in m c w ((by decide : ∀ w : Fin cfg3.W, Pipeline.arrRef spec3 w ∉ ([main_v39_0, main_v39_1] : List (Ref sig .tc)) → (cfg3.win w).isOut = false) w h)

/-! ## No item writes an argument -/

theorem W16_main_arg0 (c : Dev nD) : W16 m c main_arg0 = m ((c : Thread nD τ).loc main_arg0) :=
  (W16_of m c main_arg0 (by decide)).trans <| (W15_of m c main_arg0 (by decide)).trans <| (W14_of m c main_arg0 (by decide)).trans <| (W13_of m c main_arg0 (by decide)).trans <| (W12_of m c main_arg0 (by decide)).trans <| (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans <| rfl
theorem W16_main_arg1 (c : Dev nD) : W16 m c main_arg1 = m ((c : Thread nD τ).loc main_arg1) :=
  (W16_of m c main_arg1 (by decide)).trans <| (W15_of m c main_arg1 (by decide)).trans <| (W14_of m c main_arg1 (by decide)).trans <| (W13_of m c main_arg1 (by decide)).trans <| (W12_of m c main_arg1 (by decide)).trans <| (W11_of m c main_arg1 (by decide)).trans <| (W10_of m c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans <| rfl
theorem W16_main_arg2 (c : Dev nD) : W16 m c main_arg2 = m ((c : Thread nD τ).loc main_arg2) :=
  (W16_of m c main_arg2 (by decide)).trans <| (W15_of m c main_arg2 (by decide)).trans <| (W14_of m c main_arg2 (by decide)).trans <| (W13_of m c main_arg2 (by decide)).trans <| (W12_of m c main_arg2 (by decide)).trans <| (W11_of m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans <| rfl
theorem W16_main_arg3 (c : Dev nD) : W16 m c main_arg3 = m ((c : Thread nD τ).loc main_arg3) :=
  (W16_of m c main_arg3 (by decide)).trans <| (W15_of m c main_arg3 (by decide)).trans <| (W14_of m c main_arg3 (by decide)).trans <| (W13_of m c main_arg3 (by decide)).trans <| (W12_of m c main_arg3 (by decide)).trans <| (W11_of m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans <| rfl
theorem W16_main_arg4 (c : Dev nD) : W16 m c main_arg4 = m ((c : Thread nD τ).loc main_arg4) :=
  (W16_of m c main_arg4 (by decide)).trans <| (W15_of m c main_arg4 (by decide)).trans <| (W14_of m c main_arg4 (by decide)).trans <| (W13_of m c main_arg4 (by decide)).trans <| (W12_of m c main_arg4 (by decide)).trans <| (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans <| rfl
theorem W16_main_arg5 (c : Dev nD) : W16 m c main_arg5 = m ((c : Thread nD τ).loc main_arg5) :=
  (W16_of m c main_arg5 (by decide)).trans <| (W15_of m c main_arg5 (by decide)).trans <| (W14_of m c main_arg5 (by decide)).trans <| (W13_of m c main_arg5 (by decide)).trans <| (W12_of m c main_arg5 (by decide)).trans <| (W11_of m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl
theorem W16_main_arg6 (c : Dev nD) : W16 m c main_arg6 = m ((c : Thread nD τ).loc main_arg6) :=
  (W16_of m c main_arg6 (by decide)).trans <| (W15_of m c main_arg6 (by decide)).trans <| (W14_of m c main_arg6 (by decide)).trans <| (W13_of m c main_arg6 (by decide)).trans <| (W12_of m c main_arg6 (by decide)).trans <| (W11_of m c main_arg6 (by decide)).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide)).trans <| rfl
theorem W16_main_arg7 (c : Dev nD) : W16 m c main_arg7 = m ((c : Thread nD τ).loc main_arg7) :=
  (W16_of m c main_arg7 (by decide)).trans <| (W15_of m c main_arg7 (by decide)).trans <| (W14_of m c main_arg7 (by decide)).trans <| (W13_of m c main_arg7 (by decide)).trans <| (W12_of m c main_arg7 (by decide)).trans <| (W11_of m c main_arg7 (by decide)).trans <| (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide)).trans <| rfl
theorem W16_main_arg8 (c : Dev nD) : W16 m c main_arg8 = m ((c : Thread nD τ).loc main_arg8) :=
  (W16_of m c main_arg8 (by decide)).trans <| (W15_of m c main_arg8 (by decide)).trans <| (W14_of m c main_arg8 (by decide)).trans <| (W13_of m c main_arg8 (by decide)).trans <| (W12_of m c main_arg8 (by decide)).trans <| (W11_of m c main_arg8 (by decide)).trans <| (W10_of m c main_arg8 (by decide)).trans <| (W9_of m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide)).trans <| (W2_of m c main_arg8 (by decide)).trans <| (W1_of m c main_arg8 (by decide)).trans <| rfl
theorem W16_main_arg9 (c : Dev nD) : W16 m c main_arg9 = m ((c : Thread nD τ).loc main_arg9) :=
  (W16_of m c main_arg9 (by decide)).trans <| (W15_of m c main_arg9 (by decide)).trans <| (W14_of m c main_arg9 (by decide)).trans <| (W13_of m c main_arg9 (by decide)).trans <| (W12_of m c main_arg9 (by decide)).trans <| (W11_of m c main_arg9 (by decide)).trans <| (W10_of m c main_arg9 (by decide)).trans <| (W9_of m c main_arg9 (by decide)).trans <| (W8_of m c main_arg9 (by decide)).trans <| (W7_of m c main_arg9 (by decide)).trans <| (W6_of m c main_arg9 (by decide)).trans <| (W5_of m c main_arg9 (by decide)).trans <| (W4_of m c main_arg9 (by decide)).trans <| (W3_of m c main_arg9 (by decide)).trans <| (W2_of m c main_arg9 (by decide)).trans <| (W1_of m c main_arg9 (by decide)).trans <| rfl
theorem W16_main_arg10 (c : Dev nD) : W16 m c main_arg10 = m ((c : Thread nD τ).loc main_arg10) :=
  (W16_of m c main_arg10 (by decide)).trans <| (W15_of m c main_arg10 (by decide)).trans <| (W14_of m c main_arg10 (by decide)).trans <| (W13_of m c main_arg10 (by decide)).trans <| (W12_of m c main_arg10 (by decide)).trans <| (W11_of m c main_arg10 (by decide)).trans <| (W10_of m c main_arg10 (by decide)).trans <| (W9_of m c main_arg10 (by decide)).trans <| (W8_of m c main_arg10 (by decide)).trans <| (W7_of m c main_arg10 (by decide)).trans <| (W6_of m c main_arg10 (by decide)).trans <| (W5_of m c main_arg10 (by decide)).trans <| (W4_of m c main_arg10 (by decide)).trans <| (W3_of m c main_arg10 (by decide)).trans <| (W2_of m c main_arg10 (by decide)).trans <| (W1_of m c main_arg10 (by decide)).trans <| rfl
theorem W16_main_arg11 (c : Dev nD) : W16 m c main_arg11 = m ((c : Thread nD τ).loc main_arg11) :=
  (W16_of m c main_arg11 (by decide)).trans <| (W15_of m c main_arg11 (by decide)).trans <| (W14_of m c main_arg11 (by decide)).trans <| (W13_of m c main_arg11 (by decide)).trans <| (W12_of m c main_arg11 (by decide)).trans <| (W11_of m c main_arg11 (by decide)).trans <| (W10_of m c main_arg11 (by decide)).trans <| (W9_of m c main_arg11 (by decide)).trans <| (W8_of m c main_arg11 (by decide)).trans <| (W7_of m c main_arg11 (by decide)).trans <| (W6_of m c main_arg11 (by decide)).trans <| (W5_of m c main_arg11 (by decide)).trans <| (W4_of m c main_arg11 (by decide)).trans <| (W3_of m c main_arg11 (by decide)).trans <| (W2_of m c main_arg11 (by decide)).trans <| (W1_of m c main_arg11 (by decide)).trans <| rfl
theorem W16_main_arg12 (c : Dev nD) : W16 m c main_arg12 = m ((c : Thread nD τ).loc main_arg12) :=
  (W16_of m c main_arg12 (by decide)).trans <| (W15_of m c main_arg12 (by decide)).trans <| (W14_of m c main_arg12 (by decide)).trans <| (W13_of m c main_arg12 (by decide)).trans <| (W12_of m c main_arg12 (by decide)).trans <| (W11_of m c main_arg12 (by decide)).trans <| (W10_of m c main_arg12 (by decide)).trans <| (W9_of m c main_arg12 (by decide)).trans <| (W8_of m c main_arg12 (by decide)).trans <| (W7_of m c main_arg12 (by decide)).trans <| (W6_of m c main_arg12 (by decide)).trans <| (W5_of m c main_arg12 (by decide)).trans <| (W4_of m c main_arg12 (by decide)).trans <| (W3_of m c main_arg12 (by decide)).trans <| (W2_of m c main_arg12 (by decide)).trans <| (W1_of m c main_arg12 (by decide)).trans <| rfl
theorem W16_main_arg13 (c : Dev nD) : W16 m c main_arg13 = m ((c : Thread nD τ).loc main_arg13) :=
  (W16_of m c main_arg13 (by decide)).trans <| (W15_of m c main_arg13 (by decide)).trans <| (W14_of m c main_arg13 (by decide)).trans <| (W13_of m c main_arg13 (by decide)).trans <| (W12_of m c main_arg13 (by decide)).trans <| (W11_of m c main_arg13 (by decide)).trans <| (W10_of m c main_arg13 (by decide)).trans <| (W9_of m c main_arg13 (by decide)).trans <| (W8_of m c main_arg13 (by decide)).trans <| (W7_of m c main_arg13 (by decide)).trans <| (W6_of m c main_arg13 (by decide)).trans <| (W5_of m c main_arg13 (by decide)).trans <| (W4_of m c main_arg13 (by decide)).trans <| (W3_of m c main_arg13 (by decide)).trans <| (W2_of m c main_arg13 (by decide)).trans <| (W1_of m c main_arg13 (by decide)).trans <| rfl
theorem W16_main_arg14 (c : Dev nD) : W16 m c main_arg14 = m ((c : Thread nD τ).loc main_arg14) :=
  (W16_of m c main_arg14 (by decide)).trans <| (W15_of m c main_arg14 (by decide)).trans <| (W14_of m c main_arg14 (by decide)).trans <| (W13_of m c main_arg14 (by decide)).trans <| (W12_of m c main_arg14 (by decide)).trans <| (W11_of m c main_arg14 (by decide)).trans <| (W10_of m c main_arg14 (by decide)).trans <| (W9_of m c main_arg14 (by decide)).trans <| (W8_of m c main_arg14 (by decide)).trans <| (W7_of m c main_arg14 (by decide)).trans <| (W6_of m c main_arg14 (by decide)).trans <| (W5_of m c main_arg14 (by decide)).trans <| (W4_of m c main_arg14 (by decide)).trans <| (W3_of m c main_arg14 (by decide)).trans <| (W2_of m c main_arg14 (by decide)).trans <| (W1_of m c main_arg14 (by decide)).trans <| rfl
theorem W16_main_arg15 (c : Dev nD) : W16 m c main_arg15 = m ((c : Thread nD τ).loc main_arg15) :=
  (W16_of m c main_arg15 (by decide)).trans <| (W15_of m c main_arg15 (by decide)).trans <| (W14_of m c main_arg15 (by decide)).trans <| (W13_of m c main_arg15 (by decide)).trans <| (W12_of m c main_arg15 (by decide)).trans <| (W11_of m c main_arg15 (by decide)).trans <| (W10_of m c main_arg15 (by decide)).trans <| (W9_of m c main_arg15 (by decide)).trans <| (W8_of m c main_arg15 (by decide)).trans <| (W7_of m c main_arg15 (by decide)).trans <| (W6_of m c main_arg15 (by decide)).trans <| (W5_of m c main_arg15 (by decide)).trans <| (W4_of m c main_arg15 (by decide)).trans <| (W3_of m c main_arg15 (by decide)).trans <| (W2_of m c main_arg15 (by decide)).trans <| (W1_of m c main_arg15 (by decide)).trans <| rfl
theorem W16_main_arg16 (c : Dev nD) : W16 m c main_arg16 = m ((c : Thread nD τ).loc main_arg16) :=
  (W16_of m c main_arg16 (by decide)).trans <| (W15_of m c main_arg16 (by decide)).trans <| (W14_of m c main_arg16 (by decide)).trans <| (W13_of m c main_arg16 (by decide)).trans <| (W12_of m c main_arg16 (by decide)).trans <| (W11_of m c main_arg16 (by decide)).trans <| (W10_of m c main_arg16 (by decide)).trans <| (W9_of m c main_arg16 (by decide)).trans <| (W8_of m c main_arg16 (by decide)).trans <| (W7_of m c main_arg16 (by decide)).trans <| (W6_of m c main_arg16 (by decide)).trans <| (W5_of m c main_arg16 (by decide)).trans <| (W4_of m c main_arg16 (by decide)).trans <| (W3_of m c main_arg16 (by decide)).trans <| (W2_of m c main_arg16 (by decide)).trans <| (W1_of m c main_arg16 (by decide)).trans <| rfl
theorem W16_main_arg17 (c : Dev nD) : W16 m c main_arg17 = m ((c : Thread nD τ).loc main_arg17) :=
  (W16_of m c main_arg17 (by decide)).trans <| (W15_of m c main_arg17 (by decide)).trans <| (W14_of m c main_arg17 (by decide)).trans <| (W13_of m c main_arg17 (by decide)).trans <| (W12_of m c main_arg17 (by decide)).trans <| (W11_of m c main_arg17 (by decide)).trans <| (W10_of m c main_arg17 (by decide)).trans <| (W9_of m c main_arg17 (by decide)).trans <| (W8_of m c main_arg17 (by decide)).trans <| (W7_of m c main_arg17 (by decide)).trans <| (W6_of m c main_arg17 (by decide)).trans <| (W5_of m c main_arg17 (by decide)).trans <| (W4_of m c main_arg17 (by decide)).trans <| (W3_of m c main_arg17 (by decide)).trans <| (W2_of m c main_arg17 (by decide)).trans <| (W1_of m c main_arg17 (by decide)).trans <| rfl

/-- The result buffer after the run: the new hidden state the last gate region leaves, every block written back. -/
theorem W16_result (c : Dev nD) : W16 m c main_v39_0 = (dat3 (V15 m) c).arrAt 4 cfg3.N := W16_arr m c 4

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V6 m) c
  | ⟨2, _⟩ => fun c => dat2 (V11 m) c
  | ⟨3, _⟩ => fun c => dat3 (V15 m) c
abbrev 𝒱₀ : Variants := Variants.none
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as an item: from the contents `W` to those after its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W16 m c) ∗ ∃ r, prngReg c r)

/-! ## The regions as items -/

set_option backward.isDefEq.respectTransparency.types false in
/-- Region 0 over the thread state: entered from every unscoped buffer at `W2`, left at `W3`. Its arrays are
    split out of the unscoped buffers and put back at the exit contents; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W6`, left at `W7`. Its arrays are
    split out of the unscoped buffers and put back at the exit contents; the generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W11`, left at `W12`. Its arrays are
    split out of the unscoped buffers and put back at the exit contents; the generator register goes into the
    pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m) c).loose
  hwaits := Pipeline.hwaits_of_owed_zero _ _ _ _ L lv 2 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec2 c (V11 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V11 m c) (V12 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W15`, left at `W16`. Its arrays are
    split out of the unscoped buffers and put back at the exit contents; the generator register goes into the
    pipeline's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V15 m) c).loose
  hwaits := Pipeline.hwaits_of_owed_zero _ _ _ _ L lv 3 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec3 c (V15 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V15 m c) (V16 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

abbrev segs : List (Pipeline.Seg (pcfgs (F := F)) adm (pdats m) () defs₀ 𝒱₀ L lv) :=
  [
    .host (hseg hostOps0 hostOps0_sub hostOps0_fresh (W0 m)),
    .host (hseg hostOps0_1 hostOps0_1_sub hostOps0_1_fresh (W1 m)),
    .region (reg0 m),
    .host (hseg hostOps1 hostOps1_sub hostOps1_fresh (W3 m)),
    .host (hseg hostOps1_1 hostOps1_1_sub hostOps1_1_fresh (W4 m)),
    .host (hseg hostOps1_2 hostOps1_2_sub hostOps1_2_fresh (W5 m)),
    .region (reg1 m),
    .host (hseg hostOps2 hostOps2_sub hostOps2_fresh (W7 m)),
    .host (hseg hostOps2_1 hostOps2_1_sub hostOps2_1_fresh (W8 m)),
    .host (hseg hostOps2_2 hostOps2_2_sub hostOps2_2_fresh (W9 m)),
    .host (hseg hostOps2_3 hostOps2_3_sub hostOps2_3_fresh (W10 m)),
    .region (reg2 m),
    .host (hseg hostOps3 hostOps3_sub hostOps3_fresh (W12 m)),
    .host (hseg hostOps3_1 hostOps3_1_sub hostOps3_1_fresh (W13 m)),
    .host (hseg hostOps3_2 hostOps3_2_sub hostOps3_2_fresh (W14 m)),
    .region (reg3 m) ]

theorem main_run (c : Dev nD) : main (F := F) c = Pipeline.Seg.run (segs m) := (main_chain c).trans (by chain_rfl)

variable (ρ : Dev nD → PrngReg)

set_option backward.isDefEq.respectTransparency.types false in
/-- From any memory with zero counters every weakly fair execution of @main terminates, nothing faulting, and every
    final state holds every unscoped buffer at its contents `W16`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      change iprop(StableHlo.held (c : Thread nD τ) (Pipeline.ucRefs τ sig) (W16 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m c b)
    (hfin := fun c s' => by
      iintro ⟨⟨Hh, -⟩, HSI⟩
      unfold StableHlo.held
      imodintro
      iapply (pointsTo_read_all (Pipeline.ucRefs τ sig) (fun b => (((c : Thread nD τ)).1, b)) (W16 m c) s')
      isplitl [Hh] <;> iassumption)
    (hQ := fun s h => h)

/-- The frame: every argument ends as launched; and the result buffer ends at the last region's new hidden state. -/
theorem run_result : θ_run defs (onTc (τ := τ) (main (F := F))) ⟨m, fun _ => 0, ρ⟩ (fun r => ∀ c : Dev nD,
      r.2.mem ((c.tc : Thread nD τ).loc main_v39_0) = (dat3 (V15 m) c).arrAt 4 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_uc main_v39_0 (by decide))).trans (W16_result m c),
      (h c _ (mem_uc main_arg0 (by decide))).trans (W16_main_arg0 m c),
      (h c _ (mem_uc main_arg1 (by decide))).trans (W16_main_arg1 m c),
      (h c _ (mem_uc main_arg2 (by decide))).trans (W16_main_arg2 m c),
      (h c _ (mem_uc main_arg3 (by decide))).trans (W16_main_arg3 m c),
      (h c _ (mem_uc main_arg4 (by decide))).trans (W16_main_arg4 m c),
      (h c _ (mem_uc main_arg5 (by decide))).trans (W16_main_arg5 m c),
      (h c _ (mem_uc main_arg6 (by decide))).trans (W16_main_arg6 m c),
      (h c _ (mem_uc main_arg7 (by decide))).trans (W16_main_arg7 m c),
      (h c _ (mem_uc main_arg8 (by decide))).trans (W16_main_arg8 m c),
      (h c _ (mem_uc main_arg9 (by decide))).trans (W16_main_arg9 m c),
      (h c _ (mem_uc main_arg10 (by decide))).trans (W16_main_arg10 m c),
      (h c _ (mem_uc main_arg11 (by decide))).trans (W16_main_arg11 m c),
      (h c _ (mem_uc main_arg12 (by decide))).trans (W16_main_arg12 m c),
      (h c _ (mem_uc main_arg13 (by decide))).trans (W16_main_arg13 m c),
      (h c _ (mem_uc main_arg14 (by decide))).trans (W16_main_arg14 m c),
      (h c _ (mem_uc main_arg15 (by decide))).trans (W16_main_arg15 m c),
      (h c _ (mem_uc main_arg16 (by decide))).trans (W16_main_arg16 m c),
      (h c _ (mem_uc main_arg17 (by decide))).trans (W16_main_arg17 m c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => (h c).2) (run_result m ρ)

end Cert.KernelIdeal.Frames

end
-- ==== Proof.Val.RefForms.lean ====
/-
  The reference's building blocks as named functions, and what each of them is at one element when the floats
  are the extended reals: a dense layer is the hyperbolic tangent of a row-by-column sum plus a bias entry, a gate's pre-activation is
  that sum plus the bias entry, the expanded sigmoid is the logistic function, and the cell and hidden updates are
  the usual products and sums of those.
-/
import proofs.«409581_j84387517432579_1_alg».proof.Proof.Gen.ReferenceIdeal
import Idealize.ShloMosaic.Lib.ValueIdx
import Idealize.ShloMosaic.Lib.IdealHost
import Idealize.ShloMosaic.Lib.KernelVsHost
import Idealize.ShloMosaic.Lib.Pipeline.Value
import Idealize.ShloMosaic.PureOps.Ideal.Laws

noncomputable section

namespace Cert.ReferenceIdeal.Forms

open Cert.ReferenceIdeal Idealize.ShloMosaic Idealize.ShloMosaic.ValueIdx
open Cert.ReferenceIdeal.Facts₀
open scoped BigOperators

variable {F : FTy → Type} [FloatOps F]

/-! ## The building blocks -/

/-- The node encoder: `tanh (x · W + b)` over the 50000 node rows. -/
def denseNode (x : FVec F S50000x300 .f32) (W : FVec F S300x128 .f32) (b : FVec F S128 .f32) : FVec F S50000x128 .f32 :=
  Host.tanh (addf (Host.dotGeneral dot_S50000x300_S300x128_S50000x128_1_0_0_1_n_n none x W) (broadcastInDim S50000x128 ![0, 1] bcast_S1x128_S50000x128_0_1 (broadcastInDim S1x128 ![1] bcast_S128_S1x128_1 b)))

/-- The link encoder: `tanh (x · W + b)` over the 800000 link rows. -/
def denseLink (x : FVec F S800000x192 .f32) (W : FVec F S192x128 .f32) (b : FVec F S128 .f32) : FVec F S800000x128 .f32 :=
  Host.tanh (addf (Host.dotGeneral dot_S800000x192_S192x128_S800000x128_1_0_0_1_n_n none x W) (broadcastInDim S800000x128 ![0, 1] bcast_S1x128_S800000x128_0_1 (broadcastInDim S1x128 ![1] bcast_S128_S1x128_1 b)))

/-- A gate's pre-activation: `inp · W + b`. -/
def gatePre (inp : FVec F S50000x512 .f32) (W : FVec F S512x128 .f32) (b : FVec F S128 .f32) : FVec F S50000x128 .f32 :=
  addf (Host.dotGeneral dot_S50000x512_S512x128_S50000x128_1_0_0_1_n_n none inp W) (broadcastInDim S50000x128 ![0, 1] bcast_S1x128_S50000x128_0_1 (broadcastInDim S1x128 ![1] bcast_S128_S1x128_1 b))

/-- The sigmoid in expanded form: `1 / (1 + exp (-z))`. -/
def sig (z : FVec F S50000x128 .f32) : FVec F S50000x128 .f32 :=
  Host.divf (broadcastInDim S50000x128 ![] bcast_S_S50000x128 (constant S_ .f32 0x3F800000#32)) (addf (broadcastInDim S50000x128 ![] bcast_S_S50000x128 (constant S_ .f32 0x3F800000#32)) (Host.exp (Host.negf z)))

/-- The next cell state: forget gate times the old cell plus input gate times the candidate. -/
def cellNext (inp : FVec F S50000x512 .f32) (cold : FVec F S50000x128 .f32)
    (Wi : FVec F S512x128 .f32) (bi : FVec F S128 .f32) (Wf : FVec F S512x128 .f32) (bf : FVec F S128 .f32)
    (Wu : FVec F S512x128 .f32) (bu : FVec F S128 .f32) : FVec F S50000x128 .f32 :=
  addf (mulf (sig (gatePre inp Wf bf)) cold) (mulf (sig (gatePre inp Wi bi)) (Host.tanh (gatePre inp Wu bu)))

/-- The next hidden state: output gate times the hyperbolic tangent of the next cell state. -/
def hidNext (inp : FVec F S50000x512 .f32) (cold : FVec F S50000x128 .f32)
    (Wi : FVec F S512x128 .f32) (bi : FVec F S128 .f32) (Wo : FVec F S512x128 .f32) (bo : FVec F S128 .f32)
    (Wf : FVec F S512x128 .f32) (bf : FVec F S128 .f32) (Wu : FVec F S512x128 .f32) (bu : FVec F S128 .f32) :
    FVec F S50000x128 .f32 :=
  mulf (sig (gatePre inp Wo bo)) (Host.tanh (cellNext inp cold Wi bi Wf bf Wu bu))

/-! ## The reads at an index, at the extended reals -/

/-! ### The product of the node features by their weights: `[50000, 300] × [300, 128]`, one contracted axis

The four coordinates of the two operand indices at result index `i` and contraction index `q`: the left
operand reads `i`'s row and `q`, the right one `q` and `i`'s column. -/

theorem lhs_node_0 (i : S50000x128.Idx) (q : dot_S50000x300_S300x128_S50000x128_1_0_0_1_n_n.contr.Idx) :
    (dot_S50000x300_S300x128_S50000x128_1_0_0_1_n_n.lhsIdx i q 0).val = (i 0).val := by
  unfold DotDims.lhsIdx
  rw [dif_neg (show ¬(0 : Fin S50000x300.rank) ∈ dot_S50000x300_S300x128_S50000x128_1_0_0_1_n_n.lhsBatch by decide),
    dif_pos (show (0 : Fin S50000x300.rank) ∈ dot_S50000x300_S300x128_S50000x128_1_0_0_1_n_n.lhsNonContracting by decide)]
  rfl
theorem lhs_node_1 (i : S50000x128.Idx) (q : dot_S50000x300_S300x128_S50000x128_1_0_0_1_n_n.contr.Idx) :
    (dot_S50000x300_S300x128_S50000x128_1_0_0_1_n_n.lhsIdx i q 1).val = (q ⟨0, by decide⟩).val :=
  dot_S50000x300_S300x128_S50000x128_1_0_0_1_n_n.lhsIdx_val_of_single rfl i q
theorem rhs_node_0 (i : S50000x128.Idx) (q : dot_S50000x300_S300x128_S50000x128_1_0_0_1_n_n.contr.Idx) :
    (dot_S50000x300_S300x128_S50000x128_1_0_0_1_n_n.rhsIdx i q 0).val = (q ⟨0, by decide⟩).val :=
  dot_S50000x300_S300x128_S50000x128_1_0_0_1_n_n.rhsIdx_val_of_single rfl i q
theorem rhs_node_1 (i : S50000x128.Idx) (q : dot_S50000x300_S300x128_S50000x128_1_0_0_1_n_n.contr.Idx) :
    (dot_S50000x300_S300x128_S50000x128_1_0_0_1_n_n.rhsIdx i q 1).val = (i 1).val := by
  unfold DotDims.rhsIdx
  rw [dif_neg (show ¬(1 : Fin S300x128.rank) ∈ dot_S50000x300_S300x128_S50000x128_1_0_0_1_n_n.rhsBatch by decide),
    dif_pos (show (1 : Fin S300x128.rank) ∈ dot_S50000x300_S300x128_S50000x128_1_0_0_1_n_n.rhsNonContracting by decide)]
  rfl

/-- At the extended reals the product read at `(p, q)` is the sum over the 300 contracted positions of the row's
    entry times the column's. -/
theorem dot_node_apply (x : FVec Ideal S50000x300 .f32) (W : FVec Ideal S300x128 .f32) (p : Fin 50000) (q : Fin 128) :
    Host.dotGeneral (F := Ideal) dot_S50000x300_S300x128_S50000x128_1_0_0_1_n_n none x W (ix2 p q)
      = ∑ k : Fin 300, x (ix2 p k) * W (ix2 k q) := by
  simp only [Host.dotGeneral]
  rw [Ideal.dotGeneral_apply, ← Equiv.sum_comp (contrEquiv1 dot_S50000x300_S300x128_S50000x128_1_0_0_1_n_n 300 rfl rfl).symm]
  refine Finset.sum_congr rfl fun k _ => ?_
  have hk := contrEquiv1_symm_val dot_S50000x300_S300x128_S50000x128_1_0_0_1_n_n 300 rfl rfl k
  have el : dot_S50000x300_S300x128_S50000x128_1_0_0_1_n_n.lhsIdx (ix2 p q) ((contrEquiv1 dot_S50000x300_S300x128_S50000x128_1_0_0_1_n_n 300 rfl rfl).symm k) = ix2 p k :=
    funext fun a => Fin.ext (by
      match a with
      | ⟨0, _⟩ => exact lhs_node_0 _ _
      | ⟨1, _⟩ => exact (lhs_node_1 _ _).trans hk)
  have er : dot_S50000x300_S300x128_S50000x128_1_0_0_1_n_n.rhsIdx (ix2 p q) ((contrEquiv1 dot_S50000x300_S300x128_S50000x128_1_0_0_1_n_n 300 rfl rfl).symm k) = ix2 k q :=
    funext fun a => Fin.ext (by
      match a with
      | ⟨0, _⟩ => exact (rhs_node_0 _ _).trans hk
      | ⟨1, _⟩ => exact rhs_node_1 _ _)
  rw [el, er]

/-! ### The product of the link features by their weights: `[800000, 192] × [192, 128]`, one contracted axis

The four coordinates of the two operand indices at result index `i` and contraction index `q`: the left
operand reads `i`'s row and `q`, the right one `q` and `i`'s column. -/

theorem lhs_link_0 (i : S800000x128.Idx) (q : dot_S800000x192_S192x128_S800000x128_1_0_0_1_n_n.contr.Idx) :
    (dot_S800000x192_S192x128_S800000x128_1_0_0_1_n_n.lhsIdx i q 0).val = (i 0).val := by
  unfold DotDims.lhsIdx
  rw [dif_neg (show ¬(0 : Fin S800000x192.rank) ∈ dot_S800000x192_S192x128_S800000x128_1_0_0_1_n_n.lhsBatch by decide),
    dif_pos (show (0 : Fin S800000x192.rank) ∈ dot_S800000x192_S192x128_S800000x128_1_0_0_1_n_n.lhsNonContracting by decide)]
  rfl
theorem lhs_link_1 (i : S800000x128.Idx) (q : dot_S800000x192_S192x128_S800000x128_1_0_0_1_n_n.contr.Idx) :
    (dot_S800000x192_S192x128_S800000x128_1_0_0_1_n_n.lhsIdx i q 1).val = (q ⟨0, by decide⟩).val :=
  dot_S800000x192_S192x128_S800000x128_1_0_0_1_n_n.lhsIdx_val_of_single rfl i q
theorem rhs_link_0 (i : S800000x128.Idx) (q : dot_S800000x192_S192x128_S800000x128_1_0_0_1_n_n.contr.Idx) :
    (dot_S800000x192_S192x128_S800000x128_1_0_0_1_n_n.rhsIdx i q 0).val = (q ⟨0, by decide⟩).val :=
  dot_S800000x192_S192x128_S800000x128_1_0_0_1_n_n.rhsIdx_val_of_single rfl i q
theorem rhs_link_1 (i : S800000x128.Idx) (q : dot_S800000x192_S192x128_S800000x128_1_0_0_1_n_n.contr.Idx) :
    (dot_S800000x192_S192x128_S800000x128_1_0_0_1_n_n.rhsIdx i q 1).val = (i 1).val := by
  unfold DotDims.rhsIdx
  rw [dif_neg (show ¬(1 : Fin S192x128.rank) ∈ dot_S800000x192_S192x128_S800000x128_1_0_0_1_n_n.rhsBatch by decide),
    dif_pos (show (1 : Fin S192x128.rank) ∈ dot_S800000x192_S192x128_S800000x128_1_0_0_1_n_n.rhsNonContracting by decide)]
  rfl

/-- At the extended reals the product read at `(p, q)` is the sum over the 192 contracted positions of the row's
    entry times the column's. -/
theorem dot_link_apply (x : FVec Ideal S800000x192 .f32) (W : FVec Ideal S192x128 .f32) (p : Fin 800000) (q : Fin 128) :
    Host.dotGeneral (F := Ideal) dot_S800000x192_S192x128_S800000x128_1_0_0_1_n_n none x W (ix2 p q)
      = ∑ k : Fin 192, x (ix2 p k) * W (ix2 k q) := by
  simp only [Host.dotGeneral]
  rw [Ideal.dotGeneral_apply, ← Equiv.sum_comp (contrEquiv1 dot_S800000x192_S192x128_S800000x128_1_0_0_1_n_n 192 rfl rfl).symm]
  refine Finset.sum_congr rfl fun k _ => ?_
  have hk := contrEquiv1_symm_val dot_S800000x192_S192x128_S800000x128_1_0_0_1_n_n 192 rfl rfl k
  have el : dot_S800000x192_S192x128_S800000x128_1_0_0_1_n_n.lhsIdx (ix2 p q) ((contrEquiv1 dot_S800000x192_S192x128_S800000x128_1_0_0_1_n_n 192 rfl rfl).symm k) = ix2 p k :=
    funext fun a => Fin.ext (by
      match a with
      | ⟨0, _⟩ => exact lhs_link_0 _ _
      | ⟨1, _⟩ => exact (lhs_link_1 _ _).trans hk)
  have er : dot_S800000x192_S192x128_S800000x128_1_0_0_1_n_n.rhsIdx (ix2 p q) ((contrEquiv1 dot_S800000x192_S192x128_S800000x128_1_0_0_1_n_n 192 rfl rfl).symm k) = ix2 k q :=
    funext fun a => Fin.ext (by
      match a with
      | ⟨0, _⟩ => exact (rhs_link_0 _ _).trans hk
      | ⟨1, _⟩ => exact rhs_link_1 _ _)
  rw [el, er]

/-! ### The product of a gate's input by its weights: `[50000, 512] × [512, 128]`, one contracted axis

The four coordinates of the two operand indices at result index `i` and contraction index `q`: the left
operand reads `i`'s row and `q`, the right one `q` and `i`'s column. -/

theorem lhs_gate_0 (i : S50000x128.Idx) (q : dot_S50000x512_S512x128_S50000x128_1_0_0_1_n_n.contr.Idx) :
    (dot_S50000x512_S512x128_S50000x128_1_0_0_1_n_n.lhsIdx i q 0).val = (i 0).val := by
  unfold DotDims.lhsIdx
  rw [dif_neg (show ¬(0 : Fin S50000x512.rank) ∈ dot_S50000x512_S512x128_S50000x128_1_0_0_1_n_n.lhsBatch by decide),
    dif_pos (show (0 : Fin S50000x512.rank) ∈ dot_S50000x512_S512x128_S50000x128_1_0_0_1_n_n.lhsNonContracting by decide)]
  rfl
theorem lhs_gate_1 (i : S50000x128.Idx) (q : dot_S50000x512_S512x128_S50000x128_1_0_0_1_n_n.contr.Idx) :
    (dot_S50000x512_S512x128_S50000x128_1_0_0_1_n_n.lhsIdx i q 1).val = (q ⟨0, by decide⟩).val :=
  dot_S50000x512_S512x128_S50000x128_1_0_0_1_n_n.lhsIdx_val_of_single rfl i q
theorem rhs_gate_0 (i : S50000x128.Idx) (q : dot_S50000x512_S512x128_S50000x128_1_0_0_1_n_n.contr.Idx) :
    (dot_S50000x512_S512x128_S50000x128_1_0_0_1_n_n.rhsIdx i q 0).val = (q ⟨0, by decide⟩).val :=
  dot_S50000x512_S512x128_S50000x128_1_0_0_1_n_n.rhsIdx_val_of_single rfl i q
theorem rhs_gate_1 (i : S50000x128.Idx) (q : dot_S50000x512_S512x128_S50000x128_1_0_0_1_n_n.contr.Idx) :
    (dot_S50000x512_S512x128_S50000x128_1_0_0_1_n_n.rhsIdx i q 1).val = (i 1).val := by
  unfold DotDims.rhsIdx
  rw [dif_neg (show ¬(1 : Fin S512x128.rank) ∈ dot_S50000x512_S512x128_S50000x128_1_0_0_1_n_n.rhsBatch by decide),
    dif_pos (show (1 : Fin S512x128.rank) ∈ dot_S50000x512_S512x128_S50000x128_1_0_0_1_n_n.rhsNonContracting by decide)]
  rfl

/-- At the extended reals the product read at `(p, q)` is the sum over the 512 contracted positions of the row's
    entry times the column's. -/
theorem dot_gate_apply (x : FVec Ideal S50000x512 .f32) (W : FVec Ideal S512x128 .f32) (p : Fin 50000) (q : Fin 128) :
    Host.dotGeneral (F := Ideal) dot_S50000x512_S512x128_S50000x128_1_0_0_1_n_n none x W (ix2 p q)
      = ∑ k : Fin 512, x (ix2 p k) * W (ix2 k q) := by
  simp only [Host.dotGeneral]
  rw [Ideal.dotGeneral_apply, ← Equiv.sum_comp (contrEquiv1 dot_S50000x512_S512x128_S50000x128_1_0_0_1_n_n 512 rfl rfl).symm]
  refine Finset.sum_congr rfl fun k _ => ?_
  have hk := contrEquiv1_symm_val dot_S50000x512_S512x128_S50000x128_1_0_0_1_n_n 512 rfl rfl k
  have el : dot_S50000x512_S512x128_S50000x128_1_0_0_1_n_n.lhsIdx (ix2 p q) ((contrEquiv1 dot_S50000x512_S512x128_S50000x128_1_0_0_1_n_n 512 rfl rfl).symm k) = ix2 p k :=
    funext fun a => Fin.ext (by
      match a with
      | ⟨0, _⟩ => exact lhs_gate_0 _ _
      | ⟨1, _⟩ => exact (lhs_gate_1 _ _).trans hk)
  have er : dot_S50000x512_S512x128_S50000x128_1_0_0_1_n_n.rhsIdx (ix2 p q) ((contrEquiv1 dot_S50000x512_S512x128_S50000x128_1_0_0_1_n_n 512 rfl rfl).symm k) = ix2 k q :=
    funext fun a => Fin.ext (by
      match a with
      | ⟨0, _⟩ => exact (rhs_gate_0 _ _).trans hk
      | ⟨1, _⟩ => exact rhs_gate_1 _ _)
  rw [el, er]

/-! ### The bias laid along every row, and the constant one -/

/-- A bias vector made a one-row matrix and that row repeated down `m` rows reads, at `(p, q)`, the bias's entry `q`. -/
theorem rowBias_apply {α : Type} {m : Nat} (hbc : S1x128.BroadcastsInDim ⟨2, ![m, 128]⟩ ![0, 1]) (b : S128.Idx → α)
    (p : Fin m) (q : Fin 128) :
    broadcastInDim ⟨2, ![m, 128]⟩ ![0, 1] hbc (broadcastInDim S1x128 ![1] bcast_S128_S1x128_1 b) (ix2 p q) = b (ix1 q) := by
  refine (broadcastInDim_oneRow_apply hbc _ p q).trans ?_
  refine broadcastInDim_apply ![1] bcast_S128_S1x128_1 b (ix2 (0 : Fin 1) q) (ix1 q) ?_
  intro a
  match a with
  | ⟨0, _⟩ =>
    show q.val = if (128 : ℕ) = 1 then 0 else q.val
    rw [if_neg (by decide)]

/-- The scalar whose word is `0x3F800000`, repeated over the whole array, reads one everywhere. -/
theorem ones_apply (i : S50000x128.Idx) :
    broadcastInDim S50000x128 ![] bcast_S_S50000x128 (constant (F := Ideal) S_ .f32 0x3F800000#32) i = 1 := by
  rw [broadcastInDim_scalar_apply, constant_apply, Ideal.ofBits_one_f32]

/-! ### The blocks -/

theorem denseNode_apply (x : FVec Ideal S50000x300 .f32) (W : FVec Ideal S300x128 .f32) (b : FVec Ideal S128 .f32)
    (p : Fin 50000) (q : Fin 128) :
    denseNode (F := Ideal) x W b (ix2 p q) = Ideal.tanh ((∑ k : Fin 300, x (ix2 p k) * W (ix2 k q)) + b (ix1 q)) := by
  unfold denseNode
  exact congrArg Ideal.tanh (congrArg₂ (· + ·) (dot_node_apply x W p q) (rowBias_apply bcast_S1x128_S50000x128_0_1 b p q))

theorem denseLink_apply (x : FVec Ideal S800000x192 .f32) (W : FVec Ideal S192x128 .f32) (b : FVec Ideal S128 .f32)
    (p : Fin 800000) (q : Fin 128) :
    denseLink (F := Ideal) x W b (ix2 p q) = Ideal.tanh ((∑ k : Fin 192, x (ix2 p k) * W (ix2 k q)) + b (ix1 q)) := by
  unfold denseLink
  exact congrArg Ideal.tanh (congrArg₂ (· + ·) (dot_link_apply x W p q) (rowBias_apply bcast_S1x128_S800000x128_0_1 b p q))

theorem gatePre_apply (inp : FVec Ideal S50000x512 .f32) (W : FVec Ideal S512x128 .f32) (b : FVec Ideal S128 .f32)
    (p : Fin 50000) (q : Fin 128) :
    gatePre (F := Ideal) inp W b (ix2 p q) = (∑ k : Fin 512, inp (ix2 p k) * W (ix2 k q)) + b (ix1 q) := by
  unfold gatePre
  exact congrArg₂ (· + ·) (dot_gate_apply inp W p q) (rowBias_apply bcast_S1x128_S50000x128_0_1 b p q)

/-- The expanded sigmoid is the logistic function of the element. -/
theorem sig_apply (z : FVec Ideal S50000x128 .f32) (i : S50000x128.Idx) :
    sig (F := Ideal) z i = Ideal.logistic (z i) := by
  unfold sig
  show Ideal.div (broadcastInDim S50000x128 ![] bcast_S_S50000x128 (constant (F := Ideal) S_ .f32 0x3F800000#32) i)
      (broadcastInDim S50000x128 ![] bcast_S_S50000x128 (constant (F := Ideal) S_ .f32 0x3F800000#32) i + Ideal.exp (-(z i)))
    = Ideal.logistic (z i)
  rw [ones_apply]
  rfl

theorem cellNext_apply (inp : FVec Ideal S50000x512 .f32) (cold : FVec Ideal S50000x128 .f32)
    (Wi : FVec Ideal S512x128 .f32) (bi : FVec Ideal S128 .f32) (Wf : FVec Ideal S512x128 .f32) (bf : FVec Ideal S128 .f32)
    (Wu : FVec Ideal S512x128 .f32) (bu : FVec Ideal S128 .f32) (p : Fin 50000) (q : Fin 128) :
    cellNext (F := Ideal) inp cold Wi bi Wf bf Wu bu (ix2 p q)
      = Ideal.logistic (gatePre inp Wf bf (ix2 p q)) * cold (ix2 p q)
        + Ideal.logistic (gatePre inp Wi bi (ix2 p q)) * Ideal.tanh (gatePre inp Wu bu (ix2 p q)) := by
  unfold cellNext
  show sig (F := Ideal) (gatePre inp Wf bf) (ix2 p q) * cold (ix2 p q)
      + sig (F := Ideal) (gatePre inp Wi bi) (ix2 p q) * Ideal.tanh (gatePre inp Wu bu (ix2 p q)) = _
  rw [sig_apply, sig_apply]

theorem hidNext_apply (inp : FVec Ideal S50000x512 .f32) (cold : FVec Ideal S50000x128 .f32)
    (Wi : FVec Ideal S512x128 .f32) (bi : FVec Ideal S128 .f32) (Wo : FVec Ideal S512x128 .f32) (bo : FVec Ideal S128 .f32)
    (Wf : FVec Ideal S512x128 .f32) (bf : FVec Ideal S128 .f32) (Wu : FVec Ideal S512x128 .f32) (bu : FVec Ideal S128 .f32)
    (p : Fin 50000) (q : Fin 128) :
    hidNext (F := Ideal) inp cold Wi bi Wo bo Wf bf Wu bu (ix2 p q)
      = Ideal.logistic (gatePre inp Wo bo (ix2 p q)) * Ideal.tanh (cellNext inp cold Wi bi Wf bf Wu bu (ix2 p q)) := by
  unfold hidNext
  show sig (F := Ideal) (gatePre inp Wo bo) (ix2 p q) * Ideal.tanh (cellNext inp cold Wi bi Wf bf Wu bu (ix2 p q)) = _
  rw [sig_apply]

end Cert.ReferenceIdeal.Forms
-- ==== Proof.Val.RefChain.lean ====
/-
  The rest of the reference's building blocks as named functions (the three row look-ups with negative indices wrapped
  once, the sum of link rows into their end nodes, the two joins of column blocks), the reference's result as their
  composition over its eighteen arguments (node encoding, link encoding, the two sums of link encodings per node, and
  two steps of the gated recurrence whose input joins those sums with the sums of the neighbours' hidden states), and
  the reference's run restated over that composition.
-/
import proofs.«409581_j84387517432579_1_alg».proof.Proof.Val.RefForms
import proofs.«409581_j84387517432579_1_alg».proof.Proof.Gen.ReferenceIdeal.Run

noncomputable section

namespace Cert.ReferenceIdeal.Forms

open Cert.ReferenceIdeal Cert.ReferenceIdeal.Value Idealize.ShloMosaic Idealize.ShloMosaic.ValueIdx
open Idealize.ShloMosaic.TcCoe Idealize.SL.Sem Idealize.ShloMosaic.StableHlo
open Cert.ReferenceIdeal.Facts₀

variable {F : FTy → Type} [FloatOps F]

/-! ## The remaining building blocks -/

/-- Rows of the token table looked up at the node indices, a negative index wrapped once by the table's height. -/
def takeTok (x : FVec F S50000x300 .f32) (idx : IVec S50000 32) : FVec F S50000x300 .f32 :=
  Host.gather gather_S50000x300_S50000x1_S50000x300_1_0_n_n_0_1_1300 x (broadcastInDim S50000x1 ![0] bcast_S50000_S50000x1_0 (select (cmpi .slt idx (broadcastInDim S50000 ![] bcast_S_S50000 (constantI S_ 32 0#32))) (addi idx (broadcastInDim S50000 ![] bcast_S_S50000 (constantI S_ 32 50000#32))) idx))

/-- Rows of the link-type table looked up at the link indices, a negative index wrapped once by the table's height. -/
def takeLink (x : FVec F S50x64 .f32) (idx : IVec S800000 32) : FVec F S800000x64 .f32 :=
  Host.gather gather_S50x64_S800000x1_S800000x64_1_0_n_n_0_1_164 x (broadcastInDim S800000x1 ![0] bcast_S800000_S800000x1_0 (select (cmpi .slt idx (broadcastInDim S800000 ![] bcast_S_S800000 (constantI S_ 32 0#32))) (addi idx (broadcastInDim S800000 ![] bcast_S_S800000 (constantI S_ 32 50#32))) idx))

/-- Node rows looked up at one end of every link, a negative index wrapped once by the number of nodes. -/
def takeNode (x : FVec F S50000x128 .f32) (idx : IVec S800000 32) : FVec F S800000x128 .f32 :=
  Host.gather gather_S50000x128_S800000x1_S800000x128_1_0_n_n_0_1_1128 x (broadcastInDim S800000x1 ![0] bcast_S800000_S800000x1_0 (select (cmpi .slt idx (broadcastInDim S800000 ![] bcast_S_S800000 (constantI S_ 32 0#32))) (addi idx (broadcastInDim S800000 ![] bcast_S_S800000 (constantI S_ 32 50000#32))) idx))

/-- The all-zero node array. -/
def zeros : FVec F S50000x128 .f32 :=
  broadcastInDim S50000x128 ![] bcast_S_S50000x128 (constant S_ .f32 0x00000000#32)

/-- Every link's row added into the node row its index names, starting from zero. -/
def segSum (idx : IVec S800000 32) (upd : FVec F S800000x128 .f32) : FVec F S50000x128 .f32 :=
  Host.scatterAdd scatter_S50000x128_S800000x1_S800000x128_1_0_0_1 zeros (broadcastInDim S800000x1 ![0] bcast_S800000_S800000x1_0 idx) upd

/-- Two column blocks side by side. -/
def cat2 (a : FVec F S800000x64 .f32) (b : FVec F S800000x128 .f32) : FVec F S800000x192 .f32 :=
  concatenate S800000x192 1 [⟨S800000x64, a⟩, ⟨S800000x128, b⟩] concatenates_S800000x64_S800000x128_S800000x192_d1

/-- Four column blocks side by side. -/
def cat4 (a b c d : FVec F S50000x128 .f32) : FVec F S50000x512 .f32 :=
  concatenate S50000x512 1 [⟨S50000x128, a⟩, ⟨S50000x128, b⟩, ⟨S50000x128, c⟩, ⟨S50000x128, d⟩] concatenates_S50000x128_S50000x128_S50000x128_S50000x128_S50000x512_d1

/-! ## The reference's values as a composition

Every function below takes the same eighteen arguments, in the reference's order (an argument a function does not use
is carried along, so that all of them are applied alike). -/

/-- The encoded nodes. -/
def node (a0 : IVec S50000 32) (a1 a2 a3 : IVec S800000 32) (a4 : FVec F S50000x300 .f32) (a5 : FVec F S50x64 .f32)
    (a6 : FVec F S300x128 .f32) (a7 : FVec F S128 .f32) (a8 : FVec F S192x128 .f32) (a9 : FVec F S128 .f32)
    (a10 : FVec F S512x128 .f32) (a11 : FVec F S128 .f32) (a12 : FVec F S512x128 .f32) (a13 : FVec F S128 .f32)
    (a14 : FVec F S512x128 .f32) (a15 : FVec F S128 .f32) (a16 : FVec F S512x128 .f32) (a17 : FVec F S128 .f32) : FVec F S50000x128 .f32 :=
  denseNode (takeTok a4 a0) a6 a7

/-- The encoded links: the link type's row joined with the encoded node at the link's first end. -/
def linkX (a0 : IVec S50000 32) (a1 a2 a3 : IVec S800000 32) (a4 : FVec F S50000x300 .f32) (a5 : FVec F S50x64 .f32)
    (a6 : FVec F S300x128 .f32) (a7 : FVec F S128 .f32) (a8 : FVec F S192x128 .f32) (a9 : FVec F S128 .f32)
    (a10 : FVec F S512x128 .f32) (a11 : FVec F S128 .f32) (a12 : FVec F S512x128 .f32) (a13 : FVec F S128 .f32)
    (a14 : FVec F S512x128 .f32) (a15 : FVec F S128 .f32) (a16 : FVec F S512x128 .f32) (a17 : FVec F S128 .f32) : FVec F S800000x128 .f32 :=
  denseLink (cat2 (takeLink a5 a1) (takeNode (node a0 a1 a2 a3 a4 a5 a6 a7 a8 a9 a10 a11 a12 a13 a14 a15 a16 a17) a2)) a8 a9

/-- The encoded links summed into their second ends. -/
def xIn (a0 : IVec S50000 32) (a1 a2 a3 : IVec S800000 32) (a4 : FVec F S50000x300 .f32) (a5 : FVec F S50x64 .f32)
    (a6 : FVec F S300x128 .f32) (a7 : FVec F S128 .f32) (a8 : FVec F S192x128 .f32) (a9 : FVec F S128 .f32)
    (a10 : FVec F S512x128 .f32) (a11 : FVec F S128 .f32) (a12 : FVec F S512x128 .f32) (a13 : FVec F S128 .f32)
    (a14 : FVec F S512x128 .f32) (a15 : FVec F S128 .f32) (a16 : FVec F S512x128 .f32) (a17 : FVec F S128 .f32) : FVec F S50000x128 .f32 :=
  segSum a3 (linkX a0 a1 a2 a3 a4 a5 a6 a7 a8 a9 a10 a11 a12 a13 a14 a15 a16 a17)

/-- The encoded links summed into their first ends. -/
def xOut (a0 : IVec S50000 32) (a1 a2 a3 : IVec S800000 32) (a4 : FVec F S50000x300 .f32) (a5 : FVec F S50x64 .f32)
    (a6 : FVec F S300x128 .f32) (a7 : FVec F S128 .f32) (a8 : FVec F S192x128 .f32) (a9 : FVec F S128 .f32)
    (a10 : FVec F S512x128 .f32) (a11 : FVec F S128 .f32) (a12 : FVec F S512x128 .f32) (a13 : FVec F S128 .f32)
    (a14 : FVec F S512x128 .f32) (a15 : FVec F S128 .f32) (a16 : FVec F S512x128 .f32) (a17 : FVec F S128 .f32) : FVec F S50000x128 .f32 :=
  segSum a2 (linkX a0 a1 a2 a3 a4 a5 a6 a7 a8 a9 a10 a11 a12 a13 a14 a15 a16 a17)

/-- The recurrence's input at hidden state `h`: the two link sums and the two sums of the neighbours' hidden rows. -/
def inpOf (a0 : IVec S50000 32) (a1 a2 a3 : IVec S800000 32) (a4 : FVec F S50000x300 .f32) (a5 : FVec F S50x64 .f32)
    (a6 : FVec F S300x128 .f32) (a7 : FVec F S128 .f32) (a8 : FVec F S192x128 .f32) (a9 : FVec F S128 .f32)
    (a10 : FVec F S512x128 .f32) (a11 : FVec F S128 .f32) (a12 : FVec F S512x128 .f32) (a13 : FVec F S128 .f32)
    (a14 : FVec F S512x128 .f32) (a15 : FVec F S128 .f32) (a16 : FVec F S512x128 .f32) (a17 : FVec F S128 .f32)
    (h : FVec F S50000x128 .f32) : FVec F S50000x512 .f32 :=
  cat4 (xIn a0 a1 a2 a3 a4 a5 a6 a7 a8 a9 a10 a11 a12 a13 a14 a15 a16 a17) (xOut a0 a1 a2 a3 a4 a5 a6 a7 a8 a9 a10 a11 a12 a13 a14 a15 a16 a17) (segSum a3 (takeNode h a2)) (segSum a2 (takeNode h a3))

/-- The cell state after the first step, from zero states. -/
def c1 (a0 : IVec S50000 32) (a1 a2 a3 : IVec S800000 32) (a4 : FVec F S50000x300 .f32) (a5 : FVec F S50x64 .f32)
    (a6 : FVec F S300x128 .f32) (a7 : FVec F S128 .f32) (a8 : FVec F S192x128 .f32) (a9 : FVec F S128 .f32)
    (a10 : FVec F S512x128 .f32) (a11 : FVec F S128 .f32) (a12 : FVec F S512x128 .f32) (a13 : FVec F S128 .f32)
    (a14 : FVec F S512x128 .f32) (a15 : FVec F S128 .f32) (a16 : FVec F S512x128 .f32) (a17 : FVec F S128 .f32) : FVec F S50000x128 .f32 :=
  cellNext (inpOf a0 a1 a2 a3 a4 a5 a6 a7 a8 a9 a10 a11 a12 a13 a14 a15 a16 a17 zeros) zeros a10 a11 a14 a15 a16 a17

/-- The hidden state after the first step, from zero states. -/
def h1 (a0 : IVec S50000 32) (a1 a2 a3 : IVec S800000 32) (a4 : FVec F S50000x300 .f32) (a5 : FVec F S50x64 .f32)
    (a6 : FVec F S300x128 .f32) (a7 : FVec F S128 .f32) (a8 : FVec F S192x128 .f32) (a9 : FVec F S128 .f32)
    (a10 : FVec F S512x128 .f32) (a11 : FVec F S128 .f32) (a12 : FVec F S512x128 .f32) (a13 : FVec F S128 .f32)
    (a14 : FVec F S512x128 .f32) (a15 : FVec F S128 .f32) (a16 : FVec F S512x128 .f32) (a17 : FVec F S128 .f32) : FVec F S50000x128 .f32 :=
  hidNext (inpOf a0 a1 a2 a3 a4 a5 a6 a7 a8 a9 a10 a11 a12 a13 a14 a15 a16 a17 zeros) zeros a10 a11 a12 a13 a14 a15 a16 a17

/-- The reference's result: the hidden state after the second step. -/
def out (a0 : IVec S50000 32) (a1 a2 a3 : IVec S800000 32) (a4 : FVec F S50000x300 .f32) (a5 : FVec F S50x64 .f32)
    (a6 : FVec F S300x128 .f32) (a7 : FVec F S128 .f32) (a8 : FVec F S192x128 .f32) (a9 : FVec F S128 .f32)
    (a10 : FVec F S512x128 .f32) (a11 : FVec F S128 .f32) (a12 : FVec F S512x128 .f32) (a13 : FVec F S128 .f32)
    (a14 : FVec F S512x128 .f32) (a15 : FVec F S128 .f32) (a16 : FVec F S512x128 .f32) (a17 : FVec F S128 .f32) : FVec F S50000x128 .f32 :=
  hidNext (inpOf a0 a1 a2 a3 a4 a5 a6 a7 a8 a9 a10 a11 a12 a13 a14 a15 a16 a17 (h1 a0 a1 a2 a3 a4 a5 a6 a7 a8 a9 a10 a11 a12 a13 a14 a15 a16 a17)) (c1 a0 a1 a2 a3 a4 a5 a6 a7 a8 a9 a10 a11 a12 a13 a14 a15 a16 a17) a10 a11 a12 a13 a14 a15 a16 a17

/-! ## The run's named terms are these functions of the arguments -/

section Named
variable (V0 : Valuation τ Cert.ReferenceIdeal.sig (Elt F))

theorem res_v31_eq : res_main_v31 V0 = linkX (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := rfl

theorem res_v34_eq : res_main_v34 V0 = xIn (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  unfold res_main_v34 xIn
  rw [res_v31_eq]
  rfl

theorem res_v37_eq : res_main_v37 V0 = xOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  unfold res_main_v37 xOut
  rw [res_v31_eq]
  rfl

theorem res_v38_eq : res_main_v38 V0 = zeros (F := F) := rfl

theorem res_v60_eq : res_main_v60 V0 = inpOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) zeros := by
  unfold res_main_v60 inpOf
  rw [res_v34_eq, res_v37_eq, res_v38_eq]
  rfl

theorem res_v98_eq : res_main_v98 V0 = c1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  unfold res_main_v98 c1
  rw [res_v60_eq]
  rfl

theorem res_v100_eq : res_main_v100 V0 = h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  unfold res_main_v100 h1
  rw [res_v98_eq, res_v60_eq]
  rfl

theorem res_v121_eq : res_main_v121 V0 = inpOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))) := by
  unfold res_main_v121 inpOf
  rw [res_v34_eq, res_v37_eq, res_v100_eq]
  rfl

/-- The second step over the named terms is the composition. -/
theorem out_eq :
    hidNext (res_main_v121 V0) (res_main_v98 V0) (V0 (Proc.devRef .tc main_arg10)) (V0 (Proc.devRef .tc main_arg11))
        (V0 (Proc.devRef .tc main_arg12)) (V0 (Proc.devRef .tc main_arg13)) (V0 (Proc.devRef .tc main_arg14))
        (V0 (Proc.devRef .tc main_arg15)) (V0 (Proc.devRef .tc main_arg16)) (V0 (Proc.devRef .tc main_arg17))
      = out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  unfold out
  rw [res_v121_eq, res_v98_eq]

end Named

/-! ## The run -/

/-- On every device, from any memory with zero counters, every weakly fair execution of the reference terminates with
    its result buffer at the composition of the arguments' launch contents, the arguments unchanged. -/
theorem run_out (m : (ℓ : Loc nD τ Cert.ReferenceIdeal.sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v161)
        = out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c).1.trans (out_eq (launchContents m c)), (h c).2⟩) (Value.run m ρ)

end Cert.ReferenceIdeal.Forms
-- ==== Proof.Val.KHost.lean ====
/-
  The buffers the host stretches of the program compute, read at the boundary after their stretch. Each is one
  operation (a reshape, a concatenation, a scatter-add into zeros, a constant) applied to the contents of its operands,
  and each operand is named at the boundary where it was written: an argument at its launch contents, an earlier
  result at the boundary after the item that wrote it. Between the two boundaries no item writes the operand, so its
  contents are carried unchanged, one item at a time.
-/
import proofs.«409581_j84387517432579_1_alg».proof.Proof.KI.Run
import Idealize.ShloMosaic.Lib.StableHlo.Run

set_option maxRecDepth 16384

noncomputable section

namespace Cert.KernelIdeal.Val

open Cert.KernelIdeal Cert.KernelIdeal.Gen Cert.KernelIdeal.Frames
open Idealize.ShloMosaic Idealize.ShloMosaic.TcCoe Idealize.SL.Sem Idealize.ShloMosaic.StableHlo

variable {F : FTy → Type} [FloatOps F]
variable (m : (ℓ : Loc nD τ sig) → Buf (Elt F) ℓ)

/-! ## What the items before a boundary write

`written j` lists every reference some item before boundary `j` writes (the latest item's first). A reference in
none of them holds at boundary `j` what it held at launch. -/

private theorem nl {α : Type} {a : α} {l₁ l₂ : List α} (h : a ∉ l₁ ++ l₂) : a ∉ l₁ :=
  fun h' => h (List.mem_append_left _ h')
private theorem nr {α : Type} {a : α} {l₁ l₂ : List α} (h : a ∉ l₁ ++ l₂) : a ∉ l₂ :=
  fun h' => h (List.mem_append_right _ h')

abbrev written1 : List (Ref sig .tc) := hostOps0_W
abbrev written2 : List (Ref sig .tc) := hostOps0_1_W ++ written1
abbrev written3 : List (Ref sig .tc) := [main_v2] ++ written2
abbrev written4 : List (Ref sig .tc) := hostOps1_W ++ written3
abbrev written5 : List (Ref sig .tc) := hostOps1_1_W ++ written4
abbrev written6 : List (Ref sig .tc) := hostOps1_2_W ++ written5
abbrev written7 : List (Ref sig .tc) := [main_v7] ++ written6
abbrev written8 : List (Ref sig .tc) := hostOps2_W ++ written7
abbrev written9 : List (Ref sig .tc) := hostOps2_1_W ++ written8
abbrev written10 : List (Ref sig .tc) := hostOps2_2_W ++ written9
abbrev written11 : List (Ref sig .tc) := hostOps2_3_W ++ written10
abbrev written12 : List (Ref sig .tc) := [main_v28_0, main_v28_1] ++ written11
abbrev written13 : List (Ref sig .tc) := hostOps3_W ++ written12
abbrev written14 : List (Ref sig .tc) := hostOps3_1_W ++ written13
abbrev written15 : List (Ref sig .tc) := hostOps3_2_W ++ written14

theorem W1_launch (c : Dev nD) (r : Ref sig .tc) (h : r ∉ written1) : W1 m c r = m ((c : Thread nD τ).loc r) :=
  W1_of m c r h
theorem W2_launch (c : Dev nD) (r : Ref sig .tc) (h : r ∉ written2) : W2 m c r = m ((c : Thread nD τ).loc r) :=
  (W2_of m c r (nl h)).trans (W1_launch m c r (nr h))
theorem W3_launch (c : Dev nD) (r : Ref sig .tc) (h : r ∉ written3) : W3 m c r = m ((c : Thread nD τ).loc r) :=
  (W3_of m c r (nl h)).trans (W2_launch m c r (nr h))
theorem W4_launch (c : Dev nD) (r : Ref sig .tc) (h : r ∉ written4) : W4 m c r = m ((c : Thread nD τ).loc r) :=
  (W4_of m c r (nl h)).trans (W3_launch m c r (nr h))
theorem W5_launch (c : Dev nD) (r : Ref sig .tc) (h : r ∉ written5) : W5 m c r = m ((c : Thread nD τ).loc r) :=
  (W5_of m c r (nl h)).trans (W4_launch m c r (nr h))
theorem W6_launch (c : Dev nD) (r : Ref sig .tc) (h : r ∉ written6) : W6 m c r = m ((c : Thread nD τ).loc r) :=
  (W6_of m c r (nl h)).trans (W5_launch m c r (nr h))
theorem W7_launch (c : Dev nD) (r : Ref sig .tc) (h : r ∉ written7) : W7 m c r = m ((c : Thread nD τ).loc r) :=
  (W7_of m c r (nl h)).trans (W6_launch m c r (nr h))
theorem W8_launch (c : Dev nD) (r : Ref sig .tc) (h : r ∉ written8) : W8 m c r = m ((c : Thread nD τ).loc r) :=
  (W8_of m c r (nl h)).trans (W7_launch m c r (nr h))
theorem W9_launch (c : Dev nD) (r : Ref sig .tc) (h : r ∉ written9) : W9 m c r = m ((c : Thread nD τ).loc r) :=
  (W9_of m c r (nl h)).trans (W8_launch m c r (nr h))
theorem W10_launch (c : Dev nD) (r : Ref sig .tc) (h : r ∉ written10) : W10 m c r = m ((c : Thread nD τ).loc r) :=
  (W10_of m c r (nl h)).trans (W9_launch m c r (nr h))
theorem W11_launch (c : Dev nD) (r : Ref sig .tc) (h : r ∉ written11) : W11 m c r = m ((c : Thread nD τ).loc r) :=
  (W11_of m c r (nl h)).trans (W10_launch m c r (nr h))
theorem W12_launch (c : Dev nD) (r : Ref sig .tc) (h : r ∉ written12) : W12 m c r = m ((c : Thread nD τ).loc r) :=
  (W12_of m c r (nl h)).trans (W11_launch m c r (nr h))
theorem W13_launch (c : Dev nD) (r : Ref sig .tc) (h : r ∉ written13) : W13 m c r = m ((c : Thread nD τ).loc r) :=
  (W13_of m c r (nl h)).trans (W12_launch m c r (nr h))
theorem W14_launch (c : Dev nD) (r : Ref sig .tc) (h : r ∉ written14) : W14 m c r = m ((c : Thread nD τ).loc r) :=
  (W14_of m c r (nl h)).trans (W13_launch m c r (nr h))
theorem W15_launch (c : Dev nD) (r : Ref sig .tc) (h : r ∉ written15) : W15 m c r = m ((c : Thread nD τ).loc r) :=
  (W15_of m c r (nl h)).trans (W14_launch m c r (nr h))

/-! ## The same from a later boundary: what the items between boundary 8 (or 12) and a later one do not write -/

theorem W9_from8 (c : Dev nD) (r : Ref sig .tc) (h : r ∉ hostOps2_1_W) : W9 m c r = W8 m c r := W9_of m c r h
theorem W10_from8 (c : Dev nD) (r : Ref sig .tc) (h : r ∉ hostOps2_2_W ++ hostOps2_1_W) : W10 m c r = W8 m c r :=
  (W10_of m c r (nl h)).trans (W9_from8 m c r (nr h))
theorem W11_from8 (c : Dev nD) (r : Ref sig .tc) (h : r ∉ hostOps2_3_W ++ (hostOps2_2_W ++ hostOps2_1_W)) :
    W11 m c r = W8 m c r :=
  (W11_of m c r (nl h)).trans (W10_from8 m c r (nr h))
theorem W12_from8 (c : Dev nD) (r : Ref sig .tc)
    (h : r ∉ [main_v28_0, main_v28_1] ++ (hostOps2_3_W ++ (hostOps2_2_W ++ hostOps2_1_W))) : W12 m c r = W8 m c r :=
  (W12_of m c r (nl h)).trans (W11_from8 m c r (nr h))
theorem W13_from8 (c : Dev nD) (r : Ref sig .tc)
    (h : r ∉ hostOps3_W ++ ([main_v28_0, main_v28_1] ++ (hostOps2_3_W ++ (hostOps2_2_W ++ hostOps2_1_W)))) :
    W13 m c r = W8 m c r :=
  (W13_of m c r (nl h)).trans (W12_from8 m c r (nr h))
theorem W14_from8 (c : Dev nD) (r : Ref sig .tc)
    (h : r ∉ hostOps3_1_W ++ (hostOps3_W ++ ([main_v28_0, main_v28_1] ++ (hostOps2_3_W ++ (hostOps2_2_W ++ hostOps2_1_W))))) :
    W14 m c r = W8 m c r :=
  (W14_of m c r (nl h)).trans (W13_from8 m c r (nr h))
theorem W15_from8 (c : Dev nD) (r : Ref sig .tc)
    (h : r ∉ hostOps3_2_W ++ (hostOps3_1_W ++ (hostOps3_W ++ ([main_v28_0, main_v28_1] ++ (hostOps2_3_W ++ (hostOps2_2_W ++ hostOps2_1_W)))))) :
    W15 m c r = W8 m c r :=
  (W15_of m c r (nl h)).trans (W14_from8 m c r (nr h))
theorem W13_from12 (c : Dev nD) (r : Ref sig .tc) (h : r ∉ hostOps3_W) : W13 m c r = W12 m c r := W13_of m c r h
theorem W14_from12 (c : Dev nD) (r : Ref sig .tc) (h : r ∉ hostOps3_1_W ++ hostOps3_W) : W14 m c r = W12 m c r :=
  (W14_of m c r (nl h)).trans (W13_from12 m c r (nr h))
theorem W15_from12 (c : Dev nD) (r : Ref sig .tc) (h : r ∉ hostOps3_2_W ++ (hostOps3_1_W ++ hostOps3_W)) :
    W15 m c r = W12 m c r :=
  (W15_of m c r (nl h)).trans (W14_from12 m c r (nr h))

/-! ## Each stretch's results over any contents before it

For a stretch run from contents `V`, each buffer it computes is its operation applied to `V` at the operands the
stretch does not itself write, and to the stretch's own earlier results where it does. -/

theorem hostOps0_1_v1 (V : Valuation τ sig (Elt F)) :
    StableHlo.after hostOps0_1 V (Proc.devRef .tc main_v1)
      = (fun i => shapeCast S1x128 (V main_arg7) shapeCasts_S128_S1x128 i) := by
  simp only [hostOps0_1]
  after_results_simp <;> rfl

theorem hostOps1_2_v5 (V : Valuation τ sig (Elt F)) :
    StableHlo.after hostOps1_2 V (Proc.devRef .tc main_v5)
      = concatenate S800000x192 1 [⟨S800000x64, V main_v3⟩, ⟨S800000x128, V main_v4⟩] concatenates_S800000x64_S800000x128_S800000x192_d1 := by
  simp only [hostOps1_2]
  after_results_simp <;> rfl

theorem hostOps1_2_v6 (V : Valuation τ sig (Elt F)) :
    StableHlo.after hostOps1_2 V (Proc.devRef .tc main_v6)
      = (fun i => shapeCast S1x128 (V main_arg9) shapeCasts_S128_S1x128 i) := by
  simp only [hostOps1_2]
  after_results_simp <;> rfl

theorem hostOps2_v10 (V : Valuation τ sig (Elt F)) :
    StableHlo.after hostOps2 V (Proc.devRef .tc main_v10) = Host.scatterAdd scatter_S50000x128_S800000x1_S800000x128_1_0_0_1 (broadcastInDim S50000x128 ![] bcast_S_S50000x128 (constant S_ .f32 0x00000000#32)) (broadcastInDim S800000x1 ![0] bcast_S800000_S800000x1_0 (V main_arg3)) (V main_v7) := by
  simp only [hostOps2]
  after_results_simp <;> rfl

theorem hostOps2_v13 (V : Valuation τ sig (Elt F)) :
    StableHlo.after hostOps2 V (Proc.devRef .tc main_v13) = Host.scatterAdd scatter_S50000x128_S800000x1_S800000x128_1_0_0_1 (broadcastInDim S50000x128 ![] bcast_S_S50000x128 (constant S_ .f32 0x00000000#32)) (broadcastInDim S800000x1 ![0] bcast_S800000_S800000x1_0 (V main_arg2)) (V main_v7) := by
  simp only [hostOps2]
  after_results_simp <;> rfl

theorem hostOps2_v14 (V : Valuation τ sig (Elt F)) :
    StableHlo.after hostOps2 V (Proc.devRef .tc main_v14)
      = concatenate S512x512 1 [⟨S512x128, V main_arg10⟩, ⟨S512x128, V main_arg12⟩, ⟨S512x128, V main_arg14⟩, ⟨S512x128, V main_arg16⟩] concatenates_S512x128_S512x128_S512x128_S512x128_S512x512_d1 := by
  simp only [hostOps2]
  after_results
  first | done | rfl

theorem hostOps2_v15 (V : Valuation τ sig (Elt F)) :
    StableHlo.after hostOps2 V (Proc.devRef .tc main_v15)
      = concatenate S512 0 [⟨S128, V main_arg11⟩, ⟨S128, V main_arg13⟩, ⟨S128, V main_arg15⟩, ⟨S128, V main_arg17⟩] concatenates_S128_S128_S128_S128_S512_d0 := by
  simp only [hostOps2]
  after_results
  first | done | rfl

theorem hostOps2_v16 (V : Valuation τ sig (Elt F)) :
    StableHlo.after hostOps2 V (Proc.devRef .tc main_v16) = broadcastInDim S50000x128 ![] bcast_S_S50000x128 (constant S_ .f32 0x00000000#32) := by
  simp only [hostOps2]
  after_results_simp <;> rfl

theorem hostOps2_v17 (V : Valuation τ sig (Elt F)) :
    StableHlo.after hostOps2 V (Proc.devRef .tc main_v17) = broadcastInDim S50000x128 ![] bcast_S_S50000x128 (constant S_ .f32 0x00000000#32) := by
  simp only [hostOps2]
  after_results_simp <;> rfl

theorem hostOps2_3_v22 (V : Valuation τ sig (Elt F)) :
    StableHlo.after hostOps2_3 V (Proc.devRef .tc main_v22) = Host.scatterAdd scatter_S50000x128_S800000x1_S800000x128_1_0_0_1 (broadcastInDim S50000x128 ![] bcast_S_S50000x128 (constant S_ .f32 0x00000000#32)) (broadcastInDim S800000x1 ![0] bcast_S800000_S800000x1_0 (V main_arg3)) (V main_v18) := by
  simp only [hostOps2_3]
  after_results_simp <;> rfl

theorem hostOps2_3_v25 (V : Valuation τ sig (Elt F)) :
    StableHlo.after hostOps2_3 V (Proc.devRef .tc main_v25) = Host.scatterAdd scatter_S50000x128_S800000x1_S800000x128_1_0_0_1 (broadcastInDim S50000x128 ![] bcast_S_S50000x128 (constant S_ .f32 0x00000000#32)) (broadcastInDim S800000x1 ![0] bcast_S800000_S800000x1_0 (V main_arg2)) (V main_v19) := by
  simp only [hostOps2_3]
  after_results_simp <;> rfl

theorem hostOps2_3_v26 (V : Valuation τ sig (Elt F)) :
    StableHlo.after hostOps2_3 V (Proc.devRef .tc main_v26)
      = concatenate S50000x512 1 [⟨S50000x128, V main_v10⟩, ⟨S50000x128, V main_v13⟩, ⟨S50000x128, StableHlo.after hostOps2_3 V (Proc.devRef .tc main_v22)⟩, ⟨S50000x128, StableHlo.after hostOps2_3 V (Proc.devRef .tc main_v25)⟩] concatenates_S50000x128_S50000x128_S50000x128_S50000x128_S50000x512_d1 := by
  simp only [hostOps2_3]
  after_results
  first | done | rfl

theorem hostOps2_3_v27 (V : Valuation τ sig (Elt F)) :
    StableHlo.after hostOps2_3 V (Proc.devRef .tc main_v27)
      = (fun i => shapeCast S1x512 (V main_v15) shapeCasts_S512_S1x512 i) := by
  simp only [hostOps2_3]
  after_results_simp <;> rfl

theorem hostOps3_2_v33 (V : Valuation τ sig (Elt F)) :
    StableHlo.after hostOps3_2 V (Proc.devRef .tc main_v33) = Host.scatterAdd scatter_S50000x128_S800000x1_S800000x128_1_0_0_1 (broadcastInDim S50000x128 ![] bcast_S_S50000x128 (constant S_ .f32 0x00000000#32)) (broadcastInDim S800000x1 ![0] bcast_S800000_S800000x1_0 (V main_arg3)) (V main_v29) := by
  simp only [hostOps3_2]
  after_results_simp <;> rfl

theorem hostOps3_2_v36 (V : Valuation τ sig (Elt F)) :
    StableHlo.after hostOps3_2 V (Proc.devRef .tc main_v36) = Host.scatterAdd scatter_S50000x128_S800000x1_S800000x128_1_0_0_1 (broadcastInDim S50000x128 ![] bcast_S_S50000x128 (constant S_ .f32 0x00000000#32)) (broadcastInDim S800000x1 ![0] bcast_S800000_S800000x1_0 (V main_arg2)) (V main_v30) := by
  simp only [hostOps3_2]
  after_results_simp <;> rfl

theorem hostOps3_2_v37 (V : Valuation τ sig (Elt F)) :
    StableHlo.after hostOps3_2 V (Proc.devRef .tc main_v37)
      = concatenate S50000x512 1 [⟨S50000x128, V main_v10⟩, ⟨S50000x128, V main_v13⟩, ⟨S50000x128, StableHlo.after hostOps3_2 V (Proc.devRef .tc main_v33)⟩, ⟨S50000x128, StableHlo.after hostOps3_2 V (Proc.devRef .tc main_v36)⟩] concatenates_S50000x128_S50000x128_S50000x128_S50000x128_S50000x512_d1 := by
  simp only [hostOps3_2]
  after_results
  first | done | rfl

theorem hostOps3_2_v38 (V : Valuation τ sig (Elt F)) :
    StableHlo.after hostOps3_2 V (Proc.devRef .tc main_v38)
      = (fun i => shapeCast S1x512 (V main_v15) shapeCasts_S512_S1x512 i) := by
  simp only [hostOps3_2]
  after_results_simp <;> rfl

/-! ## The results at their boundaries, each operand where it was written -/

/-- Item 1: the first dense layer's bias as a row. -/
theorem v1_eq (c : Dev nD) :
    W2 m c main_v1 = (fun i => shapeCast S1x128 (m ((c : Thread nD τ).loc main_arg7)) shapeCasts_S128_S1x128 i) := by
  refine (hostOps0_1_v1 (W1 m c)).trans ?_
  rw [W1_launch m c main_arg7 (by decide)]

/-- Item 5: the link features, the two gathered pieces side by side. -/
theorem v5_eq (c : Dev nD) :
    W6 m c main_v5 = concatenate S800000x192 1 [⟨S800000x64, W4 m c main_v3⟩, ⟨S800000x128, W5 m c main_v4⟩] concatenates_S800000x64_S800000x128_S800000x192_d1 := by
  refine (hostOps1_2_v5 (W5 m c)).trans ?_
  rw [W5_of m c main_v3 (by decide)]

/-- Item 5: the second dense layer's bias as a row. -/
theorem v6_eq (c : Dev nD) :
    W6 m c main_v6 = (fun i => shapeCast S1x128 (m ((c : Thread nD τ).loc main_arg9)) shapeCasts_S128_S1x128 i) := by
  refine (hostOps1_2_v6 (W5 m c)).trans ?_
  rw [W5_launch m c main_arg9 (by decide)]

/-- Item 7: the link messages summed into zeros at the rows the fourth argument names. -/
theorem v10_eq (c : Dev nD) :
    W8 m c main_v10 = Host.scatterAdd scatter_S50000x128_S800000x1_S800000x128_1_0_0_1 (broadcastInDim S50000x128 ![] bcast_S_S50000x128 (constant S_ .f32 0x00000000#32)) (broadcastInDim S800000x1 ![0] bcast_S800000_S800000x1_0 (m ((c : Thread nD τ).loc main_arg3))) (W7 m c main_v7) := by
  refine (hostOps2_v10 (W7 m c)).trans ?_
  rw [W7_launch m c main_arg3 (by decide)]

/-- Item 7: the same at the rows the third argument names. -/
theorem v13_eq (c : Dev nD) :
    W8 m c main_v13 = Host.scatterAdd scatter_S50000x128_S800000x1_S800000x128_1_0_0_1 (broadcastInDim S50000x128 ![] bcast_S_S50000x128 (constant S_ .f32 0x00000000#32)) (broadcastInDim S800000x1 ![0] bcast_S800000_S800000x1_0 (m ((c : Thread nD τ).loc main_arg2))) (W7 m c main_v7) := by
  refine (hostOps2_v13 (W7 m c)).trans ?_
  rw [W7_launch m c main_arg2 (by decide)]

/-- Item 7: the four gate weight matrices side by side. -/
theorem v14_eq (c : Dev nD) :
    W8 m c main_v14 = concatenate S512x512 1 [⟨S512x128, m ((c : Thread nD τ).loc main_arg10)⟩, ⟨S512x128, m ((c : Thread nD τ).loc main_arg12)⟩, ⟨S512x128, m ((c : Thread nD τ).loc main_arg14)⟩, ⟨S512x128, m ((c : Thread nD τ).loc main_arg16)⟩] concatenates_S512x128_S512x128_S512x128_S512x128_S512x512_d1 := by
  refine (hostOps2_v14 (W7 m c)).trans ?_
  rw [W7_launch m c main_arg10 (by decide), W7_launch m c main_arg12 (by decide), W7_launch m c main_arg14 (by decide),
    W7_launch m c main_arg16 (by decide)]

/-- Item 7: the four gate bias vectors end to end. -/
theorem v15_eq (c : Dev nD) :
    W8 m c main_v15 = concatenate S512 0 [⟨S128, m ((c : Thread nD τ).loc main_arg11)⟩, ⟨S128, m ((c : Thread nD τ).loc main_arg13)⟩, ⟨S128, m ((c : Thread nD τ).loc main_arg15)⟩, ⟨S128, m ((c : Thread nD τ).loc main_arg17)⟩] concatenates_S128_S128_S128_S128_S512_d0 := by
  refine (hostOps2_v15 (W7 m c)).trans ?_
  rw [W7_launch m c main_arg11 (by decide), W7_launch m c main_arg13 (by decide), W7_launch m c main_arg15 (by decide),
    W7_launch m c main_arg17 (by decide)]

/-- Item 7: the initial hidden state, zeros. -/
theorem v16_eq (c : Dev nD) : W8 m c main_v16 = broadcastInDim S50000x128 ![] bcast_S_S50000x128 (constant S_ .f32 0x00000000#32) :=
  hostOps2_v16 (W7 m c)

/-- Item 7: the initial cell state, zeros. -/
theorem v17_eq (c : Dev nD) : W8 m c main_v17 = broadcastInDim S50000x128 ![] bcast_S_S50000x128 (constant S_ .f32 0x00000000#32) :=
  hostOps2_v17 (W7 m c)

/-- Item 10: the first gather of the hidden state summed into zeros at the rows the fourth argument names. -/
theorem v22_eq (c : Dev nD) :
    W11 m c main_v22 = Host.scatterAdd scatter_S50000x128_S800000x1_S800000x128_1_0_0_1 (broadcastInDim S50000x128 ![] bcast_S_S50000x128 (constant S_ .f32 0x00000000#32)) (broadcastInDim S800000x1 ![0] bcast_S800000_S800000x1_0 (m ((c : Thread nD τ).loc main_arg3))) (W9 m c main_v18) := by
  refine (hostOps2_3_v22 (W10 m c)).trans ?_
  rw [W10_launch m c main_arg3 (by decide), W10_of m c main_v18 (by decide)]

/-- Item 10: the second gather summed at the rows the third argument names. -/
theorem v25_eq (c : Dev nD) :
    W11 m c main_v25 = Host.scatterAdd scatter_S50000x128_S800000x1_S800000x128_1_0_0_1 (broadcastInDim S50000x128 ![] bcast_S_S50000x128 (constant S_ .f32 0x00000000#32)) (broadcastInDim S800000x1 ![0] bcast_S800000_S800000x1_0 (m ((c : Thread nD τ).loc main_arg2))) (W10 m c main_v19) := by
  refine (hostOps2_3_v25 (W10 m c)).trans ?_
  rw [W10_launch m c main_arg2 (by decide)]

/-- Item 10: the gate input, four blocks of columns side by side. -/
theorem v26_eq (c : Dev nD) :
    W11 m c main_v26 = concatenate S50000x512 1 [⟨S50000x128, W8 m c main_v10⟩, ⟨S50000x128, W8 m c main_v13⟩, ⟨S50000x128, W11 m c main_v22⟩, ⟨S50000x128, W11 m c main_v25⟩] concatenates_S50000x128_S50000x128_S50000x128_S50000x128_S50000x512_d1 := by
  refine (hostOps2_3_v26 (W10 m c)).trans ?_
  rw [W10_from8 m c main_v10 (by decide), W10_from8 m c main_v13 (by decide)]

/-- Item 10: the gate bias as a row. -/
theorem v27_eq (c : Dev nD) :
    W11 m c main_v27 = (fun i => shapeCast S1x512 (W8 m c main_v15) shapeCasts_S512_S1x512 i) := by
  refine (hostOps2_3_v27 (W10 m c)).trans ?_
  rw [W10_from8 m c main_v15 (by decide)]

/-- Item 14: as item 10's first sum, over the second step's first gather. -/
theorem v33_eq (c : Dev nD) :
    W15 m c main_v33 = Host.scatterAdd scatter_S50000x128_S800000x1_S800000x128_1_0_0_1 (broadcastInDim S50000x128 ![] bcast_S_S50000x128 (constant S_ .f32 0x00000000#32)) (broadcastInDim S800000x1 ![0] bcast_S800000_S800000x1_0 (m ((c : Thread nD τ).loc main_arg3))) (W13 m c main_v29) := by
  refine (hostOps3_2_v33 (W14 m c)).trans ?_
  rw [W14_launch m c main_arg3 (by decide), W14_of m c main_v29 (by decide)]

/-- Item 14: as item 10's second sum, over the second step's second gather. -/
theorem v36_eq (c : Dev nD) :
    W15 m c main_v36 = Host.scatterAdd scatter_S50000x128_S800000x1_S800000x128_1_0_0_1 (broadcastInDim S50000x128 ![] bcast_S_S50000x128 (constant S_ .f32 0x00000000#32)) (broadcastInDim S800000x1 ![0] bcast_S800000_S800000x1_0 (m ((c : Thread nD τ).loc main_arg2))) (W14 m c main_v30) := by
  refine (hostOps3_2_v36 (W14 m c)).trans ?_
  rw [W14_launch m c main_arg2 (by decide)]

/-- Item 14: the second step's gate input. -/
theorem v37_eq (c : Dev nD) :
    W15 m c main_v37 = concatenate S50000x512 1 [⟨S50000x128, W8 m c main_v10⟩, ⟨S50000x128, W8 m c main_v13⟩, ⟨S50000x128, W15 m c main_v33⟩, ⟨S50000x128, W15 m c main_v36⟩] concatenates_S50000x128_S50000x128_S50000x128_S50000x128_S50000x512_d1 := by
  refine (hostOps3_2_v37 (W14 m c)).trans ?_
  rw [W14_from8 m c main_v10 (by decide), W14_from8 m c main_v13 (by decide)]

/-- Item 14: the gate bias as a row, again. -/
theorem v38_eq (c : Dev nD) :
    W15 m c main_v38 = (fun i => shapeCast S1x512 (W8 m c main_v15) shapeCasts_S512_S1x512 i) := by
  refine (hostOps3_2_v38 (W14 m c)).trans ?_
  rw [W14_from8 m c main_v15 (by decide)]

/-! ## What the regions read at their entries, carried from where it was written -/

/-- Region 0 reads the gathered node features where item 0 left them. -/
theorem carry_v0 (c : Dev nD) : W2 m c main_v0 = W1 m c main_v0 := W2_of m c main_v0 (by decide)
/-- Item 4 reads region 0's output where the region left it. -/
theorem carry_v2 (c : Dev nD) : W4 m c main_v2 = W3 m c main_v2 := W4_of m c main_v2 (by decide)
/-- Region 2 reads the zero cell state where item 7 left it. -/
theorem carry_v17 (c : Dev nD) : W11 m c main_v17 = W8 m c main_v17 := W11_from8 m c main_v17 (by decide)
/-- Region 2 reads the gate weights where item 7 left them. -/
theorem carry_v14 (c : Dev nD) : W11 m c main_v14 = W8 m c main_v14 := W11_from8 m c main_v14 (by decide)
/-- Item 13 reads region 2's hidden state where the region left it. -/
theorem carry_v28_0 (c : Dev nD) : W13 m c main_v28_0 = W12 m c main_v28_0 := W13_from12 m c main_v28_0 (by decide)
/-- Region 3 reads region 2's cell state where the region left it. -/
theorem carry_v28_1 (c : Dev nD) : W15 m c main_v28_1 = W12 m c main_v28_1 := W15_from12 m c main_v28_1 (by decide)
/-- Region 3 reads the gate weights where item 7 left them. -/
theorem carry_v14' (c : Dev nD) : W15 m c main_v14 = W8 m c main_v14 := W15_from8 m c main_v14 (by decide)

end Cert.KernelIdeal.Val
-- ==== Proof.LibMask.lean ====
/-
  General facts about index masks on integer vectors, generic in the shapes.

  A "take" that tolerates negative indices first wraps them (an index below zero has the table's length added) and
  afterwards masks every row whose wrapped index falls outside [0, M]: the mask is the conjunction, reduced by "and"
  over the index column, of the two signed compares, and a masked-out row is replaced by a fill value. When every index
  is already inside the range, the wrap is the identity, both compares hold at every position, the reduction of an
  all-ones vector from the initial value one is all ones, and a select under an all-ones condition returns its first
  branch. This file states each of those steps on its own, and, in the other direction, reads a range fact back out of
  a conjunction "all (x ≥ k)" or "all (x < k)" that is known to be one.
-/
import Idealize.ShloMosaic.PureOps.Ideal
import Idealize.ShloMosaic.Lib.ValueIdx
import Idealize.ShloMosaic.Lib.StableHlo.Predicate
import Idealize.ShloMosaic.Lib.ReduceAll

namespace Cert.MaskLib

open Idealize.ShloMosaic

/-! ## Constants and their broadcasts -/

/-- An integer splat reads its value at every index. -/
theorem constantI_apply {S : Shape} {w : Nat} (k : BitVec w) (i : S.Idx) : constantI S w k i = k := rfl

/-- A broadcast (along any axes) of a vector that is constantly `v` is constantly `v`. -/
theorem broadcastInDim_const {s t : Shape} {α : Type} (dims : Fin s.rank → Fin t.rank) (h : s.BroadcastsInDim t dims)
    (v : α) : broadcastInDim t dims h (fun _ : s.Idx => v) = fun _ => v := rfl

/-- The same with the constancy as a hypothesis: if `x` reads `v` everywhere, so does any broadcast of `x`. -/
theorem broadcastInDim_apply_of_const {s t : Shape} {α : Type} (dims : Fin s.rank → Fin t.rank)
    (h : s.BroadcastsInDim t dims) (x : s.Idx → α) (v : α) (hx : ∀ i, x i = v) (j : t.Idx) :
    broadcastInDim t dims h x j = v := hx _

/-- A broadcast of an integer splat reads the splat's value at every index, whatever the axes. -/
theorem broadcastInDim_constantI_apply {S₀ S : Shape} {w : Nat} (dims : Fin S₀.rank → Fin S.rank)
    (h : S₀.BroadcastsInDim S dims) (k : BitVec w) (j : S.Idx) :
    broadcastInDim S dims h (constantI S₀ w k) j = k := rfl

/-! ## The wrap of negative indices -/

/-- Wrapping negative indices leaves a vector of nonnegative indices as it is: "index below zero" fails at every
    position, so the select returns its second branch everywhere. -/
theorem wrap_id {S : Shape} (idx z n : IVec S 32) (hz : ∀ i, z i = 0#32) (h0 : ∀ i, 0 ≤ (idx i).toInt) :
    select (cmpi .slt idx z) n idx = idx := by
  funext i
  show Scalar.select (IntOp.cmpi .slt (idx i) (z i)) (n i) (idx i) = idx i
  have hc : ¬ IntOp.cmpi .slt (idx i) (z i) = 1#1 := by
    rw [IntOp.cmpi_slt, hz i]
    have hzero : (0#32 : BitVec 32).toInt = 0 := by decide
    have := h0 i
    omega
  unfold Scalar.select
  exact if_neg hc

/-! ## The range mask -/

/-- Both range compares hold at every position of a vector whose entries lie in [0, M]: their conjunction is all ones. -/
theorem inrange_and {S : Shape} (I z mx : IVec S 32) (M : ℤ) (hz : ∀ i, z i = 0#32) (hm : ∀ i, (mx i).toInt = M)
    (h : ∀ i, 0 ≤ (I i).toInt ∧ (I i).toInt ≤ M) : andi (cmpi .sge I z) (cmpi .sle I mx) = fun _ => 1#1 := by
  funext i
  show IntOp.andi (IntOp.cmpi .sge (I i) (z i)) (IntOp.cmpi .sle (I i) (mx i)) = 1#1
  have hzero : (0#32 : BitVec 32).toInt = 0 := by decide
  rw [IntOp.andi_eq_one, IntOp.cmpi_sge, IntOp.cmpi_sle, hz i, hm i, hzero]
  exact h i

/-- A left fold by "and" that starts at one and meets only ones ends at one. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    refine foldl_andi_ones f l _ ?_ (fun n hn => hl n (List.mem_cons_of_mem _ hn))
    exact IntOp.andi_eq_one.2 ⟨hi, hl a (List.mem_cons_self ..)⟩

/-- A reduction by "and" of an all-ones vector, from an initial value that is one, is all ones, over whatever axes. -/
theorem reduce_and_ones {s t u : Shape} {axes : List (Fin s.rank)} (x : IVec s 1) (init : IVec u 1)
    (h : s.ReducesTo axes t) (hu : 0 < u.numel) (hx : ∀ i, x i = 1#1) (hinit : ∀ i, init i = 1#1) :
    Host.reduce IntOp.andi x init h hu = fun _ => 1#1 := by
  funext j
  rw [Host.reduce_eq_foldl]
  exact foldl_andi_ones x _ _ (hinit _) (fun n _ => hx n)

/-- The same for the literal all-ones operand and initial value. -/
theorem reduce_and_ones' {s t u : Shape} {axes : List (Fin s.rank)} (h : s.ReducesTo axes t) (hu : 0 < u.numel) :
    Host.reduce IntOp.andi (fun _ => 1#1 : IVec s 1) (fun _ => 1#1 : IVec u 1) h hu = fun _ => 1#1 :=
  reduce_and_ones _ _ h hu (fun _ => rfl) (fun _ => rfl)

/-! ## Select under a settled condition -/

/-- A select whose condition is all ones returns its first branch (values of any type: words or floats). -/
theorem select_ones {S : Shape} {α : Type} (a b : S.Idx → α) : select (fun _ => 1#1) a b = a := by
  funext i
  show Scalar.select 1#1 (a i) (b i) = a i
  unfold Scalar.select
  exact if_pos rfl

/-- The same with the condition's value as a hypothesis. -/
theorem select_of_ones {S : Shape} {α : Type} (c : IVec S 1) (a b : S.Idx → α) (hc : ∀ i, c i = 1#1) :
    select c a b = a := by
  have : c = fun _ => 1#1 := funext hc
  rw [this]; exact select_ones a b

/-! ## A printed "all" read back -/

/-- "all (x ≥ c)" with `c` constantly `k`: if the reduction by "and" into a one-index result is one, every entry of `x`
    is at least `k`, read signed. -/
theorem all_sge_const {s t u : Shape} {axes : List (Fin s.rank)} [Subsingleton t.Idx] (x c : IVec s 32) (k : BitVec 32)
    (hc : ∀ i, c i = k) (init : IVec u 1) (h : s.ReducesTo axes t) (hu : 0 < u.numel) (j : t.Idx)
    (e : Host.reduce IntOp.andi (cmpi .sge x c) init h hu j = 1#1) (i : s.Idx) : k.toInt ≤ (x i).toInt := by
  have hi : IntOp.cmpi .sge (x i) (c i) = 1#1 := Host.reduce_andi_all (cmpi .sge x c) init h hu j e i
  rw [IntOp.cmpi_sge, hc i] at hi
  exact hi

/-- "all (x < c)" with `c` constantly `k`: if the reduction by "and" into a one-index result is one, every entry of `x`
    is below `k`, read signed. -/
theorem all_slt_const {s t u : Shape} {axes : List (Fin s.rank)} [Subsingleton t.Idx] (x c : IVec s 32) (k : BitVec 32)
    (hc : ∀ i, c i = k) (init : IVec u 1) (h : s.ReducesTo axes t) (hu : 0 < u.numel) (j : t.Idx)
    (e : Host.reduce IntOp.andi (cmpi .slt x c) init h hu j = 1#1) (i : s.Idx) : (x i).toInt < k.toInt := by
  have hi : IntOp.cmpi .slt (x i) (c i) = 1#1 := Host.reduce_andi_all (cmpi .slt x c) init h hu j e i
  rw [IntOp.cmpi_slt, hc i] at hi
  exact hi

/-- A conjunction of two one-bit vectors that is one at an index has both conjuncts one there. -/
theorem andi_apply_eq_one {S : Shape} (x y : IVec S 1) (j : S.Idx) (e : andi x y j = 1#1) : x j = 1#1 ∧ y j = 1#1 :=
  IntOp.andi_eq_one.1 e

end Cert.MaskLib
-- ==== Proof.Val.KTake.lean ====
/-
  The kernel's seven row lookups, each read at its result from any contents of the buffers.

  A row lookup that tolerates negative indices wraps them, lays the wrapped indices out as a column, gathers the rows
  (clamping), and then replaces by a fill word every row whose wrapped index is outside [0, N-1]. When the index words
  are in [0, N) the replacement never happens: the lookup is the plain gather at the column of wrapped indices.
-/
import proofs.«409581_j84387517432579_1_alg».proof.Proof.Gen.KernelIdeal.Launch
import proofs.«409581_j84387517432579_1_alg».proof.Proof.LibMask
import Idealize.ShloMosaic.Lib.StableHlo.Run

noncomputable section

namespace Cert.KernelIdeal.Val

open Cert.KernelIdeal Cert.KernelIdeal.Gen Idealize.ShloMosaic Idealize.ShloMosaic.StableHlo

variable {F : FTy → Type} [FloatOps F]

/-- THE MASKED LOOKUP, GENERICALLY. Let `W` be the index vector with its negative entries wrapped and `I` the column
    (any broadcast) of `W`. If the index words lie in [0, M], then the mask "0 ≤ I ∧ I ≤ mx", reduced by "and", is all
    ones, so selecting by its broadcast between any function `G` of the column and a fill returns `G I`. -/
theorem take_masked {Sv Sc T R U : Shape} {α : Type} {axes : List (Fin Sc.rank)} (idx z0 n : IVec Sv 32) (M : ℤ)
    (hz0 : ∀ i, z0 i = 0#32) (h : ∀ i, 0 ≤ (idx i).toInt ∧ (idx i).toInt ≤ M)
    (dimsI : Fin Sv.rank → Fin Sc.rank) (hbI : Sv.BroadcastsInDim Sc dimsI) (z mx : IVec Sc 32)
    (hz : ∀ i, z i = 0#32) (hm : ∀ i, (mx i).toInt = M) (init : IVec U 1) (hinit : ∀ i, init i = 1#1)
    (hr : Sc.ReducesTo axes R) (hu : 0 < U.numel) (dims : Fin R.rank → Fin T.rank) (hb : R.BroadcastsInDim T dims)
    (G : IVec Sc 32 → T.Idx → α) (fill : T.Idx → α) :
    select (broadcastInDim T dims hb (Host.reduce IntOp.andi
        (andi (cmpi .sge (broadcastInDim Sc dimsI hbI (select (cmpi .slt idx z0) n idx)) z)
          (cmpi .sle (broadcastInDim Sc dimsI hbI (select (cmpi .slt idx z0) n idx)) mx)) init hr hu))
      (G (broadcastInDim Sc dimsI hbI (select (cmpi .slt idx z0) n idx))) fill
      = G (broadcastInDim Sc dimsI hbI (select (cmpi .slt idx z0) n idx)) := by
  have hW : select (cmpi .slt idx z0) n idx = idx := Cert.MaskLib.wrap_id idx z0 n hz0 (fun i => (h i).1)
  have hI : ∀ i, 0 ≤ ((broadcastInDim Sc dimsI hbI (select (cmpi .slt idx z0) n idx)) i).toInt
      ∧ ((broadcastInDim Sc dimsI hbI (select (cmpi .slt idx z0) n idx)) i).toInt ≤ M := by
    intro i
    rw [hW]
    exact h _
  rw [Cert.MaskLib.inrange_and _ z mx M hz hm hI, Cert.MaskLib.reduce_and_ones _ _ hr hu (fun _ => rfl) hinit,
    Cert.MaskLib.broadcastInDim_const]
  exact Cert.MaskLib.select_ones _ fill

/-- The word 49999 reads 49999 signed. -/
theorem toInt_49999 : (49999#32 : BitVec 32).toInt = 49999 := by decide
/-- The word 49 reads 49 signed. -/
theorem toInt_49 : (49#32 : BitVec 32).toInt = 49 := by decide

/-! ## The typed references' transports

Each operation of an outlined function reads and writes its buffers through typed references, whose transports are the
identity at these literal references. -/

/-- A typed reference's two transports are inverse: contents carried to the buffer's type and back are unchanged. -/
theorem ofBuf_toBuf {T : BufTy} {Val : EltTy → Type} (x : TRef sig T) (v : T.Contents Val) : x.ofBuf (x.toBuf v) = v := by
  obtain ⟨r, rfl, _, _⟩ := x
  rfl

set_option maxRecDepth 8192 in
/-- Reading buffer `main_arg0` through its typed reference is reading it: the transport is along an equation that holds by computation. -/
theorem leaf_main_arg0 (V : Valuation τ sig (Elt F)) : (TRef.of main_arg0 : TRef sig ⟨S50000, .i32⟩).ofBuf (V (Proc.devRef .tc main_arg0)) = V (Proc.devRef .tc main_arg0) := rfl
set_option maxRecDepth 8192 in
/-- Reading buffer `main_arg1` through its typed reference is reading it: the transport is along an equation that holds by computation. -/
theorem leaf_main_arg1 (V : Valuation τ sig (Elt F)) : (TRef.of main_arg1 : TRef sig ⟨S800000, .i32⟩).ofBuf (V (Proc.devRef .tc main_arg1)) = V (Proc.devRef .tc main_arg1) := rfl
set_option maxRecDepth 8192 in
/-- Reading buffer `main_arg2` through its typed reference is reading it: the transport is along an equation that holds by computation. -/
theorem leaf_main_arg2 (V : Valuation τ sig (Elt F)) : (TRef.of main_arg2 : TRef sig ⟨S800000, .i32⟩).ofBuf (V (Proc.devRef .tc main_arg2)) = V (Proc.devRef .tc main_arg2) := rfl
set_option maxRecDepth 8192 in
/-- Reading buffer `main_arg3` through its typed reference is reading it: the transport is along an equation that holds by computation. -/
theorem leaf_main_arg3 (V : Valuation τ sig (Elt F)) : (TRef.of main_arg3 : TRef sig ⟨S800000, .i32⟩).ofBuf (V (Proc.devRef .tc main_arg3)) = V (Proc.devRef .tc main_arg3) := rfl
set_option maxRecDepth 8192 in
/-- Reading buffer `main_arg4` through its typed reference is reading it: the transport is along an equation that holds by computation. -/
theorem leaf_main_arg4 (V : Valuation τ sig (Elt F)) : (TRef.of main_arg4 : TRef sig ⟨S50000x300, .f32⟩).ofBuf (V (Proc.devRef .tc main_arg4)) = V (Proc.devRef .tc main_arg4) := rfl
set_option maxRecDepth 8192 in
/-- Reading buffer `main_arg5` through its typed reference is reading it: the transport is along an equation that holds by computation. -/
theorem leaf_main_arg5 (V : Valuation τ sig (Elt F)) : (TRef.of main_arg5 : TRef sig ⟨S50x64, .f32⟩).ofBuf (V (Proc.devRef .tc main_arg5)) = V (Proc.devRef .tc main_arg5) := rfl
set_option maxRecDepth 8192 in
/-- Reading buffer `main_v2` through its typed reference is reading it: the transport is along an equation that holds by computation. -/
theorem leaf_main_v2 (V : Valuation τ sig (Elt F)) : (TRef.of main_v2 : TRef sig ⟨S50000x128, .f32⟩).ofBuf (V (Proc.devRef .tc main_v2)) = V (Proc.devRef .tc main_v2) := rfl
set_option maxRecDepth 8192 in
/-- Reading buffer `main_v16` through its typed reference is reading it: the transport is along an equation that holds by computation. -/
theorem leaf_main_v16 (V : Valuation τ sig (Elt F)) : (TRef.of main_v16 : TRef sig ⟨S50000x128, .f32⟩).ofBuf (V (Proc.devRef .tc main_v16)) = V (Proc.devRef .tc main_v16) := rfl
set_option maxRecDepth 8192 in
/-- Reading buffer `main_v28_0` through its typed reference is reading it: the transport is along an equation that holds by computation. -/
theorem leaf_main_v28_0 (V : Valuation τ sig (Elt F)) : (TRef.of main_v28_0 : TRef sig ⟨S50000x128, .f32⟩).ofBuf (V (Proc.devRef .tc main_v28_0)) = V (Proc.devRef .tc main_v28_0) := rfl
set_option maxRecDepth 8192 in
/-- Contents carried to buffer `main_v0`'s type are the same contents: the transport is along an equation that holds by computation. -/
theorem res_main_v0 (x : (⟨S50000x300, .f32⟩ : BufTy).Contents (Elt F)) : (TRef.of main_v0 : TRef sig ⟨S50000x300, .f32⟩).toBuf x = x := rfl
set_option maxRecDepth 8192 in
/-- Contents carried to buffer `main_v3`'s type are the same contents: the transport is along an equation that holds by computation. -/
theorem res_main_v3 (x : (⟨S800000x64, .f32⟩ : BufTy).Contents (Elt F)) : (TRef.of main_v3 : TRef sig ⟨S800000x64, .f32⟩).toBuf x = x := rfl
set_option maxRecDepth 8192 in
/-- Contents carried to buffer `main_v4`'s type are the same contents: the transport is along an equation that holds by computation. -/
theorem res_main_v4 (x : (⟨S800000x128, .f32⟩ : BufTy).Contents (Elt F)) : (TRef.of main_v4 : TRef sig ⟨S800000x128, .f32⟩).toBuf x = x := rfl
set_option maxRecDepth 8192 in
/-- Contents carried to buffer `main_v18`'s type are the same contents: the transport is along an equation that holds by computation. -/
theorem res_main_v18 (x : (⟨S800000x128, .f32⟩ : BufTy).Contents (Elt F)) : (TRef.of main_v18 : TRef sig ⟨S800000x128, .f32⟩).toBuf x = x := rfl
set_option maxRecDepth 8192 in
/-- Contents carried to buffer `main_v19`'s type are the same contents: the transport is along an equation that holds by computation. -/
theorem res_main_v19 (x : (⟨S800000x128, .f32⟩ : BufTy).Contents (Elt F)) : (TRef.of main_v19 : TRef sig ⟨S800000x128, .f32⟩).toBuf x = x := rfl
set_option maxRecDepth 8192 in
/-- Contents carried to buffer `main_v29`'s type are the same contents: the transport is along an equation that holds by computation. -/
theorem res_main_v29 (x : (⟨S800000x128, .f32⟩ : BufTy).Contents (Elt F)) : (TRef.of main_v29 : TRef sig ⟨S800000x128, .f32⟩).toBuf x = x := rfl
set_option maxRecDepth 8192 in
/-- Contents carried to buffer `main_v30`'s type are the same contents: the transport is along an equation that holds by computation. -/
theorem res_main_v30 (x : (⟨S800000x128, .f32⟩ : BufTy).Contents (Elt F)) : (TRef.of main_v30 : TRef sig ⟨S800000x128, .f32⟩).toBuf x = x := rfl

/-! ## The seven lookups -/

set_option maxRecDepth 8192 in
set_option maxHeartbeats 2000000 in
/-- The first lookup: rows of the [50000, 300] table at the 50000 node indices. -/
theorem take0 (V : Valuation τ sig (Elt F)) (h : ∀ i, 0 ≤ ((V (Proc.devRef .tc main_arg0) : IVec S50000 32) i).toInt ∧ ((V (Proc.devRef .tc main_arg0) : IVec S50000 32) i).toInt < 50000) :
      StableHlo.after hostOps0 V (Proc.devRef .tc main_v0)
        = Host.gather gather_S50000x300_S50000x1_S50000x300_1_0_n_n_0_1_1300 (V (Proc.devRef .tc main_arg4))
            (broadcastInDim S50000x1 ![0] bcast_S50000_S50000x1_0 (select (cmpi .slt (V (Proc.devRef .tc main_arg0)) (broadcastInDim S50000 ![] bcast_S_S50000 (constantI S_ 32 0#32))) (addi (V (Proc.devRef .tc main_arg0)) (broadcastInDim S50000 ![] bcast_S_S50000 (constantI S_ 32 50000#32))) (V (Proc.devRef .tc main_arg0)))) := by
  simp only [hostOps0]
  after_results_simp
  simp only [ofBuf_toBuf, leaf_main_arg0, leaf_main_arg4, res_main_v0]
  exact take_masked (Sv := S50000) (Sc := S50000x1) (T := S50000x300) (R := S50000) (U := S_)
    (V (Proc.devRef .tc main_arg0) : IVec S50000 32)
    (broadcastInDim S50000 ![] bcast_S_S50000 (constantI S_ 32 0#32))
    (addi (V (Proc.devRef .tc main_arg0) : IVec S50000 32) (broadcastInDim S50000 ![] bcast_S_S50000 (constantI S_ 32 50000#32)))
    49999 (fun _ => rfl) (fun i => ⟨(h i).1, by have := (h i).2; omega⟩)
    ![0] bcast_S50000_S50000x1_0
    (broadcastInDim S50000x1 ![] bcast_S_S50000x1 (constantI S_ 32 0#32))
    (broadcastInDim S50000x1 ![0, 1] bcast_S1x1_S50000x1_0_1 (broadcastInDim S1x1 ![1] bcast_S1_S1x1_1 (constantI S1 32 49999#32)))
    (fun _ => rfl) (fun _ => toInt_49999) (constantI S_ 1 1#1) (fun _ => rfl)
    reducesTo_S50000x1_S50000_d1 h_S_ ![0] bcast_S50000_S50000x300_0
    (fun I => Host.gather gather_S50000x300_S50000x1_S50000x300_1_0_n_n_0_1_1300 (V (Proc.devRef .tc main_arg4)) I)
    (broadcastInDim S50000x300 ![] bcast_S_S50000x300 (constant S_ .f32 0x7FC00000#32))

set_option maxRecDepth 8192 in
set_option maxHeartbeats 2000000 in
/-- The second lookup: rows of the [50, 64] table at the 800000 edge-type indices. -/
theorem take1 (V : Valuation τ sig (Elt F)) (h : ∀ i, 0 ≤ ((V (Proc.devRef .tc main_arg1) : IVec S800000 32) i).toInt ∧ ((V (Proc.devRef .tc main_arg1) : IVec S800000 32) i).toInt < 50) :
      StableHlo.after hostOps1 V (Proc.devRef .tc main_v3)
        = Host.gather gather_S50x64_S800000x1_S800000x64_1_0_n_n_0_1_164 (V (Proc.devRef .tc main_arg5))
            (broadcastInDim S800000x1 ![0] bcast_S800000_S800000x1_0 (select (cmpi .slt (V (Proc.devRef .tc main_arg1)) (broadcastInDim S800000 ![] bcast_S_S800000 (constantI S_ 32 0#32))) (addi (V (Proc.devRef .tc main_arg1)) (broadcastInDim S800000 ![] bcast_S_S800000 (constantI S_ 32 50#32))) (V (Proc.devRef .tc main_arg1)))) := by
  simp only [hostOps1]
  after_results_simp
  simp only [ofBuf_toBuf, leaf_main_arg1, leaf_main_arg5, res_main_v3]
  exact take_masked (Sv := S800000) (Sc := S800000x1) (T := S800000x64) (R := S800000) (U := S_)
    (V (Proc.devRef .tc main_arg1) : IVec S800000 32)
    (broadcastInDim S800000 ![] bcast_S_S800000 (constantI S_ 32 0#32))
    (addi (V (Proc.devRef .tc main_arg1) : IVec S800000 32) (broadcastInDim S800000 ![] bcast_S_S800000 (constantI S_ 32 50#32)))
    49 (fun _ => rfl) (fun i => ⟨(h i).1, by have := (h i).2; omega⟩)
    ![0] bcast_S800000_S800000x1_0
    (broadcastInDim S800000x1 ![] bcast_S_S800000x1 (constantI S_ 32 0#32))
    (broadcastInDim S800000x1 ![0, 1] bcast_S1x1_S800000x1_0_1 (broadcastInDim S1x1 ![1] bcast_S1_S1x1_1 (constantI S1 32 49#32)))
    (fun _ => rfl) (fun _ => toInt_49) (constantI S_ 1 1#1) (fun _ => rfl)
    reducesTo_S800000x1_S800000_d1 h_S_ ![0] bcast_S800000_S800000x64_0
    (fun I => Host.gather gather_S50x64_S800000x1_S800000x64_1_0_n_n_0_1_164 (V (Proc.devRef .tc main_arg5)) I)
    (broadcastInDim S800000x64 ![] bcast_S_S800000x64 (constant S_ .f32 0x7FC00000#32))

set_option maxRecDepth 8192 in
set_option maxHeartbeats 2000000 in
/-- The third lookup: rows of a [50000, 128] array at the 800000 source indices. -/
theorem take1_1 (V : Valuation τ sig (Elt F)) (h : ∀ i, 0 ≤ ((V (Proc.devRef .tc main_arg2) : IVec S800000 32) i).toInt ∧ ((V (Proc.devRef .tc main_arg2) : IVec S800000 32) i).toInt < 50000) :
      StableHlo.after hostOps1_1 V (Proc.devRef .tc main_v4)
        = Host.gather gather_S50000x128_S800000x1_S800000x128_1_0_n_n_0_1_1128 (V (Proc.devRef .tc main_v2))
            (broadcastInDim S800000x1 ![0] bcast_S800000_S800000x1_0 (select (cmpi .slt (V (Proc.devRef .tc main_arg2)) (broadcastInDim S800000 ![] bcast_S_S800000 (constantI S_ 32 0#32))) (addi (V (Proc.devRef .tc main_arg2)) (broadcastInDim S800000 ![] bcast_S_S800000 (constantI S_ 32 50000#32))) (V (Proc.devRef .tc main_arg2)))) := by
  simp only [hostOps1_1]
  after_results_simp
  simp only [ofBuf_toBuf, leaf_main_arg2, leaf_main_v2, res_main_v4]
  exact take_masked (Sv := S800000) (Sc := S800000x1) (T := S800000x128) (R := S800000) (U := S_)
    (V (Proc.devRef .tc main_arg2) : IVec S800000 32)
    (broadcastInDim S800000 ![] bcast_S_S800000 (constantI S_ 32 0#32))
    (addi (V (Proc.devRef .tc main_arg2) : IVec S800000 32) (broadcastInDim S800000 ![] bcast_S_S800000 (constantI S_ 32 50000#32)))
    49999 (fun _ => rfl) (fun i => ⟨(h i).1, by have := (h i).2; omega⟩)
    ![0] bcast_S800000_S800000x1_0
    (broadcastInDim S800000x1 ![] bcast_S_S800000x1 (constantI S_ 32 0#32))
    (broadcastInDim S800000x1 ![0, 1] bcast_S1x1_S800000x1_0_1 (broadcastInDim S1x1 ![1] bcast_S1_S1x1_1 (constantI S1 32 49999#32)))
    (fun _ => rfl) (fun _ => toInt_49999) (constantI S_ 1 1#1) (fun _ => rfl)
    reducesTo_S800000x1_S800000_d1 h_S_ ![0] bcast_S800000_S800000x128_0
    (fun I => Host.gather gather_S50000x128_S800000x1_S800000x128_1_0_n_n_0_1_1128 (V (Proc.devRef .tc main_v2)) I)
    (broadcastInDim S800000x128 ![] bcast_S_S800000x128 (constant S_ .f32 0x7FC00000#32))

set_option maxRecDepth 8192 in
set_option maxHeartbeats 2000000 in
/-- The fourth lookup: rows of a [50000, 128] array at the 800000 source indices. -/
theorem take2_1 (V : Valuation τ sig (Elt F)) (h : ∀ i, 0 ≤ ((V (Proc.devRef .tc main_arg2) : IVec S800000 32) i).toInt ∧ ((V (Proc.devRef .tc main_arg2) : IVec S800000 32) i).toInt < 50000) :
      StableHlo.after hostOps2_1 V (Proc.devRef .tc main_v18)
        = Host.gather gather_S50000x128_S800000x1_S800000x128_1_0_n_n_0_1_1128 (V (Proc.devRef .tc main_v16))
            (broadcastInDim S800000x1 ![0] bcast_S800000_S800000x1_0 (select (cmpi .slt (V (Proc.devRef .tc main_arg2)) (broadcastInDim S800000 ![] bcast_S_S800000 (constantI S_ 32 0#32))) (addi (V (Proc.devRef .tc main_arg2)) (broadcastInDim S800000 ![] bcast_S_S800000 (constantI S_ 32 50000#32))) (V (Proc.devRef .tc main_arg2)))) := by
  simp only [hostOps2_1]
  after_results_simp
  simp only [ofBuf_toBuf, leaf_main_arg2, leaf_main_v16, res_main_v18]
  exact take_masked (Sv := S800000) (Sc := S800000x1) (T := S800000x128) (R := S800000) (U := S_)
    (V (Proc.devRef .tc main_arg2) : IVec S800000 32)
    (broadcastInDim S800000 ![] bcast_S_S800000 (constantI S_ 32 0#32))
    (addi (V (Proc.devRef .tc main_arg2) : IVec S800000 32) (broadcastInDim S800000 ![] bcast_S_S800000 (constantI S_ 32 50000#32)))
    49999 (fun _ => rfl) (fun i => ⟨(h i).1, by have := (h i).2; omega⟩)
    ![0] bcast_S800000_S800000x1_0
    (broadcastInDim S800000x1 ![] bcast_S_S800000x1 (constantI S_ 32 0#32))
    (broadcastInDim S800000x1 ![0, 1] bcast_S1x1_S800000x1_0_1 (broadcastInDim S1x1 ![1] bcast_S1_S1x1_1 (constantI S1 32 49999#32)))
    (fun _ => rfl) (fun _ => toInt_49999) (constantI S_ 1 1#1) (fun _ => rfl)
    reducesTo_S800000x1_S800000_d1 h_S_ ![0] bcast_S800000_S800000x128_0
    (fun I => Host.gather gather_S50000x128_S800000x1_S800000x128_1_0_n_n_0_1_1128 (V (Proc.devRef .tc main_v16)) I)
    (broadcastInDim S800000x128 ![] bcast_S_S800000x128 (constant S_ .f32 0x7FC00000#32))

set_option maxRecDepth 8192 in
set_option maxHeartbeats 2000000 in
/-- The fifth lookup: rows of the same [50000, 128] array at the 800000 target indices. -/
theorem take2_2 (V : Valuation τ sig (Elt F)) (h : ∀ i, 0 ≤ ((V (Proc.devRef .tc main_arg3) : IVec S800000 32) i).toInt ∧ ((V (Proc.devRef .tc main_arg3) : IVec S800000 32) i).toInt < 50000) :
      StableHlo.after hostOps2_2 V (Proc.devRef .tc main_v19)
        = Host.gather gather_S50000x128_S800000x1_S800000x128_1_0_n_n_0_1_1128 (V (Proc.devRef .tc main_v16))
            (broadcastInDim S800000x1 ![0] bcast_S800000_S800000x1_0 (select (cmpi .slt (V (Proc.devRef .tc main_arg3)) (broadcastInDim S800000 ![] bcast_S_S800000 (constantI S_ 32 0#32))) (addi (V (Proc.devRef .tc main_arg3)) (broadcastInDim S800000 ![] bcast_S_S800000 (constantI S_ 32 50000#32))) (V (Proc.devRef .tc main_arg3)))) := by
  simp only [hostOps2_2]
  after_results_simp
  simp only [ofBuf_toBuf, leaf_main_arg3, leaf_main_v16, res_main_v19]
  exact take_masked (Sv := S800000) (Sc := S800000x1) (T := S800000x128) (R := S800000) (U := S_)
    (V (Proc.devRef .tc main_arg3) : IVec S800000 32)
    (broadcastInDim S800000 ![] bcast_S_S800000 (constantI S_ 32 0#32))
    (addi (V (Proc.devRef .tc main_arg3) : IVec S800000 32) (broadcastInDim S800000 ![] bcast_S_S800000 (constantI S_ 32 50000#32)))
    49999 (fun _ => rfl) (fun i => ⟨(h i).1, by have := (h i).2; omega⟩)
    ![0] bcast_S800000_S800000x1_0
    (broadcastInDim S800000x1 ![] bcast_S_S800000x1 (constantI S_ 32 0#32))
    (broadcastInDim S800000x1 ![0, 1] bcast_S1x1_S800000x1_0_1 (broadcastInDim S1x1 ![1] bcast_S1_S1x1_1 (constantI S1 32 49999#32)))
    (fun _ => rfl) (fun _ => toInt_49999) (constantI S_ 1 1#1) (fun _ => rfl)
    reducesTo_S800000x1_S800000_d1 h_S_ ![0] bcast_S800000_S800000x128_0
    (fun I => Host.gather gather_S50000x128_S800000x1_S800000x128_1_0_n_n_0_1_1128 (V (Proc.devRef .tc main_v16)) I)
    (broadcastInDim S800000x128 ![] bcast_S_S800000x128 (constant S_ .f32 0x7FC00000#32))

set_option maxRecDepth 8192 in
set_option maxHeartbeats 2000000 in
/-- The sixth lookup: rows of a [50000, 128] array at the 800000 source indices. -/
theorem take3 (V : Valuation τ sig (Elt F)) (h : ∀ i, 0 ≤ ((V (Proc.devRef .tc main_arg2) : IVec S800000 32) i).toInt ∧ ((V (Proc.devRef .tc main_arg2) : IVec S800000 32) i).toInt < 50000) :
      StableHlo.after hostOps3 V (Proc.devRef .tc main_v29)
        = Host.gather gather_S50000x128_S800000x1_S800000x128_1_0_n_n_0_1_1128 (V (Proc.devRef .tc main_v28_0))
            (broadcastInDim S800000x1 ![0] bcast_S800000_S800000x1_0 (select (cmpi .slt (V (Proc.devRef .tc main_arg2)) (broadcastInDim S800000 ![] bcast_S_S800000 (constantI S_ 32 0#32))) (addi (V (Proc.devRef .tc main_arg2)) (broadcastInDim S800000 ![] bcast_S_S800000 (constantI S_ 32 50000#32))) (V (Proc.devRef .tc main_arg2)))) := by
  simp only [hostOps3]
  after_results_simp
  simp only [ofBuf_toBuf, leaf_main_arg2, leaf_main_v28_0, res_main_v29]
  exact take_masked (Sv := S800000) (Sc := S800000x1) (T := S800000x128) (R := S800000) (U := S_)
    (V (Proc.devRef .tc main_arg2) : IVec S800000 32)
    (broadcastInDim S800000 ![] bcast_S_S800000 (constantI S_ 32 0#32))
    (addi (V (Proc.devRef .tc main_arg2) : IVec S800000 32) (broadcastInDim S800000 ![] bcast_S_S800000 (constantI S_ 32 50000#32)))
    49999 (fun _ => rfl) (fun i => ⟨(h i).1, by have := (h i).2; omega⟩)
    ![0] bcast_S800000_S800000x1_0
    (broadcastInDim S800000x1 ![] bcast_S_S800000x1 (constantI S_ 32 0#32))
    (broadcastInDim S800000x1 ![0, 1] bcast_S1x1_S800000x1_0_1 (broadcastInDim S1x1 ![1] bcast_S1_S1x1_1 (constantI S1 32 49999#32)))
    (fun _ => rfl) (fun _ => toInt_49999) (constantI S_ 1 1#1) (fun _ => rfl)
    reducesTo_S800000x1_S800000_d1 h_S_ ![0] bcast_S800000_S800000x128_0
    (fun I => Host.gather gather_S50000x128_S800000x1_S800000x128_1_0_n_n_0_1_1128 (V (Proc.devRef .tc main_v28_0)) I)
    (broadcastInDim S800000x128 ![] bcast_S_S800000x128 (constant S_ .f32 0x7FC00000#32))

set_option maxRecDepth 8192 in
set_option maxHeartbeats 2000000 in
/-- The seventh lookup: rows of the same [50000, 128] array at the 800000 target indices. -/
theorem take3_1 (V : Valuation τ sig (Elt F)) (h : ∀ i, 0 ≤ ((V (Proc.devRef .tc main_arg3) : IVec S800000 32) i).toInt ∧ ((V (Proc.devRef .tc main_arg3) : IVec S800000 32) i).toInt < 50000) :
      StableHlo.after hostOps3_1 V (Proc.devRef .tc main_v30)
        = Host.gather gather_S50000x128_S800000x1_S800000x128_1_0_n_n_0_1_1128 (V (Proc.devRef .tc main_v28_0))
            (broadcastInDim S800000x1 ![0] bcast_S800000_S800000x1_0 (select (cmpi .slt (V (Proc.devRef .tc main_arg3)) (broadcastInDim S800000 ![] bcast_S_S800000 (constantI S_ 32 0#32))) (addi (V (Proc.devRef .tc main_arg3)) (broadcastInDim S800000 ![] bcast_S_S800000 (constantI S_ 32 50000#32))) (V (Proc.devRef .tc main_arg3)))) := by
  simp only [hostOps3_1]
  after_results_simp
  simp only [ofBuf_toBuf, leaf_main_arg3, leaf_main_v28_0, res_main_v30]
  exact take_masked (Sv := S800000) (Sc := S800000x1) (T := S800000x128) (R := S800000) (U := S_)
    (V (Proc.devRef .tc main_arg3) : IVec S800000 32)
    (broadcastInDim S800000 ![] bcast_S_S800000 (constantI S_ 32 0#32))
    (addi (V (Proc.devRef .tc main_arg3) : IVec S800000 32) (broadcastInDim S800000 ![] bcast_S_S800000 (constantI S_ 32 50000#32)))
    49999 (fun _ => rfl) (fun i => ⟨(h i).1, by have := (h i).2; omega⟩)
    ![0] bcast_S800000_S800000x1_0
    (broadcastInDim S800000x1 ![] bcast_S_S800000x1 (constantI S_ 32 0#32))
    (broadcastInDim S800000x1 ![0, 1] bcast_S1x1_S800000x1_0_1 (broadcastInDim S1x1 ![1] bcast_S1_S1x1_1 (constantI S1 32 49999#32)))
    (fun _ => rfl) (fun _ => toInt_49999) (constantI S_ 1 1#1) (fun _ => rfl)
    reducesTo_S800000x1_S800000_d1 h_S_ ![0] bcast_S800000_S800000x128_0
    (fun I => Host.gather gather_S50000x128_S800000x1_S800000x128_1_0_n_n_0_1_1128 (V (Proc.devRef .tc main_v28_0)) I)
    (broadcastInDim S800000x128 ![] bcast_S_S800000x128 (constant S_ .f32 0x7FC00000#32))

end Cert.KernelIdeal.Val

end
-- ==== Proof.Val.PayDense.lean ====
/-
  The two dense kernels' stored payloads, read at an index at the ideal values (floats as extended reals): each is
  `tanh (x · w + b)` elementwise, the product a sum over the one contracted axis and the bias its one row.
-/
import proofs.«409581_j84387517432579_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx
open scoped BigOperators

/-! ## Dense kernel 0: a `[5000, 300]` by `[300, 128]` product plus a bias row, through `tanh` -/

/-- On the left operand's row axis the matmul's operand index is the output index's row. -/
theorem lhs_k0_0 (i : S5000x128.Idx) (c : dot_S5000x300_S300x128_S5000x128_1_0_0_1_n_n.contr.Idx) :
    (dot_S5000x300_S300x128_S5000x128_1_0_0_1_n_n.lhsIdx i c 0).val = (i 0).val := by
  unfold DotDims.lhsIdx
  rw [dif_neg (show ¬(0 : Fin S5000x300.rank) ∈ dot_S5000x300_S300x128_S5000x128_1_0_0_1_n_n.lhsBatch by decide),
    dif_pos (show (0 : Fin S5000x300.rank) ∈ dot_S5000x300_S300x128_S5000x128_1_0_0_1_n_n.lhsNonContracting by decide)]
  rfl

/-- On the left operand's column axis, the contracted one, it is the contraction position. -/
theorem lhs_k0_1 (i : S5000x128.Idx) (c : dot_S5000x300_S300x128_S5000x128_1_0_0_1_n_n.contr.Idx) :
    (dot_S5000x300_S300x128_S5000x128_1_0_0_1_n_n.lhsIdx i c 1).val = (c ⟨0, by decide⟩).val :=
  dot_S5000x300_S300x128_S5000x128_1_0_0_1_n_n.lhsIdx_val_of_single rfl i c

/-- On the right operand's row axis, the contracted one, it is the contraction position. -/
theorem rhs_k0_0 (i : S5000x128.Idx) (c : dot_S5000x300_S300x128_S5000x128_1_0_0_1_n_n.contr.Idx) :
    (dot_S5000x300_S300x128_S5000x128_1_0_0_1_n_n.rhsIdx i c 0).val = (c ⟨0, by decide⟩).val :=
  dot_S5000x300_S300x128_S5000x128_1_0_0_1_n_n.rhsIdx_val_of_single rfl i c

/-- On the right operand's column axis it is the output index's column. -/
theorem rhs_k0_1 (i : S5000x128.Idx) (c : dot_S5000x300_S300x128_S5000x128_1_0_0_1_n_n.contr.Idx) :
    (dot_S5000x300_S300x128_S5000x128_1_0_0_1_n_n.rhsIdx i c 1).val = (i 1).val := by
  unfold DotDims.rhsIdx
  rw [dif_neg (show ¬(1 : Fin S300x128.rank) ∈ dot_S5000x300_S300x128_S5000x128_1_0_0_1_n_n.rhsBatch by decide),
    dif_pos (show (1 : Fin S300x128.rank) ∈ dot_S5000x300_S300x128_S5000x128_1_0_0_1_n_n.rhsNonContracting by decide)]
  rfl

/-- The matmul into the zero accumulator, read at `(p, q)`: row `p` of the left operand against column `q` of the
    right one, summed over the 300 contraction positions. -/
theorem mm0_apply (a : FVec Ideal S5000x300 .f32) (b : FVec Ideal S300x128 .f32) (p : Fin 5000) (q : Fin 128) :
    matmul dot_S5000x300_S300x128_S5000x128_1_0_0_1_n_n none a b (constant (F := Ideal) S5000x128 .f32 0x00000000#32) (ix2 p q)
      = ∑ k : Fin 300, a (ix2 p k) * b (ix2 k q) := by
  refine (Ideal.matmul_constant_zero_apply dot_S5000x300_S300x128_S5000x128_1_0_0_1_n_n none a b (ix2 p q)).trans ?_
  rw [← Equiv.sum_comp (contrEquiv1 dot_S5000x300_S300x128_S5000x128_1_0_0_1_n_n 300 rfl rfl).symm]
  refine Finset.sum_congr rfl fun k _ => ?_
  have hk := contrEquiv1_symm_val dot_S5000x300_S300x128_S5000x128_1_0_0_1_n_n 300 rfl rfl k
  have el : dot_S5000x300_S300x128_S5000x128_1_0_0_1_n_n.lhsIdx (ix2 p q) ((contrEquiv1 dot_S5000x300_S300x128_S5000x128_1_0_0_1_n_n 300 rfl rfl).symm k) = ix2 p k :=
    funext fun ax => Fin.ext (by
      match ax with
      | ⟨0, _⟩ => exact lhs_k0_0 _ _
      | ⟨1, _⟩ => exact (lhs_k0_1 _ _).trans hk)
  have er : dot_S5000x300_S300x128_S5000x128_1_0_0_1_n_n.rhsIdx (ix2 p q) ((contrEquiv1 dot_S5000x300_S300x128_S5000x128_1_0_0_1_n_n 300 rfl rfl).symm k) = ix2 k q :=
    funext fun ax => Fin.ext (by
      match ax with
      | ⟨0, _⟩ => exact (rhs_k0_0 _ _).trans hk
      | ⟨1, _⟩ => exact rhs_k0_1 _ _)
  rw [el, er]

/-- The stored payload at `(p, q)`: `tanh` of the product's element plus the bias row's element. The two shape casts
    are to the same shape, the bias row is broadcast down the rows, and the accumulator is the zero splat. -/
theorem pay0_apply (x0 : Vec Ideal S5000x300 .f32) (x1 : Vec Ideal S300x128 .f32) (x2 : Vec Ideal S1x128 .f32) (p : Fin 5000) (q : Fin 128) :
    k0_pay1 (F := Ideal) x0 x1 x2 (ix2 p q) = Ideal.tanh ((∑ k : Fin 300, x0 (ix2 p k) * x1 (ix2 k q)) + x2 (ix2 (0 : Fin 1) q)) := by
  unfold k0_pay1
  rw [shapeCast_self, shapeCast_self]
  refine congrArg Ideal.tanh ?_
  exact congrArg₂ (· + ·) (mm0_apply x0 x1 p q) (broadcastTo_1b_ab_apply x2 broadcasts_S1x128_S5000x128 p q)

/-! ## Dense kernel 1: a `[8000, 192]` by `[192, 128]` product plus a bias row, through `tanh` -/

/-- On the left operand's row axis the matmul's operand index is the output index's row. -/
theorem lhs_k1_0 (i : S8000x128.Idx) (c : dot_S8000x192_S192x128_S8000x128_1_0_0_1_n_n.contr.Idx) :
    (dot_S8000x192_S192x128_S8000x128_1_0_0_1_n_n.lhsIdx i c 0).val = (i 0).val := by
  unfold DotDims.lhsIdx
  rw [dif_neg (show ¬(0 : Fin S8000x192.rank) ∈ dot_S8000x192_S192x128_S8000x128_1_0_0_1_n_n.lhsBatch by decide),
    dif_pos (show (0 : Fin S8000x192.rank) ∈ dot_S8000x192_S192x128_S8000x128_1_0_0_1_n_n.lhsNonContracting by decide)]
  rfl

/-- On the left operand's column axis, the contracted one, it is the contraction position. -/
theorem lhs_k1_1 (i : S8000x128.Idx) (c : dot_S8000x192_S192x128_S8000x128_1_0_0_1_n_n.contr.Idx) :
    (dot_S8000x192_S192x128_S8000x128_1_0_0_1_n_n.lhsIdx i c 1).val = (c ⟨0, by decide⟩).val :=
  dot_S8000x192_S192x128_S8000x128_1_0_0_1_n_n.lhsIdx_val_of_single rfl i c

/-- On the right operand's row axis, the contracted one, it is the contraction position. -/
theorem rhs_k1_0 (i : S8000x128.Idx) (c : dot_S8000x192_S192x128_S8000x128_1_0_0_1_n_n.contr.Idx) :
    (dot_S8000x192_S192x128_S8000x128_1_0_0_1_n_n.rhsIdx i c 0).val = (c ⟨0, by decide⟩).val :=
  dot_S8000x192_S192x128_S8000x128_1_0_0_1_n_n.rhsIdx_val_of_single rfl i c

/-- On the right operand's column axis it is the output index's column. -/
theorem rhs_k1_1 (i : S8000x128.Idx) (c : dot_S8000x192_S192x128_S8000x128_1_0_0_1_n_n.contr.Idx) :
    (dot_S8000x192_S192x128_S8000x128_1_0_0_1_n_n.rhsIdx i c 1).val = (i 1).val := by
  unfold DotDims.rhsIdx
  rw [dif_neg (show ¬(1 : Fin S192x128.rank) ∈ dot_S8000x192_S192x128_S8000x128_1_0_0_1_n_n.rhsBatch by decide),
    dif_pos (show (1 : Fin S192x128.rank) ∈ dot_S8000x192_S192x128_S8000x128_1_0_0_1_n_n.rhsNonContracting by decide)]
  rfl

/-- The matmul into the zero accumulator, read at `(p, q)`: row `p` of the left operand against column `q` of the
    right one, summed over the 192 contraction positions. -/
theorem mm1_apply (a : FVec Ideal S8000x192 .f32) (b : FVec Ideal S192x128 .f32) (p : Fin 8000) (q : Fin 128) :
    matmul dot_S8000x192_S192x128_S8000x128_1_0_0_1_n_n none a b (constant (F := Ideal) S8000x128 .f32 0x00000000#32) (ix2 p q)
      = ∑ k : Fin 192, a (ix2 p k) * b (ix2 k q) := by
  refine (Ideal.matmul_constant_zero_apply dot_S8000x192_S192x128_S8000x128_1_0_0_1_n_n none a b (ix2 p q)).trans ?_
  rw [← Equiv.sum_comp (contrEquiv1 dot_S8000x192_S192x128_S8000x128_1_0_0_1_n_n 192 rfl rfl).symm]
  refine Finset.sum_congr rfl fun k _ => ?_
  have hk := contrEquiv1_symm_val dot_S8000x192_S192x128_S8000x128_1_0_0_1_n_n 192 rfl rfl k
  have el : dot_S8000x192_S192x128_S8000x128_1_0_0_1_n_n.lhsIdx (ix2 p q) ((contrEquiv1 dot_S8000x192_S192x128_S8000x128_1_0_0_1_n_n 192 rfl rfl).symm k) = ix2 p k :=
    funext fun ax => Fin.ext (by
      match ax with
      | ⟨0, _⟩ => exact lhs_k1_0 _ _
      | ⟨1, _⟩ => exact (lhs_k1_1 _ _).trans hk)
  have er : dot_S8000x192_S192x128_S8000x128_1_0_0_1_n_n.rhsIdx (ix2 p q) ((contrEquiv1 dot_S8000x192_S192x128_S8000x128_1_0_0_1_n_n 192 rfl rfl).symm k) = ix2 k q :=
    funext fun ax => Fin.ext (by
      match ax with
      | ⟨0, _⟩ => exact (rhs_k1_0 _ _).trans hk
      | ⟨1, _⟩ => exact rhs_k1_1 _ _)
  rw [el, er]

/-- The stored payload at `(p, q)`: `tanh` of the product's element plus the bias row's element. The two shape casts
    are to the same shape, the bias row is broadcast down the rows, and the accumulator is the zero splat. -/
theorem pay1_apply (x0 : Vec Ideal S8000x192 .f32) (x1 : Vec Ideal S192x128 .f32) (x2 : Vec Ideal S1x128 .f32) (p : Fin 8000) (q : Fin 128) :
    k1_pay1 (F := Ideal) x0 x1 x2 (ix2 p q) = Ideal.tanh ((∑ k : Fin 192, x0 (ix2 p k) * x1 (ix2 k q)) + x2 (ix2 (0 : Fin 1) q)) := by
  unfold k1_pay1
  rw [shapeCast_self, shapeCast_self]
  refine congrArg Ideal.tanh ?_
  exact congrArg₂ (· + ·) (mm1_apply x0 x1 p q) (broadcastTo_1b_ab_apply x2 broadcasts_S1x128_S8000x128 p q)

end Cert.KernelIdeal.Val

end
-- ==== Proof.Val.Dense.lean ====
/-
  The two dense regions' result arrays after the region, read at an index at the ideal values: every block of rows
  is written back by its grid point, the blocks tile the array, and the array ends holding `tanh (x · W + b)` of
  the three input arrays as the region found them.
-/
import proofs.«409581_j84387517432579_1_alg».proof.Proof.KI.Reg0
import proofs.«409581_j84387517432579_1_alg».proof.Proof.KI.Reg1
import proofs.«409581_j84387517432579_1_alg».proof.Proof.Val.PayDense
import Idealize.ShloMosaic.Lib.Pipeline.Value
import Idealize.ShloMosaic.Lib.ValueIdx

noncomputable section

namespace Cert.KernelIdeal.Val

open Cert.KernelIdeal Cert.KernelIdeal.Gen Cert.KernelIdeal.Frames Idealize.ShloMosaic Idealize.ShloMosaic.ValueIdx
open Idealize.ShloMosaic.TcCoe
open Idealize.ShloMosaic.Pipeline (Dat)
open scoped BigOperators

variable (V : (c : Dev nD) → (b : Ref sig .tc) → Buf (Elt Ideal) ((c : Thread nD τ).loc b))

/-- The body's whole-buffer rectangles sit at zero offsets. -/
theorem zero_offsets : (![0, 0] : Fin 2 → Nat) = fun _ => 0 := funext fun a => by fin_cases a <;> rfl

/-- The dense layer on whole arrays: row `i 0` of `a0` against column `i 1` of `a1`, plus the bias row's
    element at that column, through `tanh`. -/
def dense {M N C : Nat} (a0 : (⟨2, ![M, N]⟩ : Shape).Idx → EReal) (a1 : (⟨2, ![N, C]⟩ : Shape).Idx → EReal)
    (a2 : (⟨2, ![1, C]⟩ : Shape).Idx → EReal) : (⟨2, ![M, C]⟩ : Shape).Idx → EReal :=
  fun i => Ideal.tanh ((∑ k : Fin N, a0 (ix2 (⟨(i 0).val, idx2_lt0 i⟩ : Fin M) k) * a1 (ix2 k (⟨(i 1).val, idx2_lt1 i⟩ : Fin C)))
    + a2 (ix2 (0 : Fin 1) (⟨(i 1).val, idx2_lt1 i⟩ : Fin C)))

/-- It is read at `(p, q)` by its definition. -/
theorem dense_ix2 {M N C : Nat} (a0 : (⟨2, ![M, N]⟩ : Shape).Idx → EReal) (a1 : (⟨2, ![N, C]⟩ : Shape).Idx → EReal)
    (a2 : (⟨2, ![1, C]⟩ : Shape).Idx → EReal) (p : Fin M) (q : Fin C) :
    dense a0 a1 a2 (ix2 p q) = Ideal.tanh ((∑ k : Fin N, a0 (ix2 p k) * a1 (ix2 k q)) + a2 (ix2 (0 : Fin 1) q)) := rfl

/-! ## Region 0: blocks of 5000 rows of a `[50000, 300]` array against a `[300, 128]` matrix and a bias row -/

/-- The printed index maps over the grid: the row-block windows sit at block row `t`, column block 0; the matrix
    and the bias row are one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The block of `x` at point `t` is rows `5000 t … 5000 t + 4999` of the array. -/
theorem xblk0_apply (c : Dev nD) (t : Fin cfg0.N) (y : S5000x300.Idx) (k : S50000x300.Idx)
    (hk0 : (k 0).val = 5000 * t.val + (y 0).val) (hk1 : (k 1).val = (y 1).val) :
    (iblk0 V c 0 t : Vec Ideal S5000x300 .f32) y = (V c main_v0 : S50000x300.Idx → EReal) k := by
  obtain ⟨e0, e1, -⟩ := idx_facts0 t
  unfold iblk0
  rw [View.read_apply]
  show V c main_v0 _ = V c main_v0 _
  congr 1
  funext a
  apply Fin.ext
  match a with
  | ⟨0, _⟩ => show win0_0.index t (0 : Fin 2) * 5000 + 1 * (y 0).val = (k 0).val; omega
  | ⟨1, _⟩ => show win0_0.index t (1 : Fin 2) * 300 + 1 * (y 1).val = (k 1).val; omega

/-- The matrix's one block is the matrix. -/
theorem wblk0_eq (c : Dev nD) (t : Fin cfg0.N) :
    (iblk0 V c 1 t : Vec Ideal S300x128 .f32) = (V c main_arg6 : S300x128.Idx → EReal) := by
  obtain ⟨-, -, e2, e3, -⟩ := idx_facts0 t
  funext y
  unfold iblk0
  rw [View.read_apply]
  show V c main_arg6 _ = V c main_arg6 _
  congr 1
  funext a
  apply Fin.ext
  match a with
  | ⟨0, _⟩ => show win0_1.index t (0 : Fin 2) * 300 + 1 * (y 0).val = (y 0).val; omega
  | ⟨1, _⟩ => show win0_1.index t (1 : Fin 2) * 128 + 1 * (y 1).val = (y 1).val; omega

/-- The bias row's one block is the bias row. -/
theorem bblk0_eq (c : Dev nD) (t : Fin cfg0.N) :
    (iblk0 V c 2 t : Vec Ideal S1x128 .f32) = (V c main_v1 : S1x128.Idx → EReal) := by
  obtain ⟨-, -, -, -, e4, e5, -⟩ := idx_facts0 t
  funext y
  unfold iblk0
  rw [View.read_apply]
  show V c main_v1 _ = V c main_v1 _
  congr 1
  funext a
  apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- One element of the body's payload is the layer's element: given that the block of `x` is the rows from `r`
    on, and that the index `i` is the block index `j` moved down `r` rows. -/
theorem point0 (x0 : Vec Ideal S5000x300 .f32) (x1 : Vec Ideal S300x128 .f32) (x2 : Vec Ideal S1x128 .f32)
    (a0 : S50000x300.Idx → EReal) (r : Nat) (j : S5000x128.Idx) (i : S50000x128.Idx)
    (h0 : ∀ (y : S5000x300.Idx) (k : S50000x300.Idx), (k 0).val = r + (y 0).val → (k 1).val = (y 1).val → x0 y = a0 k)
    (hi0 : (i 0).val = r + (j 0).val) (hi1 : (i 1).val = (j 1).val) :
    k0_pay1 (F := Ideal) x0 x1 x2 j = dense a0 x1 x2 i := by
  obtain ⟨p, q, rfl⟩ : ∃ (p : Fin 5000) (q : Fin 128), j = ix2 p q := ⟨j 0, j 1, eq_ix2 j⟩
  rw [pay0_apply]
  unfold dense
  have hq : (⟨(i 1).val, idx2_lt1 i⟩ : Fin 128) = q := Fin.ext hi1
  rw [hq]
  refine congrArg Ideal.tanh (congrArg (· + x2 (ix2 (0 : Fin 1) q)) (Finset.sum_congr rfl fun k _ => ?_))
  rw [h0 (ix2 p k) (ix2 (⟨(i 0).val, idx2_lt0 i⟩ : Fin 50000) k) hi0 rfl]

/-- WHAT POINT `t` WRITES BACK is block `t` of the layer of the three arrays as the region finds them. -/
theorem flushed0_eq (c : Dev nD) (t : Fin cfg0.N) :
    (dat0 (F := Ideal) V c).flushed 3 t = ((cfg0.win 3).blk t).view.read (Elt Ideal)
      (dense (V c main_v0 : S50000x300.Idx → EReal) (V c main_arg6 : S300x128.Idx → EReal) (V c main_v1 : S1x128.Idx → EReal)) := by
  show (cfg0.win 3).cut (grid0.coords t) ((dat0 (F := Ideal) V c).after 3 t) = _
  rw [after0_3]
  unfold out0_3
  rw [View.canon_unit_zero zero_offsets]
  simp only [View.ld_unit_zero (S := S5000x300) zero_offsets, View.ld_unit_zero (S := S300x128) zero_offsets,
    View.ld_unit_zero (S := S1x128) zero_offsets]
  rw [wblk0_eq, bblk0_eq]
  obtain ⟨-, -, -, -, -, -, e6, e7⟩ := idx_facts0 t
  funext j
  refine point0 _ _ _ _ (5000 * t.val) j _ (fun y k hk0 hk1 => xblk0_apply V c t y k hk0 hk1) ?_ ?_
  · show win0_3.index t (0 : Fin 2) * 5000 + 1 * (j 0).val = 5000 * t.val + (j 0).val; omega
  · show win0_3.index t (1 : Fin 2) * 128 + 1 * (j 1).val = (j 1).val; omega

/-- An index of the result array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v2).slice (win0_3.rect t)).set ↔ _
  rw [View.set_slice_whole, Rect.mem_set_unit]
  exact Iff.rfl

/-- The blocks tile the result array: row `r` is in the block of point `r / 5000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  have ht : (i 0).val / 5000 < cfg0.N := by show (i 0).val / 5000 < grid0.N; omega
  obtain ⟨-, -, -, -, -, -, e6, e7⟩ := idx_facts0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e7]; omega

/-- THE RESULT ARRAY after the region is the layer of the three input arrays as the region found them. -/
theorem dense0_final (c : Dev nD) :
    (dat0 (F := Ideal) V c).arrAt 3 cfg0.N
      = dense (V c main_v0 : S50000x300.Idx → EReal) (V c main_arg6 : S300x128.Idx → EReal) (V c main_v1 : S1x128.Idx → EReal) :=
  (dat0 (F := Ideal) V c).arrAt_eq_of_cover 3 _ (fun t _ => flushed0_eq V c t) cover0

/-- Read at `(p, q)`. -/
theorem dense0_at (c : Dev nD) (p : Fin 50000) (q : Fin 128) :
    ((dat0 (F := Ideal) V c).arrAt 3 cfg0.N) (ix2 p q)
      = Ideal.tanh (HAdd.hAdd (α := EReal) (β := EReal) (γ := EReal)
          (∑ k : Fin 300, HMul.hMul (α := EReal) (β := EReal) (γ := EReal)
            ((dat0 (F := Ideal) V c).A 0 (ix2 p k)) ((dat0 (F := Ideal) V c).A 1 (ix2 k q)))
          ((dat0 (F := Ideal) V c).A 2 (ix2 (0 : Fin 1) q))) := by
  rw [dense0_final]
  exact dense_ix2 _ _ _ p q

/-! ## Region 1: blocks of 8000 rows of a `[800000, 192]` array against a `[192, 128]` matrix and a bias row -/

/-- The printed index maps over the grid: the row-block windows sit at block row `t`, column block 0; the matrix
    and the bias row are one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block of `x` at point `t` is rows `8000 t … 8000 t + 7999` of the array. -/
theorem xblk1_apply (c : Dev nD) (t : Fin cfg1.N) (y : S8000x192.Idx) (k : S800000x192.Idx)
    (hk0 : (k 0).val = 8000 * t.val + (y 0).val) (hk1 : (k 1).val = (y 1).val) :
    (iblk1 V c 0 t : Vec Ideal S8000x192 .f32) y = (V c main_v5 : S800000x192.Idx → EReal) k := by
  obtain ⟨e0, e1, -⟩ := idx_facts1 t
  unfold iblk1
  rw [View.read_apply]
  show V c main_v5 _ = V c main_v5 _
  congr 1
  funext a
  apply Fin.ext
  match a with
  | ⟨0, _⟩ => show win1_0.index t (0 : Fin 2) * 8000 + 1 * (y 0).val = (k 0).val; omega
  | ⟨1, _⟩ => show win1_0.index t (1 : Fin 2) * 192 + 1 * (y 1).val = (k 1).val; omega

/-- The matrix's one block is the matrix. -/
theorem wblk1_eq (c : Dev nD) (t : Fin cfg1.N) :
    (iblk1 V c 1 t : Vec Ideal S192x128 .f32) = (V c main_arg8 : S192x128.Idx → EReal) := by
  obtain ⟨-, -, e2, e3, -⟩ := idx_facts1 t
  funext y
  unfold iblk1
  rw [View.read_apply]
  show V c main_arg8 _ = V c main_arg8 _
  congr 1
  funext a
  apply Fin.ext
  match a with
  | ⟨0, _⟩ => show win1_1.index t (0 : Fin 2) * 192 + 1 * (y 0).val = (y 0).val; omega
  | ⟨1, _⟩ => show win1_1.index t (1 : Fin 2) * 128 + 1 * (y 1).val = (y 1).val; omega

/-- The bias row's one block is the bias row. -/
theorem bblk1_eq (c : Dev nD) (t : Fin cfg1.N) :
    (iblk1 V c 2 t : Vec Ideal S1x128 .f32) = (V c main_v6 : S1x128.Idx → EReal) := by
  obtain ⟨-, -, -, -, e4, e5, -⟩ := idx_facts1 t
  funext y
  unfold iblk1
  rw [View.read_apply]
  show V c main_v6 _ = V c main_v6 _
  congr 1
  funext a
  apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- One element of the body's payload is the layer's element: given that the block of `x` is the rows from `r`
    on, and that the index `i` is the block index `j` moved down `r` rows. -/
theorem point1 (x0 : Vec Ideal S8000x192 .f32) (x1 : Vec Ideal S192x128 .f32) (x2 : Vec Ideal S1x128 .f32)
    (a0 : S800000x192.Idx → EReal) (r : Nat) (j : S8000x128.Idx) (i : S800000x128.Idx)
    (h0 : ∀ (y : S8000x192.Idx) (k : S800000x192.Idx), (k 0).val = r + (y 0).val → (k 1).val = (y 1).val → x0 y = a0 k)
    (hi0 : (i 0).val = r + (j 0).val) (hi1 : (i 1).val = (j 1).val) :
    k1_pay1 (F := Ideal) x0 x1 x2 j = dense a0 x1 x2 i := by
  obtain ⟨p, q, rfl⟩ : ∃ (p : Fin 8000) (q : Fin 128), j = ix2 p q := ⟨j 0, j 1, eq_ix2 j⟩
  rw [pay1_apply]
  unfold dense
  have hq : (⟨(i 1).val, idx2_lt1 i⟩ : Fin 128) = q := Fin.ext hi1
  rw [hq]
  refine congrArg Ideal.tanh (congrArg (· + x2 (ix2 (0 : Fin 1) q)) (Finset.sum_congr rfl fun k _ => ?_))
  rw [h0 (ix2 p k) (ix2 (⟨(i 0).val, idx2_lt0 i⟩ : Fin 800000) k) hi0 rfl]

/-- WHAT POINT `t` WRITES BACK is block `t` of the layer of the three arrays as the region finds them. -/
theorem flushed1_eq (c : Dev nD) (t : Fin cfg1.N) :
    (dat1 (F := Ideal) V c).flushed 3 t = ((cfg1.win 3).blk t).view.read (Elt Ideal)
      (dense (V c main_v5 : S800000x192.Idx → EReal) (V c main_arg8 : S192x128.Idx → EReal) (V c main_v6 : S1x128.Idx → EReal)) := by
  show (cfg1.win 3).cut (grid1.coords t) ((dat1 (F := Ideal) V c).after 3 t) = _
  rw [after1_3]
  unfold out1_3
  rw [View.canon_unit_zero zero_offsets]
  simp only [View.ld_unit_zero (S := S8000x192) zero_offsets, View.ld_unit_zero (S := S192x128) zero_offsets,
    View.ld_unit_zero (S := S1x128) zero_offsets]
  rw [wblk1_eq, bblk1_eq]
  obtain ⟨-, -, -, -, -, -, e6, e7⟩ := idx_facts1 t
  funext j
  refine point1 _ _ _ _ (8000 * t.val) j _ (fun y k hk0 hk1 => xblk1_apply V c t y k hk0 hk1) ?_ ?_
  · show win1_3.index t (0 : Fin 2) * 8000 + 1 * (j 0).val = 8000 * t.val + (j 0).val; omega
  · show win1_3.index t (1 : Fin 2) * 128 + 1 * (j 1).val = (j 1).val; omega

/-- An index of the result array is in point `t`'s block iff each coordinate is in the block's range on its axis. -/
theorem mem_blk1 (t : Fin cfg1.N) (i : S800000x128.Idx) :
    i ∈ ((cfg1.win 3).blk t).view.set ↔ ∀ a : Fin 2, win1_3.index t a * S8000x128.size a ≤ (i a).val
      ∧ (i a).val < win1_3.index t a * S8000x128.size a + S8000x128.size a := by
  show i ∈ ((View.whole main_v7).slice (win1_3.rect t)).set ↔ _
  rw [View.set_slice_whole, Rect.mem_set_unit]
  exact Iff.rfl

/-- The blocks tile the result array: row `r` is in the block of point `r / 8000`. -/
theorem cover1 (i : S800000x128.Idx) :
    ∃ t : Fin cfg1.N, (cfg1.win 3).flush t = true ∧ i ∈ ((cfg1.win 3).blk t).view.set := by
  have hi0 : (i 0).val < 800000 := (i 0).isLt
  have hi1 : (i 1).val < 128 := (i 1).isLt
  have hN : grid1.N = 100 := N_1
  have ht : (i 0).val / 8000 < cfg1.N := by show (i 0).val / 8000 < grid1.N; omega
  obtain ⟨-, -, -, -, -, -, e6, e7⟩ := idx_facts1 ⟨(i 0).val / 8000, ht⟩
  refine ⟨⟨(i 0).val / 8000, ht⟩, flush1_3 _, ?_⟩
  rw [mem_blk1]
  intro a
  match a with
  | ⟨0, _⟩ =>
    show win1_3.index ⟨(i 0).val / 8000, ht⟩ (0 : Fin 2) * 8000 ≤ (i 0).val
      ∧ (i 0).val < win1_3.index ⟨(i 0).val / 8000, ht⟩ (0 : Fin 2) * 8000 + 8000
    rw [e6]; show (i 0).val / 8000 * 8000 ≤ (i 0).val ∧ (i 0).val < (i 0).val / 8000 * 8000 + 8000; omega
  | ⟨1, _⟩ =>
    show win1_3.index ⟨(i 0).val / 8000, ht⟩ (1 : Fin 2) * 128 ≤ (i 1).val
      ∧ (i 1).val < win1_3.index ⟨(i 0).val / 8000, ht⟩ (1 : Fin 2) * 128 + 128
    rw [e7]; omega

/-- THE RESULT ARRAY after the region is the layer of the three input arrays as the region found them. -/
theorem dense1_final (c : Dev nD) :
    (dat1 (F := Ideal) V c).arrAt 3 cfg1.N
      = dense (V c main_v5 : S800000x192.Idx → EReal) (V c main_arg8 : S192x128.Idx → EReal) (V c main_v6 : S1x128.Idx → EReal) :=
  (dat1 (F := Ideal) V c).arrAt_eq_of_cover 3 _ (fun t _ => flushed1_eq V c t) cover1

/-- Read at `(p, q)`. -/
theorem dense1_at (c : Dev nD) (p : Fin 800000) (q : Fin 128) :
    ((dat1 (F := Ideal) V c).arrAt 3 cfg1.N) (ix2 p q)
      = Ideal.tanh (HAdd.hAdd (α := EReal) (β := EReal) (γ := EReal)
          (∑ k : Fin 192, HMul.hMul (α := EReal) (β := EReal) (γ := EReal)
            ((dat1 (F := Ideal) V c).A 0 (ix2 p k)) ((dat1 (F := Ideal) V c).A 1 (ix2 k q)))
          ((dat1 (F := Ideal) V c).A 2 (ix2 (0 : Fin 1) q))) := by
  rw [dense1_final]
  exact dense_ix2 _ _ _ p q

end Cert.KernelIdeal.Val

end
-- ==== Proof.Val.PayGate.lean ====
import proofs.«409581_j84387517432579_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

/-!
# The LSTM-gate kernel's stored values, read at an index (ideal values)

The gate kernel forms the pre-activations `z = x · W + b` (a `[5000, 512] × [512, 512]` product into a zero
accumulator, plus the bias row broadcast down the rows), cuts `z` into four column bands of width 128
(`i = z[:, 0:128]`, `o = z[:, 128:256]`, `f = z[:, 256:384]`, `g = z[:, 384:512]`) and stores

* the new cell state   `c' = σ(f) * c + σ(i) * tanh g`,
* the new hidden state `h' = σ(o) * tanh c'`,

with `σ` the logistic function. This file reads both stored values at an index `(p, q)` as those closed forms over
the extended reals.
-/

noncomputable section

namespace Cert.KernelIdeal.Val

open Cert.KernelIdeal Cert.KernelIdeal.Gen Idealize.ShloMosaic Idealize.ShloMosaic.ValueIdx

/-! ## The product's operand indices, axis by axis -/

/-- The left operand's row is the output's row. -/
theorem lhs_gate_0 (i : S5000x512.Idx) (q : dot_S5000x512_S512x512_S5000x512_1_0_0_1_n_n.contr.Idx) :
    (dot_S5000x512_S512x512_S5000x512_1_0_0_1_n_n.lhsIdx i q 0).val = (i 0).val := by
  unfold DotDims.lhsIdx
  rw [dif_neg (show ¬(0 : Fin S5000x512.rank) ∈ dot_S5000x512_S512x512_S5000x512_1_0_0_1_n_n.lhsBatch by decide),
    dif_pos (show (0 : Fin S5000x512.rank) ∈ dot_S5000x512_S512x512_S5000x512_1_0_0_1_n_n.lhsNonContracting by decide)]
  rfl

/-- The left operand's column is the contracted coordinate. -/
theorem lhs_gate_1 (i : S5000x512.Idx) (q : dot_S5000x512_S512x512_S5000x512_1_0_0_1_n_n.contr.Idx) :
    (dot_S5000x512_S512x512_S5000x512_1_0_0_1_n_n.lhsIdx i q 1).val = (q ⟨0, by decide⟩).val :=
  dot_S5000x512_S512x512_S5000x512_1_0_0_1_n_n.lhsIdx_val_of_single rfl i q

/-- The right operand's row is the contracted coordinate. -/
theorem rhs_gate_0 (i : S5000x512.Idx) (q : dot_S5000x512_S512x512_S5000x512_1_0_0_1_n_n.contr.Idx) :
    (dot_S5000x512_S512x512_S5000x512_1_0_0_1_n_n.rhsIdx i q 0).val = (q ⟨0, by decide⟩).val :=
  dot_S5000x512_S512x512_S5000x512_1_0_0_1_n_n.rhsIdx_val_of_single rfl i q

/-- The right operand's column is the output's column. -/
theorem rhs_gate_1 (i : S5000x512.Idx) (q : dot_S5000x512_S512x512_S5000x512_1_0_0_1_n_n.contr.Idx) :
    (dot_S5000x512_S512x512_S5000x512_1_0_0_1_n_n.rhsIdx i q 1).val = (i 1).val := by
  unfold DotDims.rhsIdx
  rw [dif_neg (show ¬(1 : Fin S512x512.rank) ∈ dot_S5000x512_S512x512_S5000x512_1_0_0_1_n_n.rhsBatch by decide),
    dif_pos (show (1 : Fin S512x512.rank) ∈ dot_S5000x512_S512x512_S5000x512_1_0_0_1_n_n.rhsNonContracting by decide)]
  rfl

/-! ## The pre-activations -/

/-- The product into the zero accumulator, at `(p, j)`: the sum over the contracted coordinate. -/
theorem gate_matmul_apply (x : FVec Ideal S5000x512 .f32) (w : FVec Ideal S512x512 .f32) (p : Fin 5000) (j : Fin 512) :
    matmul dot_S5000x512_S512x512_S5000x512_1_0_0_1_n_n none x w (constant (F := Ideal) S5000x512 .f32 0x00000000#32) (ix2 p j)
      = ∑ k : Fin 512, x (ix2 p k) * w (ix2 k j) := by
  refine (Ideal.matmul_constant_zero_apply dot_S5000x512_S512x512_S5000x512_1_0_0_1_n_n none x w (ix2 p j)).trans ?_
  rw [← Equiv.sum_comp (contrEquiv1 dot_S5000x512_S512x512_S5000x512_1_0_0_1_n_n 512 rfl rfl).symm]
  refine Finset.sum_congr rfl fun k _ => ?_
  have hk := contrEquiv1_symm_val dot_S5000x512_S512x512_S5000x512_1_0_0_1_n_n 512 rfl rfl k
  have el : dot_S5000x512_S512x512_S5000x512_1_0_0_1_n_n.lhsIdx (ix2 p j)
      ((contrEquiv1 dot_S5000x512_S512x512_S5000x512_1_0_0_1_n_n 512 rfl rfl).symm k) = ix2 p k := funext fun a => Fin.ext (by
    match a with
    | ⟨0, _⟩ => exact lhs_gate_0 _ _
    | ⟨1, _⟩ => exact (lhs_gate_1 _ _).trans hk)
  have er : dot_S5000x512_S512x512_S5000x512_1_0_0_1_n_n.rhsIdx (ix2 p j)
      ((contrEquiv1 dot_S5000x512_S512x512_S5000x512_1_0_0_1_n_n 512 rfl rfl).symm k) = ix2 k j := funext fun a => Fin.ext (by
    match a with
    | ⟨0, _⟩ => exact (rhs_gate_0 _ _).trans hk
    | ⟨1, _⟩ => exact rhs_gate_1 _ _)
  rw [el, er]

/-- The pre-activation at row `p`, column `j`: `(x · W) (p, j) + b j`. -/
def preAct (x : Vec Ideal S5000x512 .f32) (w : Vec Ideal S512x512 .f32) (b : Vec Ideal S1x512 .f32)
    (p : Fin 5000) (j : Fin 512) : EReal :=
  (∑ k : Fin 512, x (ix2 p k) * w (ix2 k j)) + b (ix2 (0 : Fin 1) j)

/-- The first launch's pre-activation value at `(p, j)`. -/
theorem pay2_pre_apply (x : Vec Ideal S5000x512 .f32) (w : Vec Ideal S512x512 .f32) (b : Vec Ideal S1x512 .f32)
    (p : Fin 5000) (j : Fin 512) : k2_pay1 (F := Ideal) x w b (ix2 p j) = preAct x w b p j := by
  unfold k2_pay1 preAct
  simp only [shapeCast_self]
  refine (addf_apply _ _ _).trans ?_
  exact congrArg₂ (· + ·) (gate_matmul_apply x w p j) (broadcastTo_1b_ab_apply b _ p j)

/-! ## The four column bands, the gates and the two stored values -/

/-- The logistic function of an array, at an index. -/
theorem logistic_at {s : Shape} (v : FVec Ideal s .f32) (i : s.Idx) : logistic v i = Ideal.logistic (v i) := rfl

/-- The hyperbolic tangent of an array, at an index. -/
theorem tanh_at {s : Shape} (v : FVec Ideal s .f32) (i : s.Idx) : tanh v i = Ideal.tanh (v i) := rfl

/-- The band of the pre-activations that starts at column `o`, at `(p, q)`: the pre-activation at column `o + q`. -/
theorem pay2_band_apply (x : Vec Ideal S5000x512 .f32) (w : Vec Ideal S512x512 .f32) (b : Vec Ideal S1x512 .f32)
    (o : Nat) (h : S5000x512.Slices ![0, o] S5000x128) (p : Fin 5000) (q : Fin 128) (j : Fin 512) (hj : j.val = o + q.val) :
    extractStridedSlice S5000x128 ![0, o] (k2_pay1 (F := Ideal) x w b) h (ix2 p q) = preAct x w b p j :=
  (slice2_axis1_apply o (k2_pay1 (F := Ideal) x w b) h p q j hj).trans (pay2_pre_apply x w b p j)

/-- The new cell state at `(p, q)`: `σ(f) * c + σ(i) * tanh g`, the gates read from the bands at columns
    `256 + q` (forget), `q` (input) and `384 + q` (candidate). -/
def cellAt (x : Vec Ideal S5000x512 .f32) (w : Vec Ideal S512x512 .f32) (b : Vec Ideal S1x512 .f32)
    (cold : Vec Ideal S5000x128 .f32) (p : Fin 5000) (q : Fin 128) : EReal :=
  Ideal.logistic (preAct x w b p ⟨256 + q.val, by omega⟩) * cold (ix2 p q)
    + Ideal.logistic (preAct x w b p ⟨q.val, by omega⟩) * Ideal.tanh (preAct x w b p ⟨384 + q.val, by omega⟩)

/-- The first launch's stored cell state at `(p, q)`. -/
theorem pay2_cell_apply (x : Vec Ideal S5000x512 .f32) (w : Vec Ideal S512x512 .f32) (b : Vec Ideal S1x512 .f32)
    (cold : Vec Ideal S5000x128 .f32) (p : Fin 5000) (q : Fin 128) :
    k2_pay2 (F := Ideal) x w b cold (ix2 p q) = cellAt x w b cold p q := by
  unfold k2_pay2 cellAt
  simp only [shapeCast_self]
  refine (addf_apply _ _ _).trans (congrArg₂ (· + ·) ((mulf_apply _ _ _).trans ?_) ((mulf_apply _ _ _).trans ?_))
  · exact congrArg (· * cold (ix2 p q))
      ((logistic_at _ _).trans (congrArg Ideal.logistic (pay2_band_apply x w b 256 _ p q _ rfl)))
  · exact congrArg₂ (· * ·)
      ((logistic_at _ _).trans (congrArg Ideal.logistic (pay2_band_apply x w b 0 _ p q _ (Nat.zero_add _).symm)))
      ((tanh_at _ _).trans (congrArg Ideal.tanh (pay2_band_apply x w b 384 _ p q _ rfl)))

/-- The first launch's stored hidden state at `(p, q)`: `σ(o) * tanh c'`, the output gate read from the band at
    column `128 + q`. -/
theorem pay2_hid_apply (x : Vec Ideal S5000x512 .f32) (w : Vec Ideal S512x512 .f32) (b : Vec Ideal S1x512 .f32)
    (cold : Vec Ideal S5000x128 .f32) (p : Fin 5000) (q : Fin 128) :
    k2_pay3 (F := Ideal) x w b cold (ix2 p q)
      = Ideal.logistic (preAct x w b p ⟨128 + q.val, by omega⟩) * Ideal.tanh (cellAt x w b cold p q) := by
  unfold k2_pay3
  refine (mulf_apply _ _ _).trans (congrArg₂ (· * ·) ?_ ?_)
  · exact (logistic_at _ _).trans (congrArg Ideal.logistic (pay2_band_apply x w b 128 _ p q _ rfl))
  · exact (tanh_at _ _).trans (congrArg Ideal.tanh (pay2_cell_apply x w b cold p q))

/-! ## The second launch of the same kernel: the same values -/

/-- The second launch's payloads are, term for term, the first launch's. -/
theorem k3_pay2_eq (x : Vec Ideal S5000x512 .f32) (w : Vec Ideal S512x512 .f32) (b : Vec Ideal S1x512 .f32)
    (cold : Vec Ideal S5000x128 .f32) : k3_pay2 (F := Ideal) x w b cold = k2_pay2 (F := Ideal) x w b cold := rfl

theorem k3_pay3_eq (x : Vec Ideal S5000x512 .f32) (w : Vec Ideal S512x512 .f32) (b : Vec Ideal S1x512 .f32)
    (cold : Vec Ideal S5000x128 .f32) : k3_pay3 (F := Ideal) x w b cold = k2_pay3 (F := Ideal) x w b cold := rfl

/-- The second launch's stored cell state at `(p, q)`. -/
theorem pay3_cell_apply (x : Vec Ideal S5000x512 .f32) (w : Vec Ideal S512x512 .f32) (b : Vec Ideal S1x512 .f32)
    (cold : Vec Ideal S5000x128 .f32) (p : Fin 5000) (q : Fin 128) :
    k3_pay2 (F := Ideal) x w b cold (ix2 p q) = cellAt x w b cold p q :=
  (congrFun (k3_pay2_eq x w b cold) (ix2 p q)).trans (pay2_cell_apply x w b cold p q)

/-- The second launch's stored hidden state at `(p, q)`. -/
theorem pay3_hid_apply (x : Vec Ideal S5000x512 .f32) (w : Vec Ideal S512x512 .f32) (b : Vec Ideal S1x512 .f32)
    (cold : Vec Ideal S5000x128 .f32) (p : Fin 5000) (q : Fin 128) :
    k3_pay3 (F := Ideal) x w b cold (ix2 p q)
      = Ideal.logistic (preAct x w b p ⟨128 + q.val, by omega⟩) * Ideal.tanh (cellAt x w b cold p q) :=
  (congrFun (k3_pay3_eq x w b cold) (ix2 p q)).trans (pay2_hid_apply x w b cold p q)

end Cert.KernelIdeal.Val
-- ==== Proof.Val.Gate.lean ====
import proofs.«409581_j84387517432579_1_alg».proof.Proof.KI.Reg2
import proofs.«409581_j84387517432579_1_alg».proof.Proof.KI.Reg3
import proofs.«409581_j84387517432579_1_alg».proof.Proof.Val.PayGate
import Idealize.ShloMosaic.Lib.Pipeline.Value
import Idealize.ShloMosaic.Lib.ValueIdx

/-!
# The two gate regions' result arrays, read at an index (ideal values)

Each gate region runs the gate kernel on ten blocks of 5000 rows: grid point `t` reads rows `5000 t … 5000 t + 4999`
of the gate input and of the old cell state, the whole weight matrix and the whole bias row, and writes back the same
rows of the new hidden state and of the new cell state. So after the region the two result arrays are, row by row,
the kernel's closed forms over the WHOLE input arrays: at `(p, q)`

* the new cell state   `c' = σ(z (p, 256 + q)) * c (p, q) + σ(z (p, q)) * tanh (z (p, 384 + q))`,
* the new hidden state `h' = σ(z (p, 128 + q)) * tanh c'`,

with `z (p, j) = Σ k, x (p, k) * W (k, j) + b j` the pre-activation of row `p`.
-/

noncomputable section

namespace Cert.KernelIdeal.Val

open Cert.KernelIdeal Cert.KernelIdeal.Gen Idealize.ShloMosaic Idealize.ShloMosaic.TcCoe Idealize.ShloMosaic.ValueIdx
open Idealize.ShloMosaic.Pipeline (Dat)
open Cert.KernelIdeal.Frames

/-! ## The closed forms over whole arrays of `M` rows -/

/-- The pre-activation of row `p` of the gate input, at column `j`: `Σ k, x (p, k) * W (k, j) + b j`. -/
def preActA {M : ℕ} (x : (⟨2, ![M, 512]⟩ : Shape).Idx → EReal) (w : (⟨2, ![512, 512]⟩ : Shape).Idx → EReal)
    (b : (⟨2, ![1, 512]⟩ : Shape).Idx → EReal) (p : Fin M) (j : Fin 512) : EReal :=
  (∑ k : Fin 512, x (ix2 p k) * w (ix2 k j)) + b (ix2 (0 : Fin 1) j)

/-- The new cell state of row `p`, at column `q`. -/
def cellAtA {M : ℕ} (x : (⟨2, ![M, 512]⟩ : Shape).Idx → EReal) (w : (⟨2, ![512, 512]⟩ : Shape).Idx → EReal)
    (b : (⟨2, ![1, 512]⟩ : Shape).Idx → EReal) (cold : (⟨2, ![M, 128]⟩ : Shape).Idx → EReal) (p : Fin M) (q : Fin 128) : EReal :=
  Ideal.logistic (preActA x w b p ⟨256 + q.val, by omega⟩) * cold (ix2 p q)
    + Ideal.logistic (preActA x w b p ⟨q.val, by omega⟩) * Ideal.tanh (preActA x w b p ⟨384 + q.val, by omega⟩)

/-- The new hidden state of row `p`, at column `q`. -/
def hidAtA {M : ℕ} (x : (⟨2, ![M, 512]⟩ : Shape).Idx → EReal) (w : (⟨2, ![512, 512]⟩ : Shape).Idx → EReal)
    (b : (⟨2, ![1, 512]⟩ : Shape).Idx → EReal) (cold : (⟨2, ![M, 128]⟩ : Shape).Idx → EReal) (p : Fin M) (q : Fin 128) : EReal :=
  Ideal.logistic (preActA x w b p ⟨128 + q.val, by omega⟩) * Ideal.tanh (cellAtA x w b cold p q)

/-- The new cell state as one function of the whole arrays. -/
def gateCell {M : ℕ} (x : (⟨2, ![M, 512]⟩ : Shape).Idx → EReal) (cold : (⟨2, ![M, 128]⟩ : Shape).Idx → EReal)
    (w : (⟨2, ![512, 512]⟩ : Shape).Idx → EReal) (b : (⟨2, ![1, 512]⟩ : Shape).Idx → EReal) :
    (⟨2, ![M, 128]⟩ : Shape).Idx → EReal := fun i => cellAtA x w b cold (i 0) (i 1)

/-- The new hidden state as one function of the whole arrays. -/
def gateHid {M : ℕ} (x : (⟨2, ![M, 512]⟩ : Shape).Idx → EReal) (cold : (⟨2, ![M, 128]⟩ : Shape).Idx → EReal)
    (w : (⟨2, ![512, 512]⟩ : Shape).Idx → EReal) (b : (⟨2, ![1, 512]⟩ : Shape).Idx → EReal) :
    (⟨2, ![M, 128]⟩ : Shape).Idx → EReal := fun i => hidAtA x w b cold (i 0) (i 1)

/-- The new cell state at `(p, q)`, written out. -/
theorem gateCell_ix2 {M : ℕ} (x : (⟨2, ![M, 512]⟩ : Shape).Idx → EReal) (cold : (⟨2, ![M, 128]⟩ : Shape).Idx → EReal)
    (w : (⟨2, ![512, 512]⟩ : Shape).Idx → EReal) (b : (⟨2, ![1, 512]⟩ : Shape).Idx → EReal) (p : Fin M) (q : Fin 128) :
    gateCell x cold w b (ix2 p q)
      = Ideal.logistic ((∑ k : Fin 512, x (ix2 p k) * w (ix2 k (⟨256 + q.val, by omega⟩ : Fin 512)))
            + b (ix2 (0 : Fin 1) (⟨256 + q.val, by omega⟩ : Fin 512))) * cold (ix2 p q)
        + Ideal.logistic ((∑ k : Fin 512, x (ix2 p k) * w (ix2 k (⟨q.val, by omega⟩ : Fin 512)))
            + b (ix2 (0 : Fin 1) (⟨q.val, by omega⟩ : Fin 512)))
          * Ideal.tanh ((∑ k : Fin 512, x (ix2 p k) * w (ix2 k (⟨384 + q.val, by omega⟩ : Fin 512)))
            + b (ix2 (0 : Fin 1) (⟨384 + q.val, by omega⟩ : Fin 512))) := rfl

/-- The new hidden state at `(p, q)`, written out over the new cell state. -/
theorem gateHid_ix2 {M : ℕ} (x : (⟨2, ![M, 512]⟩ : Shape).Idx → EReal) (cold : (⟨2, ![M, 128]⟩ : Shape).Idx → EReal)
    (w : (⟨2, ![512, 512]⟩ : Shape).Idx → EReal) (b : (⟨2, ![1, 512]⟩ : Shape).Idx → EReal) (p : Fin M) (q : Fin 128) :
    gateHid x cold w b (ix2 p q)
      = Ideal.logistic ((∑ k : Fin 512, x (ix2 p k) * w (ix2 k (⟨128 + q.val, by omega⟩ : Fin 512)))
            + b (ix2 (0 : Fin 1) (⟨128 + q.val, by omega⟩ : Fin 512)))
          * Ideal.tanh (gateCell x cold w b (ix2 p q)) := rfl

/-! ## A block of rows inside the whole arrays -/

/-- A block of rows of the gate input that sits at rows `ρ p` of the whole array has the whole array's
    pre-activations of those rows. -/
theorem preAct_of_rows {M : ℕ} (X : (⟨2, ![M, 512]⟩ : Shape).Idx → EReal) (W : (⟨2, ![512, 512]⟩ : Shape).Idx → EReal)
    (B : (⟨2, ![1, 512]⟩ : Shape).Idx → EReal)
    (xb : Vec Ideal S5000x512 .f32) (ρ : Fin 5000 → Fin M) (hx : ∀ p k, xb (ix2 p k) = X (ix2 (ρ p) k))
    (p : Fin 5000) (j : Fin 512) : preAct xb W B p j = preActA X W B (ρ p) j := by
  unfold preAct preActA
  exact congrArg (· + B (ix2 (0 : Fin 1) j)) (Finset.sum_congr rfl fun k _ => by rw [hx p k])

/-- Likewise the new cell state, the old cell state's block sitting at the same rows. -/
theorem cellAt_of_rows {M : ℕ} (X : (⟨2, ![M, 512]⟩ : Shape).Idx → EReal) (W : (⟨2, ![512, 512]⟩ : Shape).Idx → EReal)
    (B : (⟨2, ![1, 512]⟩ : Shape).Idx → EReal) (C : (⟨2, ![M, 128]⟩ : Shape).Idx → EReal)
    (xb : Vec Ideal S5000x512 .f32) (cb : Vec Ideal S5000x128 .f32)
    (ρ : Fin 5000 → Fin M) (hx : ∀ p k, xb (ix2 p k) = X (ix2 (ρ p) k)) (hc : ∀ p q, cb (ix2 p q) = C (ix2 (ρ p) q))
    (p : Fin 5000) (q : Fin 128) : cellAt xb W B cb p q = cellAtA X W B C (ρ p) q := by
  unfold cellAt cellAtA
  rw [preAct_of_rows X W B xb ρ hx, preAct_of_rows X W B xb ρ hx, preAct_of_rows X W B xb ρ hx, hc]

/-- What the first gate region's kernel stores as the new cell state, on such blocks: the whole arrays' closed form
    at rows `ρ p`; -/
theorem cell_block_at {M : ℕ} (X : (⟨2, ![M, 512]⟩ : Shape).Idx → EReal) (W : (⟨2, ![512, 512]⟩ : Shape).Idx → EReal)
    (B : (⟨2, ![1, 512]⟩ : Shape).Idx → EReal) (C : (⟨2, ![M, 128]⟩ : Shape).Idx → EReal)
    (xb : Vec Ideal S5000x512 .f32) (cb : Vec Ideal S5000x128 .f32)
    (ρ : Fin 5000 → Fin M) (hx : ∀ p k, xb (ix2 p k) = X (ix2 (ρ p) k)) (hc : ∀ p q, cb (ix2 p q) = C (ix2 (ρ p) q))
    (p : Fin 5000) (q : Fin 128) : k2_pay2 (F := Ideal) xb W B cb (ix2 p q) = cellAtA X W B C (ρ p) q :=
  (pay2_cell_apply xb W B cb p q).trans (cellAt_of_rows X W B C xb cb ρ hx hc p q)

/-- and as the new hidden state. -/
theorem hid_block_at {M : ℕ} (X : (⟨2, ![M, 512]⟩ : Shape).Idx → EReal) (W : (⟨2, ![512, 512]⟩ : Shape).Idx → EReal)
    (B : (⟨2, ![1, 512]⟩ : Shape).Idx → EReal) (C : (⟨2, ![M, 128]⟩ : Shape).Idx → EReal)
    (xb : Vec Ideal S5000x512 .f32) (cb : Vec Ideal S5000x128 .f32)
    (ρ : Fin 5000 → Fin M) (hx : ∀ p k, xb (ix2 p k) = X (ix2 (ρ p) k)) (hc : ∀ p q, cb (ix2 p q) = C (ix2 (ρ p) q))
    (p : Fin 5000) (q : Fin 128) : k2_pay3 (F := Ideal) xb W B cb (ix2 p q) = hidAtA X W B C (ρ p) q := by
  refine (pay2_hid_apply xb W B cb p q).trans ?_
  unfold hidAtA
  rw [preAct_of_rows X W B xb ρ hx, cellAt_of_rows X W B C xb cb ρ hx hc]

/-- The second gate region's kernel stores the same values: the new cell state on such blocks, -/
theorem cell_block_at3 {M : ℕ} (X : (⟨2, ![M, 512]⟩ : Shape).Idx → EReal) (W : (⟨2, ![512, 512]⟩ : Shape).Idx → EReal)
    (B : (⟨2, ![1, 512]⟩ : Shape).Idx → EReal) (C : (⟨2, ![M, 128]⟩ : Shape).Idx → EReal)
    (xb : Vec Ideal S5000x512 .f32) (cb : Vec Ideal S5000x128 .f32)
    (ρ : Fin 5000 → Fin M) (hx : ∀ p k, xb (ix2 p k) = X (ix2 (ρ p) k)) (hc : ∀ p q, cb (ix2 p q) = C (ix2 (ρ p) q))
    (p : Fin 5000) (q : Fin 128) : k3_pay2 (F := Ideal) xb W B cb (ix2 p q) = cellAtA X W B C (ρ p) q :=
  (pay3_cell_apply xb W B cb p q).trans (cellAt_of_rows X W B C xb cb ρ hx hc p q)

/-- and the new hidden state. -/
theorem hid_block_at3 {M : ℕ} (X : (⟨2, ![M, 512]⟩ : Shape).Idx → EReal) (W : (⟨2, ![512, 512]⟩ : Shape).Idx → EReal)
    (B : (⟨2, ![1, 512]⟩ : Shape).Idx → EReal) (C : (⟨2, ![M, 128]⟩ : Shape).Idx → EReal)
    (xb : Vec Ideal S5000x512 .f32) (cb : Vec Ideal S5000x128 .f32)
    (ρ : Fin 5000 → Fin M) (hx : ∀ p k, xb (ix2 p k) = X (ix2 (ρ p) k)) (hc : ∀ p q, cb (ix2 p q) = C (ix2 (ρ p) q))
    (p : Fin 5000) (q : Fin 128) : k3_pay3 (F := Ideal) xb W B cb (ix2 p q) = hidAtA X W B C (ρ p) q := by
  refine (pay3_hid_apply xb W B cb p q).trans ?_
  unfold hidAtA
  rw [preAct_of_rows X W B xb ρ hx, cellAt_of_rows X W B C xb cb ρ hx hc]

/-- The body's whole-buffer rectangles start at the origin. -/
theorem origin2 : (![0, 0] : Fin 2 → Nat) = fun _ => 0 :=
  funext fun a => match a with | ⟨0, _⟩ => rfl | ⟨1, _⟩ => rfl

/-! ## Region 2: the blocks, the write-backs, the arrays -/

section Region2

variable (V : (c : Dev nD) → (b : Ref sig .tc) → Buf (Elt Ideal) ((c : Thread nD τ).loc b))

/-- Where each window's block sits at grid point `t`: the gate input, the old cell state and the two results move
    down the rows with the point; the weights and the bias row stay. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Row `p` of grid point `t`'s block is row `5000 t + p` of the whole array. -/
def rowAt2 (t : Fin cfg2.N) (p : Fin 5000) : Fin 50000 :=
  ⟨5000 * t.val + p.val, by have := t.isLt; have hN : cfg2.N = 10 := N_2; omega⟩

/-- The gate input's block at point `t`, at `(p, k)`: the whole array at row `5000 t + p`. -/
theorem iblk2_0_apply (c : Dev nD) (t : Fin cfg2.N) (p : Fin 5000) (k : Fin 512) :
    (iblk2 V c 0 t : Vec Ideal S5000x512 .f32) (ix2 p k)
      = (V c (Pipeline.arrRef spec2 0) : S50000x512.Idx → EReal) (ix2 (rowAt2 t p) k) := by
  obtain ⟨e0, e1, -⟩ := idx_facts2 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * p.val = 5000 * t.val + p.val; rw [e0]; omega
  | ⟨1, _⟩ => show win2_0.index t (1 : Fin 2) * 512 + 1 * k.val = k.val; rw [e1]; omega

/-- The old cell state's block at point `t`, at `(p, q)`: the whole array at row `5000 t + p`. -/
theorem iblk2_1_apply (c : Dev nD) (t : Fin cfg2.N) (p : Fin 5000) (q : Fin 128) :
    (iblk2 V c 1 t : Vec Ideal S5000x128 .f32) (ix2 p q)
      = (V c (Pipeline.arrRef spec2 1) : S50000x128.Idx → EReal) (ix2 (rowAt2 t p) q) := by
  obtain ⟨-, -, e0, e1, -⟩ := idx_facts2 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 5000 + 1 * p.val = 5000 * t.val + p.val; rw [e0]; omega
  | ⟨1, _⟩ => show win2_1.index t (1 : Fin 2) * 128 + 1 * q.val = q.val; rw [e1]; omega

/-- The weights' block at every point is the whole matrix. -/
theorem iblk2_2_eq (c : Dev nD) (t : Fin cfg2.N) :
    (iblk2 V c 2 t : Vec Ideal S512x512 .f32) = (V c (Pipeline.arrRef spec2 2) : S512x512.Idx → EReal) := by
  obtain ⟨-, -, -, -, e0, e1, -⟩ := idx_facts2 t
  funext j
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 512 + 1 * (j 0).val = (j 0).val; rw [e0]; omega
  | ⟨1, _⟩ => show win2_2.index t (1 : Fin 2) * 512 + 1 * (j 1).val = (j 1).val; rw [e1]; omega

/-- The bias row's block at every point is the whole row. -/
theorem iblk2_3_eq (c : Dev nD) (t : Fin cfg2.N) :
    (iblk2 V c 3 t : Vec Ideal S1x512 .f32) = (V c (Pipeline.arrRef spec2 3) : S1x512.Idx → EReal) := by
  obtain ⟨-, -, -, -, -, -, e0, e1, -⟩ := idx_facts2 t
  funext j
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 1 + 1 * (j 0).val = (j 0).val; rw [e0]; omega
  | ⟨1, _⟩ => show win2_3.index t (1 : Fin 2) * 512 + 1 * (j 1).val = (j 1).val; rw [e1]; omega

set_option maxHeartbeats 1000000 in
/-- What grid point `t` writes back to the new cell state is rows `5000 t … 5000 t + 4999` of the closed form
    over the arrays as the region finds them. -/
theorem flushed2_5_eq (c : Dev nD) (t : Fin cfg2.N) :
    (dat2 (F := Ideal) V c).flushed 5 t = ((cfg2.win 5).blk t).view.read (Elt Ideal)
      (gateCell (M := 50000) (V c (Pipeline.arrRef spec2 0)) (V c (Pipeline.arrRef spec2 1)) (V c (Pipeline.arrRef spec2 2))
        (V c (Pipeline.arrRef spec2 3))) := by
  show (cfg2.win 5).cut (grid2.coords t) ((dat2 V c).after 5 t) = _
  rw [after2_5]
  unfold out2_5
  rw [View.canon_unit_zero origin2]
  simp only [View.ld_unit_zero (S := S5000x512) origin2, View.ld_unit_zero (S := S5000x128) origin2,
    View.ld_unit_zero (S := S512x512) origin2, View.ld_unit_zero (S := S1x512) origin2]
  rw [iblk2_2_eq, iblk2_3_eq]
  have e := idx_facts2 t
  funext j
  obtain ⟨p, q, rfl⟩ : ∃ (p : Fin 5000) (q : Fin 128), j = ix2 p q := ⟨j 0, j 1, eq_ix2 j⟩
  refine (cell_block_at (M := 50000) (V c (Pipeline.arrRef spec2 0)) (V c (Pipeline.arrRef spec2 2)) (V c (Pipeline.arrRef spec2 3))
    (V c (Pipeline.arrRef spec2 1)) (iblk2 V c 0 t) (iblk2 V c 1 t) (rowAt2 t) (iblk2_0_apply V c t)
    (iblk2_1_apply V c t) p q).trans
    (congrArg₂ (cellAtA (M := 50000) (V c (Pipeline.arrRef spec2 0)) (V c (Pipeline.arrRef spec2 2)) (V c (Pipeline.arrRef spec2 3))
      (V c (Pipeline.arrRef spec2 1))) (Fin.ext ?_) (Fin.ext ?_))
  · show 5000 * t.val + p.val = win2_5.index t (0 : Fin 2) * 5000 + 1 * p.val
    rw [e.2.2.2.2.2.2.2.2.2.2.1]; omega
  · show q.val = win2_5.index t (1 : Fin 2) * 128 + 1 * q.val
    rw [e.2.2.2.2.2.2.2.2.2.2.2]; omega

/-- An index of the new cell state's array is in point `t`'s block iff each coordinate is in the block's range. -/
theorem mem_blk2_5 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v28_1).slice (win2_5.rect t)).set ↔ _
  rw [View.set_slice_whole, Rect.mem_set_unit]
  exact Iff.rfl

/-- Row `r` of the new cell state is written back by grid point `r / 5000`. -/
theorem cover2_5 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by omega⟩, rfl⟩
  have e := idx_facts2 t
  refine ⟨t, flush2_5 t, ?_⟩
  rw [mem_blk2_5]
  intro a
  match a with
  | ⟨0, _⟩ =>
    show win2_5.index t (0 : Fin 2) * 5000 ≤ (i 0).val ∧ (i 0).val < win2_5.index t (0 : Fin 2) * 5000 + 5000
    rw [e.2.2.2.2.2.2.2.2.2.2.1]; omega
  | ⟨1, _⟩ =>
    show win2_5.index t (1 : Fin 2) * 128 ≤ (i 1).val ∧ (i 1).val < win2_5.index t (1 : Fin 2) * 128 + 128
    rw [e.2.2.2.2.2.2.2.2.2.2.2]; omega

/-- The new cell state's array after the region: the closed form over the arrays as the region found them. -/
theorem final2_5 (c : Dev nD) : (dat2 (F := Ideal) V c).arrAt 5 cfg2.N
    = gateCell (M := 50000) (V c (Pipeline.arrRef spec2 0)) (V c (Pipeline.arrRef spec2 1)) (V c (Pipeline.arrRef spec2 2))
        (V c (Pipeline.arrRef spec2 3)) :=
  (dat2 V c).arrAt_eq_of_cover 5 _ (fun t _ => flushed2_5_eq V c t) cover2_5

set_option maxHeartbeats 1000000 in
/-- What grid point `t` writes back to the new hidden state is rows `5000 t … 5000 t + 4999` of the closed form
    over the arrays as the region finds them. -/
theorem flushed2_4_eq (c : Dev nD) (t : Fin cfg2.N) :
    (dat2 (F := Ideal) V c).flushed 4 t = ((cfg2.win 4).blk t).view.read (Elt Ideal)
      (gateHid (M := 50000) (V c (Pipeline.arrRef spec2 0)) (V c (Pipeline.arrRef spec2 1)) (V c (Pipeline.arrRef spec2 2))
        (V c (Pipeline.arrRef spec2 3))) := by
  show (cfg2.win 4).cut (grid2.coords t) ((dat2 V c).after 4 t) = _
  rw [after2_4]
  unfold out2_4
  rw [View.canon_unit_zero origin2]
  simp only [View.ld_unit_zero (S := S5000x512) origin2, View.ld_unit_zero (S := S5000x128) origin2,
    View.ld_unit_zero (S := S512x512) origin2, View.ld_unit_zero (S := S1x512) origin2]
  rw [iblk2_2_eq, iblk2_3_eq]
  have e := idx_facts2 t
  funext j
  obtain ⟨p, q, rfl⟩ : ∃ (p : Fin 5000) (q : Fin 128), j = ix2 p q := ⟨j 0, j 1, eq_ix2 j⟩
  refine (hid_block_at (M := 50000) (V c (Pipeline.arrRef spec2 0)) (V c (Pipeline.arrRef spec2 2)) (V c (Pipeline.arrRef spec2 3))
    (V c (Pipeline.arrRef spec2 1)) (iblk2 V c 0 t) (iblk2 V c 1 t) (rowAt2 t) (iblk2_0_apply V c t)
    (iblk2_1_apply V c t) p q).trans
    (congrArg₂ (hidAtA (M := 50000) (V c (Pipeline.arrRef spec2 0)) (V c (Pipeline.arrRef spec2 2)) (V c (Pipeline.arrRef spec2 3))
      (V c (Pipeline.arrRef spec2 1))) (Fin.ext ?_) (Fin.ext ?_))
  · show 5000 * t.val + p.val = win2_4.index t (0 : Fin 2) * 5000 + 1 * p.val
    rw [e.2.2.2.2.2.2.2.2.1]; omega
  · show q.val = win2_4.index t (1 : Fin 2) * 128 + 1 * q.val
    rw [e.2.2.2.2.2.2.2.2.2.1]; omega

/-- An index of the new hidden state's array is in point `t`'s block iff each coordinate is in the block's range. -/
theorem mem_blk2_4 (t : Fin cfg2.N) (i : S50000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v28_0).slice (win2_4.rect t)).set ↔ _
  rw [View.set_slice_whole, Rect.mem_set_unit]
  exact Iff.rfl

/-- Row `r` of the new hidden state is written back by grid point `r / 5000`. -/
theorem cover2_4 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by omega⟩, rfl⟩
  have e := idx_facts2 t
  refine ⟨t, flush2_4 t, ?_⟩
  rw [mem_blk2_4]
  intro a
  match a with
  | ⟨0, _⟩ =>
    show win2_4.index t (0 : Fin 2) * 5000 ≤ (i 0).val ∧ (i 0).val < win2_4.index t (0 : Fin 2) * 5000 + 5000
    rw [e.2.2.2.2.2.2.2.2.1]; omega
  | ⟨1, _⟩ =>
    show win2_4.index t (1 : Fin 2) * 128 ≤ (i 1).val ∧ (i 1).val < win2_4.index t (1 : Fin 2) * 128 + 128
    rw [e.2.2.2.2.2.2.2.2.2.1]; omega

/-- The new hidden state's array after the region: the closed form over the arrays as the region found them. -/
theorem final2_4 (c : Dev nD) : (dat2 (F := Ideal) V c).arrAt 4 cfg2.N
    = gateHid (M := 50000) (V c (Pipeline.arrRef spec2 0)) (V c (Pipeline.arrRef spec2 1)) (V c (Pipeline.arrRef spec2 2))
        (V c (Pipeline.arrRef spec2 3)) :=
  (dat2 V c).arrAt_eq_of_cover 4 _ (fun t _ => flushed2_4_eq V c t) cover2_4

/-- The new hidden state's array after region 2, over the region's four input arrays by name. -/
theorem gate2_hid_final (c : Dev nD) : (dat2 (F := Ideal) V c).arrAt 4 cfg2.N
    = gateHid (M := 50000) (V c main_v26) (V c main_v17) (V c main_v14) (V c main_v27) :=
  final2_4 V c

/-- The new cell state's array after region 2, over the region's four input arrays by name. -/
theorem gate2_cell_final (c : Dev nD) : (dat2 (F := Ideal) V c).arrAt 5 cfg2.N
    = gateCell (M := 50000) (V c main_v26) (V c main_v17) (V c main_v14) (V c main_v27) :=
  final2_5 V c

/-- The new cell state's array after region 2, at `(p, q)`. -/
theorem gate2_cell_at (c : Dev nD) (p : Fin 50000) (q : Fin 128) :
    ((dat2 (F := Ideal) V c).arrAt 5 cfg2.N) (ix2 p q)
      = cellAtA (M := 50000) ((dat2 (F := Ideal) V c).A 0) ((dat2 (F := Ideal) V c).A 2)
          ((dat2 (F := Ideal) V c).A 3) ((dat2 (F := Ideal) V c).A 1) p q :=
  congrFun (final2_5 V c) (ix2 p q)

/-- The new hidden state's array after region 2, at `(p, q)`. -/
theorem gate2_hid_at (c : Dev nD) (p : Fin 50000) (q : Fin 128) :
    ((dat2 (F := Ideal) V c).arrAt 4 cfg2.N) (ix2 p q)
      = Ideal.logistic (preActA (M := 50000) ((dat2 (F := Ideal) V c).A 0) ((dat2 (F := Ideal) V c).A 2)
            ((dat2 (F := Ideal) V c).A 3) p ⟨128 + q.val, by omega⟩)
          * Ideal.tanh (cellAtA (M := 50000) ((dat2 (F := Ideal) V c).A 0) ((dat2 (F := Ideal) V c).A 2)
              ((dat2 (F := Ideal) V c).A 3) ((dat2 (F := Ideal) V c).A 1) p q) :=
  congrFun (final2_4 V c) (ix2 p q)

end Region2

/-! ## Region 3: the blocks, the write-backs, the arrays -/

section Region3

variable (V : (c : Dev nD) → (b : Ref sig .tc) → Buf (Elt Ideal) ((c : Thread nD τ).loc b))

/-- Where each window's block sits at grid point `t`: the gate input, the old cell state and the two results move
    down the rows with the point; the weights and the bias row stay. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- Row `p` of grid point `t`'s block is row `5000 t + p` of the whole array. -/
def rowAt3 (t : Fin cfg3.N) (p : Fin 5000) : Fin 50000 :=
  ⟨5000 * t.val + p.val, by have := t.isLt; have hN : cfg3.N = 10 := N_3; omega⟩

/-- The gate input's block at point `t`, at `(p, k)`: the whole array at row `5000 t + p`. -/
theorem iblk3_0_apply (c : Dev nD) (t : Fin cfg3.N) (p : Fin 5000) (k : Fin 512) :
    (iblk3 V c 0 t : Vec Ideal S5000x512 .f32) (ix2 p k)
      = (V c (Pipeline.arrRef spec3 0) : S50000x512.Idx → EReal) (ix2 (rowAt3 t p) k) := by
  obtain ⟨e0, e1, -⟩ := idx_facts3 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * p.val = 5000 * t.val + p.val; rw [e0]; omega
  | ⟨1, _⟩ => show win3_0.index t (1 : Fin 2) * 512 + 1 * k.val = k.val; rw [e1]; omega

/-- The old cell state's block at point `t`, at `(p, q)`: the whole array at row `5000 t + p`. -/
theorem iblk3_1_apply (c : Dev nD) (t : Fin cfg3.N) (p : Fin 5000) (q : Fin 128) :
    (iblk3 V c 1 t : Vec Ideal S5000x128 .f32) (ix2 p q)
      = (V c (Pipeline.arrRef spec3 1) : S50000x128.Idx → EReal) (ix2 (rowAt3 t p) q) := by
  obtain ⟨-, -, e0, e1, -⟩ := idx_facts3 t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 5000 + 1 * p.val = 5000 * t.val + p.val; rw [e0]; omega
  | ⟨1, _⟩ => show win3_1.index t (1 : Fin 2) * 128 + 1 * q.val = q.val; rw [e1]; omega

/-- The weights' block at every point is the whole matrix. -/
theorem iblk3_2_eq (c : Dev nD) (t : Fin cfg3.N) :
    (iblk3 V c 2 t : Vec Ideal S512x512 .f32) = (V c (Pipeline.arrRef spec3 2) : S512x512.Idx → EReal) := by
  obtain ⟨-, -, -, -, e0, e1, -⟩ := idx_facts3 t
  funext j
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 512 + 1 * (j 0).val = (j 0).val; rw [e0]; omega
  | ⟨1, _⟩ => show win3_2.index t (1 : Fin 2) * 512 + 1 * (j 1).val = (j 1).val; rw [e1]; omega

/-- The bias row's block at every point is the whole row. -/
theorem iblk3_3_eq (c : Dev nD) (t : Fin cfg3.N) :
    (iblk3 V c 3 t : Vec Ideal S1x512 .f32) = (V c (Pipeline.arrRef spec3 3) : S1x512.Idx → EReal) := by
  obtain ⟨-, -, -, -, -, -, e0, e1, -⟩ := idx_facts3 t
  funext j
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 1 + 1 * (j 0).val = (j 0).val; rw [e0]; omega
  | ⟨1, _⟩ => show win3_3.index t (1 : Fin 2) * 512 + 1 * (j 1).val = (j 1).val; rw [e1]; omega

set_option maxHeartbeats 1000000 in
/-- What grid point `t` writes back to the new cell state is rows `5000 t … 5000 t + 4999` of the closed form
    over the arrays as the region finds them. -/
theorem flushed3_5_eq (c : Dev nD) (t : Fin cfg3.N) :
    (dat3 (F := Ideal) V c).flushed 5 t = ((cfg3.win 5).blk t).view.read (Elt Ideal)
      (gateCell (M := 50000) (V c (Pipeline.arrRef spec3 0)) (V c (Pipeline.arrRef spec3 1)) (V c (Pipeline.arrRef spec3 2))
        (V c (Pipeline.arrRef spec3 3))) := by
  show (cfg3.win 5).cut (grid3.coords t) ((dat3 V c).after 5 t) = _
  rw [after3_5]
  unfold out3_5
  rw [View.canon_unit_zero origin2]
  simp only [View.ld_unit_zero (S := S5000x512) origin2, View.ld_unit_zero (S := S5000x128) origin2,
    View.ld_unit_zero (S := S512x512) origin2, View.ld_unit_zero (S := S1x512) origin2]
  rw [iblk3_2_eq, iblk3_3_eq]
  have e := idx_facts3 t
  funext j
  obtain ⟨p, q, rfl⟩ : ∃ (p : Fin 5000) (q : Fin 128), j = ix2 p q := ⟨j 0, j 1, eq_ix2 j⟩
  refine (cell_block_at3 (M := 50000) (V c (Pipeline.arrRef spec3 0)) (V c (Pipeline.arrRef spec3 2)) (V c (Pipeline.arrRef spec3 3))
    (V c (Pipeline.arrRef spec3 1)) (iblk3 V c 0 t) (iblk3 V c 1 t) (rowAt3 t) (iblk3_0_apply V c t)
    (iblk3_1_apply V c t) p q).trans
    (congrArg₂ (cellAtA (M := 50000) (V c (Pipeline.arrRef spec3 0)) (V c (Pipeline.arrRef spec3 2)) (V c (Pipeline.arrRef spec3 3))
      (V c (Pipeline.arrRef spec3 1))) (Fin.ext ?_) (Fin.ext ?_))
  · show 5000 * t.val + p.val = win3_5.index t (0 : Fin 2) * 5000 + 1 * p.val
    rw [e.2.2.2.2.2.2.2.2.2.2.1]; omega
  · show q.val = win3_5.index t (1 : Fin 2) * 128 + 1 * q.val
    rw [e.2.2.2.2.2.2.2.2.2.2.2]; omega

/-- An index of the new cell state's array is in point `t`'s block iff each coordinate is in the block's range. -/
theorem mem_blk3_5 (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v39_1).slice (win3_5.rect t)).set ↔ _
  rw [View.set_slice_whole, Rect.mem_set_unit]
  exact Iff.rfl

/-- Row `r` of the new cell state is written back by grid point `r / 5000`. -/
theorem cover3_5 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by omega⟩, rfl⟩
  have e := idx_facts3 t
  refine ⟨t, flush3_5 t, ?_⟩
  rw [mem_blk3_5]
  intro a
  match a with
  | ⟨0, _⟩ =>
    show win3_5.index t (0 : Fin 2) * 5000 ≤ (i 0).val ∧ (i 0).val < win3_5.index t (0 : Fin 2) * 5000 + 5000
    rw [e.2.2.2.2.2.2.2.2.2.2.1]; omega
  | ⟨1, _⟩ =>
    show win3_5.index t (1 : Fin 2) * 128 ≤ (i 1).val ∧ (i 1).val < win3_5.index t (1 : Fin 2) * 128 + 128
    rw [e.2.2.2.2.2.2.2.2.2.2.2]; omega

/-- The new cell state's array after the region: the closed form over the arrays as the region found them. -/
theorem final3_5 (c : Dev nD) : (dat3 (F := Ideal) V c).arrAt 5 cfg3.N
    = gateCell (M := 50000) (V c (Pipeline.arrRef spec3 0)) (V c (Pipeline.arrRef spec3 1)) (V c (Pipeline.arrRef spec3 2))
        (V c (Pipeline.arrRef spec3 3)) :=
  (dat3 V c).arrAt_eq_of_cover 5 _ (fun t _ => flushed3_5_eq V c t) cover3_5

set_option maxHeartbeats 1000000 in
/-- What grid point `t` writes back to the new hidden state is rows `5000 t … 5000 t + 4999` of the closed form
    over the arrays as the region finds them. -/
theorem flushed3_4_eq (c : Dev nD) (t : Fin cfg3.N) :
    (dat3 (F := Ideal) V c).flushed 4 t = ((cfg3.win 4).blk t).view.read (Elt Ideal)
      (gateHid (M := 50000) (V c (Pipeline.arrRef spec3 0)) (V c (Pipeline.arrRef spec3 1)) (V c (Pipeline.arrRef spec3 2))
        (V c (Pipeline.arrRef spec3 3))) := by
  show (cfg3.win 4).cut (grid3.coords t) ((dat3 V c).after 4 t) = _
  rw [after3_4]
  unfold out3_4
  rw [View.canon_unit_zero origin2]
  simp only [View.ld_unit_zero (S := S5000x512) origin2, View.ld_unit_zero (S := S5000x128) origin2,
    View.ld_unit_zero (S := S512x512) origin2, View.ld_unit_zero (S := S1x512) origin2]
  rw [iblk3_2_eq, iblk3_3_eq]
  have e := idx_facts3 t
  funext j
  obtain ⟨p, q, rfl⟩ : ∃ (p : Fin 5000) (q : Fin 128), j = ix2 p q := ⟨j 0, j 1, eq_ix2 j⟩
  refine (hid_block_at3 (M := 50000) (V c (Pipeline.arrRef spec3 0)) (V c (Pipeline.arrRef spec3 2)) (V c (Pipeline.arrRef spec3 3))
    (V c (Pipeline.arrRef spec3 1)) (iblk3 V c 0 t) (iblk3 V c 1 t) (rowAt3 t) (iblk3_0_apply V c t)
    (iblk3_1_apply V c t) p q).trans
    (congrArg₂ (hidAtA (M := 50000) (V c (Pipeline.arrRef spec3 0)) (V c (Pipeline.arrRef spec3 2)) (V c (Pipeline.arrRef spec3 3))
      (V c (Pipeline.arrRef spec3 1))) (Fin.ext ?_) (Fin.ext ?_))
  · show 5000 * t.val + p.val = win3_4.index t (0 : Fin 2) * 5000 + 1 * p.val
    rw [e.2.2.2.2.2.2.2.2.1]; omega
  · show q.val = win3_4.index t (1 : Fin 2) * 128 + 1 * q.val
    rw [e.2.2.2.2.2.2.2.2.2.1]; omega

/-- An index of the new hidden state's array is in point `t`'s block iff each coordinate is in the block's range. -/
theorem mem_blk3_4 (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v39_0).slice (win3_4.rect t)).set ↔ _
  rw [View.set_slice_whole, Rect.mem_set_unit]
  exact Iff.rfl

/-- Row `r` of the new hidden state is written back by grid point `r / 5000`. -/
theorem cover3_4 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by omega⟩, rfl⟩
  have e := idx_facts3 t
  refine ⟨t, flush3_4 t, ?_⟩
  rw [mem_blk3_4]
  intro a
  match a with
  | ⟨0, _⟩ =>
    show win3_4.index t (0 : Fin 2) * 5000 ≤ (i 0).val ∧ (i 0).val < win3_4.index t (0 : Fin 2) * 5000 + 5000
    rw [e.2.2.2.2.2.2.2.2.1]; omega
  | ⟨1, _⟩ =>
    show win3_4.index t (1 : Fin 2) * 128 ≤ (i 1).val ∧ (i 1).val < win3_4.index t (1 : Fin 2) * 128 + 128
    rw [e.2.2.2.2.2.2.2.2.2.1]; omega

/-- The new hidden state's array after the region: the closed form over the arrays as the region found them. -/
theorem final3_4 (c : Dev nD) : (dat3 (F := Ideal) V c).arrAt 4 cfg3.N
    = gateHid (M := 50000) (V c (Pipeline.arrRef spec3 0)) (V c (Pipeline.arrRef spec3 1)) (V c (Pipeline.arrRef spec3 2))
        (V c (Pipeline.arrRef spec3 3)) :=
  (dat3 V c).arrAt_eq_of_cover 4 _ (fun t _ => flushed3_4_eq V c t) cover3_4

/-- The new hidden state's array after region 3, over the region's four input arrays by name. -/
theorem gate3_hid_final (c : Dev nD) : (dat3 (F := Ideal) V c).arrAt 4 cfg3.N
    = gateHid (M := 50000) (V c main_v37) (V c main_v28_1) (V c main_v14) (V c main_v38) :=
  final3_4 V c

/-- The new cell state's array after region 3, over the region's four input arrays by name. -/
theorem gate3_cell_final (c : Dev nD) : (dat3 (F := Ideal) V c).arrAt 5 cfg3.N
    = gateCell (M := 50000) (V c main_v37) (V c main_v28_1) (V c main_v14) (V c main_v38) :=
  final3_5 V c

/-- The new cell state's array after region 3, at `(p, q)`. -/
theorem gate3_cell_at (c : Dev nD) (p : Fin 50000) (q : Fin 128) :
    ((dat3 (F := Ideal) V c).arrAt 5 cfg3.N) (ix2 p q)
      = cellAtA (M := 50000) ((dat3 (F := Ideal) V c).A 0) ((dat3 (F := Ideal) V c).A 2)
          ((dat3 (F := Ideal) V c).A 3) ((dat3 (F := Ideal) V c).A 1) p q :=
  congrFun (final3_5 V c) (ix2 p q)

/-- The new hidden state's array after region 3, at `(p, q)`. -/
theorem gate3_hid_at (c : Dev nD) (p : Fin 50000) (q : Fin 128) :
    ((dat3 (F := Ideal) V c).arrAt 4 cfg3.N) (ix2 p q)
      = Ideal.logistic (preActA (M := 50000) ((dat3 (F := Ideal) V c).A 0) ((dat3 (F := Ideal) V c).A 2)
            ((dat3 (F := Ideal) V c).A 3) p ⟨128 + q.val, by omega⟩)
          * Ideal.tanh (cellAtA (M := 50000) ((dat3 (F := Ideal) V c).A 0) ((dat3 (F := Ideal) V c).A 2)
              ((dat3 (F := Ideal) V c).A 3) ((dat3 (F := Ideal) V c).A 1) p q) :=
  congrFun (final3_4 V c) (ix2 p q)

end Region3

end Cert.KernelIdeal.Val
-- ==== Proof.Val.CatReads.lean ====
/-
  Three layout operations of the host program, read at an index. A bias vector of 128 entries is viewed as a matrix
  of one row; four weight matrices of 512 rows and 128 columns are laid side by side along the column axis into a
  matrix of 512 columns; four bias vectors of 128 entries are laid end to end into a vector of 512 entries, and that
  vector is viewed as a matrix of one row. None of the three computes anything: each entry of the result is one
  entry of one operand, and the theorems below say which. They hold for any element type and are stated at the
  ideal values (floats as extended reals).
-/
import proofs.«409581_j84387517432579_1_alg».proof.Proof.Gen.KernelIdeal
import Idealize.ShloMosaic.Lib.ValueIdx
import Idealize.ShloMosaic.Lib.Pipeline.Value
import Idealize.ShloMosaic.Lib.ValueLayout
import Idealize.ShloMosaic.PureOps.Ideal

noncomputable section

namespace Cert.KernelIdeal.Val

open Cert.KernelIdeal Idealize.ShloMosaic Idealize.ShloMosaic.ValueIdx
open Cert.KernelIdeal.Facts₀

/-! ## A vector viewed as a one-row matrix -/

/-- Entry `(0, q)` of the one-row view of a vector of 128 entries is the vector's entry `q`: both sit at row-major
    position `q`. -/
theorem biasRow_apply (b : FVec Ideal S128 .f32) (q : Fin 128) :
    shapeCast S1x128 b shapeCasts_S128_S1x128 (ix2 (0 : Fin 1) q) = b (ix1 q) := by
  refine shapeCast_apply b shapeCasts_S128_S1x128 (ix2 (0 : Fin 1) q) (ix1 q) ?_
  rw [Shape.rowMajor_val_two, Shape.rowMajor_val_one]
  show q.val = 0 * 128 + q.val
  omega

/-! ## Four weight matrices side by side

The column axis of the result is cut into four spans of 128 columns, `[0, 128)`, `[128, 256)`, `[256, 384)` and
`[384, 512)`; a column in span `n` belongs to the `n`-th matrix, at its offset inside the span, and the row is
untouched. -/

/-- Off the column axis (that is, on the row axis) the two indices have the same coordinate. -/
private theorem row_coord (k : Fin 512) (q : Fin 128) (c : Fin 512) :
    ∀ b : Fin S512x128.rank, b.cast (rfl : S512x128.rank = S512x512.rank) ≠ (1 : Fin S512x512.rank) →
      ((ix2 k q : S512x128.Idx) b).val = ((ix2 k c : S512x512.Idx) (b.cast rfl)).val := by
  intro b hb
  match b, hb with
  | ⟨0, _⟩, _ => rfl
  | ⟨1, _⟩, hb => exact absurd rfl hb

/-- A column in `[0, 128)` reads the first matrix. -/
theorem wcat_apply_0 (W0 W1 W2 W3 : FVec Ideal S512x128 .f32) (k : Fin 512) (q : Fin 128) :
    concatenate S512x512 1 [⟨S512x128, W0⟩, ⟨S512x128, W1⟩, ⟨S512x128, W2⟩, ⟨S512x128, W3⟩]
      concatenates_S512x128_S512x128_S512x128_S512x128_S512x512_d1 (ix2 k (⟨q.val, by omega⟩ : Fin 512))
      = W0 (ix2 k q) := by
  refine concatenate_apply_piece (1 : Fin S512x512.rank) _ _ (ix2 k (⟨q.val, by omega⟩ : Fin 512))
    0 (by show (0 : Nat) < 4; omega) S512x128 W0 rfl rfl 0 rfl (ix2 k q) (row_coord k q _) ?_
  show 0 + q.val = q.val
  omega

/-- A column in `[128, 256)` reads the second matrix. -/
theorem wcat_apply_1 (W0 W1 W2 W3 : FVec Ideal S512x128 .f32) (k : Fin 512) (q : Fin 128) :
    concatenate S512x512 1 [⟨S512x128, W0⟩, ⟨S512x128, W1⟩, ⟨S512x128, W2⟩, ⟨S512x128, W3⟩]
      concatenates_S512x128_S512x128_S512x128_S512x128_S512x512_d1 (ix2 k (⟨128 + q.val, by omega⟩ : Fin 512))
      = W1 (ix2 k q) := by
  refine concatenate_apply_piece (1 : Fin S512x512.rank) _ _ (ix2 k (⟨128 + q.val, by omega⟩ : Fin 512))
    1 (by show (1 : Nat) < 4; omega) S512x128 W1 rfl rfl 128 rfl (ix2 k q) (row_coord k q _) ?_
  show 128 + q.val = 128 + q.val
  rfl

/-- A column in `[256, 384)` reads the third matrix. -/
theorem wcat_apply_2 (W0 W1 W2 W3 : FVec Ideal S512x128 .f32) (k : Fin 512) (q : Fin 128) :
    concatenate S512x512 1 [⟨S512x128, W0⟩, ⟨S512x128, W1⟩, ⟨S512x128, W2⟩, ⟨S512x128, W3⟩]
      concatenates_S512x128_S512x128_S512x128_S512x128_S512x512_d1 (ix2 k (⟨256 + q.val, by omega⟩ : Fin 512))
      = W2 (ix2 k q) := by
  refine concatenate_apply_piece (1 : Fin S512x512.rank) _ _ (ix2 k (⟨256 + q.val, by omega⟩ : Fin 512))
    2 (by show (2 : Nat) < 4; omega) S512x128 W2 rfl rfl 256 rfl (ix2 k q) (row_coord k q _) ?_
  show 256 + q.val = 256 + q.val
  rfl

/-- A column in `[384, 512)` reads the fourth matrix. -/
theorem wcat_apply_3 (W0 W1 W2 W3 : FVec Ideal S512x128 .f32) (k : Fin 512) (q : Fin 128) :
    concatenate S512x512 1 [⟨S512x128, W0⟩, ⟨S512x128, W1⟩, ⟨S512x128, W2⟩, ⟨S512x128, W3⟩]
      concatenates_S512x128_S512x128_S512x128_S512x128_S512x512_d1 (ix2 k (⟨384 + q.val, by omega⟩ : Fin 512))
      = W3 (ix2 k q) := by
  refine concatenate_apply_piece (1 : Fin S512x512.rank) _ _ (ix2 k (⟨384 + q.val, by omega⟩ : Fin 512))
    3 (by show (3 : Nat) < 4; omega) S512x128 W3 rfl rfl 384 rfl (ix2 k q) (row_coord k q _) ?_
  show 384 + q.val = 384 + q.val
  rfl

/-! ## Four bias vectors end to end, viewed as a row

Entry `(0, c)` of the one-row view is entry `c` of the vector of 512 entries (the same row-major position), and the
one axis of that vector is cut into the same four spans of 128. -/

/-- The one-row view of a vector of 512 entries at `(0, c)` is the vector's entry `c`. -/
private theorem row512_apply (v : FVec Ideal S512 .f32) (c : Fin 512) :
    shapeCast S1x512 v shapeCasts_S512_S1x512 (ix2 (0 : Fin 1) c) = v (ix1 c) := by
  refine shapeCast_apply v shapeCasts_S512_S1x512 (ix2 (0 : Fin 1) c) (ix1 c) ?_
  rw [Shape.rowMajor_val_two, Shape.rowMajor_val_one]
  show c.val = 0 * 512 + c.val
  omega

/-- A vector has no axis other than the one the pieces are laid along. -/
private theorem no_other_axis (q : Fin 128) (c : Fin 512) :
    ∀ b : Fin S128.rank, b.cast (rfl : S128.rank = S512.rank) ≠ (0 : Fin S512.rank) →
      ((ix1 q : S128.Idx) b).val = ((ix1 c : S512.Idx) (b.cast rfl)).val := by
  intro b hb
  match b, hb with
  | ⟨0, _⟩, hb => exact absurd rfl hb

/-- A column in `[0, 128)` reads the first vector. -/
theorem bcat_apply_0 (b0 b1 b2 b3 : FVec Ideal S128 .f32) (q : Fin 128) :
    shapeCast S1x512 (concatenate S512 0 [⟨S128, b0⟩, ⟨S128, b1⟩, ⟨S128, b2⟩, ⟨S128, b3⟩]
      concatenates_S128_S128_S128_S128_S512_d0) shapeCasts_S512_S1x512
      (ix2 (0 : Fin 1) (⟨q.val, by omega⟩ : Fin 512)) = b0 (ix1 q) := by
  refine (row512_apply _ _).trans ?_
  refine concatenate_apply_piece (0 : Fin S512.rank) _ _ (ix1 (⟨q.val, by omega⟩ : Fin 512))
    0 (by show (0 : Nat) < 4; omega) S128 b0 rfl rfl 0 rfl (ix1 q) (no_other_axis q _) ?_
  show 0 + q.val = q.val
  omega

/-- A column in `[128, 256)` reads the second vector. -/
theorem bcat_apply_1 (b0 b1 b2 b3 : FVec Ideal S128 .f32) (q : Fin 128) :
    shapeCast S1x512 (concatenate S512 0 [⟨S128, b0⟩, ⟨S128, b1⟩, ⟨S128, b2⟩, ⟨S128, b3⟩]
      concatenates_S128_S128_S128_S128_S512_d0) shapeCasts_S512_S1x512
      (ix2 (0 : Fin 1) (⟨128 + q.val, by omega⟩ : Fin 512)) = b1 (ix1 q) := by
  refine (row512_apply _ _).trans ?_
  refine concatenate_apply_piece (0 : Fin S512.rank) _ _ (ix1 (⟨128 + q.val, by omega⟩ : Fin 512))
    1 (by show (1 : Nat) < 4; omega) S128 b1 rfl rfl 128 rfl (ix1 q) (no_other_axis q _) ?_
  show 128 + q.val = 128 + q.val
  rfl

/-- A column in `[256, 384)` reads the third vector. -/
theorem bcat_apply_2 (b0 b1 b2 b3 : FVec Ideal S128 .f32) (q : Fin 128) :
    shapeCast S1x512 (concatenate S512 0 [⟨S128, b0⟩, ⟨S128, b1⟩, ⟨S128, b2⟩, ⟨S128, b3⟩]
      concatenates_S128_S128_S128_S128_S512_d0) shapeCasts_S512_S1x512
      (ix2 (0 : Fin 1) (⟨256 + q.val, by omega⟩ : Fin 512)) = b2 (ix1 q) := by
  refine (row512_apply _ _).trans ?_
  refine concatenate_apply_piece (0 : Fin S512.rank) _ _ (ix1 (⟨256 + q.val, by omega⟩ : Fin 512))
    2 (by show (2 : Nat) < 4; omega) S128 b2 rfl rfl 256 rfl (ix1 q) (no_other_axis q _) ?_
  show 256 + q.val = 256 + q.val
  rfl

/-- A column in `[384, 512)` reads the fourth vector. -/
theorem bcat_apply_3 (b0 b1 b2 b3 : FVec Ideal S128 .f32) (q : Fin 128) :
    shapeCast S1x512 (concatenate S512 0 [⟨S128, b0⟩, ⟨S128, b1⟩, ⟨S128, b2⟩, ⟨S128, b3⟩]
      concatenates_S128_S128_S128_S128_S512_d0) shapeCasts_S512_S1x512
      (ix2 (0 : Fin 1) (⟨384 + q.val, by omega⟩ : Fin 512)) = b3 (ix1 q) := by
  refine (row512_apply _ _).trans ?_
  refine concatenate_apply_piece (0 : Fin S512.rank) _ _ (ix1 (⟨384 + q.val, by omega⟩ : Fin 512))
    3 (by show (3 : Nat) < 4; omega) S128 b3 rfl rfl 384 rfl (ix1 q) (no_other_axis q _) ?_
  show 384 + q.val = 384 + q.val
  rfl

end Cert.KernelIdeal.Val
-- ==== Proof.Val.JoinForms.lean ====
/-
  Four gates from one product. When the four gate weight matrices are laid side by side as the column blocks of one
  `[512, 512]` matrix, and the four gate biases the same way along one `[1, 512]` row, column `128·g + q` of the
  row-by-column sum plus the bias row is gate `g`'s pre-activation at column `q`. So an array that is, element by
  element, the long-short-term-memory update written over those columns is the reference's cell state, and likewise
  the hidden state; and a dense layer written with its bias as a one-row matrix is the reference's dense layer.
-/
import proofs.«409581_j84387517432579_1_alg».proof.Proof.Val.RefForms

noncomputable section

namespace Cert.ReferenceIdeal.Forms

open Cert.ReferenceIdeal Idealize.ShloMosaic Idealize.ShloMosaic.ValueIdx
open scoped BigOperators

/-! ## The side-by-side forms -/

/-- Column `j` of the input row `p` times the side-by-side weights, plus the bias row's entry `j`. -/
def preW (inp : S50000x512.Idx → EReal) (Wc : (⟨2, ![512, 512]⟩ : Shape).Idx → EReal)
    (bc : (⟨2, ![1, 512]⟩ : Shape).Idx → EReal) (p : Fin 50000) (j : Fin 512) : EReal :=
  (∑ k : Fin 512, inp (ix2 p k) * Wc (ix2 k j)) + bc (ix2 (0 : Fin 1) j)

/-- The next cell state over the side-by-side columns: the forget gate is column block 2, the input gate block 0, the
    candidate block 3. -/
def cellW (inp : S50000x512.Idx → EReal) (Wc : (⟨2, ![512, 512]⟩ : Shape).Idx → EReal)
    (bc : (⟨2, ![1, 512]⟩ : Shape).Idx → EReal) (cold : S50000x128.Idx → EReal) (p : Fin 50000) (q : Fin 128) : EReal :=
  Ideal.logistic (preW inp Wc bc p ⟨256 + q.val, by omega⟩) * cold (ix2 p q)
    + Ideal.logistic (preW inp Wc bc p ⟨q.val, by omega⟩) * Ideal.tanh (preW inp Wc bc p ⟨384 + q.val, by omega⟩)

/-- `Wc` is the four weight matrices side by side (input, output, forget, candidate) and `bc` the four biases along
    one row in the same order. -/
structure SideBySide (Wc : (⟨2, ![512, 512]⟩ : Shape).Idx → EReal) (bc : (⟨2, ![1, 512]⟩ : Shape).Idx → EReal)
    (Wi Wo Wf Wu : FVec Ideal S512x128 .f32) (bi bo bf bu : FVec Ideal S128 .f32) : Prop where
  w0 : ∀ (k : Fin 512) (q : Fin 128), Wc (ix2 k (⟨q.val, by omega⟩ : Fin 512)) = Wi (ix2 k q)
  w1 : ∀ (k : Fin 512) (q : Fin 128), Wc (ix2 k (⟨128 + q.val, by omega⟩ : Fin 512)) = Wo (ix2 k q)
  w2 : ∀ (k : Fin 512) (q : Fin 128), Wc (ix2 k (⟨256 + q.val, by omega⟩ : Fin 512)) = Wf (ix2 k q)
  w3 : ∀ (k : Fin 512) (q : Fin 128), Wc (ix2 k (⟨384 + q.val, by omega⟩ : Fin 512)) = Wu (ix2 k q)
  b0 : ∀ q : Fin 128, bc (ix2 (0 : Fin 1) (⟨q.val, by omega⟩ : Fin 512)) = bi (ix1 q)
  b1 : ∀ q : Fin 128, bc (ix2 (0 : Fin 1) (⟨128 + q.val, by omega⟩ : Fin 512)) = bo (ix1 q)
  b2 : ∀ q : Fin 128, bc (ix2 (0 : Fin 1) (⟨256 + q.val, by omega⟩ : Fin 512)) = bf (ix1 q)
  b3 : ∀ q : Fin 128, bc (ix2 (0 : Fin 1) (⟨384 + q.val, by omega⟩ : Fin 512)) = bu (ix1 q)

/-! ## One column of the side-by-side product is one gate's pre-activation -/

/-- If column `j` of `Wc` is column `q` of `W` and entry `j` of the bias row is entry `q` of `b`, the side-by-side
    form at `(p, j)` is the gate's pre-activation at `(p, q)`: the two sums agree term by term. -/
theorem preW_eq (inp : FVec Ideal S50000x512 .f32) (Wc : (⟨2, ![512, 512]⟩ : Shape).Idx → EReal)
    (bc : (⟨2, ![1, 512]⟩ : Shape).Idx → EReal) (W : FVec Ideal S512x128 .f32) (b : FVec Ideal S128 .f32)
    (p : Fin 50000) (j : Fin 512) (q : Fin 128) (hw : ∀ k : Fin 512, Wc (ix2 k j) = W (ix2 k q))
    (hb : bc (ix2 (0 : Fin 1) j) = b (ix1 q)) :
    preW inp Wc bc p j = gatePre (F := Ideal) inp W b (ix2 p q) := by
  rw [gatePre_apply]
  unfold preW
  rw [hb]
  exact congrArg (· + b (ix1 q)) (Finset.sum_congr rfl fun k _ => by rw [hw k])

/-- The cell update over the side-by-side columns is the reference's, element by element. -/
theorem cellW_eq (inp : FVec Ideal S50000x512 .f32) (cold : FVec Ideal S50000x128 .f32)
    {Wc : (⟨2, ![512, 512]⟩ : Shape).Idx → EReal} {bc : (⟨2, ![1, 512]⟩ : Shape).Idx → EReal}
    {Wi Wo Wf Wu : FVec Ideal S512x128 .f32} {bi bo bf bu : FVec Ideal S128 .f32}
    (h : SideBySide Wc bc Wi Wo Wf Wu bi bo bf bu) (p : Fin 50000) (q : Fin 128) :
    cellW inp Wc bc cold p q = cellNext (F := Ideal) inp cold Wi bi Wf bf Wu bu (ix2 p q) := by
  have ef := preW_eq inp Wc bc Wf bf p _ q (fun k => h.w2 k q) (h.b2 q)
  have ei := preW_eq inp Wc bc Wi bi p _ q (fun k => h.w0 k q) (h.b0 q)
  have eu := preW_eq inp Wc bc Wu bu p _ q (fun k => h.w3 k q) (h.b3 q)
  rw [cellNext_apply]
  unfold cellW
  rw [ef, ei, eu]

/-! ## The arrays -/

theorem cell_eq (y : FVec Ideal S50000x128 .f32) (inp : FVec Ideal S50000x512 .f32) (cold : FVec Ideal S50000x128 .f32)
    {Wc : (⟨2, ![512, 512]⟩ : Shape).Idx → EReal} {bc : (⟨2, ![1, 512]⟩ : Shape).Idx → EReal}
    {Wi Wo Wf Wu : FVec Ideal S512x128 .f32} {bi bo bf bu : FVec Ideal S128 .f32}
    (h : SideBySide Wc bc Wi Wo Wf Wu bi bo bf bu)
    (hy : ∀ (p : Fin 50000) (q : Fin 128), y (ix2 p q) = cellW inp Wc bc cold p q) :
    y = cellNext (F := Ideal) inp cold Wi bi Wf bf Wu bu := by
  funext i
  obtain ⟨p, q, rfl⟩ : ∃ (p : Fin 50000) (q : Fin 128), i = ix2 p q := ⟨i 0, i 1, eq_ix2 i⟩
  rw [hy]
  exact cellW_eq inp cold h p q

theorem hid_eq (y : FVec Ideal S50000x128 .f32) (inp : FVec Ideal S50000x512 .f32) (cold : FVec Ideal S50000x128 .f32)
    {Wc : (⟨2, ![512, 512]⟩ : Shape).Idx → EReal} {bc : (⟨2, ![1, 512]⟩ : Shape).Idx → EReal}
    {Wi Wo Wf Wu : FVec Ideal S512x128 .f32} {bi bo bf bu : FVec Ideal S128 .f32}
    (h : SideBySide Wc bc Wi Wo Wf Wu bi bo bf bu)
    (hy : ∀ (p : Fin 50000) (q : Fin 128), y (ix2 p q)
      = Ideal.logistic (preW inp Wc bc p ⟨128 + q.val, by omega⟩) * Ideal.tanh (cellW inp Wc bc cold p q)) :
    y = hidNext (F := Ideal) inp cold Wi bi Wo bo Wf bf Wu bu := by
  funext i
  obtain ⟨p, q, rfl⟩ : ∃ (p : Fin 50000) (q : Fin 128), i = ix2 p q := ⟨i 0, i 1, eq_ix2 i⟩
  have eo := preW_eq inp Wc bc Wo bo p _ q (fun k => h.w1 k q) (h.b1 q)
  rw [hy, hidNext_apply, eo, cellW_eq inp cold h p q]

theorem denseNode_eq (y : FVec Ideal S50000x128 .f32) (x : FVec Ideal S50000x300 .f32) (W : FVec Ideal S300x128 .f32)
    (b : FVec Ideal S128 .f32) (b1 : S1x128.Idx → EReal) (hb : ∀ q : Fin 128, b1 (ix2 (0 : Fin 1) q) = b (ix1 q))
    (hy : ∀ (p : Fin 50000) (q : Fin 128), y (ix2 p q)
      = Ideal.tanh ((∑ k : Fin 300, x (ix2 p k) * W (ix2 k q)) + b1 (ix2 (0 : Fin 1) q))) :
    y = denseNode (F := Ideal) x W b := by
  funext i
  obtain ⟨p, q, rfl⟩ : ∃ (p : Fin 50000) (q : Fin 128), i = ix2 p q := ⟨i 0, i 1, eq_ix2 i⟩
  rw [hy, denseNode_apply, hb]

theorem denseLink_eq (y : FVec Ideal S800000x128 .f32) (x : FVec Ideal S800000x192 .f32) (W : FVec Ideal S192x128 .f32)
    (b : FVec Ideal S128 .f32) (b1 : S1x128.Idx → EReal) (hb : ∀ q : Fin 128, b1 (ix2 (0 : Fin 1) q) = b (ix1 q))
    (hy : ∀ (p : Fin 800000) (q : Fin 128), y (ix2 p q)
      = Ideal.tanh ((∑ k : Fin 192, x (ix2 p k) * W (ix2 k q)) + b1 (ix2 (0 : Fin 1) q))) :
    y = denseLink (F := Ideal) x W b := by
  funext i
  obtain ⟨p, q, rfl⟩ : ∃ (p : Fin 800000) (q : Fin 128), i = ix2 p q := ⟨i 0, i 1, eq_ix2 i⟩
  rw [hy, denseLink_apply, hb]

end Cert.ReferenceIdeal.Forms
-- ==== Proof.Val.Bridge.lean ====
/-
  The kernel's host program and the reference name the same shapes, the same gather, scatter, broadcast and
  concatenation records twice, once each. The two copies are the same data, so every host operation of the kernel's
  program that the reference also performs is the reference's named building block applied to the same arrays.
-/
import proofs.«409581_j84387517432579_1_alg».proof.Proof.Gen.KernelIdeal
import proofs.«409581_j84387517432579_1_alg».proof.Proof.Val.RefChain

noncomputable section

namespace Cert.Bridge

open Idealize.ShloMosaic

variable {F : FTy → Type} [FloatOps F]

/-- The token look-up with its index wrapped once. -/
theorem takeTok_eq (x : FVec F Cert.KernelIdeal.S50000x300 .f32) (idx : IVec Cert.KernelIdeal.S50000 32) :
    Host.gather Cert.KernelIdeal.gather_S50000x300_S50000x1_S50000x300_1_0_n_n_0_1_1300 x
        (broadcastInDim Cert.KernelIdeal.S50000x1 ![0] Cert.KernelIdeal.Gen.bcast_S50000_S50000x1_0 (select (cmpi .slt idx (broadcastInDim Cert.KernelIdeal.S50000 ![] Cert.KernelIdeal.Gen.bcast_S_S50000 (constantI Cert.KernelIdeal.S_ 32 0#32))) (addi idx (broadcastInDim Cert.KernelIdeal.S50000 ![] Cert.KernelIdeal.Gen.bcast_S_S50000 (constantI Cert.KernelIdeal.S_ 32 50000#32))) idx))
      = Cert.ReferenceIdeal.Forms.takeTok x idx := rfl

/-- The link-type look-up with its index wrapped once. -/
theorem takeLink_eq (x : FVec F Cert.KernelIdeal.S50x64 .f32) (idx : IVec Cert.KernelIdeal.S800000 32) :
    Host.gather Cert.KernelIdeal.gather_S50x64_S800000x1_S800000x64_1_0_n_n_0_1_164 x
        (broadcastInDim Cert.KernelIdeal.S800000x1 ![0] Cert.KernelIdeal.Gen.bcast_S800000_S800000x1_0 (select (cmpi .slt idx (broadcastInDim Cert.KernelIdeal.S800000 ![] Cert.KernelIdeal.Gen.bcast_S_S800000 (constantI Cert.KernelIdeal.S_ 32 0#32))) (addi idx (broadcastInDim Cert.KernelIdeal.S800000 ![] Cert.KernelIdeal.Gen.bcast_S_S800000 (constantI Cert.KernelIdeal.S_ 32 50#32))) idx))
      = Cert.ReferenceIdeal.Forms.takeLink x idx := rfl

/-- The node look-up at a link end with its index wrapped once. -/
theorem takeNode_eq (x : FVec F Cert.KernelIdeal.S50000x128 .f32) (idx : IVec Cert.KernelIdeal.S800000 32) :
    Host.gather Cert.KernelIdeal.gather_S50000x128_S800000x1_S800000x128_1_0_n_n_0_1_1128 x
        (broadcastInDim Cert.KernelIdeal.S800000x1 ![0] Cert.KernelIdeal.Gen.bcast_S800000_S800000x1_0 (select (cmpi .slt idx (broadcastInDim Cert.KernelIdeal.S800000 ![] Cert.KernelIdeal.Gen.bcast_S_S800000 (constantI Cert.KernelIdeal.S_ 32 0#32))) (addi idx (broadcastInDim Cert.KernelIdeal.S800000 ![] Cert.KernelIdeal.Gen.bcast_S_S800000 (constantI Cert.KernelIdeal.S_ 32 50000#32))) idx))
      = Cert.ReferenceIdeal.Forms.takeNode x idx := rfl

/-- The all-zero node array. -/
theorem zeros_eq :
    broadcastInDim Cert.KernelIdeal.S50000x128 ![] Cert.KernelIdeal.Gen.bcast_S_S50000x128 (constant (F := F) Cert.KernelIdeal.S_ .f32 0x00000000#32)
      = Cert.ReferenceIdeal.Forms.zeros := rfl

/-- The sum of link rows into the node rows their indices name. -/
theorem segSum_eq (idx : IVec Cert.KernelIdeal.S800000 32) (upd : FVec F Cert.KernelIdeal.S800000x128 .f32) :
    Host.scatterAdd Cert.KernelIdeal.scatter_S50000x128_S800000x1_S800000x128_1_0_0_1
        (broadcastInDim Cert.KernelIdeal.S50000x128 ![] Cert.KernelIdeal.Gen.bcast_S_S50000x128 (constant Cert.KernelIdeal.S_ .f32 0x00000000#32))
        (broadcastInDim Cert.KernelIdeal.S800000x1 ![0] Cert.KernelIdeal.Gen.bcast_S800000_S800000x1_0 idx) upd
      = Cert.ReferenceIdeal.Forms.segSum idx upd := rfl

/-- Two column blocks side by side. -/
theorem cat2_eq (a : FVec F Cert.KernelIdeal.S800000x64 .f32) (b : FVec F Cert.KernelIdeal.S800000x128 .f32) :
    concatenate Cert.KernelIdeal.S800000x192 1 [⟨Cert.KernelIdeal.S800000x64, a⟩, ⟨Cert.KernelIdeal.S800000x128, b⟩]
        Cert.KernelIdeal.Gen.concatenates_S800000x64_S800000x128_S800000x192_d1
      = Cert.ReferenceIdeal.Forms.cat2 a b := rfl

/-- Four column blocks side by side. -/
theorem cat4_eq (a b c d : FVec F Cert.KernelIdeal.S50000x128 .f32) :
    concatenate Cert.KernelIdeal.S50000x512 1 [⟨Cert.KernelIdeal.S50000x128, a⟩, ⟨Cert.KernelIdeal.S50000x128, b⟩, ⟨Cert.KernelIdeal.S50000x128, c⟩, ⟨Cert.KernelIdeal.S50000x128, d⟩]
        Cert.KernelIdeal.Gen.concatenates_S50000x128_S50000x128_S50000x128_S50000x128_S50000x512_d1
      = Cert.ReferenceIdeal.Forms.cat4 a b c d := rfl

end Cert.Bridge
-- ==== Proof.Val.PreDecode.lean ====
/-
  The index ranges the precondition grants, read back out of its printed form.
-/
import proofs.«409581_j84387517432579_1_alg».proof.Proof.Gen.Pre_finite_inputs
import proofs.«409581_j84387517432579_1_alg».proof.Proof.LibMask
import Idealize.ShloMosaic.Lib.ReduceAll

namespace Cert.PreDecode

open Idealize.ShloMosaic Cert.Pre_finite_inputs

/-- The rank-zero shape has exactly one index. -/
instance : Subsingleton S_.Idx := ⟨fun a b => funext fun d => d.elim0⟩

/-- The one index of the rank-zero shape. -/
def scalarIdx : S_.Idx := fun d => d.elim0

/-- The zero word reads 0 signed. -/
theorem toInt_0 : (0#32 : BitVec 32).toInt = 0 := by decide
/-- The word 50 reads 50 signed. -/
theorem toInt_50 : (50#32 : BitVec 32).toInt = 50 := by decide
/-- The word 50000 reads 50000 signed. -/
theorem toInt_50000 : (50000#32 : BitVec 32).toInt = 50000 := by decide

/-- THE INDEX RANGES OF THE PRECONDITION. The precondition is a conjunction of twenty-two "all" conjuncts; the last eight
    say, of the four index vectors, that every word is nonnegative and below its table's length (50000, 50, 50000, 50000),
    read signed. The conjunction being one, each of those eight is one, and an "all" that is one holds entrywise.
    The fourteen finiteness conjuncts are not used, so the statement holds at every float instance. -/
theorem ranges_of_pre [Cert.Pre_finite_inputs.Facts] {F : FTy → Type} [FloatOps F]
    (a0 : IVec S50000 32) (a1 a2 a3 : IVec S800000 32) (a4 : FVec F S50000x300 .f32) (a5 : FVec F S50x64 .f32)
    (a6 : FVec F S300x128 .f32) (a7 : FVec F S128 .f32) (a8 : FVec F S192x128 .f32) (a9 : FVec F S128 .f32)
    (a10 : FVec F S512x128 .f32) (a11 : FVec F S128 .f32) (a12 : FVec F S512x128 .f32) (a13 : FVec F S128 .f32)
    (a14 : FVec F S512x128 .f32) (a15 : FVec F S128 .f32) (a16 : FVec F S512x128 .f32) (a17 : FVec F S128 .f32)
    (h : Cert.Pre_finite_inputs.fn (F := F) a0 a1 a2 a3 a4 a5 a6 a7 a8 a9 a10 a11 a12 a13 a14 a15 a16 a17 = fun _ => 1#1) :
    (∀ i, 0 ≤ (a0 i).toInt ∧ (a0 i).toInt < 50000) ∧ (∀ i, 0 ≤ (a1 i).toInt ∧ (a1 i).toInt < 50) ∧
      (∀ i, 0 ≤ (a2 i).toInt ∧ (a2 i).toInt < 50000) ∧ (∀ i, 0 ≤ (a3 i).toInt ∧ (a3 i).toInt < 50000) := by
  have e := congrFun h scalarIdx
  dsimp only [fn, fn_part1, fn_part2, fn_part3, fn_part4, fn_part5, fn_part6] at e
  -- the conjunction associates to the left: peel the last eight conjuncts off, last first
  obtain ⟨e, h3lt⟩ := Cert.MaskLib.andi_apply_eq_one _ _ _ e
  obtain ⟨e, h3ge⟩ := Cert.MaskLib.andi_apply_eq_one _ _ _ e
  obtain ⟨e, h2lt⟩ := Cert.MaskLib.andi_apply_eq_one _ _ _ e
  obtain ⟨e, h2ge⟩ := Cert.MaskLib.andi_apply_eq_one _ _ _ e
  obtain ⟨e, h1lt⟩ := Cert.MaskLib.andi_apply_eq_one _ _ _ e
  obtain ⟨e, h1ge⟩ := Cert.MaskLib.andi_apply_eq_one _ _ _ e
  obtain ⟨e, h0lt⟩ := Cert.MaskLib.andi_apply_eq_one _ _ _ e
  obtain ⟨-, h0ge⟩ := Cert.MaskLib.andi_apply_eq_one _ _ _ e
  refine ⟨fun i => ⟨?_, ?_⟩, fun i => ⟨?_, ?_⟩, fun i => ⟨?_, ?_⟩, fun i => ⟨?_, ?_⟩⟩
  · exact toInt_0 ▸ Cert.MaskLib.all_sge_const a0 _ 0#32 (fun _ => rfl) _ _ _ _ h0ge i
  · exact toInt_50000 ▸ Cert.MaskLib.all_slt_const a0 _ 50000#32 (fun _ => rfl) _ _ _ _ h0lt i
  · exact toInt_0 ▸ Cert.MaskLib.all_sge_const a1 _ 0#32 (fun _ => rfl) _ _ _ _ h1ge i
  · exact toInt_50 ▸ Cert.MaskLib.all_slt_const a1 _ 50#32 (fun _ => rfl) _ _ _ _ h1lt i
  · exact toInt_0 ▸ Cert.MaskLib.all_sge_const a2 _ 0#32 (fun _ => rfl) _ _ _ _ h2ge i
  · exact toInt_50000 ▸ Cert.MaskLib.all_slt_const a2 _ 50000#32 (fun _ => rfl) _ _ _ _ h2lt i
  · exact toInt_0 ▸ Cert.MaskLib.all_sge_const a3 _ 0#32 (fun _ => rfl) _ _ _ _ h3ge i
  · exact toInt_50000 ▸ Cert.MaskLib.all_slt_const a3 _ 50000#32 (fun _ => rfl) _ _ _ _ h3lt i

end Cert.PreDecode
-- ==== Proof.Val.KJoin.lean ====
/-
  The kernel program's result, over the extended reals, for index vectors within their tables' row ranges, is the
  reference's: buffer by buffer along the program, each buffer is the reference-shaped form of the same arguments.
  A masked row gather is the plain gather (no row is out of range); a dense region's result array is
  tanh (x · W + b) (its bias row is the bias vector reshaped); the segment sums, concatenations and zero arrays are
  the same host operations; a gate region's two result arrays are the reference's cell and hidden states (its one
  product against the four weight matrices side by side is, column block by column block, the four products).
-/
import proofs.«409581_j84387517432579_1_alg».proof.Proof.KI.Run
import proofs.«409581_j84387517432579_1_alg».proof.Proof.Val.KHost
import proofs.«409581_j84387517432579_1_alg».proof.Proof.Val.KTake
import proofs.«409581_j84387517432579_1_alg».proof.Proof.Val.Dense
import proofs.«409581_j84387517432579_1_alg».proof.Proof.Val.Gate
import proofs.«409581_j84387517432579_1_alg».proof.Proof.Val.CatReads
import proofs.«409581_j84387517432579_1_alg».proof.Proof.Val.JoinForms
import proofs.«409581_j84387517432579_1_alg».proof.Proof.Val.RefChain
import proofs.«409581_j84387517432579_1_alg».proof.Proof.Val.Bridge
import proofs.«409581_j84387517432579_1_alg».proof.Proof.Val.PreDecode

set_option maxRecDepth 16384

noncomputable section

namespace Cert.KernelIdeal.Val

open Cert.KernelIdeal Cert.KernelIdeal.Gen Cert.KernelIdeal.Frames
open Idealize.ShloMosaic Idealize.ShloMosaic.TcCoe Idealize.SL.Sem Idealize.ShloMosaic.ValueIdx

variable (m : (ℓ : Loc nD τ sig) → Buf (Elt Ideal) ℓ) (c : Dev nD)

/-- An argument array as launched on core `c`. -/
abbrev arg (r : Ref sig .tc) : Buf (Elt Ideal) ((c : Thread nD τ).loc r) := m ((c : Thread nD τ).loc r)

/-- Every index word is a row of the table it indexes. -/
structure InRange : Prop where
  rtok : ∀ i, 0 ≤ ((arg m c main_arg0 : IVec S50000 32) i).toInt ∧ ((arg m c main_arg0 : IVec S50000 32) i).toInt < 50000
  rlink : ∀ i, 0 ≤ ((arg m c main_arg1 : IVec S800000 32) i).toInt ∧ ((arg m c main_arg1 : IVec S800000 32) i).toInt < 50
  rfrom : ∀ i, 0 ≤ ((arg m c main_arg2 : IVec S800000 32) i).toInt ∧ ((arg m c main_arg2 : IVec S800000 32) i).toInt < 50000
  rto : ∀ i, 0 ≤ ((arg m c main_arg3 : IVec S800000 32) i).toInt ∧ ((arg m c main_arg3 : IVec S800000 32) i).toInt < 50000

/-! ## The reference-shaped values of the arguments -/

abbrev fNode := Cert.ReferenceIdeal.Forms.node (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17)
abbrev fLinkX := Cert.ReferenceIdeal.Forms.linkX (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17)
abbrev fXin := Cert.ReferenceIdeal.Forms.xIn (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17)
abbrev fXout := Cert.ReferenceIdeal.Forms.xOut (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17)
abbrev fInpOf (h : FVec Ideal Cert.ReferenceIdeal.S50000x128 .f32) := Cert.ReferenceIdeal.Forms.inpOf (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) h
abbrev fC1 := Cert.ReferenceIdeal.Forms.c1 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17)
abbrev fH1 := Cert.ReferenceIdeal.Forms.h1 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17)
abbrev fOut := Cert.ReferenceIdeal.Forms.out (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17)

variable (hr : InRange m c)
include hr

/-! ## Node and link features -/

theorem tok_eq : W2 m c main_v0 = Cert.ReferenceIdeal.Forms.takeTok (F := Ideal) (arg m c main_arg4) (arg m c main_arg0) :=
  (carry_v0 m c).trans ((take0 (W0 m c) hr.rtok).trans (Cert.Bridge.takeTok_eq (F := Ideal) _ _))

theorem node_eq : W3 m c main_v2 = fNode m c := by
  refine (W3_arr m c 3).trans ?_
  rw [dense0_final]
  have e0 : Frames.V2 m c main_v0 = Cert.ReferenceIdeal.Forms.takeTok (F := Ideal) (arg m c main_arg4) (arg m c main_arg0) := tok_eq m c hr
  have e1 : Frames.V2 m c main_arg6 = (arg m c main_arg6) := W2_launch m c main_arg6 (by decide)
  rw [e0, e1]
  exact Cert.ReferenceIdeal.Forms.denseNode_eq _ _ _ (arg m c main_arg7) (Frames.V2 m c main_v1)
    (fun q => by rw [show Frames.V2 m c main_v1 = _ from v1_eq m c]; exact biasRow_apply _ q)
    (fun p q => dense_ix2 _ _ _ p q)

theorem edge_eq : W4 m c main_v3 = Cert.ReferenceIdeal.Forms.takeLink (F := Ideal) (arg m c main_arg5) (arg m c main_arg1) := by
  refine (take1 (W3 m c) ?_).trans ?_
  · rw [W3_launch m c main_arg1 (by decide)]; exact hr.rlink
  · rw [W3_launch m c main_arg5 (by decide), W3_launch m c main_arg1 (by decide)]; exact Cert.Bridge.takeLink_eq (F := Ideal) _ _

theorem fromNode_eq : W5 m c main_v4 = Cert.ReferenceIdeal.Forms.takeNode (F := Ideal) (fNode m c) (arg m c main_arg2) := by
  refine (take1_1 (W4 m c) ?_).trans ?_
  · rw [W4_launch m c main_arg2 (by decide)]; exact hr.rfrom
  · rw [W4_launch m c main_arg2 (by decide), carry_v2 m c, node_eq m c hr]; exact Cert.Bridge.takeNode_eq (F := Ideal) _ _

theorem linkIn_eq : W6 m c main_v5 = Cert.ReferenceIdeal.Forms.cat2 (F := Ideal) (Cert.ReferenceIdeal.Forms.takeLink (F := Ideal) (arg m c main_arg5) (arg m c main_arg1)) (Cert.ReferenceIdeal.Forms.takeNode (F := Ideal) (fNode m c) (arg m c main_arg2)) := by
  rw [v5_eq, edge_eq m c hr, fromNode_eq m c hr]; exact Cert.Bridge.cat2_eq (F := Ideal) _ _

theorem linkX_eq : W7 m c main_v7 = fLinkX m c := by
  refine (W7_arr m c 3).trans ?_
  rw [dense1_final]
  have e0 : Frames.V6 m c main_v5 = Cert.ReferenceIdeal.Forms.cat2 (F := Ideal) (Cert.ReferenceIdeal.Forms.takeLink (F := Ideal) (arg m c main_arg5) (arg m c main_arg1)) (Cert.ReferenceIdeal.Forms.takeNode (F := Ideal) (fNode m c) (arg m c main_arg2)) := linkIn_eq m c hr
  have e1 : Frames.V6 m c main_arg8 = (arg m c main_arg8) := W6_launch m c main_arg8 (by decide)
  rw [e0, e1]
  exact Cert.ReferenceIdeal.Forms.denseLink_eq _ _ _ (arg m c main_arg9) (Frames.V6 m c main_v6)
    (fun q => by rw [show Frames.V6 m c main_v6 = _ from v6_eq m c]; exact biasRow_apply _ q)
    (fun p q => dense_ix2 _ _ _ p q)

/-! ## The segment sums of the link features, and the initial states -/

theorem xIn_eq : W8 m c main_v10 = fXin m c := by
  rw [v10_eq, linkX_eq m c hr]; exact Cert.Bridge.segSum_eq (F := Ideal) _ _
theorem xOut_eq : W8 m c main_v13 = fXout m c := by
  rw [v13_eq, linkX_eq m c hr]; exact Cert.Bridge.segSum_eq (F := Ideal) _ _
omit hr in
theorem h0_eq : W8 m c main_v16 = (Cert.ReferenceIdeal.Forms.zeros (F := Ideal)) := (v16_eq m c).trans (Cert.Bridge.zeros_eq (F := Ideal))
omit hr in
theorem c0_eq : W8 m c main_v17 = (Cert.ReferenceIdeal.Forms.zeros (F := Ideal)) := (v17_eq m c).trans (Cert.Bridge.zeros_eq (F := Ideal))

/-! ## The gate input of a layer, from the hidden state before it -/

theorem hFrom1_eq : W9 m c main_v18 = Cert.ReferenceIdeal.Forms.takeNode (F := Ideal) (Cert.ReferenceIdeal.Forms.zeros (F := Ideal)) (arg m c main_arg2) := by
  refine (take2_1 (W8 m c) ?_).trans ?_
  · rw [W8_launch m c main_arg2 (by decide)]; exact hr.rfrom
  · rw [W8_launch m c main_arg2 (by decide), h0_eq m c]; exact Cert.Bridge.takeNode_eq (F := Ideal) _ _
theorem hTo1_eq : W10 m c main_v19 = Cert.ReferenceIdeal.Forms.takeNode (F := Ideal) (Cert.ReferenceIdeal.Forms.zeros (F := Ideal)) (arg m c main_arg3) := by
  refine (take2_2 (W9 m c) ?_).trans ?_
  · rw [W9_launch m c main_arg3 (by decide)]; exact hr.rto
  · rw [W9_launch m c main_arg3 (by decide), W9_from8 m c main_v16 (by decide), h0_eq m c]; exact Cert.Bridge.takeNode_eq (F := Ideal) _ _
theorem inp1_eq : W11 m c main_v26 = fInpOf m c (Cert.ReferenceIdeal.Forms.zeros (F := Ideal)) := by
  rw [v26_eq, v22_eq, v25_eq, xIn_eq m c hr, xOut_eq m c hr, hFrom1_eq m c hr, hTo1_eq m c hr]
  rw [Cert.Bridge.segSum_eq (F := Ideal), Cert.Bridge.segSum_eq (F := Ideal)]
  exact Cert.Bridge.cat4_eq (F := Ideal) _ _ _ _

/-! ## The four weight matrices side by side, the four bias vectors end to end -/

omit hr in
theorem sideBySide : Cert.ReferenceIdeal.Forms.SideBySide (W8 m c main_v14) (fun i => shapeCast S1x512 (W8 m c main_v15) shapeCasts_S512_S1x512 i)
    (arg m c main_arg10) (arg m c main_arg12) (arg m c main_arg14) (arg m c main_arg16) (arg m c main_arg11) (arg m c main_arg13) (arg m c main_arg15) (arg m c main_arg17) := by
  rw [v14_eq, v15_eq]
  exact ⟨fun k q => wcat_apply_0 _ _ _ _ k q, fun k q => wcat_apply_1 _ _ _ _ k q, fun k q => wcat_apply_2 _ _ _ _ k q,
    fun k q => wcat_apply_3 _ _ _ _ k q, fun q => bcat_apply_0 _ _ _ _ q, fun q => bcat_apply_1 _ _ _ _ q,
    fun q => bcat_apply_2 _ _ _ _ q, fun q => bcat_apply_3 _ _ _ _ q⟩

/-! ## The first gate update -/

theorem h1_eq : W12 m c main_v28_0 = fH1 m c := by
  refine (W12_arr m c 4).trans ?_
  rw [gate2_hid_final]
  have e0 : Frames.V11 m c main_v26 = fInpOf m c (Cert.ReferenceIdeal.Forms.zeros (F := Ideal)) := inp1_eq m c hr
  have e1 : Frames.V11 m c main_v17 = (Cert.ReferenceIdeal.Forms.zeros (F := Ideal)) := (carry_v17 m c).trans (c0_eq m c)
  have e2 : Frames.V11 m c main_v14 = W8 m c main_v14 := carry_v14 m c
  have e3 : Frames.V11 m c main_v27 = (fun i => shapeCast S1x512 (W8 m c main_v15) shapeCasts_S512_S1x512 i) := v27_eq m c
  rw [e0, e1, e2, e3]
  exact Cert.ReferenceIdeal.Forms.hid_eq _ _ _ (sideBySide m c) (fun p q => gateHid_ix2 _ _ _ _ p q)

theorem c1_eq : W12 m c main_v28_1 = fC1 m c := by
  refine (W12_arr m c 5).trans ?_
  rw [gate2_cell_final]
  have e0 : Frames.V11 m c main_v26 = fInpOf m c (Cert.ReferenceIdeal.Forms.zeros (F := Ideal)) := inp1_eq m c hr
  have e1 : Frames.V11 m c main_v17 = (Cert.ReferenceIdeal.Forms.zeros (F := Ideal)) := (carry_v17 m c).trans (c0_eq m c)
  have e2 : Frames.V11 m c main_v14 = W8 m c main_v14 := carry_v14 m c
  have e3 : Frames.V11 m c main_v27 = (fun i => shapeCast S1x512 (W8 m c main_v15) shapeCasts_S512_S1x512 i) := v27_eq m c
  rw [e0, e1, e2, e3]
  exact Cert.ReferenceIdeal.Forms.cell_eq _ _ _ (sideBySide m c) (fun p q => gateCell_ix2 _ _ _ _ p q)

/-! ## The second layer -/

theorem hFrom2_eq : W13 m c main_v29 = Cert.ReferenceIdeal.Forms.takeNode (F := Ideal) (fH1 m c) (arg m c main_arg2) := by
  refine (take3 (W12 m c) ?_).trans ?_
  · rw [W12_launch m c main_arg2 (by decide)]; exact hr.rfrom
  · rw [W12_launch m c main_arg2 (by decide), h1_eq m c hr]; exact Cert.Bridge.takeNode_eq (F := Ideal) _ _
theorem hTo2_eq : W14 m c main_v30 = Cert.ReferenceIdeal.Forms.takeNode (F := Ideal) (fH1 m c) (arg m c main_arg3) := by
  refine (take3_1 (W13 m c) ?_).trans ?_
  · rw [W13_launch m c main_arg3 (by decide)]; exact hr.rto
  · rw [W13_launch m c main_arg3 (by decide), carry_v28_0 m c, h1_eq m c hr]; exact Cert.Bridge.takeNode_eq (F := Ideal) _ _
theorem inp2_eq : W15 m c main_v37 = fInpOf m c (fH1 m c) := by
  rw [v37_eq, v33_eq, v36_eq, xIn_eq m c hr, xOut_eq m c hr, hFrom2_eq m c hr, hTo2_eq m c hr]
  rw [Cert.Bridge.segSum_eq (F := Ideal), Cert.Bridge.segSum_eq (F := Ideal)]
  exact Cert.Bridge.cat4_eq (F := Ideal) _ _ _ _

theorem out_eq : W16 m c main_v39_0 = fOut m c := by
  refine (W16_arr m c 4).trans ?_
  rw [gate3_hid_final]
  have e0 : Frames.V15 m c main_v37 = fInpOf m c (fH1 m c) := inp2_eq m c hr
  have e1 : Frames.V15 m c main_v28_1 = fC1 m c := (carry_v28_1 m c).trans (c1_eq m c hr)
  have e2 : Frames.V15 m c main_v14 = W8 m c main_v14 := carry_v14' m c
  have e3 : Frames.V15 m c main_v38 = (fun i => shapeCast S1x512 (W8 m c main_v15) shapeCasts_S512_S1x512 i) := v38_eq m c
  rw [e0, e1, e2, e3]
  exact Cert.ReferenceIdeal.Forms.hid_eq _ _ _ (sideBySide m c) (fun p q => gateHid_ix2 _ _ _ _ p q)

/-- The result array the run leaves is the reference's value of the same arguments. -/
theorem kernel_value : (dat3 (F := Ideal) (Frames.V15 m) c).arrAt 4 cfg3.N = fOut m c :=
  (W16_arr m c 4).symm.trans (out_eq m c hr)

omit hr in
/-- The printed precondition gives the index ranges. -/
theorem inRange_of_pre
    (h : Cert.Pre_finite_inputs.fn (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) = fun _ => 1#1) : InRange m c := by
  obtain ⟨h0, h1, h2, h3⟩ := Cert.PreDecode.ranges_of_pre _ _ _ _ _ _ _ _ _ _ _ _ _ _ _ _ _ _ h
  exact ⟨h0, h1, h2, h3⟩

end Cert.KernelIdeal.Val

end
-- ==== Proof.lean ====
/-
  The certificate of the graph-LSTM message-passing kernel against its reference.

  The kernel's program is sixteen items: twelve stretches of host operations (row gathers, segment sums,
  concatenations, reshapes) and four pipelined kernel regions (two dense layers tanh (x · W + b), two gate
  updates). Its frame, at both instances, is the run of those items with every buffer's contents named.
  The reference is one stretch of host operations; its frame is its generated run.

  Over the extended reals, for index vectors within their tables' row ranges, the two programs compute the
  same hidden state: a row gather with out-of-range rows masked is the plain gather when no row is out of
  range; a dense region writes, block of rows by block of rows, the same sums the reference's matrix product
  has; the four gates computed with one product against the four weight matrices side by side are, column
  block by column block, the reference's four products; and the logistic function is 1 / (1 + exp (-x)) on
  both sides. No other law of the extended reals is used, so finiteness of the float inputs is not.
-/
import proofs.«409581_j84387517432579_1_alg».proof.Defs
import proofs.«409581_j84387517432579_1_alg».proof.Proof.Gen.Kernel
import proofs.«409581_j84387517432579_1_alg».proof.Proof.Gen.KernelIdeal
import proofs.«409581_j84387517432579_1_alg».proof.Proof.Gen.ReferenceIdeal
import proofs.«409581_j84387517432579_1_alg».proof.Proof.Gen.Pre_finite_inputs
import proofs.«409581_j84387517432579_1_alg».proof.Proof.Gen.ReferenceIdeal.Run
import proofs.«409581_j84387517432579_1_alg».proof.Proof.KB.Run
import proofs.«409581_j84387517432579_1_alg».proof.Proof.KI.Run
import proofs.«409581_j84387517432579_1_alg».proof.Proof.Val.RefChain
import proofs.«409581_j84387517432579_1_alg».proof.Proof.Val.KJoin
import Idealize.ShloMosaic.Adequacy
import Idealize.ShloMosaic.Init

noncomputable section

namespace Cert.Proof

open Idealize.ShloMosaic Idealize.SL.Sem

/-- The word-level kernel program runs to its end and leaves its arguments as launched. -/
theorem frame_kernel : Cert.frame_Kernel := fun m ρ _ => Cert.Kernel.Frames.frame m ρ

/-- So does the kernel program read over the extended reals. -/
theorem frame_kernelIdeal : Cert.frame_KernelIdeal := fun m ρ _ => Cert.KernelIdeal.Frames.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals, from memories agreeing on the arguments, both programs end with the same hidden
    state: the kernel's run leaves its result array at the last gate region's write-backs, which for in-range
    index vectors is the reference's value of the same arguments; the reference's run ends at that value. -/
theorem algebraic : Cert.algebraic_KernelIdeal_ReferenceIdeal := by
  intro m ρ m' ρ' hpre hagree
  refine ⟨fun c => (Cert.KernelIdeal.Frames.dat3 (Cert.KernelIdeal.Frames.V15 m) c).arrAt 4 Cert.KernelIdeal.cfg3.N,
    Cert.KernelIdeal.Frames.run_result m ρ, ?_⟩
  refine (θ_run Cert.ReferenceIdeal.defs _ _).mono (fun _ h c => ⟨(h c).1.trans ?_, (h c).2⟩)
    (Cert.ReferenceIdeal.Forms.run_out (F := Ideal) m' ρ')
  obtain ⟨h0, h1, h2, h3, h4, h5, h6, h7, h8, h9, h10, h11, h12, h13, h14, h15, h16, h17⟩ := hagree c
  rw [h0, h1, h2, h3, h4, h5, h6, h7, h8, h9, h10, h11, h12, h13, h14, h15, h16, h17]
  exact (Cert.KernelIdeal.Val.kernel_value m c (Cert.KernelIdeal.Val.inRange_of_pre m c (hpre c))).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
